-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![32768, 1024]⟩ ⟨2, ![65536, 1024]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S32768x1024 : Shape := ⟨2, ![32768, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  main_v3
-- ==== Pre_finite_inputs_ReferenceIdeal.lean ====
abbrev S65536x1024 : Shape := ⟨2, ![65536, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel

variable [Facts]

def fn {F : FTy → Type} [FloatOps F] (main_arg0 : FVec F S65536x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  main_v3
-- ==== Kernel.lean ====
abbrev S32768x1024 : Shape := ⟨2, ![32768, 1024]⟩
abbrev S65536x1024 : Shape := ⟨2, ![65536, 1024]⟩
abbrev S4x1024x1024 : Shape := ⟨3, ![4, 1024, 1024]⟩
abbrev S8192x1024 : Shape := ⟨2, ![8192, 1024]⟩
abbrev S4 : Shape := ⟨1, ![4]⟩
abbrev S16 : Shape := ⟨1, ![16]⟩
abbrev S8 : Shape := ⟨1, ![8]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 2
  | .vmem => 3
  | .smem => 0
  | _ => 0

abbrev bufTy : (tb : Table) → Fin (tcTables nBuf tb) → BufTy
  | .hbm, ⟨0, _⟩ => ⟨S32768x1024, .f32⟩
  | .hbm, ⟨1, _⟩ => ⟨S65536x1024, .bf16⟩
  | .local _ .vmem, ⟨0, _⟩ => ⟨S4x1024x1024, .f32⟩
  | .local _ .vmem, ⟨1, _⟩ => ⟨S4x1024x1024, .bf16⟩
  | .local _ .vmem, ⟨2, _⟩ => ⟨S8192x1024, .bf16⟩
  | _, _ => ⟨S32768x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 136 → Bool
  | ⟨i, _⟩ => dmaSemScopedAt i

abbrev sig : RefSig :=
  (ofTc nBuf bufTy 1 136 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_7 : BitVec 32 := 4#32
  let v13 : BitVec 32 := Scalar.muli v2 c4_i32_7
  let v14 : BitVec 32 := Scalar.addi c0_i32 v13
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_8 : BitVec 32 := 2#32
  let v15 : BitVec 32 := Scalar.muli v9 c2_i32_8
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_9 : BitVec 32 := 1#32
  let v17 : BitVec 32 := Scalar.muli v8 c1_i32_9
  let v18 : BitVec 32 := Scalar.addi v16 v17
  v18.toNat
def k0_dev2 (d0 : Dev nD) : Nat :=
  let c0_i32_12 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_11 : BitVec 32 := 4#32
  let v19 : BitVec 32 := Scalar.muli v10 c4_i32_11
  let v20 : BitVec 32 := Scalar.addi c0_i32_12 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v21 : BitVec 32 := Scalar.muli v5 c2_i32_13
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v23 : BitVec 32 := Scalar.muli v8 c1_i32_14
  let v24 : BitVec 32 := Scalar.addi v22 v23
  v24.toNat
def k0_dev3 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_19 : BitVec 32 := 1#32
  let v29 : BitVec 32 := Scalar.muli v11 c1_i32_19
  let v30 : BitVec 32 := Scalar.addi v28 v29
  v30.toNat
def k0_off1 (d0 : Dev nD) (c0_i32_29 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_20 : BitVec 32 := 2#32
  let v31 : BitVec 32 := Scalar.muli v2 c2_i32_20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c8192_i32_28 : BitVec 32 := 8192#32
  let v47 : BitVec 32 := Scalar.muli v32 c8192_i32_28
  let v48 : BitVec 32 := Scalar.addi v47 c0_i32_29
  let c0_i32_34 : BitVec 32 := 0#32
  ![v48.toNat, 0]
def k0_off2 (d0 : Dev nD) (c0_i32_70 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c32768_i32_68 : BitVec 32 := 32768#32
  let v93 : BitVec 32 := Scalar.muli v5 c32768_i32_68
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_20 : BitVec 32 := 2#32
  let v31 : BitVec 32 := Scalar.muli v2 c2_i32_20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c8192_i32_69 : BitVec 32 := 8192#32
  let v94 : BitVec 32 := Scalar.muli v32 c8192_i32_69
  let v95 : BitVec 32 := Scalar.addi v93 v94
  let v96 : BitVec 32 := Scalar.addi v95 c0_i32_70
  let c0_i32_77 : BitVec 32 := 0#32
  ![v96.toNat, 0]
def k0_dev4 (d0 : Dev nD) : Nat :=
  let c0_i32_74 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_73 : BitVec 32 := 4#32
  let v97 : BitVec 32 := Scalar.muli v2 c4_i32_73
  let v98 : BitVec 32 := Scalar.addi c0_i32_74 v97
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_75 : BitVec 32 := 2#32
  let v99 : BitVec 32 := Scalar.muli v9 c2_i32_75
  let v100 : BitVec 32 := Scalar.addi v98 v99
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_76 : BitVec 32 := 1#32
  let v101 : BitVec 32 := Scalar.muli v8 c1_i32_76
  let v102 : BitVec 32 := Scalar.addi v100 v101
  v102.toNat
def k0_dev5 (d0 : Dev nD) : Nat :=
  let c0_i32_100 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_99 : BitVec 32 := 4#32
  let v131 : BitVec 32 := Scalar.muli v2 c4_i32_99
  let v132 : BitVec 32 := Scalar.addi c0_i32_100 v131
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_101 : BitVec 32 := 2#32
  let v133 : BitVec 32 := Scalar.muli v9 c2_i32_101
  let v134 : BitVec 32 := Scalar.addi v132 v133
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_102 : BitVec 32 := 1#32
  let v135 : BitVec 32 := Scalar.muli v8 c1_i32_102
  let v136 : BitVec 32 := Scalar.addi v134 v135
  v136.toNat
def k0_dev6 (d0 : Dev nD) : Nat :=
  let c0_i32_126 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_125 : BitVec 32 := 4#32
  let v165 : BitVec 32 := Scalar.muli v2 c4_i32_125
  let v166 : BitVec 32 := Scalar.addi c0_i32_126 v165
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_127 : BitVec 32 := 2#32
  let v167 : BitVec 32 := Scalar.muli v9 c2_i32_127
  let v168 : BitVec 32 := Scalar.addi v166 v167
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_128 : BitVec 32 := 1#32
  let v169 : BitVec 32 := Scalar.muli v8 c1_i32_128
  let v170 : BitVec 32 := Scalar.addi v168 v169
  v170.toNat
def k0_dev7 (d0 : Dev nD) : Nat :=
  let c0_i32_152 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_151 : BitVec 32 := 4#32
  let v199 : BitVec 32 := Scalar.muli v2 c4_i32_151
  let v200 : BitVec 32 := Scalar.addi c0_i32_152 v199
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_153 : BitVec 32 := 2#32
  let v201 : BitVec 32 := Scalar.muli v9 c2_i32_153
  let v202 : BitVec 32 := Scalar.addi v200 v201
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_154 : BitVec 32 := 1#32
  let v203 : BitVec 32 := Scalar.muli v8 c1_i32_154
  let v204 : BitVec 32 := Scalar.addi v202 v203
  v204.toNat
def k0_dev8 (d0 : Dev nD) : Nat :=
  let c0_i32_179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_178 : BitVec 32 := 4#32
  let v233 : BitVec 32 := Scalar.muli v2 c4_i32_178
  let v234 : BitVec 32 := Scalar.addi c0_i32_179 v233
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_180 : BitVec 32 := 2#32
  let v235 : BitVec 32 := Scalar.muli v9 c2_i32_180
  let v236 : BitVec 32 := Scalar.addi v234 v235
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_181 : BitVec 32 := 1#32
  let v237 : BitVec 32 := Scalar.muli v8 c1_i32_181
  let v238 : BitVec 32 := Scalar.addi v236 v237
  v238.toNat
def k0_dev9 (d0 : Dev nD) : Nat :=
  let c0_i32_205 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_204 : BitVec 32 := 4#32
  let v267 : BitVec 32 := Scalar.muli v2 c4_i32_204
  let v268 : BitVec 32 := Scalar.addi c0_i32_205 v267
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_206 : BitVec 32 := 2#32
  let v269 : BitVec 32 := Scalar.muli v9 c2_i32_206
  let v270 : BitVec 32 := Scalar.addi v268 v269
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_207 : BitVec 32 := 1#32
  let v271 : BitVec 32 := Scalar.muli v8 c1_i32_207
  let v272 : BitVec 32 := Scalar.addi v270 v271
  v272.toNat
def k0_dev10 (d0 : Dev nD) : Nat :=
  let c0_i32_231 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_230 : BitVec 32 := 4#32
  let v301 : BitVec 32 := Scalar.muli v2 c4_i32_230
  let v302 : BitVec 32 := Scalar.addi c0_i32_231 v301
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_232 : BitVec 32 := 2#32
  let v303 : BitVec 32 := Scalar.muli v9 c2_i32_232
  let v304 : BitVec 32 := Scalar.addi v302 v303
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_233 : BitVec 32 := 1#32
  let v305 : BitVec 32 := Scalar.muli v8 c1_i32_233
  let v306 : BitVec 32 := Scalar.addi v304 v305
  v306.toNat
def k0_dev11 (d0 : Dev nD) : Nat :=
  let c0_i32_257 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_256 : BitVec 32 := 4#32
  let v335 : BitVec 32 := Scalar.muli v2 c4_i32_256
  let v336 : BitVec 32 := Scalar.addi c0_i32_257 v335
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_258 : BitVec 32 := 2#32
  let v337 : BitVec 32 := Scalar.muli v9 c2_i32_258
  let v338 : BitVec 32 := Scalar.addi v336 v337
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_259 : BitVec 32 := 1#32
  let v339 : BitVec 32 := Scalar.muli v8 c1_i32_259
  let v340 : BitVec 32 := Scalar.addi v338 v339
  v340.toNat
def k0_dev12 (d0 : Dev nD) : Nat :=
  let c0_i32_283 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_282 : BitVec 32 := 4#32
  let v369 : BitVec 32 := Scalar.muli v2 c4_i32_282
  let v370 : BitVec 32 := Scalar.addi c0_i32_283 v369
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_284 : BitVec 32 := 2#32
  let v371 : BitVec 32 := Scalar.muli v9 c2_i32_284
  let v372 : BitVec 32 := Scalar.addi v370 v371
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_285 : BitVec 32 := 1#32
  let v373 : BitVec 32 := Scalar.muli v8 c1_i32_285
  let v374 : BitVec 32 := Scalar.addi v372 v373
  v374.toNat
def k0_dev13 (d0 : Dev nD) : Nat :=
  let c0_i32_309 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_308 : BitVec 32 := 4#32
  let v403 : BitVec 32 := Scalar.muli v2 c4_i32_308
  let v404 : BitVec 32 := Scalar.addi c0_i32_309 v403
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_310 : BitVec 32 := 2#32
  let v405 : BitVec 32 := Scalar.muli v9 c2_i32_310
  let v406 : BitVec 32 := Scalar.addi v404 v405
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_311 : BitVec 32 := 1#32
  let v407 : BitVec 32 := Scalar.muli v8 c1_i32_311
  let v408 : BitVec 32 := Scalar.addi v406 v407
  v408.toNat
def k0_dev14 (d0 : Dev nD) : Nat :=
  let c0_i32_335 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_334 : BitVec 32 := 4#32
  let v437 : BitVec 32 := Scalar.muli v2 c4_i32_334
  let v438 : BitVec 32 := Scalar.addi c0_i32_335 v437
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_336 : BitVec 32 := 2#32
  let v439 : BitVec 32 := Scalar.muli v9 c2_i32_336
  let v440 : BitVec 32 := Scalar.addi v438 v439
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_337 : BitVec 32 := 1#32
  let v441 : BitVec 32 := Scalar.muli v8 c1_i32_337
  let v442 : BitVec 32 := Scalar.addi v440 v441
  v442.toNat
def k0_dev15 (d0 : Dev nD) : Nat :=
  let c0_i32_361 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_360 : BitVec 32 := 4#32
  let v471 : BitVec 32 := Scalar.muli v2 c4_i32_360
  let v472 : BitVec 32 := Scalar.addi c0_i32_361 v471
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_362 : BitVec 32 := 2#32
  let v473 : BitVec 32 := Scalar.muli v9 c2_i32_362
  let v474 : BitVec 32 := Scalar.addi v472 v473
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_363 : BitVec 32 := 1#32
  let v475 : BitVec 32 := Scalar.muli v8 c1_i32_363
  let v476 : BitVec 32 := Scalar.addi v474 v475
  v476.toNat
def k0_dev16 (d0 : Dev nD) : Nat :=
  let c0_i32_381 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_380 : BitVec 32 := 4#32
  let v498 : BitVec 32 := Scalar.muli v2 c4_i32_380
  let v499 : BitVec 32 := Scalar.addi c0_i32_381 v498
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_382 : BitVec 32 := 2#32
  let v500 : BitVec 32 := Scalar.muli v9 c2_i32_382
  let v501 : BitVec 32 := Scalar.addi v499 v500
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_383 : BitVec 32 := 1#32
  let v502 : BitVec 32 := Scalar.muli v8 c1_i32_383
  let v503 : BitVec 32 := Scalar.addi v501 v502
  v503.toNat
def k0_dev17 (d0 : Dev nD) : Nat :=
  let c0_i32_401 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_400 : BitVec 32 := 4#32
  let v525 : BitVec 32 := Scalar.muli v2 c4_i32_400
  let v526 : BitVec 32 := Scalar.addi c0_i32_401 v525
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_402 : BitVec 32 := 2#32
  let v527 : BitVec 32 := Scalar.muli v9 c2_i32_402
  let v528 : BitVec 32 := Scalar.addi v526 v527
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_403 : BitVec 32 := 1#32
  let v529 : BitVec 32 := Scalar.muli v8 c1_i32_403
  let v530 : BitVec 32 := Scalar.addi v528 v529
  v530.toNat
def k0_dev18 (d0 : Dev nD) : Nat :=
  let c0_i32_421 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_420 : BitVec 32 := 4#32
  let v552 : BitVec 32 := Scalar.muli v2 c4_i32_420
  let v553 : BitVec 32 := Scalar.addi c0_i32_421 v552
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_422 : BitVec 32 := 2#32
  let v554 : BitVec 32 := Scalar.muli v9 c2_i32_422
  let v555 : BitVec 32 := Scalar.addi v553 v554
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_423 : BitVec 32 := 1#32
  let v556 : BitVec 32 := Scalar.muli v8 c1_i32_423
  let v557 : BitVec 32 := Scalar.addi v555 v556
  v557.toNat
def k0_dev19 (d0 : Dev nD) : Nat :=
  let c0_i32_441 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_440 : BitVec 32 := 4#32
  let v579 : BitVec 32 := Scalar.muli v2 c4_i32_440
  let v580 : BitVec 32 := Scalar.addi c0_i32_441 v579
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_442 : BitVec 32 := 2#32
  let v581 : BitVec 32 := Scalar.muli v9 c2_i32_442
  let v582 : BitVec 32 := Scalar.addi v580 v581
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_443 : BitVec 32 := 1#32
  let v583 : BitVec 32 := Scalar.muli v8 c1_i32_443
  let v584 : BitVec 32 := Scalar.addi v582 v583
  v584.toNat
def k0_off3 (d0 : Dev nD) (c0_i32_472 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c32768_i32_471 : BitVec 32 := 32768#32
  let v612 : BitVec 32 := Scalar.muli v5 c32768_i32_471
  let v613 : BitVec 32 := Scalar.addi v612 c0_i32_472
  let c0_i32_475 : BitVec 32 := 0#32
  ![v613.toNat, 0]
def k0_off4 (d0 : Dev nD) (c0_i32_1374 : BitVec 32) : Fin 2 → Nat :=
  let c1_i32_25 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : BitVec 32 := Scalar.subi c1_i32_25 v5
  let c32768_i32 : BitVec 32 := 32768#32
  let v40 : BitVec 32 := Scalar.muli v39 c32768_i32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_20 : BitVec 32 := 2#32
  let v31 : BitVec 32 := Scalar.muli v2 c2_i32_20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c8192_i32 : BitVec 32 := 8192#32
  let v41 : BitVec 32 := Scalar.muli v32 c8192_i32
  let v42 : BitVec 32 := Scalar.addi v40 v41
  let v1478 : BitVec 32 := Scalar.addi v42 c0_i32_1374
  let c0_i32_1381 : BitVec 32 := 0#32
  ![v1478.toNat, 0]
def k0_dev20 (d0 : Dev nD) : Nat :=
  let c0_i32_1378 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1377 : BitVec 32 := 4#32
  let v1479 : BitVec 32 := Scalar.muli v10 c4_i32_1377
  let v1480 : BitVec 32 := Scalar.addi c0_i32_1378 v1479
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1379 : BitVec 32 := 2#32
  let v1481 : BitVec 32 := Scalar.muli v5 c2_i32_1379
  let v1482 : BitVec 32 := Scalar.addi v1480 v1481
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1380 : BitVec 32 := 1#32
  let v1483 : BitVec 32 := Scalar.muli v8 c1_i32_1380
  let v1484 : BitVec 32 := Scalar.addi v1482 v1483
  v1484.toNat
def k0_dev21 (d0 : Dev nD) : Nat :=
  let c0_i32_1388 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1387 : BitVec 32 := 4#32
  let v1493 : BitVec 32 := Scalar.muli v2 c4_i32_1387
  let v1494 : BitVec 32 := Scalar.addi c0_i32_1388 v1493
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1389 : BitVec 32 := 2#32
  let v1495 : BitVec 32 := Scalar.muli v5 c2_i32_1389
  let v1496 : BitVec 32 := Scalar.addi v1494 v1495
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1390 : BitVec 32 := 1#32
  let v1497 : BitVec 32 := Scalar.muli v11 c1_i32_1390
  let v1498 : BitVec 32 := Scalar.addi v1496 v1497
  v1498.toNat
def k0_dev22 (d0 : Dev nD) : Nat :=
  let c0_i32_1407 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1406 : BitVec 32 := 4#32
  let v1517 : BitVec 32 := Scalar.muli v10 c4_i32_1406
  let v1518 : BitVec 32 := Scalar.addi c0_i32_1407 v1517
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1408 : BitVec 32 := 2#32
  let v1519 : BitVec 32 := Scalar.muli v5 c2_i32_1408
  let v1520 : BitVec 32 := Scalar.addi v1518 v1519
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1409 : BitVec 32 := 1#32
  let v1521 : BitVec 32 := Scalar.muli v8 c1_i32_1409
  let v1522 : BitVec 32 := Scalar.addi v1520 v1521
  v1522.toNat
def k0_dev23 (d0 : Dev nD) : Nat :=
  let c0_i32_1417 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1416 : BitVec 32 := 4#32
  let v1531 : BitVec 32 := Scalar.muli v2 c4_i32_1416
  let v1532 : BitVec 32 := Scalar.addi c0_i32_1417 v1531
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1418 : BitVec 32 := 2#32
  let v1533 : BitVec 32 := Scalar.muli v5 c2_i32_1418
  let v1534 : BitVec 32 := Scalar.addi v1532 v1533
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1419 : BitVec 32 := 1#32
  let v1535 : BitVec 32 := Scalar.muli v11 c1_i32_1419
  let v1536 : BitVec 32 := Scalar.addi v1534 v1535
  v1536.toNat
def k0_dev24 (d0 : Dev nD) : Nat :=
  let c0_i32_1436 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1435 : BitVec 32 := 4#32
  let v1555 : BitVec 32 := Scalar.muli v10 c4_i32_1435
  let v1556 : BitVec 32 := Scalar.addi c0_i32_1436 v1555
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1437 : BitVec 32 := 2#32
  let v1557 : BitVec 32 := Scalar.muli v5 c2_i32_1437
  let v1558 : BitVec 32 := Scalar.addi v1556 v1557
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1438 : BitVec 32 := 1#32
  let v1559 : BitVec 32 := Scalar.muli v8 c1_i32_1438
  let v1560 : BitVec 32 := Scalar.addi v1558 v1559
  v1560.toNat
def k0_dev25 (d0 : Dev nD) : Nat :=
  let c0_i32_1446 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1445 : BitVec 32 := 4#32
  let v1569 : BitVec 32 := Scalar.muli v2 c4_i32_1445
  let v1570 : BitVec 32 := Scalar.addi c0_i32_1446 v1569
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1447 : BitVec 32 := 2#32
  let v1571 : BitVec 32 := Scalar.muli v5 c2_i32_1447
  let v1572 : BitVec 32 := Scalar.addi v1570 v1571
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1448 : BitVec 32 := 1#32
  let v1573 : BitVec 32 := Scalar.muli v11 c1_i32_1448
  let v1574 : BitVec 32 := Scalar.addi v1572 v1573
  v1574.toNat
def k0_dev26 (d0 : Dev nD) : Nat :=
  let c0_i32_1465 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1464 : BitVec 32 := 4#32
  let v1593 : BitVec 32 := Scalar.muli v10 c4_i32_1464
  let v1594 : BitVec 32 := Scalar.addi c0_i32_1465 v1593
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1466 : BitVec 32 := 2#32
  let v1595 : BitVec 32 := Scalar.muli v5 c2_i32_1466
  let v1596 : BitVec 32 := Scalar.addi v1594 v1595
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1467 : BitVec 32 := 1#32
  let v1597 : BitVec 32 := Scalar.muli v8 c1_i32_1467
  let v1598 : BitVec 32 := Scalar.addi v1596 v1597
  v1598.toNat
def k0_dev27 (d0 : Dev nD) : Nat :=
  let c0_i32_1475 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1474 : BitVec 32 := 4#32
  let v1607 : BitVec 32 := Scalar.muli v2 c4_i32_1474
  let v1608 : BitVec 32 := Scalar.addi c0_i32_1475 v1607
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1476 : BitVec 32 := 2#32
  let v1609 : BitVec 32 := Scalar.muli v5 c2_i32_1476
  let v1610 : BitVec 32 := Scalar.addi v1608 v1609
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1477 : BitVec 32 := 1#32
  let v1611 : BitVec 32 := Scalar.muli v11 c1_i32_1477
  let v1612 : BitVec 32 := Scalar.addi v1610 v1611
  v1612.toNat
def k0_dev28 (d0 : Dev nD) : Nat :=
  let c0_i32_1494 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1493 : BitVec 32 := 4#32
  let v1631 : BitVec 32 := Scalar.muli v10 c4_i32_1493
  let v1632 : BitVec 32 := Scalar.addi c0_i32_1494 v1631
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1495 : BitVec 32 := 2#32
  let v1633 : BitVec 32 := Scalar.muli v5 c2_i32_1495
  let v1634 : BitVec 32 := Scalar.addi v1632 v1633
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1496 : BitVec 32 := 1#32
  let v1635 : BitVec 32 := Scalar.muli v8 c1_i32_1496
  let v1636 : BitVec 32 := Scalar.addi v1634 v1635
  v1636.toNat
def k0_dev29 (d0 : Dev nD) : Nat :=
  let c0_i32_1504 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1503 : BitVec 32 := 4#32
  let v1645 : BitVec 32 := Scalar.muli v2 c4_i32_1503
  let v1646 : BitVec 32 := Scalar.addi c0_i32_1504 v1645
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1505 : BitVec 32 := 2#32
  let v1647 : BitVec 32 := Scalar.muli v5 c2_i32_1505
  let v1648 : BitVec 32 := Scalar.addi v1646 v1647
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1506 : BitVec 32 := 1#32
  let v1649 : BitVec 32 := Scalar.muli v11 c1_i32_1506
  let v1650 : BitVec 32 := Scalar.addi v1648 v1649
  v1650.toNat
def k0_dev30 (d0 : Dev nD) : Nat :=
  let c0_i32_1523 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1522 : BitVec 32 := 4#32
  let v1669 : BitVec 32 := Scalar.muli v10 c4_i32_1522
  let v1670 : BitVec 32 := Scalar.addi c0_i32_1523 v1669
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1524 : BitVec 32 := 2#32
  let v1671 : BitVec 32 := Scalar.muli v5 c2_i32_1524
  let v1672 : BitVec 32 := Scalar.addi v1670 v1671
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1525 : BitVec 32 := 1#32
  let v1673 : BitVec 32 := Scalar.muli v8 c1_i32_1525
  let v1674 : BitVec 32 := Scalar.addi v1672 v1673
  v1674.toNat
def k0_dev31 (d0 : Dev nD) : Nat :=
  let c0_i32_1533 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1532 : BitVec 32 := 4#32
  let v1683 : BitVec 32 := Scalar.muli v2 c4_i32_1532
  let v1684 : BitVec 32 := Scalar.addi c0_i32_1533 v1683
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1534 : BitVec 32 := 2#32
  let v1685 : BitVec 32 := Scalar.muli v5 c2_i32_1534
  let v1686 : BitVec 32 := Scalar.addi v1684 v1685
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1535 : BitVec 32 := 1#32
  let v1687 : BitVec 32 := Scalar.muli v11 c1_i32_1535
  let v1688 : BitVec 32 := Scalar.addi v1686 v1687
  v1688.toNat
def k0_dev32 (d0 : Dev nD) : Nat :=
  let c0_i32_1552 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1551 : BitVec 32 := 4#32
  let v1707 : BitVec 32 := Scalar.muli v10 c4_i32_1551
  let v1708 : BitVec 32 := Scalar.addi c0_i32_1552 v1707
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1553 : BitVec 32 := 2#32
  let v1709 : BitVec 32 := Scalar.muli v5 c2_i32_1553
  let v1710 : BitVec 32 := Scalar.addi v1708 v1709
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1554 : BitVec 32 := 1#32
  let v1711 : BitVec 32 := Scalar.muli v8 c1_i32_1554
  let v1712 : BitVec 32 := Scalar.addi v1710 v1711
  v1712.toNat
def k0_dev33 (d0 : Dev nD) : Nat :=
  let c0_i32_1562 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1561 : BitVec 32 := 4#32
  let v1721 : BitVec 32 := Scalar.muli v2 c4_i32_1561
  let v1722 : BitVec 32 := Scalar.addi c0_i32_1562 v1721
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1563 : BitVec 32 := 2#32
  let v1723 : BitVec 32 := Scalar.muli v5 c2_i32_1563
  let v1724 : BitVec 32 := Scalar.addi v1722 v1723
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1564 : BitVec 32 := 1#32
  let v1725 : BitVec 32 := Scalar.muli v11 c1_i32_1564
  let v1726 : BitVec 32 := Scalar.addi v1724 v1725
  v1726.toNat
def k0_dev34 (d0 : Dev nD) : Nat :=
  let c0_i32_1581 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1580 : BitVec 32 := 4#32
  let v1745 : BitVec 32 := Scalar.muli v10 c4_i32_1580
  let v1746 : BitVec 32 := Scalar.addi c0_i32_1581 v1745
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1582 : BitVec 32 := 2#32
  let v1747 : BitVec 32 := Scalar.muli v5 c2_i32_1582
  let v1748 : BitVec 32 := Scalar.addi v1746 v1747
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1583 : BitVec 32 := 1#32
  let v1749 : BitVec 32 := Scalar.muli v8 c1_i32_1583
  let v1750 : BitVec 32 := Scalar.addi v1748 v1749
  v1750.toNat
def k0_dev35 (d0 : Dev nD) : Nat :=
  let c0_i32_1591 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1590 : BitVec 32 := 4#32
  let v1759 : BitVec 32 := Scalar.muli v2 c4_i32_1590
  let v1760 : BitVec 32 := Scalar.addi c0_i32_1591 v1759
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1592 : BitVec 32 := 2#32
  let v1761 : BitVec 32 := Scalar.muli v5 c2_i32_1592
  let v1762 : BitVec 32 := Scalar.addi v1760 v1761
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1593 : BitVec 32 := 1#32
  let v1763 : BitVec 32 := Scalar.muli v11 c1_i32_1593
  let v1764 : BitVec 32 := Scalar.addi v1762 v1763
  v1764.toNat
def k0_dev36 (d0 : Dev nD) : Nat :=
  let c0_i32_1610 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1609 : BitVec 32 := 4#32
  let v1783 : BitVec 32 := Scalar.muli v10 c4_i32_1609
  let v1784 : BitVec 32 := Scalar.addi c0_i32_1610 v1783
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1611 : BitVec 32 := 2#32
  let v1785 : BitVec 32 := Scalar.muli v5 c2_i32_1611
  let v1786 : BitVec 32 := Scalar.addi v1784 v1785
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1612 : BitVec 32 := 1#32
  let v1787 : BitVec 32 := Scalar.muli v8 c1_i32_1612
  let v1788 : BitVec 32 := Scalar.addi v1786 v1787
  v1788.toNat
def k0_dev37 (d0 : Dev nD) : Nat :=
  let c0_i32_1620 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1619 : BitVec 32 := 4#32
  let v1797 : BitVec 32 := Scalar.muli v2 c4_i32_1619
  let v1798 : BitVec 32 := Scalar.addi c0_i32_1620 v1797
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1621 : BitVec 32 := 2#32
  let v1799 : BitVec 32 := Scalar.muli v5 c2_i32_1621
  let v1800 : BitVec 32 := Scalar.addi v1798 v1799
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1622 : BitVec 32 := 1#32
  let v1801 : BitVec 32 := Scalar.muli v11 c1_i32_1622
  let v1802 : BitVec 32 := Scalar.addi v1800 v1801
  v1802.toNat
def k0_dev38 (d0 : Dev nD) : Nat :=
  let c0_i32_1639 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1638 : BitVec 32 := 4#32
  let v1821 : BitVec 32 := Scalar.muli v10 c4_i32_1638
  let v1822 : BitVec 32 := Scalar.addi c0_i32_1639 v1821
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1640 : BitVec 32 := 2#32
  let v1823 : BitVec 32 := Scalar.muli v5 c2_i32_1640
  let v1824 : BitVec 32 := Scalar.addi v1822 v1823
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1641 : BitVec 32 := 1#32
  let v1825 : BitVec 32 := Scalar.muli v8 c1_i32_1641
  let v1826 : BitVec 32 := Scalar.addi v1824 v1825
  v1826.toNat
def k0_dev39 (d0 : Dev nD) : Nat :=
  let c0_i32_1649 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1648 : BitVec 32 := 4#32
  let v1835 : BitVec 32 := Scalar.muli v2 c4_i32_1648
  let v1836 : BitVec 32 := Scalar.addi c0_i32_1649 v1835
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1650 : BitVec 32 := 2#32
  let v1837 : BitVec 32 := Scalar.muli v5 c2_i32_1650
  let v1838 : BitVec 32 := Scalar.addi v1836 v1837
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1651 : BitVec 32 := 1#32
  let v1839 : BitVec 32 := Scalar.muli v11 c1_i32_1651
  let v1840 : BitVec 32 := Scalar.addi v1838 v1839
  v1840.toNat
def k0_dev40 (d0 : Dev nD) : Nat :=
  let c0_i32_1668 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1667 : BitVec 32 := 4#32
  let v1859 : BitVec 32 := Scalar.muli v10 c4_i32_1667
  let v1860 : BitVec 32 := Scalar.addi c0_i32_1668 v1859
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1669 : BitVec 32 := 2#32
  let v1861 : BitVec 32 := Scalar.muli v5 c2_i32_1669
  let v1862 : BitVec 32 := Scalar.addi v1860 v1861
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1670 : BitVec 32 := 1#32
  let v1863 : BitVec 32 := Scalar.muli v8 c1_i32_1670
  let v1864 : BitVec 32 := Scalar.addi v1862 v1863
  v1864.toNat
def k0_dev41 (d0 : Dev nD) : Nat :=
  let c0_i32_1678 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1677 : BitVec 32 := 4#32
  let v1873 : BitVec 32 := Scalar.muli v2 c4_i32_1677
  let v1874 : BitVec 32 := Scalar.addi c0_i32_1678 v1873
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1679 : BitVec 32 := 2#32
  let v1875 : BitVec 32 := Scalar.muli v5 c2_i32_1679
  let v1876 : BitVec 32 := Scalar.addi v1874 v1875
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1680 : BitVec 32 := 1#32
  let v1877 : BitVec 32 := Scalar.muli v11 c1_i32_1680
  let v1878 : BitVec 32 := Scalar.addi v1876 v1877
  v1878.toNat
def k0_dev42 (d0 : Dev nD) : Nat :=
  let c0_i32_1697 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1696 : BitVec 32 := 4#32
  let v1897 : BitVec 32 := Scalar.muli v10 c4_i32_1696
  let v1898 : BitVec 32 := Scalar.addi c0_i32_1697 v1897
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1698 : BitVec 32 := 2#32
  let v1899 : BitVec 32 := Scalar.muli v5 c2_i32_1698
  let v1900 : BitVec 32 := Scalar.addi v1898 v1899
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1699 : BitVec 32 := 1#32
  let v1901 : BitVec 32 := Scalar.muli v8 c1_i32_1699
  let v1902 : BitVec 32 := Scalar.addi v1900 v1901
  v1902.toNat
def k0_dev43 (d0 : Dev nD) : Nat :=
  let c0_i32_1707 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1706 : BitVec 32 := 4#32
  let v1911 : BitVec 32 := Scalar.muli v2 c4_i32_1706
  let v1912 : BitVec 32 := Scalar.addi c0_i32_1707 v1911
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1708 : BitVec 32 := 2#32
  let v1913 : BitVec 32 := Scalar.muli v5 c2_i32_1708
  let v1914 : BitVec 32 := Scalar.addi v1912 v1913
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1709 : BitVec 32 := 1#32
  let v1915 : BitVec 32 := Scalar.muli v11 c1_i32_1709
  let v1916 : BitVec 32 := Scalar.addi v1914 v1915
  v1916.toNat
def k0_dev44 (d0 : Dev nD) : Nat :=
  let c0_i32_1726 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1725 : BitVec 32 := 4#32
  let v1935 : BitVec 32 := Scalar.muli v10 c4_i32_1725
  let v1936 : BitVec 32 := Scalar.addi c0_i32_1726 v1935
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1727 : BitVec 32 := 2#32
  let v1937 : BitVec 32 := Scalar.muli v5 c2_i32_1727
  let v1938 : BitVec 32 := Scalar.addi v1936 v1937
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1728 : BitVec 32 := 1#32
  let v1939 : BitVec 32 := Scalar.muli v8 c1_i32_1728
  let v1940 : BitVec 32 := Scalar.addi v1938 v1939
  v1940.toNat
def k0_dev45 (d0 : Dev nD) : Nat :=
  let c0_i32_1736 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1735 : BitVec 32 := 4#32
  let v1949 : BitVec 32 := Scalar.muli v2 c4_i32_1735
  let v1950 : BitVec 32 := Scalar.addi c0_i32_1736 v1949
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1737 : BitVec 32 := 2#32
  let v1951 : BitVec 32 := Scalar.muli v5 c2_i32_1737
  let v1952 : BitVec 32 := Scalar.addi v1950 v1951
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1738 : BitVec 32 := 1#32
  let v1953 : BitVec 32 := Scalar.muli v11 c1_i32_1738
  let v1954 : BitVec 32 := Scalar.addi v1952 v1953
  v1954.toNat
def k0_dev46 (d0 : Dev nD) : Nat :=
  let c0_i32_1755 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1754 : BitVec 32 := 4#32
  let v1973 : BitVec 32 := Scalar.muli v10 c4_i32_1754
  let v1974 : BitVec 32 := Scalar.addi c0_i32_1755 v1973
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1756 : BitVec 32 := 2#32
  let v1975 : BitVec 32 := Scalar.muli v5 c2_i32_1756
  let v1976 : BitVec 32 := Scalar.addi v1974 v1975
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1757 : BitVec 32 := 1#32
  let v1977 : BitVec 32 := Scalar.muli v8 c1_i32_1757
  let v1978 : BitVec 32 := Scalar.addi v1976 v1977
  v1978.toNat
def k0_dev47 (d0 : Dev nD) : Nat :=
  let c0_i32_1765 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1764 : BitVec 32 := 4#32
  let v1987 : BitVec 32 := Scalar.muli v2 c4_i32_1764
  let v1988 : BitVec 32 := Scalar.addi c0_i32_1765 v1987
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1766 : BitVec 32 := 2#32
  let v1989 : BitVec 32 := Scalar.muli v5 c2_i32_1766
  let v1990 : BitVec 32 := Scalar.addi v1988 v1989
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1767 : BitVec 32 := 1#32
  let v1991 : BitVec 32 := Scalar.muli v11 c1_i32_1767
  let v1992 : BitVec 32 := Scalar.addi v1990 v1991
  v1992.toNat
def k0_dev48 (d0 : Dev nD) : Nat :=
  let c0_i32_1784 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1783 : BitVec 32 := 4#32
  let v2011 : BitVec 32 := Scalar.muli v10 c4_i32_1783
  let v2012 : BitVec 32 := Scalar.addi c0_i32_1784 v2011
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1785 : BitVec 32 := 2#32
  let v2013 : BitVec 32 := Scalar.muli v5 c2_i32_1785
  let v2014 : BitVec 32 := Scalar.addi v2012 v2013
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1786 : BitVec 32 := 1#32
  let v2015 : BitVec 32 := Scalar.muli v8 c1_i32_1786
  let v2016 : BitVec 32 := Scalar.addi v2014 v2015
  v2016.toNat
def k0_dev49 (d0 : Dev nD) : Nat :=
  let c0_i32_1794 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1793 : BitVec 32 := 4#32
  let v2025 : BitVec 32 := Scalar.muli v2 c4_i32_1793
  let v2026 : BitVec 32 := Scalar.addi c0_i32_1794 v2025
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1795 : BitVec 32 := 2#32
  let v2027 : BitVec 32 := Scalar.muli v5 c2_i32_1795
  let v2028 : BitVec 32 := Scalar.addi v2026 v2027
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1796 : BitVec 32 := 1#32
  let v2029 : BitVec 32 := Scalar.muli v11 c1_i32_1796
  let v2030 : BitVec 32 := Scalar.addi v2028 v2029
  v2030.toNat
def k0_dev50 (d0 : Dev nD) : Nat :=
  let c0_i32_1813 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1812 : BitVec 32 := 4#32
  let v2049 : BitVec 32 := Scalar.muli v10 c4_i32_1812
  let v2050 : BitVec 32 := Scalar.addi c0_i32_1813 v2049
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1814 : BitVec 32 := 2#32
  let v2051 : BitVec 32 := Scalar.muli v5 c2_i32_1814
  let v2052 : BitVec 32 := Scalar.addi v2050 v2051
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1815 : BitVec 32 := 1#32
  let v2053 : BitVec 32 := Scalar.muli v8 c1_i32_1815
  let v2054 : BitVec 32 := Scalar.addi v2052 v2053
  v2054.toNat
def k0_dev51 (d0 : Dev nD) : Nat :=
  let c0_i32_1823 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1822 : BitVec 32 := 4#32
  let v2063 : BitVec 32 := Scalar.muli v2 c4_i32_1822
  let v2064 : BitVec 32 := Scalar.addi c0_i32_1823 v2063
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1824 : BitVec 32 := 2#32
  let v2065 : BitVec 32 := Scalar.muli v5 c2_i32_1824
  let v2066 : BitVec 32 := Scalar.addi v2064 v2065
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1825 : BitVec 32 := 1#32
  let v2067 : BitVec 32 := Scalar.muli v11 c1_i32_1825
  let v2068 : BitVec 32 := Scalar.addi v2066 v2067
  v2068.toNat
def k0_off5 (d0 : Dev nD) (c0_i32_1837 : BitVec 32) : Fin 2 → Nat :=
  let c1_i32_25 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : BitVec 32 := Scalar.subi c1_i32_25 v5
  let c32768_i32 : BitVec 32 := 32768#32
  let v40 : BitVec 32 := Scalar.muli v39 c32768_i32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_23 : BitVec 32 := 2#32
  let v36 : BitVec 32 := Scalar.muli v2 c2_i32_23
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c8192_i32_27 : BitVec 32 := 8192#32
  let v45 : BitVec 32 := Scalar.muli v38 c8192_i32_27
  let v46 : BitVec 32 := Scalar.addi v40 v45
  let v2086 : BitVec 32 := Scalar.addi v46 c0_i32_1837
  let c0_i32_1844 : BitVec 32 := 0#32
  ![v2086.toNat, 0]
def k0_dev52 (d0 : Dev nD) : Nat :=
  let c0_i32_1841 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1840 : BitVec 32 := 4#32
  let v2087 : BitVec 32 := Scalar.muli v10 c4_i32_1840
  let v2088 : BitVec 32 := Scalar.addi c0_i32_1841 v2087
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1842 : BitVec 32 := 2#32
  let v2089 : BitVec 32 := Scalar.muli v5 c2_i32_1842
  let v2090 : BitVec 32 := Scalar.addi v2088 v2089
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1843 : BitVec 32 := 1#32
  let v2091 : BitVec 32 := Scalar.muli v8 c1_i32_1843
  let v2092 : BitVec 32 := Scalar.addi v2090 v2091
  v2092.toNat
def k0_dev53 (d0 : Dev nD) : Nat :=
  let c0_i32_1859 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1858 : BitVec 32 := 4#32
  let v2111 : BitVec 32 := Scalar.muli v10 c4_i32_1858
  let v2112 : BitVec 32 := Scalar.addi c0_i32_1859 v2111
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1860 : BitVec 32 := 2#32
  let v2113 : BitVec 32 := Scalar.muli v5 c2_i32_1860
  let v2114 : BitVec 32 := Scalar.addi v2112 v2113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1861 : BitVec 32 := 1#32
  let v2115 : BitVec 32 := Scalar.muli v8 c1_i32_1861
  let v2116 : BitVec 32 := Scalar.addi v2114 v2115
  v2116.toNat
def k0_dev54 (d0 : Dev nD) : Nat :=
  let c0_i32_1877 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1876 : BitVec 32 := 4#32
  let v2135 : BitVec 32 := Scalar.muli v10 c4_i32_1876
  let v2136 : BitVec 32 := Scalar.addi c0_i32_1877 v2135
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1878 : BitVec 32 := 2#32
  let v2137 : BitVec 32 := Scalar.muli v5 c2_i32_1878
  let v2138 : BitVec 32 := Scalar.addi v2136 v2137
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1879 : BitVec 32 := 1#32
  let v2139 : BitVec 32 := Scalar.muli v8 c1_i32_1879
  let v2140 : BitVec 32 := Scalar.addi v2138 v2139
  v2140.toNat
def k0_dev55 (d0 : Dev nD) : Nat :=
  let c0_i32_1895 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1894 : BitVec 32 := 4#32
  let v2159 : BitVec 32 := Scalar.muli v10 c4_i32_1894
  let v2160 : BitVec 32 := Scalar.addi c0_i32_1895 v2159
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1896 : BitVec 32 := 2#32
  let v2161 : BitVec 32 := Scalar.muli v5 c2_i32_1896
  let v2162 : BitVec 32 := Scalar.addi v2160 v2161
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1897 : BitVec 32 := 1#32
  let v2163 : BitVec 32 := Scalar.muli v8 c1_i32_1897
  let v2164 : BitVec 32 := Scalar.addi v2162 v2163
  v2164.toNat
def k0_dev56 (d0 : Dev nD) : Nat :=
  let c0_i32_1913 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1912 : BitVec 32 := 4#32
  let v2183 : BitVec 32 := Scalar.muli v10 c4_i32_1912
  let v2184 : BitVec 32 := Scalar.addi c0_i32_1913 v2183
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1914 : BitVec 32 := 2#32
  let v2185 : BitVec 32 := Scalar.muli v5 c2_i32_1914
  let v2186 : BitVec 32 := Scalar.addi v2184 v2185
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1915 : BitVec 32 := 1#32
  let v2187 : BitVec 32 := Scalar.muli v8 c1_i32_1915
  let v2188 : BitVec 32 := Scalar.addi v2186 v2187
  v2188.toNat
def k0_dev57 (d0 : Dev nD) : Nat :=
  let c0_i32_1931 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1930 : BitVec 32 := 4#32
  let v2207 : BitVec 32 := Scalar.muli v10 c4_i32_1930
  let v2208 : BitVec 32 := Scalar.addi c0_i32_1931 v2207
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1932 : BitVec 32 := 2#32
  let v2209 : BitVec 32 := Scalar.muli v5 c2_i32_1932
  let v2210 : BitVec 32 := Scalar.addi v2208 v2209
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1933 : BitVec 32 := 1#32
  let v2211 : BitVec 32 := Scalar.muli v8 c1_i32_1933
  let v2212 : BitVec 32 := Scalar.addi v2210 v2211
  v2212.toNat
def k0_dev58 (d0 : Dev nD) : Nat :=
  let c0_i32_1949 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1948 : BitVec 32 := 4#32
  let v2231 : BitVec 32 := Scalar.muli v10 c4_i32_1948
  let v2232 : BitVec 32 := Scalar.addi c0_i32_1949 v2231
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1950 : BitVec 32 := 2#32
  let v2233 : BitVec 32 := Scalar.muli v5 c2_i32_1950
  let v2234 : BitVec 32 := Scalar.addi v2232 v2233
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1951 : BitVec 32 := 1#32
  let v2235 : BitVec 32 := Scalar.muli v8 c1_i32_1951
  let v2236 : BitVec 32 := Scalar.addi v2234 v2235
  v2236.toNat
def k0_dev59 (d0 : Dev nD) : Nat :=
  let c0_i32_1967 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1966 : BitVec 32 := 4#32
  let v2255 : BitVec 32 := Scalar.muli v10 c4_i32_1966
  let v2256 : BitVec 32 := Scalar.addi c0_i32_1967 v2255
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1968 : BitVec 32 := 2#32
  let v2257 : BitVec 32 := Scalar.muli v5 c2_i32_1968
  let v2258 : BitVec 32 := Scalar.addi v2256 v2257
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1969 : BitVec 32 := 1#32
  let v2259 : BitVec 32 := Scalar.muli v8 c1_i32_1969
  let v2260 : BitVec 32 := Scalar.addi v2258 v2259
  v2260.toNat
def k0_off6 (d0 : Dev nD) (c4096_i32_1981 : BitVec 32) : Fin 2 → Nat :=
  let c1_i32_25 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : BitVec 32 := Scalar.subi c1_i32_25 v5
  let c32768_i32 : BitVec 32 := 32768#32
  let v40 : BitVec 32 := Scalar.muli v39 c32768_i32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let c2_i32_22 : BitVec 32 := 2#32
  let v34 : BitVec 32 := Scalar.muli v33 c2_i32_22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c8192_i32_26 : BitVec 32 := 8192#32
  let v43 : BitVec 32 := Scalar.muli v35 c8192_i32_26
  let v44 : BitVec 32 := Scalar.addi v40 v43
  let v2278 : BitVec 32 := Scalar.addi v44 c4096_i32_1981
  let c0_i32_1988 : BitVec 32 := 0#32
  ![v2278.toNat, 0]
def k0_dev60 (d0 : Dev nD) : Nat :=
  let c0_i32_1985 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1984 : BitVec 32 := 4#32
  let v2279 : BitVec 32 := Scalar.muli v2 c4_i32_1984
  let v2280 : BitVec 32 := Scalar.addi c0_i32_1985 v2279
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1986 : BitVec 32 := 2#32
  let v2281 : BitVec 32 := Scalar.muli v5 c2_i32_1986
  let v2282 : BitVec 32 := Scalar.addi v2280 v2281
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1987 : BitVec 32 := 1#32
  let v2283 : BitVec 32 := Scalar.muli v11 c1_i32_1987
  let v2284 : BitVec 32 := Scalar.addi v2282 v2283
  v2284.toNat
def k0_dev61 (d0 : Dev nD) : Nat :=
  let c0_i32_2003 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2002 : BitVec 32 := 4#32
  let v2303 : BitVec 32 := Scalar.muli v2 c4_i32_2002
  let v2304 : BitVec 32 := Scalar.addi c0_i32_2003 v2303
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2004 : BitVec 32 := 2#32
  let v2305 : BitVec 32 := Scalar.muli v5 c2_i32_2004
  let v2306 : BitVec 32 := Scalar.addi v2304 v2305
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2005 : BitVec 32 := 1#32
  let v2307 : BitVec 32 := Scalar.muli v11 c1_i32_2005
  let v2308 : BitVec 32 := Scalar.addi v2306 v2307
  v2308.toNat
def k0_dev62 (d0 : Dev nD) : Nat :=
  let c0_i32_2021 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2020 : BitVec 32 := 4#32
  let v2327 : BitVec 32 := Scalar.muli v2 c4_i32_2020
  let v2328 : BitVec 32 := Scalar.addi c0_i32_2021 v2327
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2022 : BitVec 32 := 2#32
  let v2329 : BitVec 32 := Scalar.muli v5 c2_i32_2022
  let v2330 : BitVec 32 := Scalar.addi v2328 v2329
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2023 : BitVec 32 := 1#32
  let v2331 : BitVec 32 := Scalar.muli v11 c1_i32_2023
  let v2332 : BitVec 32 := Scalar.addi v2330 v2331
  v2332.toNat
def k0_dev63 (d0 : Dev nD) : Nat :=
  let c0_i32_2039 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2038 : BitVec 32 := 4#32
  let v2351 : BitVec 32 := Scalar.muli v2 c4_i32_2038
  let v2352 : BitVec 32 := Scalar.addi c0_i32_2039 v2351
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2040 : BitVec 32 := 2#32
  let v2353 : BitVec 32 := Scalar.muli v5 c2_i32_2040
  let v2354 : BitVec 32 := Scalar.addi v2352 v2353
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2041 : BitVec 32 := 1#32
  let v2355 : BitVec 32 := Scalar.muli v11 c1_i32_2041
  let v2356 : BitVec 32 := Scalar.addi v2354 v2355
  v2356.toNat
def k0_dev64 (d0 : Dev nD) : Nat :=
  let c0_i32_2057 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2056 : BitVec 32 := 4#32
  let v2375 : BitVec 32 := Scalar.muli v2 c4_i32_2056
  let v2376 : BitVec 32 := Scalar.addi c0_i32_2057 v2375
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2058 : BitVec 32 := 2#32
  let v2377 : BitVec 32 := Scalar.muli v5 c2_i32_2058
  let v2378 : BitVec 32 := Scalar.addi v2376 v2377
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2059 : BitVec 32 := 1#32
  let v2379 : BitVec 32 := Scalar.muli v11 c1_i32_2059
  let v2380 : BitVec 32 := Scalar.addi v2378 v2379
  v2380.toNat
def k0_dev65 (d0 : Dev nD) : Nat :=
  let c0_i32_2075 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2074 : BitVec 32 := 4#32
  let v2399 : BitVec 32 := Scalar.muli v2 c4_i32_2074
  let v2400 : BitVec 32 := Scalar.addi c0_i32_2075 v2399
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2076 : BitVec 32 := 2#32
  let v2401 : BitVec 32 := Scalar.muli v5 c2_i32_2076
  let v2402 : BitVec 32 := Scalar.addi v2400 v2401
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2077 : BitVec 32 := 1#32
  let v2403 : BitVec 32 := Scalar.muli v11 c1_i32_2077
  let v2404 : BitVec 32 := Scalar.addi v2402 v2403
  v2404.toNat
def k0_dev66 (d0 : Dev nD) : Nat :=
  let c0_i32_2093 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2092 : BitVec 32 := 4#32
  let v2423 : BitVec 32 := Scalar.muli v2 c4_i32_2092
  let v2424 : BitVec 32 := Scalar.addi c0_i32_2093 v2423
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2094 : BitVec 32 := 2#32
  let v2425 : BitVec 32 := Scalar.muli v5 c2_i32_2094
  let v2426 : BitVec 32 := Scalar.addi v2424 v2425
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2095 : BitVec 32 := 1#32
  let v2427 : BitVec 32 := Scalar.muli v11 c1_i32_2095
  let v2428 : BitVec 32 := Scalar.addi v2426 v2427
  v2428.toNat
def k0_dev67 (d0 : Dev nD) : Nat :=
  let c0_i32_2111 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2110 : BitVec 32 := 4#32
  let v2447 : BitVec 32 := Scalar.muli v2 c4_i32_2110
  let v2448 : BitVec 32 := Scalar.addi c0_i32_2111 v2447
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2112 : BitVec 32 := 2#32
  let v2449 : BitVec 32 := Scalar.muli v5 c2_i32_2112
  let v2450 : BitVec 32 := Scalar.addi v2448 v2449
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2113 : BitVec 32 := 1#32
  let v2451 : BitVec 32 := Scalar.muli v11 c1_i32_2113
  let v2452 : BitVec 32 := Scalar.addi v2450 v2451
  v2452.toNat

class Facts₀ : Prop where
  hamt_1 : (1#32 : BitVec 32).msb = false
  hamt_3 : (3#32 : BitVec 32).msb = false
  inb_S4_S1_0 : ∀ a, (![0] : Fin 1 → Nat) a + S1.size a ≤ S4.size a
  squeezes_S1_S_ : S1.Squeezes S_
  inb_S4x1024x1024_S1x512x1024_0_0_0 : ∀ a, (![0, 0, 0] : Fin 3 → Nat) a + S1x512x1024.size a ≤ S4x1024x1024.size a
  squeezes_S1x512x1024_S512x1024 : S1x512x1024.Squeezes S512x1024
  inb_S4_S1_1 : ∀ a, (![1] : Fin 1 → Nat) a + S1.size a ≤ S4.size a
  inb_S4x1024x1024_S1x512x1024_1_0_0 : ∀ a, (![1, 0, 0] : Fin 3 → Nat) a + S1x512x1024.size a ≤ S4x1024x1024.size a
  inb_S4_S1_2 : ∀ a, (![2] : Fin 1 → Nat) a + S1.size a ≤ S4.size a
  inb_S4x1024x1024_S1x512x1024_2_0_0 : ∀ a, (![2, 0, 0] : Fin 3 → Nat) a + S1x512x1024.size a ≤ S4x1024x1024.size a
  inb_S4_S1_3 : ∀ a, (![3] : Fin 1 → Nat) a + S1.size a ≤ S4.size a
  inb_S4x1024x1024_S1x512x1024_3_0_0 : ∀ a, (![3, 0, 0] : Fin 3 → Nat) a + S1x512x1024.size a ≤ S4x1024x1024.size a
  h_S1x512x1024 : 0 < S1x512x1024.numel
  shapeCasts_S1x512x1024_S512x1024 : S1x512x1024.ShapeCasts S512x1024
  bitsLt_bf16_f32 : FTy.bits .bf16 < FTy.bits .f32
  inb_S8192x1024_S512x1024_0_0 : ∀ a, (![0, 0] : Fin 2 → Nat) a + S512x1024.size a ≤ S8192x1024.size a
  h_S512x1024 : 0 < S512x1024.numel
  shapeCasts_S512x1024_S512x1024 : S512x1024.ShapeCasts S512x1024
  packedbf16_S8192x1024_S512x1024_0_0 : (Rect.unit (s := S8192x1024) ![0, 0] S512x1024.size inb_S8192x1024_S512x1024_0_0).PackedRows (EltTy.packing .bf16)
  inb_S16_S1_0 : ∀ a, (![0] : Fin 1 → Nat) a + S1.size a ≤ S16.size a
  wordsbf16_S8192x1024_S512x1024_0_0 : (Rect.unit (s := S8192x1024) ![0, 0] S512x1024.size inb_S8192x1024_S512x1024_0_0).WholeWords (EltTy.packing .bf16)
  inb_S8192x1024_S512x1024_512_0 : ∀ a, (![512, 0] : Fin 2 → Nat) a + S512x1024.size a ≤ S8192x1024.size a
  packedbf16_S8192x1024_S512x1024_512_0 : (Rect.unit (s := S8192x1024) ![512, 0] S512x1024.size inb_S8192x1024_S512x1024_512_0).PackedRows (EltTy.packing .bf16)
  inb_S16_S1_1 : ∀ a, (![1] : Fin 1 → Nat) a + S1.size a ≤ S16.size a
  wordsbf16_S8192x1024_S512x1024_512_0 : (Rect.unit (s := S8192x1024) ![512, 0] S512x1024.size inb_S8192x1024_S512x1024_512_0).WholeWords (EltTy.packing .bf16)
  inb_S8192x1024_S512x1024_1024_0 : ∀ a, (![1024, 0] : Fin 2 → Nat) a + S512x1024.size a ≤ S8192x1024.size a
  packedbf16_S8192x1024_S512x1024_1024_0 : (Rect.unit (s := S8192x1024) ![1024, 0] S512x1024.size inb_S8192x1024_S512x1024_1024_0).PackedRows (EltTy.packing .bf16)
  inb_S16_S1_2 : ∀ a, (![2] : Fin 1 → Nat) a + S1.size a ≤ S16.size a
  wordsbf16_S8192x1024_S512x1024_1024_0 : (Rect.unit (s := S8192x1024) ![1024, 0] S512x1024.size inb_S8192x1024_S512x1024_1024_0).WholeWords (EltTy.packing .bf16)
  inb_S8192x1024_S512x1024_1536_0 : ∀ a, (![1536, 0] : Fin 2 → Nat) a + S512x1024.size a ≤ S8192x1024.size a
  packedbf16_S8192x1024_S512x1024_1536_0 : (Rect.unit (s := S8192x1024) ![1536, 0] S512x1024.size inb_S8192x1024_S512x1024_1536_0).PackedRows (EltTy.packing .bf16)
  inb_S16_S1_3 : ∀ a, (![3] : Fin 1 → Nat) a + S1.size a ≤ S16.size a
  wordsbf16_S8192x1024_S512x1024_1536_0 : (Rect.unit (s := S8192x1024) ![1536, 0] S512x1024.size inb_S8192x1024_S512x1024_1536_0).WholeWords (EltTy.packing .bf16)
  inb_S8192x1024_S512x1024_2048_0 : ∀ a, (![2048, 0] : Fin 2 → Nat) a + S512x1024.size a ≤ S8192x1024.size a
  packedbf16_S8192x1024_S512x1024_2048_0 : (Rect.unit (s := S8192x1024) ![2048, 0] S512x1024.size inb_S8192x1024_S512x1024_2048_0).PackedRows (EltTy.packing .bf16)
  inb_S16_S1_4 : ∀ a, (![4] : Fin 1 → Nat) a + S1.size a ≤ S16.size a
  wordsbf16_S8192x1024_S512x1024_2048_0 : (Rect.unit (s := S8192x1024) ![2048, 0] S512x1024.size inb_S8192x1024_S512x1024_2048_0).WholeWords (EltTy.packing .bf16)
  inb_S8192x1024_S512x1024_2560_0 : ∀ a, (![2560, 0] : Fin 2 → Nat) a + S512x1024.size a ≤ S8192x1024.size a
  packedbf16_S8192x1024_S512x1024_2560_0 : (Rect.unit (s := S8192x1024) ![2560, 0] S512x1024.size inb_S8192x1024_S512x1024_2560_0).PackedRows (EltTy.packing .bf16)
  inb_S16_S1_5 : ∀ a, (![5] : Fin 1 → Nat) a + S1.size a ≤ S16.size a
  wordsbf16_S8192x1024_S512x1024_2560_0 : (Rect.unit (s := S8192x1024) ![2560, 0] S512x1024.size inb_S8192x1024_S512x1024_2560_0).WholeWords (EltTy.packing .bf16)
  inb_S8192x1024_S512x1024_3072_0 : ∀ a, (![3072, 0] : Fin 2 → Nat) a + S512x1024.size a ≤ S8192x1024.size a
  packedbf16_S8192x1024_S512x1024_3072_0 : (Rect.unit (s := S8192x1024) ![3072, 0] S512x1024.size inb_S8192x1024_S512x1024_3072_0).PackedRows (EltTy.packing .bf16)
  inb_S16_S1_6 : ∀ a, (![6] : Fin 1 → Nat) a + S1.size a ≤ S16.size a
  wordsbf16_S8192x1024_S512x1024_3072_0 : (Rect.unit (s := S8192x1024) ![3072, 0] S512x1024.size inb_S8192x1024_S512x1024_3072_0).WholeWords (EltTy.packing .bf16)
  inb_S8192x1024_S512x1024_3584_0 : ∀ a, (![3584, 0] : Fin 2 → Nat) a + S512x1024.size a ≤ S8192x1024.size a
  packedbf16_S8192x1024_S512x1024_3584_0 : (Rect.unit (s := S8192x1024) ![3584, 0] S512x1024.size inb_S8192x1024_S512x1024_3584_0).PackedRows (EltTy.packing .bf16)
  inb_S16_S1_7 : ∀ a, (![7] : Fin 1 → Nat) a + S1.size a ≤ S16.size a
  wordsbf16_S8192x1024_S512x1024_3584_0 : (Rect.unit (s := S8192x1024) ![3584, 0] S512x1024.size inb_S8192x1024_S512x1024_3584_0).WholeWords (EltTy.packing .bf16)
  inb_S8192x1024_S512x1024_4096_0 : ∀ a, (![4096, 0] : Fin 2 → Nat) a + S512x1024.size a ≤ S8192x1024.size a
  packedbf16_S8192x1024_S512x1024_4096_0 : (Rect.unit (s := S8192x1024) ![4096, 0] S512x1024.size inb_S8192x1024_S512x1024_4096_0).PackedRows (EltTy.packing .bf16)
  inb_S16_S1_8 : ∀ a, (![8] : Fin 1 → Nat) a + S1.size a ≤ S16.size a
  wordsbf16_S8192x1024_S512x1024_4096_0 : (Rect.unit (s := S8192x1024) ![4096, 0] S512x1024.size inb_S8192x1024_S512x1024_4096_0).WholeWords (EltTy.packing .bf16)
  inb_S8192x1024_S512x1024_4608_0 : ∀ a, (![4608, 0] : Fin 2 → Nat) a + S512x1024.size a ≤ S8192x1024.size a
  packedbf16_S8192x1024_S512x1024_4608_0 : (Rect.unit (s := S8192x1024) ![4608, 0] S512x1024.size inb_S8192x1024_S512x1024_4608_0).PackedRows (EltTy.packing .bf16)
  inb_S16_S1_9 : ∀ a, (![9] : Fin 1 → Nat) a + S1.size a ≤ S16.size a
  wordsbf16_S8192x1024_S512x1024_4608_0 : (Rect.unit (s := S8192x1024) ![4608, 0] S512x1024.size inb_S8192x1024_S512x1024_4608_0).WholeWords (EltTy.packing .bf16)
  inb_S8192x1024_S512x1024_5120_0 : ∀ a, (![5120, 0] : Fin 2 → Nat) a + S512x1024.size a ≤ S8192x1024.size a
  packedbf16_S8192x1024_S512x1024_5120_0 : (Rect.unit (s := S8192x1024) ![5120, 0] S512x1024.size inb_S8192x1024_S512x1024_5120_0).PackedRows (EltTy.packing .bf16)
  inb_S16_S1_10 : ∀ a, (![10] : Fin 1 → Nat) a + S1.size a ≤ S16.size a
  wordsbf16_S8192x1024_S512x1024_5120_0 : (Rect.unit (s := S8192x1024) ![5120, 0] S512x1024.size inb_S8192x1024_S512x1024_5120_0).WholeWords (EltTy.packing .bf16)
  inb_S8192x1024_S512x1024_5632_0 : ∀ a, (![5632, 0] : Fin 2 → Nat) a + S512x1024.size a ≤ S8192x1024.size a
  packedbf16_S8192x1024_S512x1024_5632_0 : (Rect.unit (s := S8192x1024) ![5632, 0] S512x1024.size inb_S8192x1024_S512x1024_5632_0).PackedRows (EltTy.packing .bf16)
  inb_S16_S1_11 : ∀ a, (![11] : Fin 1 → Nat) a + S1.size a ≤ S16.size a
  wordsbf16_S8192x1024_S512x1024_5632_0 : (Rect.unit (s := S8192x1024) ![5632, 0] S512x1024.size inb_S8192x1024_S512x1024_5632_0).WholeWords (EltTy.packing .bf16)
  inb_S8192x1024_S512x1024_6144_0 : ∀ a, (![6144, 0] : Fin 2 → Nat) a + S512x1024.size a ≤ S8192x1024.size a
  packedbf16_S8192x1024_S512x1024_6144_0 : (Rect.unit (s := S8192x1024) ![6144, 0] S512x1024.size inb_S8192x1024_S512x1024_6144_0).PackedRows (EltTy.packing .bf16)
  inb_S16_S1_12 : ∀ a, (![12] : Fin 1 → Nat) a + S1.size a ≤ S16.size a
  wordsbf16_S8192x1024_S512x1024_6144_0 : (Rect.unit (s := S8192x1024) ![6144, 0] S512x1024.size inb_S8192x1024_S512x1024_6144_0).WholeWords (EltTy.packing .bf16)
  inb_S8192x1024_S512x1024_6656_0 : ∀ a, (![6656, 0] : Fin 2 → Nat) a + S512x1024.size a ≤ S8192x1024.size a
  packedbf16_S8192x1024_S512x1024_6656_0 : (Rect.unit (s := S8192x1024) ![6656, 0] S512x1024.size inb_S8192x1024_S512x1024_6656_0).PackedRows (EltTy.packing .bf16)
  inb_S16_S1_13 : ∀ a, (![13] : Fin 1 → Nat) a + S1.size a ≤ S16.size a
  wordsbf16_S8192x1024_S512x1024_6656_0 : (Rect.unit (s := S8192x1024) ![6656, 0] S512x1024.size inb_S8192x1024_S512x1024_6656_0).WholeWords (EltTy.packing .bf16)
  inb_S8192x1024_S512x1024_7168_0 : ∀ a, (![7168, 0] : Fin 2 → Nat) a + S512x1024.size a ≤ S8192x1024.size a
  packedbf16_S8192x1024_S512x1024_7168_0 : (Rect.unit (s := S8192x1024) ![7168, 0] S512x1024.size inb_S8192x1024_S512x1024_7168_0).PackedRows (EltTy.packing .bf16)
  inb_S16_S1_14 : ∀ a, (![14] : Fin 1 → Nat) a + S1.size a ≤ S16.size a
  wordsbf16_S8192x1024_S512x1024_7168_0 : (Rect.unit (s := S8192x1024) ![7168, 0] S512x1024.size inb_S8192x1024_S512x1024_7168_0).WholeWords (EltTy.packing .bf16)
  inb_S8192x1024_S512x1024_7680_0 : ∀ a, (![7680, 0] : Fin 2 → Nat) a + S512x1024.size a ≤ S8192x1024.size a
  packedbf16_S8192x1024_S512x1024_7680_0 : (Rect.unit (s := S8192x1024) ![7680, 0] S512x1024.size inb_S8192x1024_S512x1024_7680_0).PackedRows (EltTy.packing .bf16)
  inb_S16_S1_15 : ∀ a, (![15] : Fin 1 → Nat) a + S1.size a ≤ S16.size a
  wordsbf16_S8192x1024_S512x1024_7680_0 : (Rect.unit (s := S8192x1024) ![7680, 0] S512x1024.size inb_S8192x1024_S512x1024_7680_0).WholeWords (EltTy.packing .bf16)
  inb_S4x1024x1024_S1x1024x1024_0_0_0 : ∀ a, (![0, 0, 0] : Fin 3 → Nat) a + S1x1024x1024.size a ≤ S4x1024x1024.size a
  squeezes_S1x1024x1024_S1024x1024 : S1x1024x1024.Squeezes S1024x1024
  inb_S32768x1024_S1024x1024_0_0 : ∀ a, (![0, 0] : Fin 2 → Nat) a + S1024x1024.size a ≤ S32768x1024.size a
  inb_S4x1024x1024_S1x1024x1024_1_0_0 : ∀ a, (![1, 0, 0] : Fin 3 → Nat) a + S1x1024x1024.size a ≤ S4x1024x1024.size a
  inb_S32768x1024_S1024x1024_1024_0 : ∀ a, (![1024, 0] : Fin 2 → Nat) a + S1024x1024.size a ≤ S32768x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  packedbf16_S4x1024x1024_S1x1024x1024_0_0_0 : (Rect.unit (s := S4x1024x1024) ![0, 0, 0] S1x1024x1024.size inb_S4x1024x1024_S1x1024x1024_0_0_0).PackedRows (EltTy.packing .bf16)
  wordsbf16_S4x1024x1024_S1x1024x1024_0_0_0 : (Rect.unit (s := S4x1024x1024) ![0, 0, 0] S1x1024x1024.size inb_S4x1024x1024_S1x1024x1024_0_0_0).WholeWords (EltTy.packing .bf16)
  inb_S4x1024x1024_S1x1024x1024_2_0_0 : ∀ a, (![2, 0, 0] : Fin 3 → Nat) a + S1x1024x1024.size a ≤ S4x1024x1024.size a
  inb_S32768x1024_S1024x1024_2048_0 : ∀ a, (![2048, 0] : Fin 2 → Nat) a + S1024x1024.size a ≤ S32768x1024.size a
  packedbf16_S4x1024x1024_S1x1024x1024_1_0_0 : (Rect.unit (s := S4x1024x1024) ![1, 0, 0] S1x1024x1024.size inb_S4x1024x1024_S1x1024x1024_1_0_0).PackedRows (EltTy.packing .bf16)
  wordsbf16_S4x1024x1024_S1x1024x1024_1_0_0 : (Rect.unit (s := S4x1024x1024) ![1, 0, 0] S1x1024x1024.size inb_S4x1024x1024_S1x1024x1024_1_0_0).WholeWords (EltTy.packing .bf16)
  inb_S4x1024x1024_S1x1024x1024_3_0_0 : ∀ a, (![3, 0, 0] : Fin 3 → Nat) a + S1x1024x1024.size a ≤ S4x1024x1024.size a
  inb_S32768x1024_S1024x1024_3072_0 : ∀ a, (![3072, 0] : Fin 2 → Nat) a + S1024x1024.size a ≤ S32768x1024.size a
  packedbf16_S4x1024x1024_S1x1024x1024_2_0_0 : (Rect.unit (s := S4x1024x1024) ![2, 0, 0] S1x1024x1024.size inb_S4x1024x1024_S1x1024x1024_2_0_0).PackedRows (EltTy.packing .bf16)
  wordsbf16_S4x1024x1024_S1x1024x1024_2_0_0 : (Rect.unit (s := S4x1024x1024) ![2, 0, 0] S1x1024x1024.size inb_S4x1024x1024_S1x1024x1024_2_0_0).WholeWords (EltTy.packing .bf16)
  inb_S32768x1024_S1024x1024_4096_0 : ∀ a, (![4096, 0] : Fin 2 → Nat) a + S1024x1024.size a ≤ S32768x1024.size a
  packedbf16_S4x1024x1024_S1x1024x1024_3_0_0 : (Rect.unit (s := S4x1024x1024) ![3, 0, 0] S1x1024x1024.size inb_S4x1024x1024_S1x1024x1024_3_0_0).PackedRows (EltTy.packing .bf16)
  wordsbf16_S4x1024x1024_S1x1024x1024_3_0_0 : (Rect.unit (s := S4x1024x1024) ![3, 0, 0] S1x1024x1024.size inb_S4x1024x1024_S1x1024x1024_3_0_0).WholeWords (EltTy.packing .bf16)
  inb_S32768x1024_S1024x1024_5120_0 : ∀ a, (![5120, 0] : Fin 2 → Nat) a + S1024x1024.size a ≤ S32768x1024.size a
  inb_S32768x1024_S1024x1024_6144_0 : ∀ a, (![6144, 0] : Fin 2 → Nat) a + S1024x1024.size a ≤ S32768x1024.size a
  inb_S32768x1024_S1024x1024_7168_0 : ∀ a, (![7168, 0] : Fin 2 → Nat) a + S1024x1024.size a ≤ S32768x1024.size a
  inb_S32768x1024_S1024x1024_8192_0 : ∀ a, (![8192, 0] : Fin 2 → Nat) a + S1024x1024.size a ≤ S32768x1024.size a
  inb_S32768x1024_S1024x1024_9216_0 : ∀ a, (![9216, 0] : Fin 2 → Nat) a + S1024x1024.size a ≤ S32768x1024.size a
  inb_S32768x1024_S1024x1024_10240_0 : ∀ a, (![10240, 0] : Fin 2 → Nat) a + S1024x1024.size a ≤ S32768x1024.size a
  inb_S32768x1024_S1024x1024_11264_0 : ∀ a, (![11264, 0] : Fin 2 → Nat) a + S1024x1024.size a ≤ S32768x1024.size a
  inb_S32768x1024_S1024x1024_12288_0 : ∀ a, (![12288, 0] : Fin 2 → Nat) a + S1024x1024.size a ≤ S32768x1024.size a
  inb_S32768x1024_S1024x1024_13312_0 : ∀ a, (![13312, 0] : Fin 2 → Nat) a + S1024x1024.size a ≤ S32768x1024.size a
  inb_S32768x1024_S1024x1024_14336_0 : ∀ a, (![14336, 0] : Fin 2 → Nat) a + S1024x1024.size a ≤ S32768x1024.size a
  inb_S32768x1024_S1024x1024_15360_0 : ∀ a, (![15360, 0] : Fin 2 → Nat) a + S1024x1024.size a ≤ S32768x1024.size a
  inb_S32768x1024_S1024x1024_16384_0 : ∀ a, (![16384, 0] : Fin 2 → Nat) a + S1024x1024.size a ≤ S32768x1024.size a
  inb_S32768x1024_S1024x1024_17408_0 : ∀ a, (![17408, 0] : Fin 2 → Nat) a + S1024x1024.size a ≤ S32768x1024.size a
  inb_S32768x1024_S1024x1024_18432_0 : ∀ a, (![18432, 0] : Fin 2 → Nat) a + S1024x1024.size a ≤ S32768x1024.size a
  inb_S32768x1024_S1024x1024_19456_0 : ∀ a, (![19456, 0] : Fin 2 → Nat) a + S1024x1024.size a ≤ S32768x1024.size a
  inb_S32768x1024_S1024x1024_20480_0 : ∀ a, (![20480, 0] : Fin 2 → Nat) a + S1024x1024.size a ≤ S32768x1024.size a
  inb_S32768x1024_S1024x1024_21504_0 : ∀ a, (![21504, 0] : Fin 2 → Nat) a + S1024x1024.size a ≤ S32768x1024.size a
  inb_S32768x1024_S1024x1024_22528_0 : ∀ a, (![22528, 0] : Fin 2 → Nat) a + S1024x1024.size a ≤ S32768x1024.size a
  inb_S32768x1024_S1024x1024_23552_0 : ∀ a, (![23552, 0] : Fin 2 → Nat) a + S1024x1024.size a ≤ S32768x1024.size a
  inb_S32768x1024_S1024x1024_24576_0 : ∀ a, (![24576, 0] : Fin 2 → Nat) a + S1024x1024.size a ≤ S32768x1024.size a
  inb_S32768x1024_S1024x1024_25600_0 : ∀ a, (![25600, 0] : Fin 2 → Nat) a + S1024x1024.size a ≤ S32768x1024.size a
  inb_S32768x1024_S1024x1024_26624_0 : ∀ a, (![26624, 0] : Fin 2 → Nat) a + S1024x1024.size a ≤ S32768x1024.size a
  inb_S32768x1024_S1024x1024_27648_0 : ∀ a, (![27648, 0] : Fin 2 → Nat) a + S1024x1024.size a ≤ S32768x1024.size a
  inb_S32768x1024_S1024x1024_28672_0 : ∀ a, (![28672, 0] : Fin 2 → Nat) a + S1024x1024.size a ≤ S32768x1024.size a
  inb_S32768x1024_S1024x1024_29696_0 : ∀ a, (![29696, 0] : Fin 2 → Nat) a + S1024x1024.size a ≤ S32768x1024.size a
  inb_S32768x1024_S1024x1024_30720_0 : ∀ a, (![30720, 0] : Fin 2 → Nat) a + S1024x1024.size a ≤ S32768x1024.size a
  inb_S32768x1024_S1024x1024_31744_0 : ∀ a, (![31744, 0] : Fin 2 → Nat) a + S1024x1024.size a ≤ S32768x1024.size a
  inb_S8_S1_0 : ∀ a, (![0] : Fin 1 → Nat) a + S1.size a ≤ S8.size a
  inb_S8_S1_1 : ∀ a, (![1] : Fin 1 → Nat) a + S1.size a ≤ S8.size a
  inb_S8_S1_2 : ∀ a, (![2] : Fin 1 → Nat) a + S1.size a ≤ S8.size a
  inb_S8_S1_3 : ∀ a, (![3] : Fin 1 → Nat) a + S1.size a ≤ S8.size a
  inb_S8_S1_4 : ∀ a, (![4] : Fin 1 → Nat) a + S1.size a ≤ S8.size a
  inb_S8_S1_5 : ∀ a, (![5] : Fin 1 → Nat) a + S1.size a ≤ S8.size a
  inb_S8_S1_6 : ∀ a, (![6] : Fin 1 → Nat) a + S1.size a ≤ S8.size a
  inb_S8_S1_7 : ∀ a, (![7] : Fin 1 → Nat) a + S1.size a ≤ S8.size a
  hcc0_scratch3 : 0 + S4.numel ≤ 136
  hcc0_scratch4 : 4 + S4.numel ≤ 136
  hcc0_scratch5 : 8 + S16.numel ≤ 136
  hcc0_scratch6 : 24 + S16.numel ≤ 136
  hcc0_scratch7 : 40 + S16.numel ≤ 136
  hcc0_scratch8 : 56 + S16.numel ≤ 136
  hcc0_scratch9 : 72 + S16.numel ≤ 136
  hcc0_scratch10 : 88 + S16.numel ≤ 136
  hcc0_scratch11 : 104 + S8.numel ≤ 136
  hcc0_scratch12 : 112 + S8.numel ≤ 136
  hcc0_scratch13 : 120 + S8.numel ≤ 136
  hcc0_scratch14 : 128 + S8.numel ≤ 136
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ (r : Fin 16), ∀ a, (k0_off1 d0 (BitVec.ofNat 32 (512 * r.val))) a + S512x1024.size a ≤ S32768x1024.size a
  k0_off2_inb : ∀ d0 : Dev nD, ∀ (r : Fin 16), ∀ a, (k0_off2 d0 (BitVec.ofNat 32 (512 * r.val))) a + S512x1024.size a ≤ S65536x1024.size a
  k0_off2_wordsbf16 : ∀ d0 : Dev nD, ∀ (r : Fin 16), (Rect.unit (s := S65536x1024) (k0_off2 d0 (BitVec.ofNat 32 (512 * r.val))) S512x1024.size (k0_off2_inb d0 r)).WholeWords (EltTy.packing .bf16)
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_off3_inb : ∀ d0 : Dev nD, ∀ (r : Fin 32), ∀ a, (k0_off3 d0 (BitVec.ofNat 32 (1024 * r.val))) a + S1024x1024.size a ≤ S65536x1024.size a
  k0_off3_wordsbf16 : ∀ d0 : Dev nD, ∀ (r : Fin 32), (Rect.unit (s := S65536x1024) (k0_off3 d0 (BitVec.ofNat 32 (1024 * r.val))) S1024x1024.size (k0_off3_inb d0 r)).WholeWords (EltTy.packing .bf16)
  k0_off4_inb : ∀ d0 : Dev nD, ∀ (r : Fin 16), ∀ a, (k0_off4 d0 (BitVec.ofNat 32 (512 * r.val))) a + S512x1024.size a ≤ S65536x1024.size a
  k0_off4_wordsbf16 : ∀ d0 : Dev nD, ∀ (r : Fin 16), (Rect.unit (s := S65536x1024) (k0_off4 d0 (BitVec.ofNat 32 (512 * r.val))) S512x1024.size (k0_off4_inb d0 r)).WholeWords (EltTy.packing .bf16)
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_off5_inb : ∀ d0 : Dev nD, ∀ (r : Fin 8), ∀ a, (k0_off5 d0 (BitVec.ofNat 32 (512 * r.val))) a + S512x1024.size a ≤ S65536x1024.size a
  k0_off5_wordsbf16 : ∀ d0 : Dev nD, ∀ (r : Fin 8), (Rect.unit (s := S65536x1024) (k0_off5 d0 (BitVec.ofNat 32 (512 * r.val))) S512x1024.size (k0_off5_inb d0 r)).WholeWords (EltTy.packing .bf16)
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_off6_inb : ∀ d0 : Dev nD, ∀ (r : Fin 8), ∀ a, (k0_off6 d0 (BitVec.ofNat 32 (4096 + 512 * r.val))) a + S512x1024.size a ≤ S65536x1024.size a
  k0_off6_wordsbf16 : ∀ d0 : Dev nD, ∀ (r : Fin 8), (Rect.unit (s := S65536x1024) (k0_off6 d0 (BitVec.ofNat 32 (4096 + 512 * r.val))) S512x1024.size (k0_off6_inb d0 r)).WholeWords (EltTy.packing .bf16)
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_dev67_lt : ∀ d0 : Dev nD, (k0_dev67 d0) < nD

variable [Facts₀]

abbrev cc0_scratch3 : DmaSems sig S4 := SemArray.consecutive 0 S4 hcc0_scratch3
abbrev cc0_scratch4 : DmaSems sig S4 := SemArray.consecutive 4 S4 hcc0_scratch4
abbrev cc0_scratch5 : DmaSems sig S16 := SemArray.consecutive 8 S16 hcc0_scratch5
abbrev cc0_scratch6 : DmaSems sig S16 := SemArray.consecutive 24 S16 hcc0_scratch6
abbrev cc0_scratch7 : DmaSems sig S16 := SemArray.consecutive 40 S16 hcc0_scratch7
abbrev cc0_scratch8 : DmaSems sig S16 := SemArray.consecutive 56 S16 hcc0_scratch8
abbrev cc0_scratch9 : DmaSems sig S16 := SemArray.consecutive 72 S16 hcc0_scratch9
abbrev cc0_scratch10 : DmaSems sig S16 := SemArray.consecutive 88 S16 hcc0_scratch10
abbrev cc0_scratch11 : DmaSems sig S8 := SemArray.consecutive 104 S8 hcc0_scratch11
abbrev cc0_scratch12 : DmaSems sig S8 := SemArray.consecutive 112 S8 hcc0_scratch12
abbrev cc0_scratch13 : DmaSems sig S8 := SemArray.consecutive 120 S8 hcc0_scratch13
abbrev cc0_scratch14 : DmaSems sig S8 := SemArray.consecutive 128 S8 hcc0_scratch14

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S65536x1024 : Shape := ⟨2, ![65536, 1024]⟩

abbrev nBuf : Space → Nat
  | .hbm => 2
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.Proto.lean ====
/-
The all-gather protocol on the 2x2x2 mesh: names.

A device is 4*x + 2*y + z.  Each device holds the y-th half (32768 rows) of the whole
array and must end holding all 65536 rows, converted to bf16.  Its own half it converts and copies
locally.  The other half arrives in four quarters of 8192 rows, each in chunks of 512 rows:
the quarter 2*x + z straight from the y-neighbour (family yq), the quarter of the x-neighbour
forwarded by it (xf), the quarter of the z-neighbour forwarded by it (zf), and the diagonal
quarter in two halves, the first eight chunks relayed by the x-neighbour (xd), the last eight by
the z-neighbour (zd).  Every transfer has a send and a receive semaphore of its own.
-/
import proofs.«900667_g7700000000000668_dist_ag_v7x_xyz2x2x2_y_m32768_n1024_bf16_1_alg».proof.Proof.Gen.KernelIdeal
import proofs.«900667_g7700000000000668_dist_ag_v7x_xyz2x2x2_y_m32768_n1024_bf16_1_alg».proof.Proof.Gen.KernelIdeal.Launch
import Idealize.ShloMosaic.Lib.Pipeline.Launch
import Idealize.ShloMosaic.Lib.Pipeline.Kit
import Idealize.ShloMosaic.Lib.ValueIdx
import Idealize.ShloMosaic.Lib.Tactic
import Idealize.ShloMosaic.Lib.Transfers

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the protocol's (duties Fin 3), and the counters the local
copies' invariants draw their tokens from -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

/-! ## The three neighbours: each flips one mesh coordinate -/

def Yn (c : Dev nD) : Dev nD := ⟨k0_dev1 c, k0_dev1_lt c⟩
def Xn (c : Dev nD) : Dev nD := ⟨k0_dev2 c, k0_dev2_lt c⟩
def Zn (c : Dev nD) : Dev nD := ⟨k0_dev3 c, k0_dev3_lt c⟩

theorem Yn_val (c : Dev nD) : (Yn c).val = (4 * (c.val / 4) + (c.val % 2) + 2) - 2 * ((c.val / 2) % 2) := k0_dev1_eq c
theorem Xn_val (c : Dev nD) : (Xn c).val = (2 * ((c.val / 2) % 2) + (c.val % 2) + 4) - 4 * (c.val / 4) := k0_dev2_eq c
theorem Zn_val (c : Dev nD) : (Zn c).val = (4 * (c.val / 4) + 2 * ((c.val / 2) % 2) + 1) - (c.val % 2) := k0_dev3_eq c

theorem Yn_Yn : ∀ c : Dev nD, Yn (Yn c) = c := by decide +kernel
theorem Xn_Xn : ∀ c : Dev nD, Xn (Xn c) = c := by decide +kernel
theorem Zn_Zn : ∀ c : Dev nD, Zn (Zn c) = c := by decide +kernel

def Yeq : Dev nD ≃ Dev nD := ⟨Yn, Yn, Yn_Yn, Yn_Yn⟩
def Xeq : Dev nD ≃ Dev nD := ⟨Xn, Xn, Xn_Xn, Xn_Xn⟩
def Zeq : Dev nD ≃ Dev nD := ⟨Zn, Zn, Zn_Zn, Zn_Zn⟩

/-! ## The five families of transfers -/

inductive Fam | yq | xf | zf | xd | zd
  deriving DecidableEq

/-- How many chunks a family moves. -/
@[reducible] def Fam.n : Fam → ℕ | .yq => 16 | .xf => 16 | .zf => 16 | .xd => 8 | .zd => 8

/-- The neighbour a family's transfers go to. -/
def peer : Fam → Dev nD → Dev nD | .yq => Yn | .xf => Xn | .zf => Zn | .xd => Xn | .zd => Zn

theorem peer_peer (f : Fam) (c : Dev nD) : peer f (peer f c) = c :=
  match f with
  | .yq => Yn_Yn c | .xf => Xn_Xn c | .zf => Zn_Zn c | .xd => Xn_Xn c | .zd => Zn_Zn c

/-! ## The buffers and the chunks -/

abbrev xM : Memref sig .tc .hbm S32768x1024 .f32 := Memref.whole main_arg0
abbrev oM : Memref sig .tc .hbm S65536x1024 .bf16 := Memref.whole main_v1
abbrev stM : Memref sig .tc .vmem S4x1024x1024 .f32 := Memref.whole cc0_scratch0
abbrev obM : Memref sig .tc .vmem S4x1024x1024 .bf16 := Memref.whole cc0_scratch1
abbrev sbM : Memref sig .tc .vmem S8192x1024 .bf16 := Memref.whole cc0_scratch2

theorem sb_inb (i : Fin 16) : ∀ a, (![512 * i.val, 0] : Fin 2 → Nat) a + S512x1024.size a ≤ S8192x1024.size a := by
  intro a; have := i.isLt
  fin_cases a
  · show 512 * i.val + 512 ≤ 8192; omega
  · show 0 + 1024 ≤ 1024; omega

/-- Chunk i of the send buffer: rows 512*i up to 512*i + 511. -/
def sbChunk (i : Fin 16) : Memref sig .tc .vmem S512x1024 .bf16 :=
  sbM.slice (Rect.unit (s := S8192x1024) ![512 * i.val, 0] S512x1024.size (sb_inb i)) (fun _ => rfl)

/-- Where transfer i of family f, ISSUED by device c, reads (for the forwarding families) and writes on the
    neighbour, in the output array: the offsets are the issuer's. -/
def oOff : (f : Fam) → Dev nD → Fin f.n → (Fin 2 → Nat)
  | .yq, c, i => k0_off2 c (BitVec.ofNat 32 (512 * i.val))
  | .xf, c, i => k0_off4 c (BitVec.ofNat 32 (512 * i.val))
  | .zf, c, i => k0_off4 c (BitVec.ofNat 32 (512 * i.val))
  | .xd, c, i => k0_off5 c (BitVec.ofNat 32 (512 * i.val))
  | .zd, c, i => k0_off6 c (BitVec.ofNat 32 (4096 + 512 * i.val))

theorem oOff_inb : (f : Fam) → (c : Dev nD) → (i : Fin f.n) → ∀ a, oOff f c i a + S512x1024.size a ≤ S65536x1024.size a
  | .yq, c, i => k0_off2_inb c i
  | .xf, c, i => k0_off4_inb c i
  | .zf, c, i => k0_off4_inb c i
  | .xd, c, i => k0_off5_inb c i
  | .zd, c, i => k0_off6_inb c i

/-- That chunk: 512 rows of the output array. -/
def oChunk (f : Fam) (c : Dev nD) (i : Fin f.n) : Memref sig .tc .hbm S512x1024 .bf16 :=
  oM.slice (Rect.unit (s := S65536x1024) (oOff f c i) S512x1024.size (oOff_inb f c i)) (fun _ => rfl)

/-- The chunk of the output array that local copy i (of 32, 1024 rows each) of device c writes. -/
def oOwn (c : Dev nD) (i : Fin 32) : Memref sig .tc .hbm S1024x1024 .bf16 :=
  oM.slice (Rect.unit (s := S65536x1024) (k0_off3 c (BitVec.ofNat 32 (1024 * i.val))) S1024x1024.size (k0_off3_inb c i)) (fun _ => rfl)

/-! ## The semaphores and their cells -/

theorem sem16_inb (i : Fin 16) : ∀ a, (![i.val] : Fin 1 → Nat) a + S1.size a ≤ S16.size a := by
  intro a; have := i.isLt; fin_cases a; show i.val + 1 ≤ 16; omega
theorem sem8_inb (i : Fin 8) : ∀ a, (![i.val] : Fin 1 → Nat) a + S1.size a ≤ S8.size a := by
  intro a; have := i.isLt; fin_cases a; show i.val + 1 ≤ 8; omega
theorem sem4_inb (i : Fin 4) : ∀ a, (![i.val] : Fin 1 → Nat) a + S1.size a ≤ S4.size a := by
  intro a; have := i.isLt; fin_cases a; show i.val + 1 ≤ 4; omega

def sem16 (a : DmaSems sig S16) (i : Fin 16) : DmaSem sig := ((a.slice (Rect.unit (s := S16) ![i.val] S1.size (sem16_inb i))).squeeze S_ squeezes_S1_S_).sem
def sem8 (a : DmaSems sig S8) (i : Fin 8) : DmaSem sig := ((a.slice (Rect.unit (s := S8) ![i.val] S1.size (sem8_inb i))).squeeze S_ squeezes_S1_S_).sem
def sem4 (a : DmaSems sig S4) (i : Fin 4) : DmaSem sig := ((a.slice (Rect.unit (s := S4) ![i.val] S1.size (sem4_inb i))).squeeze S_ squeezes_S1_S_).sem

/-- The send semaphore of transfer i of family f (on the issuer) -/
def sS : (f : Fam) → Fin f.n → DmaSem sig
  | .yq, i => sem16 cc0_scratch5 i | .xf, i => sem16 cc0_scratch7 i | .zf, i => sem16 cc0_scratch9 i
  | .xd, i => sem8 cc0_scratch11 i | .zd, i => sem8 cc0_scratch13 i
/-- and its receive semaphore (on the neighbour). -/
def rS : (f : Fam) → Fin f.n → DmaSem sig
  | .yq, i => sem16 cc0_scratch6 i | .xf, i => sem16 cc0_scratch8 i | .zf, i => sem16 cc0_scratch10 i
  | .xd, i => sem8 cc0_scratch12 i | .zd, i => sem8 cc0_scratch14 i
def inS (s : Fin 4) : DmaSem sig := sem4 cc0_scratch3 s
def outS (s : Fin 4) : DmaSem sig := sem4 cc0_scratch4 s

/-- The runtime's barrier semaphore of collective id 0 (not scoped to the launch). -/
abbrev barS : Sem sig := (SemArray.scalar (sig.barrier 0 rfl) : Sems sig S_).sem

abbrev barCell (c : Dev nD) : GSem nD τ sig := ((c : Thread nD τ), .reg barS)
abbrev sCell (f : Fam) (c : Dev nD) (i : Fin f.n) : GSem nD τ sig := ((c : Thread nD τ), .dma (sS f i))
abbrev rCell (f : Fam) (c : Dev nD) (i : Fin f.n) : GSem nD τ sig := ((c : Thread nD τ), .dma (rS f i))

/-! ## Contents -/

variable (A : (c : Dev nD) → Buf (Elt F) ((c : Thread nD τ).loc main_arg0))

/-- The conversion every element undergoes. -/
def cv (a : F .f32) : F .bf16 := FloatOps.truncf .bf16 bitsLt_bf16_f32 a

/-- The device whose half holds row r of the gathered array as device c assembles it: c itself for
    its own half; for the other half the device of the other y whose (x, z) is the quarter's number. -/
def origin (c : Dev nD) (r : ℕ) : Dev nD :=
  if r / 32768 = (c.val / 2) % 2 then c
  else ⟨4 * ((r % 32768) / 16384) + 2 * (1 - (c.val / 2) % 2) + ((r % 32768) / 8192) % 2, by
    show _ < 8; omega⟩

/-- What device c's output array holds at the end: row r is row (r mod 32768) of (origin c r)'s half, converted. -/
def Gout (c : Dev nD) : (main_v1 : Ref sig .tc).ty.Contents (Elt F) := fun e =>
  cv (A (origin c (e 0).val) (ValueIdx.ix2 ⟨(e 0).val % 32768, Nat.mod_lt _ (by decide)⟩ (e 1)))

/-- What the send buffer holds once filled: device c's quarter 2*x + z of its own half, converted. -/
def SB (c : Dev nD) : (cc0_scratch2 : Ref sig .tc).ty.Contents (Elt F) := fun e =>
  cv (A c (ValueIdx.ix2 ⟨(16384 * (c.val / 4) + 8192 * (c.val % 2) + (e 0).val) % 32768, Nat.mod_lt _ (by decide)⟩ (e 1)))

end Cert.KernelIdeal.AG

end
-- ==== Proof.Sched.lean ====
/-
The schedule of the all-gather's semaphore cells.

Every cell has one round.  A device's barrier cell has three duties of one unit, one per neighbour
(0: the y-neighbour, 1: the x-neighbour, 2: the z-neighbour); the signal of neighbour q hands the
device the chunks of q's output array it is going to write, at whatever they hold, and the fact that
q's receive cells for them stand at their first round.  A receive cell has the one duty of its
transfer's credit, paid by the neighbour's transfer landing: it hands the owner the chunk written,
holding the gathered array's rows.  A send cell has the one duty of the same credit, paid when the
source has been read: it hands the source back.  The two forwards of one received chunk to the x- and
the z-neighbour read it at the same time, each with half the chunk's share.
-/
import proofs.«900667_g7700000000000668_dist_ag_v7x_xyz2x2x2_y_m32768_n1024_bf16_1_alg».proof.Proof.Proto

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : (c : Dev nD) → Buf (Elt F) ((c : Thread nD τ).loc main_arg0))

/-- The credit of one chunk of 512 rows of the output array. -/
abbrev N : ℕ := (oChunk Fam.yq (0 : Dev nD) (0 : Fin 16)).view.dmaCredit
theorem N_pos : 0 < N := View.dmaCredit_pos _ (by decide)
theorem oChunk_credit (f : Fam) (c : Dev nD) (i : Fin f.n) : (oChunk f c i).view.dmaCredit = N := rfl

/-! ## Which transfer a DMA semaphore belongs to -/

/-- A transfer: its family and its number. -/
abbrev Tr : Type := Σ f : Fam, Fin f.n

/-- The transfer a DMA semaphore serves and whether as its receive semaphore; none for the eight
    semaphores of the local copies. -/
def decode (s : DmaSem sig) : Option (Bool × Tr) :=
  if h : 8 ≤ s.val ∧ s.val < 24 then some (false, ⟨.yq, ⟨s.val - 8, by show _ < 16; omega⟩⟩)
  else if h : 24 ≤ s.val ∧ s.val < 40 then some (true, ⟨.yq, ⟨s.val - 24, by show _ < 16; omega⟩⟩)
  else if h : 40 ≤ s.val ∧ s.val < 56 then some (false, ⟨.xf, ⟨s.val - 40, by show _ < 16; omega⟩⟩)
  else if h : 56 ≤ s.val ∧ s.val < 72 then some (true, ⟨.xf, ⟨s.val - 56, by show _ < 16; omega⟩⟩)
  else if h : 72 ≤ s.val ∧ s.val < 88 then some (false, ⟨.zf, ⟨s.val - 72, by show _ < 16; omega⟩⟩)
  else if h : 88 ≤ s.val ∧ s.val < 104 then some (true, ⟨.zf, ⟨s.val - 88, by show _ < 16; omega⟩⟩)
  else if h : 104 ≤ s.val ∧ s.val < 112 then some (false, ⟨.xd, ⟨s.val - 104, by show _ < 8; omega⟩⟩)
  else if h : 112 ≤ s.val ∧ s.val < 120 then some (true, ⟨.xd, ⟨s.val - 112, by show _ < 8; omega⟩⟩)
  else if h : 120 ≤ s.val ∧ s.val < 128 then some (false, ⟨.zd, ⟨s.val - 120, by show _ < 8; omega⟩⟩)
  else if h : 128 ≤ s.val ∧ s.val < 136 then some (true, ⟨.zd, ⟨s.val - 128, by show _ < 8; omega⟩⟩)
  else none

theorem decode_sS : ∀ (f : Fam) (i : Fin f.n), decode (sS f i) = some (false, ⟨f, i⟩) := by
  intro f i; cases f <;> (fin_cases i <;> rfl)
theorem decode_rS : ∀ (f : Fam) (i : Fin f.n), decode (rS f i) = some (true, ⟨f, i⟩) := by
  intro f i; cases f <;> (fin_cases i <;> rfl)
theorem decode_inS : ∀ s : Fin 4, decode (inS s) = none := by decide
theorem decode_outS : ∀ s : Fin 4, decode (outS s) = none := by decide

/-! ## The payloads -/

/-- What the neighbour (peer f p) hands p, with its barrier signal, for p's transfer i of family f: the chunk of
    ITS output array that the transfer writes, at whatever it holds. -/
def slotPay (f : Fam) (p : Dev nD) (i : Fin f.n) : sProp 𝕄 :=
  iprop(∃ fd : Buf (Elt F) ((oChunk f p i).view.loc (peer f p : Thread nD τ)),
      (oChunk f p i).view.loc (peer f p : Thread nD τ) ↦[(oChunk f p i).view.set]{fullShare} fd)

/-- What the three duties of p's barrier cell hand p. -/
def barPay (p : Dev nD) : Fin 3 → sProp 𝕄
  | 0 => bigSep Finset.univ (fun i : Fin 16 => slotPay (F := F) .yq p i)
  | 1 => iprop(bigSep Finset.univ (fun i : Fin 16 => slotPay (F := F) .xf p i) ∗ bigSep Finset.univ (fun i : Fin 8 => slotPay (F := F) .xd p i))
  | 2 => iprop(bigSep Finset.univ (fun i : Fin 16 => slotPay (F := F) .zf p i) ∗ bigSep Finset.univ (fun i : Fin 8 => slotPay (F := F) .zd p i))

/-- The gathered array as the contents of device p's buffer under a chunk written by its neighbour, -/
abbrev rBuf (f : Fam) (p : Dev nD) (i : Fin f.n) : Buf (Elt F) ((oChunk f (peer f p) i).view.loc (p : Thread nD τ)) := Gout A p
/-- under a chunk device c forwards, -/
abbrev oBuf (f : Fam) (c : Dev nD) (i : Fin f.n) : Buf (Elt F) ((oChunk f c i).view.loc (c : Thread nD τ)) := Gout A c
/-- and the filled send buffer as the contents under one of its chunks. -/
abbrev sbBuf (c : Dev nD) (i : Fin 16) : Buf (Elt F) ((sbChunk i).view.loc (c : Thread nD τ)) := SB A c

/-- What transfer i of family f, landing on p, hands p: the chunk it wrote, holding the gathered rows. -/
def recvPay (f : Fam) (p : Dev nD) (i : Fin f.n) : sProp 𝕄 :=
  (oChunk f (peer f p) i).view.loc (p : Thread nD τ) ↦[(oChunk f (peer f p) i).view.set]{fullShare} rBuf A f p i

/-- What transfer i of family f, read out of its source on c, hands c back: the source. -/
def sendPay : (f : Fam) → (c : Dev nD) → Fin f.n → sProp 𝕄
  | .yq, c, i => (sbChunk i).view.loc (c : Thread nD τ) ↦[(sbChunk i).view.set]{fullShare} sbBuf A c i
  | .xf, c, i => (oChunk .xf c i).view.loc (c : Thread nD τ) ↦[(oChunk .xf c i).view.set]{fullShare.left} oBuf A .xf c i
  | .zf, c, i => (oChunk .zf c i).view.loc (c : Thread nD τ) ↦[(oChunk .zf c i).view.set]{fullShare.right} oBuf A .zf c i
  | .xd, c, i => (oChunk .xd c i).view.loc (c : Thread nD τ) ↦[(oChunk .xd c i).view.set]{fullShare} oBuf A .xd c i
  | .zd, c, i => (oChunk .zd c i).view.loc (c : Thread nD τ) ↦[(oChunk .zd c i).view.set]{fullShare} oBuf A .zd c i

abbrev IsBar (g : GSem nD τ sig) : Prop := g.1.2 = .tc ∧ g.2 = .reg barS
/-- The cell of a transfer's send or receive semaphore on a TensorCore. -/
def IsXfer (g : GSem nD τ sig) : Prop := g.1.2 = .tc ∧ ∃ s, g.2 = .dma s ∧ (decode s).isSome

instance (g : GSem nD τ sig) : Decidable (IsXfer g) := by unfold IsXfer; infer_instance

def payOf (g : GSem nD τ sig) (d : Fin 3) : sProp 𝕄 :=
  match g.2 with
  | .reg _ => barPay g.1.1 d
  | .dma s => match decode s with
    | some (true, ⟨f, i⟩) => recvPay A f g.1.1 i
    | some (false, ⟨f, i⟩) => sendPay A f g.1.1 i
    | none => iprop(emp)

/-- One round: a barrier cell's three duties of one unit; a transfer cell's one duty of a chunk's credit. -/
def Rd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d := payOf A g d
  amount_pos g _ _ _ := by
    by_cases h : g.2 = .reg barS
    · rw [if_pos h]; exact Nat.one_pos
    · rw [if_neg h]; exact N_pos

/-! ## The schedule's tables -/

section Tables
variable (c : Dev nD)

theorem dma_ne_bar (s : DmaSem sig) : (SemLoc.dma s : SemLoc sig) ≠ .reg barS := fun h => by cases h
theorem not_bar_s (f : Fam) (i : Fin f.n) : ¬ IsBar (sCell f c i) := fun h => dma_ne_bar _ h.2
theorem not_bar_r (f : Fam) (i : Fin f.n) : ¬ IsBar (rCell f c i) := fun h => dma_ne_bar _ h.2
theorem isXfer_s (f : Fam) (i : Fin f.n) : IsXfer (sCell f c i) := ⟨rfl, sS f i, rfl, by rw [decode_sS]; rfl⟩
theorem isXfer_r (f : Fam) (i : Fin f.n) : IsXfer (rCell f c i) := ⟨rfl, rS f i, rfl, by rw [decode_rS]; rfl⟩
theorem not_xfer_bar : ¬ IsXfer (barCell c) := fun ⟨_, s, h, _⟩ => by cases h

theorem duties_bar : (Rd (F := F) A).duties (barCell c) 0 = Finset.univ := by dsimp only [Rd]; exact if_pos ⟨rfl, rfl, rfl⟩
theorem duties_s (f : Fam) (i : Fin f.n) : (Rd (F := F) A).duties (sCell f c i) 0 = {0} := by
  dsimp only [Rd]; rw [if_neg (fun h => not_bar_s c f i h.2)]; exact if_pos ⟨rfl, isXfer_s c f i⟩
theorem duties_r (f : Fam) (i : Fin f.n) : (Rd (F := F) A).duties (rCell f c i) 0 = {0} := by
  dsimp only [Rd]; rw [if_neg (fun h => not_bar_r c f i h.2)]; exact if_pos ⟨rfl, isXfer_r c f i⟩
theorem duties_later (g : GSem nD τ sig) : ∀ r, 1 ≤ r → (Rd (F := F) A).duties g r = ∅ :=
  fun r hr => by dsimp only [Rd]; rw [if_neg fun h => by omega, if_neg fun h => by omega]

theorem amount_bar (d : Fin 3) : (Rd (F := F) A).amount (barCell c) 0 d = 1 := by dsimp only [Rd]; exact if_pos rfl
theorem amount_s (f : Fam) (i : Fin f.n) (d : Fin 3) : (Rd (F := F) A).amount (sCell f c i) 0 d = N := by dsimp only [Rd]; exact if_neg (dma_ne_bar _)
theorem amount_r (f : Fam) (i : Fin f.n) (d : Fin 3) : (Rd (F := F) A).amount (rCell f c i) 0 d = N := by dsimp only [Rd]; exact if_neg (dma_ne_bar _)

theorem expect_bar : (Rd (F := F) A).expect (barCell c) 0 = 3 := by
  unfold Schedule.expect Schedule.amountOf
  rw [duties_bar, Finset.sum_congr rfl fun d _ => amount_bar A c d, Finset.sum_const, Finset.card_univ, Fintype.card_fin, smul_eq_mul]
theorem expect_s (f : Fam) (i : Fin f.n) : (Rd (F := F) A).expect (sCell f c i) 0 = N := by
  unfold Schedule.expect Schedule.amountOf; rw [duties_s, Finset.sum_singleton, amount_s]
theorem expect_r (f : Fam) (i : Fin f.n) : (Rd (F := F) A).expect (rCell f c i) 0 = N := by
  unfold Schedule.expect Schedule.amountOf; rw [duties_r, Finset.sum_singleton, amount_r]

theorem payload_bar (d : Fin 3) : (Rd (F := F) A).payload (barCell c) 0 d = barPay c d := rfl
theorem payload_s (f : Fam) (i : Fin f.n) (d : Fin 3) : (Rd (F := F) A).payload (sCell f c i) 0 d = sendPay A f c i := by
  show payOf A (sCell f c i) d = _
  unfold payOf; dsimp only; rw [decode_sS]
theorem payload_r (f : Fam) (i : Fin f.n) (d : Fin 3) : (Rd (F := F) A).payload (rCell f c i) 0 d = recvPay A f c i := by
  show payOf A (rCell f c i) d = _
  unfold payOf; dsimp only; rw [decode_rS]

/-- The rest of a send cell's round, nothing taken: the source back. -/
theorem rest_s (f : Fam) (i : Fin f.n) : bigSep ((Rd (F := F) A).duties (sCell f c i) 0 \ ∅) (fun d => (Rd (F := F) A).payload (sCell f c i) 0 d) = sendPay A f c i := by
  rw [Finset.sdiff_empty, duties_s, bigSep_singleton, payload_s]
/-- The rest of a receive cell's round, nothing taken: the chunk landed. -/
theorem rest_r (f : Fam) (i : Fin f.n) : bigSep ((Rd (F := F) A).duties (rCell f c i) 0 \ ∅) (fun d => (Rd (F := F) A).payload (rCell f c i) 0 d) = recvPay A f c i := by
  rw [Finset.sdiff_empty, duties_r, bigSep_singleton, payload_r]
/-- The rest of the barrier cell's round, nothing taken: the three neighbours' hand-overs. -/
theorem rest_bar : bigSep ((Rd (F := F) A).duties (barCell c) 0 \ ∅) (fun d => (Rd (F := F) A).payload (barCell c) 0 d) = iprop(barPay (F := F) c 0 ∗ barPay (F := F) c 1 ∗ barPay (F := F) c 2) := by
  rw [Finset.sdiff_empty, duties_bar, bigSep_univ_eq_bigSepL [0, 1, 2] (by decide) (by decide)]
  rfl

end Tables

instance Rd_payload_storable (g : GSem nD τ sig) (r : ℕ) (d : Fin 3) :
    BI.Storable (upEmb : UEmb _ 𝕄) ((Rd (F := F) A).payload g r d) := by
  show BI.Storable upEmb (payOf A g d)
  unfold payOf
  split
  · unfold barPay slotPay; split <;> infer_instance
  · split
    · unfold recvPay; infer_instance
    · unfold sendPay; split <;> infer_instance
    · infer_instance

end Cert.KernelIdeal.AG

end
-- ==== Proof.Inv.lean ====
/-
What a device holds when its kernel begins and when it ends; what it owes the others at launch; the order of
the cells that rules out a cycle of waits.

Order: a local copy's cell and a send cell lie lowest (nobody else pays them); a barrier cell above them; the
receive cells of the straight transfers (yq) above the barrier; those of the forwards (xf, zf) above these, for a
forward is issued only after a yq chunk has landed; those of the diagonal relays (xd, zd) highest, for a relay is
issued only after a forwarded chunk has landed.  A device waits on a cell only while everything it still owes
lies strictly higher.
-/
import proofs.«900667_g7700000000000668_dist_ag_v7x_xyz2x2x2_y_m32768_n1024_bf16_1_alg».proof.Proof.Sched

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : (c : Dev nD) → Buf (Elt F) ((c : Thread nD τ).loc main_arg0))

/-! ## The ghost state of one device -/

/-- Per transfer i of family f that device c issues and its mirror that c receives: the three cells' invariants, -/
def famInvs (K : GSem nD τ sig → ℕ) (c : Dev nD) (f : Fam) : sProp 𝕄 :=
  bigSep Finset.univ fun i : Fin f.n =>
    iprop(cellInv ER (Rd A) (K (sCell f c i)) (sCell f c i) ∗ cellInv ER (Rd A) (K (rCell f c i)) (rCell f c i)
      ∗ cellInv ER (Rd A) (K (rCell f (peer f c) i)) (rCell f (peer f c) i))
/-- that the three cells stand at their first round, -/
def famReached (c : Dev nD) (f : Fam) : sProp 𝕄 :=
  bigSep Finset.univ fun i : Fin f.n =>
    iprop(reached ER (sCell f c i) 0 ∗ reached ER (rCell f c i) 0 ∗ reached ER (rCell f (peer f c) i) 0)
/-- c's positions on its own two cells, -/
def famPos (c : Dev nD) (f : Fam) : sProp 𝕄 :=
  bigSep Finset.univ fun i : Fin f.n => iprop(atPos ER (sCell f c i) 0 ∅ 0 ∗ atPos ER (rCell f c i) 0 ∅ 0)
/-- the tokens of the two duties its transfer pays (its own send cell's, the neighbour's receive cell's), -/
def famToks (c : Dev nD) (f : Fam) : sProp 𝕄 :=
  bigSep Finset.univ fun i : Fin f.n => iprop(dutyTok ER (sCell f c i) 0 0 ∗ dutyTok ER (rCell f (peer f c) i) 0 0)
/-- and the credit for the chunk it will receive. -/
def famCred (c : Dev nD) (f : Fam) : sProp 𝕄 :=
  bigSep Finset.univ fun i : Fin f.n => cred (tallyAt (rCell f c i) () N)

/-- The barrier cells' invariants device c opens: its own and its three neighbours'. -/
def barInvs (K : GSem nD τ sig → ℕ) (c : Dev nD) : sProp 𝕄 :=
  iprop(cellInv ER (Rd A) (K (barCell c)) (barCell c) ∗ cellInv ER (Rd A) (K (barCell (Yn c))) (barCell (Yn c))
    ∗ cellInv ER (Rd A) (K (barCell (Xn c))) (barCell (Xn c)) ∗ cellInv ER (Rd A) (K (barCell (Zn c))) (barCell (Zn c)))

/-- The persistent part: every invariant c opens, every first round it relies on. -/
def records (K : GSem nD τ sig → ℕ) (c : Dev nD) : sProp 𝕄 :=
  iprop(barInvs A K c ∗ famInvs A K c .yq ∗ famInvs A K c .xf ∗ famInvs A K c .zf ∗ famInvs A K c .xd ∗ famInvs A K c .zd
    ∗ reached ER (barCell (Yn c)) 0 ∗ reached ER (barCell (Xn c)) 0 ∗ reached ER (barCell (Zn c)) 0
    ∗ famReached c .yq ∗ famReached c .xf ∗ famReached c .zf ∗ famReached c .xd ∗ famReached c .zd)

instance records_persistent (K : GSem nD τ sig → ℕ) (c : Dev nD) : BI.Persistent (records A K c) := by
  unfold records barInvs famInvs famReached; infer_instance

/-- The linear part: c's positions on its cells, the tokens of the duties it pays: one unit to each neighbour's
    barrier cell (duty 0 of the y-neighbour's, 1 of the x-neighbour's, 2 of the z-neighbour's) and its transfers'. -/
def linear (c : Dev nD) : sProp 𝕄 :=
  iprop(atPos ER (barCell c) 0 ∅ 0 ∗ famPos c .yq ∗ famPos c .xf ∗ famPos c .zf ∗ famPos c .xd ∗ famPos c .zd
    ∗ dutyTok ER (barCell (Yn c)) 0 0 ∗ dutyTok ER (barCell (Xn c)) 0 1 ∗ dutyTok ER (barCell (Zn c)) 0 2
    ∗ famToks c .yq ∗ famToks c .xf ∗ famToks c .zf ∗ famToks c .xd ∗ famToks c .zd)

def ghost (K : GSem nD τ sig → ℕ) (c : Dev nD) : sProp 𝕄 := iprop(records A K c ∗ linear (F := F) c)

/-- The credit device c is dealt at launch: its barrier cell's three units and each receive cell's chunk. -/
def credits (c : Dev nD) : sProp 𝕄 :=
  iprop(cred (tallyAt (barCell c) () 3) ∗ famCred (F := F) c .yq ∗ famCred (F := F) c .xf ∗ famCred (F := F) c .zf
    ∗ famCred (F := F) c .xd ∗ famCred (F := F) c .zd)

/-- The eight semaphores of the local copies, at zero in the device's hand. -/
def localSems (c : Dev nD) : sProp 𝕄 :=
  iprop((bigSep Finset.univ fun s : Fin 4 => semVal (((c : Thread nD τ), .dma (inS s)) : GSem nD τ sig) 0)
    ∗ bigSep Finset.univ fun s : Fin 4 => semVal (((c : Thread nD τ), .dma (outS s)) : GSem nD τ sig) 0)

/-! ## What each device owes at launch; the levels -/

/-- One chunk's credit to the neighbour's receive cell per transfer of the family. -/
def owedFam (c : Dev nD) (f : Fam) : CellTallies nD τ sig Unit := ∑ i : Fin f.n, tallyAt (rCell f (peer f c) i) () N

/-- Everything device c owes: its 64 transfers' landings and one unit to each neighbour's barrier cell. -/
def O₀ (c : Dev nD) : CellTallies nD τ sig Unit :=
  owedFam c .zd + owedFam c .xd + owedFam c .zf + owedFam c .xf + owedFam c .yq
    + tallyAt (barCell (Zn c)) () 1 + tallyAt (barCell (Xn c)) () 1 + tallyAt (barCell (Yn c)) () 1

def L (g : GSem nD τ sig) : Finset Unit := if g.1.2 = .tc then {()} else ∅

/-- The level of a cell: see this file's header. -/
def lvOf : SemLoc sig → ℕ
  | .reg _ => 1
  | .dma s => match decode s with
    | some (true, ⟨.yq, _⟩) => 2
    | some (true, ⟨.xf, _⟩) => 3
    | some (true, ⟨.zf, _⟩) => 3
    | some (true, ⟨.xd, _⟩) => 4
    | some (true, ⟨.zd, _⟩) => 4
    | _ => 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

/-! ## The kernel's pre- and postcondition on one device -/

variable (V1 : (c : Dev nD) → Buf (Elt F) ((c : Thread nD τ).loc main_v1))

/-- What device c's body starts from, beside its buffers. -/
def start (c : Dev nD) : sProp 𝕄 :=
  iprop((∃ K, ghost A K c) ∗ credits (F := F) c ∗ localSems (F := F) c ∗ levAts L lv)

/-- Its buffers at entry: the input half, the output array at whatever it holds, the three scratch buffers. -/
def bufs0 (c : Dev nD) : sProp 𝕄 :=
  iprop((((c : Thread nD τ).loc main_arg0) ↦{fullShare} A c) ∗ (((c : Thread nD τ).loc main_v1) ↦{fullShare} V1 c)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- At exit: the input half unchanged, the output array holding the gathered rows, the scratch buffers at whatever. -/
def bufs1 (c : Dev nD) : sProp 𝕄 :=
  iprop((((c : Thread nD τ).loc main_arg0) ↦{fullShare} A c) ∗ (((c : Thread nD τ).loc main_v1) ↦{fullShare} Gout A c)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The kernel's own 136 DMA semaphores back at zero, in the device's hand: the 128 transfer cells closed. -/
def sems1 (c : Dev nD) : sProp 𝕄 :=
  bigSep Finset.univ fun s : DmaSem sig => semVal (((c : Thread nD τ), .dma s) : GSem nD τ sig) 0

def Φ₀ (c : Dev nD) : sProp 𝕄 := iprop(start A c ∗ bufs0 A V1 c)
def Φ₁ (c : Dev nD) : sProp 𝕄 := iprop(bufs1 A c ∗ sems1 (F := F) c)

/-- The proof data of the one pallas_call on device c: no windows; the invariant before and after the one point;
    everything owed before, nothing after. -/
def dats (_ : Fin 1) (c : Dev nD) : Dat τ (Elt F) Unit ℕ UU ℕ cfg0 c where
  A w := w.elim0
  after w _ := w.elim0
  Φ t := match t with
    | ⟨0, _⟩ => Φ₀ A V1 c
    | ⟨_ + 1, _⟩ => Φ₁ A c
  q _ := fullShare
  owed t := match t with
    | ⟨0, _⟩ => O₀ c
    | ⟨_ + 1, _⟩ => 0

abbrev 𝒱₀ : Variants := Variants.none

end Cert.KernelIdeal.AG

end
-- ==== Proof.Credit.lean ====
/-
The credit each device is dealt at launch, and the levels that let it wait while it still owes.

Every device owes, per transfer it issues, one chunk's credit to the receive cell of that transfer on the
family's neighbour, and one unit to each neighbour's barrier cell.  A family's neighbour map is an involution,
so the receive cell of transfer i of family f on device c is owed its chunk's credit by exactly one device, the
neighbour of c in f; the barrier cell of c is owed one unit by each of its three neighbours.  The launch therefore
deals c three units on its barrier cell and one chunk's credit on each of its 64 receive cells.

A wait on a cell is allowed while everything the device still owes lies strictly above the cell: the local
copies' cells lie at 0, the barrier cell at 1, the receive cells at 2, 3 or 4 by family.
-/
import proofs.«900667_g7700000000000668_dist_ag_v7x_xyz2x2x2_y_m32768_n1024_bf16_1_alg».proof.Proof.Inv

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The levels of the cells -/

theorem lv_r (f : Fam) (c : Dev nD) (i : Fin f.n) :
    lv (rCell f c i) () = (match f with | .yq => 2 | .xf => 3 | .zf => 3 | .xd => 4 | .zd => 4) := by
  show lvOf (SemLoc.dma (rS f i)) = _
  unfold lvOf
  dsimp only
  rw [decode_rS]
  cases f <;> rfl

theorem lv_bar (c : Dev nD) : lv (barCell c) () = 1 := rfl

theorem lv_s (f : Fam) (c : Dev nD) (i : Fin f.n) : lv (sCell f c i) () = 0 := by
  show lvOf (SemLoc.dma (sS f i)) = _
  unfold lvOf
  dsimp only
  rw [decode_sS]

theorem lv_local (c : Dev nD) (q : DmaSem sig) (hq : decode q = none) : lv (((c : Thread nD τ), SemLoc.dma q) : GSem nD τ sig) () = 0 := by
  show lvOf (SemLoc.dma q) = _
  unfold lvOf
  dsimp only
  rw [hq]

/-- A receive cell lies at level 2 at least. -/
theorem two_le_lv_r (f : Fam) (c : Dev nD) (i : Fin f.n) : 2 ≤ lv (rCell f c i) () := by
  rw [lv_r]
  cases f
  · exact Nat.le_refl 2
  · exact (by decide : 2 ≤ 3)
  · exact (by decide : 2 ≤ 3)
  · exact (by decide : 2 ≤ 4)
  · exact (by decide : 2 ≤ 4)

/-! ## What a family's debt is positive on -/

theorem owedFam_pos (c : Dev nD) (f : Fam) {g : GSem nD τ sig} {u : Unit} (h : 0 < owedFam c f g u) :
    ∃ i, g = rCell f (peer f c) i := by
  unfold owedFam at h
  obtain ⟨i, _, hi⟩ := Pipeline.sum_pos_exists h
  exact ⟨i, (Pipeline.tallyAt_pos hi).1⟩

/-- The part of family f's debt of device c that covers the chunks in S. -/
def owedOn (c : Dev nD) (f : Fam) (S : Finset (Fin f.n)) : CellTallies nD τ sig Unit :=
  ∑ i ∈ S, tallyAt (rCell f (peer f c) i) () N

theorem owedOn_univ (c : Dev nD) (f : Fam) : owedOn c f Finset.univ = owedFam c f := rfl

theorem owedOn_empty (c : Dev nD) (f : Fam) : owedOn c f ∅ = 0 := Finset.sum_empty

theorem owedOn_pos (c : Dev nD) (f : Fam) (S : Finset (Fin f.n)) {g : GSem nD τ sig} {u : Unit} (h : 0 < owedOn c f S g u) :
    ∃ i ∈ S, g = rCell f (peer f c) i := by
  unfold owedOn at h
  obtain ⟨i, hiS, hi⟩ := Pipeline.sum_pos_exists h
  exact ⟨i, hiS, (Pipeline.tallyAt_pos hi).1⟩

theorem owedOn_insert (c : Dev nD) (f : Fam) (S : Finset (Fin f.n)) (i : Fin f.n) (hi : i ∉ S) :
    owedOn c f (insert i S) = owedOn c f S + tallyAt (rCell f (peer f c) i) () N := by
  unfold owedOn
  rw [Finset.sum_insert hi, add_comm]

/-! ## The evidence of the waits -/

theorem mayWait_local (c : Dev nD) (q : DmaSem sig) (hq : decode q = none) (O : CellTallies nD τ sig Unit)
    (hO : ∀ g u, 0 < O g u → g.1.2 = .tc ∧ 1 ≤ lv g u) :
    (levAts L lv : sProp 𝕄) ⊢ MayWait (c : Thread nD τ) (.dma q) () O :=
  Pipeline.mayWait_of_levAts (by rw [L_tc]; exact Finset.mem_singleton_self _) fun g u hg => by
    obtain ⟨h1, h2⟩ := hO g u hg
    refine ⟨?_, ?_⟩
    · unfold L; rw [if_pos h1]; exact Finset.mem_singleton_self _
    · rw [lv_local c q hq]; exact h2

theorem mayWait_bar (c : Dev nD) (O : CellTallies nD τ sig Unit)
    (hO : ∀ g u, 0 < O g u → g.1.2 = .tc ∧ 2 ≤ lv g u) :
    (levAts L lv : sProp 𝕄) ⊢ MayWait (c : Thread nD τ) (.reg barS) () O :=
  Pipeline.mayWait_of_levAts (by rw [L_tc]; exact Finset.mem_singleton_self _) fun g u hg => by
    obtain ⟨h1, h2⟩ := hO g u hg
    refine ⟨?_, ?_⟩
    · unfold L; rw [if_pos h1]; exact Finset.mem_singleton_self _
    · show 1 < lv g u; exact h2

theorem mayWait_recv (c : Dev nD) (f : Fam) (i : Fin f.n) (O : CellTallies nD τ sig Unit)
    (hO : ∀ g u, 0 < O g u → g.1.2 = .tc ∧ lv (rCell f c i) () < lv g u) :
    (levAts L lv : sProp 𝕄) ⊢ MayWait (c : Thread nD τ) (.dma (rS f i)) () O :=
  Pipeline.mayWait_of_levAts (by rw [L_tc]; exact Finset.mem_singleton_self _) fun g u hg => by
    obtain ⟨h1, h2⟩ := hO g u hg
    refine ⟨?_, h2⟩
    unfold L; rw [if_pos h1]; exact Finset.mem_singleton_self _

/-! ## The launch credit -/

/-- Every device owing one unit to the barrier cell of its neighbour under an involution nb, device c is dealt
    one unit on its own barrier cell. -/
theorem launch_bar1 (nb : Dev nD → Dev nD) (h : ∀ c, nb (nb c) = c) (c : Dev nD) :
    (Pipeline.launchCred (fun d => tallyAt (barCell (nb d)) () 1) c : sProp 𝕄) ⊢ cred (tallyAt (barCell c) () 1) :=
  Pipeline.launchCred_tallyAt (SemLoc.reg barS) nb nb h h () 1 c

/-- Every device owing family f's chunks to its neighbour's receive cells, device c is dealt a chunk's credit on
    each of its own receive cells of the family. -/
theorem launch_fam (f : Fam) (c : Dev nD) :
    (Pipeline.launchCred (fun d => owedFam d f) c : sProp 𝕄) ⊢ famCred (F := F) c f := by
  unfold famCred
  have e : (Pipeline.launchCred (fun d => owedFam d f) c : sProp 𝕄)
      = bigSep Finset.univ fun i : Fin f.n => Pipeline.launchCred (fun d => tallyAt (rCell f (peer f d) i) () N) c :=
    Pipeline.launchCred_sum Finset.univ (fun (i : Fin f.n) (d : Dev nD) => (tallyAt (rCell f (peer f d) i) () N : CellTallies nD τ sig Unit)) c
  rw [e]
  exact bigSep_mono fun i _ =>
    Pipeline.launchCred_tallyAt (SemLoc.dma (rS f i)) (peer f) (peer f) (peer_peer f) (peer_peer f) () N c

/-- The launch credit of a sum of debts, from the launch credits of the two. -/
theorem launchCred_add_entails (O D : Dev nD → CellTallies nD τ sig Unit) (c : Dev nD) {P Q : sProp 𝕄}
    (hO : (Pipeline.launchCred O c : sProp 𝕄) ⊢ P) (hD : (Pipeline.launchCred D c : sProp 𝕄) ⊢ Q) :
    (Pipeline.launchCred (fun d => O d + D d) c : sProp 𝕄) ⊢ iprop(P ∗ Q) := by
  rw [Pipeline.launchCred_add]
  exact BI.sep_mono hO hD

theorem bar_units (c : Dev nD) :
    iprop(cred (tallyAt (barCell c) () 1) ∗ cred (tallyAt (barCell c) () 1) ∗ cred (tallyAt (barCell c) () 1))
      ⊢ (cred (tallyAt (barCell c) () 3) : sProp 𝕄) := by
  have e : (tallyAt (barCell c) () 3 : CellTallies nD τ sig Unit)
      = tallyAt (barCell c) () 1 + (tallyAt (barCell c) () 1 + tallyAt (barCell c) () 1) := by
    rw [tallyAt_add, tallyAt_add]
  rw [e]
  exact (sep_mono_right (cred_add _ _).2).trans (cred_add _ _).2

theorem creds (c : Dev nD) : (Pipeline.launchCred O₀ c : sProp 𝕄) ⊢ credits (F := F) c := by
  have h := launchCred_add_entails (F := F) _ _ c (launchCred_add_entails (F := F) _ _ c (launchCred_add_entails (F := F) _ _ c
    (launchCred_add_entails (F := F) _ _ c (launchCred_add_entails (F := F) _ _ c (launchCred_add_entails (F := F) _ _ c
      (launchCred_add_entails (F := F) _ _ c (launch_fam (F := F) .zd c) (launch_fam (F := F) .xd c)) (launch_fam (F := F) .zf c))
      (launch_fam (F := F) .xf c)) (launch_fam (F := F) .yq c)) (launch_bar1 (F := F) Zn Zn_Zn c)) (launch_bar1 (F := F) Xn Xn_Xn c))
    (launch_bar1 (F := F) Yn Yn_Yn c)
  refine (show (Pipeline.launchCred O₀ c : sProp 𝕄) ⊢ _ from h).trans ?_
  unfold credits
  iintro ⟨⟨⟨⟨⟨⟨⟨Hzd, Hxd⟩, Hzf⟩, Hxf⟩, Hyq⟩, HZ⟩, HX⟩, HY⟩
  isplitl [HZ HX HY]
  · iapply (bar_units (F := F) c)
    isplitl [HZ]; · iexact HZ
    isplitl [HX]; · iexact HX
    iexact HY
  isplitl [Hyq]; · iexact Hyq
  isplitl [Hxf]; · iexact Hxf
  isplitl [Hzf]; · iexact Hzf
  isplitl [Hxd]; · iexact Hxd
  iexact Hzd

/-! ## The level of everything a debt is positive on -/

/-- The level of a family's receive cells. -/
def lvF : Fam → ℕ | .yq => 2 | .xf => 3 | .zf => 3 | .xd => 4 | .zd => 4

theorem lv_r_eq (f : Fam) (c : Dev nD) (i : Fin f.n) : lv (rCell f c i) () = lvF f := by
  rw [lv_r]; cases f <;> rfl

theorem two_le_lvF (f : Fam) : 2 ≤ lvF f := by cases f <;> decide

/-- A part of a family's debt is positive only on TensorCore cells at the family's level. -/
theorem owedOn_lv (c : Dev nD) (f : Fam) (S : Finset (Fin f.n)) {g : GSem nD τ sig} {u : Unit} (h : 0 < owedOn c f S g u) :
    g.1.2 = .tc ∧ lv g u = lvF f := by
  obtain ⟨i, _, rfl⟩ := owedOn_pos c f S h
  exact ⟨rfl, lv_r_eq f (peer f c) i⟩

theorem owedFam_lv (c : Dev nD) (f : Fam) {g : GSem nD τ sig} {u : Unit} (h : 0 < owedFam c f g u) :
    g.1.2 = .tc ∧ lv g u = lvF f := by
  obtain ⟨i, rfl⟩ := owedFam_pos c f h
  exact ⟨rfl, lv_r_eq f (peer f c) i⟩

/-- One transfer's debt is positive only on its receive cell. -/
theorem owedOne_lv (f : Fam) (d : Dev nD) (i : Fin f.n) (k : ℕ) {g : GSem nD τ sig} {u : Unit} (h : 0 < tallyAt (rCell f d i) () k g u) :
    g.1.2 = .tc ∧ lv g u = lvF f := by
  obtain ⟨rfl, _⟩ := Pipeline.tallyAt_pos h
  exact ⟨rfl, lv_r_eq f d i⟩

/-- A unit owed to a barrier cell is positive only there, at level 1. -/
theorem owedBar_lv (d : Dev nD) (k : ℕ) {g : GSem nD τ sig} {u : Unit} (h : 0 < tallyAt (barCell d) () k g u) :
    g.1.2 = .tc ∧ lv g u = 1 := by
  obtain ⟨rfl, _⟩ := Pipeline.tallyAt_pos h
  exact ⟨rfl, rfl⟩

/-- Everything owed at launch lies on TensorCore cells at level 1 at least. -/
theorem O₀_lv (c : Dev nD) {g : GSem nD τ sig} {u : Unit} (h : 0 < O₀ c g u) : g.1.2 = .tc ∧ 1 ≤ lv g u := by
  unfold O₀ at h
  rcases Pipeline.add_pos_cases h with h | h
  · rcases Pipeline.add_pos_cases h with h | h
    · rcases Pipeline.add_pos_cases h with h | h
      · rcases Pipeline.add_pos_cases h with h | h
        · rcases Pipeline.add_pos_cases h with h | h
          · rcases Pipeline.add_pos_cases h with h | h
            · rcases Pipeline.add_pos_cases h with h | h
              · obtain ⟨h1, h2⟩ := owedFam_lv c .zd h; exact ⟨h1, by rw [h2]; decide⟩
              · obtain ⟨h1, h2⟩ := owedFam_lv c .xd h; exact ⟨h1, by rw [h2]; decide⟩
            · obtain ⟨h1, h2⟩ := owedFam_lv c .zf h; exact ⟨h1, by rw [h2]; decide⟩
          · obtain ⟨h1, h2⟩ := owedFam_lv c .xf h; exact ⟨h1, by rw [h2]; decide⟩
        · obtain ⟨h1, h2⟩ := owedFam_lv c .yq h; exact ⟨h1, by rw [h2]; decide⟩
      · obtain ⟨h1, h2⟩ := owedBar_lv (Zn c) 1 h; exact ⟨h1, by rw [h2]⟩
    · obtain ⟨h1, h2⟩ := owedBar_lv (Xn c) 1 h; exact ⟨h1, by rw [h2]⟩
  · obtain ⟨h1, h2⟩ := owedBar_lv (Yn c) 1 h; exact ⟨h1, by rw [h2]⟩

end Cert.KernelIdeal.AG

end
-- ==== Proof.LaunchDefs.lean ====
/-
Names shared by the two halves of the launch: the kernel's own semaphores as the launch theorem indexes them,
and what the global step leaves each device.
-/
import proofs.«900667_g7700000000000668_dist_ag_v7x_xyz2x2x2_y_m32768_n1024_bf16_1_alg».proof.Proof.Inv

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : (c : Dev nD) → Buf (Elt F) ((c : Thread nD τ).loc main_arg0))

/-- The kernel's own (scoped) semaphores: all 136 DMA semaphores. -/
abbrev osem : Fin 136 → SemLoc sig := fun s => .dma s

theorem ownSemFacts : Pipeline.OwnSemFacts cfg0.spec osem := by decide

/-- What the global step leaves device c: its ghost state at some names, and the eight semaphores of its local
    copies at zero. -/
def G' (c : Dev nD) : sProp 𝕄 := iprop((∃ K, ghost A K c) ∗ localSems (F := F) c)

end Cert.KernelIdeal.AG

end
-- ==== Proof.Run.lean ====
/-
The launch assembled: from any memory with zero counters, the eight kernels run to completion and leave every
device's output array holding the gathered rows, converted, and its input half unchanged.

The pallas_call has no window and no prefetched table.  The input half and the output array are unscoped: the
launch hands them whole to each device, which carries them with its ghost state, its credit and the level facts
into its kernel's precondition, and out of its postcondition to the end, where they are read against the final
state.  The three scratch buffers are scoped: they enter at the kernel's entry and leave at its exit, as do the
kernel's own DMA semaphores, back at zero.  The body's obligation and the global step that turns what the launch
deals into each device's ghost state are hypotheses here.
-/
import proofs.«900667_g7700000000000668_dist_ag_v7x_xyz2x2x2_y_m32768_n1024_bf16_1_alg».proof.Proof.Credit
import proofs.«900667_g7700000000000668_dist_ag_v7x_xyz2x2x2_y_m32768_n1024_bf16_1_alg».proof.Proof.LaunchDefs
import proofs.«900667_g7700000000000668_dist_ag_v7x_xyz2x2x2_y_m32768_n1024_bf16_1_alg».proof.Proof.Gen.KernelIdeal.Points
import Idealize.ShloMosaic.Lib.Pipeline.Launch
import Idealize.ShloMosaic.Lib.Pipeline.Kit

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The input half and the output array of device c in the initial memory. -/
abbrev Am (c : Dev nD) : Buf (Elt F) ((c : Thread nD τ).loc main_arg0) := m ((c : Thread nD τ).loc main_arg0)
abbrev Vm (c : Dev nD) : Buf (Elt F) ((c : Thread nD τ).loc main_v1) := m ((c : Thread nD τ).loc main_v1)

/-! ## What travels from the launch into the kernel and from the kernel to the end -/

/-- What device c carries from the launch to its kernel's entry: its start and its two arrays, whole. -/
def X (c : Dev nD) : sProp 𝕄 :=
  iprop(start (Am m) c ∗ (((c : Thread nD τ).loc main_arg0) ↦{fullShare} Am m c) ∗ (((c : Thread nD τ).loc main_v1) ↦{fullShare} Vm m c))

/-- What it carries from its kernel's exit to the end: the input half unchanged, the output array gathered. -/
def Y (c : Dev nD) : sProp 𝕄 :=
  iprop((((c : Thread nD τ).loc main_arg0) ↦{fullShare} Am m c) ∗ (((c : Thread nD τ).loc main_v1) ↦{fullShare} Gout (Am m) c))

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Am m) c)
      ⊢ |={Set.univ}=> iprop(X m c ∗ emp) := by
  rw [Pipeline.unscopedRestP_none, unscopedRest0_eq]
  unfold G' X start
  iintro ⟨⟨Ha, Hv⟩, Hlev, Hcr, -, ⟨HG, Hloc⟩⟩
  ihave Hc := (creds (F := F) c) $$ Hcr
  imodintro
  isplitl
  · isplitl [HG Hc Hloc Hlev]
    · isplitl [HG]; · iexact HG
      isplitl [Hc]; · iexact Hc
      isplitl [Hloc]; · iexact Hloc
      iexact Hlev
    · isplitl [Ha]; · iexact Ha
      iexact Hv
  · iempintro

theorem phi0_intro (c : Dev nD) :
    iprop(X m c ∗ Pipeline.prefHeld Pipeline.Prefetch.none c (fun _ => fullShare.right) (fun k => k.elim0) ∗ Pipeline.scopedRest cfg0.spec c)
      ⊢ (dats (Am m) (Vm m) 0 c).Φ 0 := by
  rw [show (dats (Am m) (Vm m) 0 c).Φ 0 = Φ₀ (Am m) (Vm m) c from rfl, scopedRest0_eq]
  unfold Φ₀ X bufs0
  iintro ⟨⟨Hs, Ha, Hv⟩, -, ⟨H0, H1, H2⟩⟩
  isplitl [Hs]; · iexact Hs
  isplitl [Ha]; · iexact Ha
  isplitl [Hv]; · iexact Hv
  isplitl [H0]; · iexact H0
  isplitl [H1]; · iexact H1
  iexact H2

theorem phi1_exit (c : Dev nD) :
    (dats (Am m) (Vm m) 0 c).Φ (Fin.last cfg0.N) ⊢ iprop(Y m c ∗ Pipeline.ownSems0 osem c ∗ Pipeline.scopedRest cfg0.spec c) := by
  rw [show (dats (Am m) (Vm m) 0 c).Φ (Fin.last cfg0.N) = Φ₁ (Am m) c from rfl, scopedRest0_eq]
  unfold Φ₁ bufs1 Y sems1 Pipeline.ownSems0
  iintro ⟨⟨Ha, Hv, H0, H1, H2⟩, Hs⟩
  isplitl [Ha Hv]
  · isplitl [Ha]; · iexact Ha
    iexact Hv
  isplitl [Hs]; · iexact Hs
  isplitl [H0]; · iexact H0
  isplitl [H1]; · iexact H1
  iexact H2

/-- No window, so no staging cell to wait on. -/
theorem waits (c : Dev nD) : (levAts L lv : sProp 𝕄) ⊢ Pipeline.cellsWaits cfgs (dats (Am m) (Vm m)) () 0 c :=
  Pipeline.cellsWaits_intro cfgs (dats (Am m) (Vm m)) () 0 c fun w s t => w.elim0

/-- What the end reads off device c's memory. -/
def QY (c : Dev nD) (s : MemSt nD τ sig (Elt F)) : Prop :=
  s.mem ((c : Thread nD τ).loc main_v1) = Gout (Am m) c ∧ s.mem ((c : Thread nD τ).loc main_arg0) = m ((c : Thread nD τ).loc main_arg0)

theorem read_end (c : Dev nD) (s' : Phys nD τ sig (Elt F)) :
    iprop(Y m c ∗ emp ∗ SI s') ⊢ |={Set.univ}=> iprop(⌜QY m c s'.mem⌝ ∗ (SI s' : sProp 𝕄)) := by
  unfold Y
  iintro ⟨⟨Ha, Hv⟩, -, HSI⟩
  icombine HSI Ha gives %ha
  icombine HSI Hv gives %hv
  imodintro
  isplitr
  · ipureintro; exact ⟨Buf.eq_of_forall_mem_univ hv, Buf.eq_of_forall_mem_univ ha⟩
  iexact HSI

/-! ## The run -/

set_option maxRecDepth 8000 in
/-- At the compiled mesh of eight devices, for any float values, from any memory with zero counters: every weakly
    fair execution of @main terminates, and every final state has each device's output array holding the gathered
    rows, converted, and its input half unchanged. -/
theorem run_main (G : Dev nD → sProp 𝕄) (u₀ : UU)
    (hbody : ∀ c : Dev nD, Pipeline.BodyObligationLoose (dats (Am m) (Vm m) 0 c) (defs₀ (F := F)) 𝒱₀ () Set.univ)
    (hu₀ : (ownU u₀ : sProp 𝕄) ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄) ⊢ |={Set.univ}=> bigSep Finset.univ (G' (Am m))) :
    θ_run defs (onTc (τ := τ) (main (F := F))) ⟨m, fun _ => 0, ρ⟩ (fun r => ∀ c : Dev nD,
      r.2.mem ((c.tc : Thread nD τ).loc main_v1) = Gout (Am m) c ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats (Am m) (Vm m)) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := fun c w => w.elim0)
    (hdistinct := winFacts0.arr_inj)
    (O₀ := O₀) (howed₀ := fun _ => rfl) (howedN := fun _ => rfl)
    (L := L) (lv := lv) (hL := L_of_ne) (hwaits := waits m)
    (G := G) (G' := G' (Am m)) (u₀ := u₀)
    (hu₀ := hu₀)
    (hglob := hglob)
    (hA := fun _ w => w.elim0) (hpf := fun _ k => k.elim0)
    (X := X m) (Y := Y m) (Z := fun _ => iprop(emp))
    (hX := start_intro m ρ) (hin := phi0_intro m) (hout := phi1_exit m)
    (QY := QY m)
    (hY := read_end m)
    (hQ := fun _ h c => (h c).2.2)

end Cert.KernelIdeal.AG

end
-- ==== Proof.Fund.lean ====
/-
The launch of the all-gather's protocol: the ghost state of its 8 * 129 semaphore cells is funded under one update,
every cell's invariant allocated, and each device dealt what it starts from.

A device's cells: its barrier cell and, for each transfer (family f, number i), its send and its receive cell.  A
barrier cell's three duty tokens go to the three neighbours that pay them; a receive cell's token goes to the
neighbour whose transfer lands on it; a send cell's token stays.  The eight semaphores of the local copies take no
part in the rounds discipline: their counters at zero stay in the device's hand.
-/
import proofs.«900667_g7700000000000668_dist_ag_v7x_xyz2x2x2_y_m32768_n1024_bf16_1_alg».proof.Proof.LaunchDefs

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Indexing the cells -/

instance : Fintype Fam := ⟨{.yq, .xf, .zf, .xd, .zd}, fun f => by cases f <;> decide⟩

theorem bigSep_fam (Φ : Fam → sProp 𝕄) : bigSep Finset.univ Φ = iprop(Φ .yq ∗ Φ .xf ∗ Φ .zf ∗ Φ .xd ∗ Φ .zd) :=
  bigSep_univ_eq_bigSepL ([.yq, .xf, .zf, .xd, .zd] : List Fam) (by decide) (by decide) Φ

/-- The DMA semaphore of a transfer: its send semaphore (false) or its receive semaphore (true). -/
def dsem : Tr × Bool → DmaSem sig
  | (⟨f, i⟩, false) => sS f i
  | (⟨f, i⟩, true) => rS f i

theorem decode_dsem : ∀ tb : Tr × Bool, decode (dsem tb) = some (tb.2, tb.1)
  | (⟨f, i⟩, false) => decode_sS f i
  | (⟨f, i⟩, true) => decode_rS f i

/-- A device's cells under the rounds discipline: the barrier cell, and two per transfer. -/
abbrev CIx : Type := Unit ⊕ (Tr × Bool)

def csem : CIx → SemLoc sig
  | .inl _ => .reg barS
  | .inr tb => .dma (dsem tb)

abbrev kcell (ck : Dev nD × CIx) : GSem nD τ sig := ((ck.1 : Thread nD τ), csem ck.2)

theorem csem_injective : Function.Injective csem := by
  rintro (u | tb) (u' | tb') h
  · rfl
  · have h' : (SemLoc.reg barS : SemLoc sig) = .dma (dsem tb') := h
    cases h'
  · have h' : (SemLoc.dma (dsem tb) : SemLoc sig) = .reg barS := h
    cases h'
  · have h1 : dsem tb = dsem tb' := SemLoc.dma.inj h
    have h2 := congrArg decode h1
    rw [decode_dsem, decode_dsem] at h2
    have h3 := Option.some.inj h2
    obtain ⟨t, b⟩ := tb; obtain ⟨t', b'⟩ := tb'
    cases h3; rfl

theorem kcell_injective : Function.Injective (kcell : Dev nD × CIx → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

def ourCells : Finset (GSem nD τ sig) := Finset.univ.map ⟨kcell, kcell_injective⟩

/-- The duty tokens of a device's own cells: the barrier cell's three, one per transfer cell. -/
abbrev TIx : Type := Fin 3 ⊕ (Tr × Bool)

abbrev tokOf (cj : Dev nD × TIx) : GSem nD τ sig × ℕ × Fin 3 := match cj.2 with
  | .inl d => (barCell cj.1, 0, d)
  | .inr tb => (kcell (cj.1, .inr tb), 0, 0)

theorem tokOf_injective : Function.Injective (tokOf : Dev nD × TIx → GSem nD τ sig × ℕ × Fin 3) := by
  rintro ⟨c, (d | tb)⟩ ⟨c', (d' | tb')⟩ h
  · have h1 : c = c' := congrArg (fun x : GSem nD τ sig × ℕ × Fin 3 => x.1.1.1) h
    have h2 : d = d' := congrArg (fun x : GSem nD τ sig × ℕ × Fin 3 => x.2.2) h
    rw [h1, h2]
  · have h' : (SemLoc.reg barS : SemLoc sig) = .dma (dsem tb') := congrArg (fun x : GSem nD τ sig × ℕ × Fin 3 => x.1.2) h
    cases h'
  · have h' : (SemLoc.dma (dsem tb) : SemLoc sig) = .reg barS := congrArg (fun x : GSem nD τ sig × ℕ × Fin 3 => x.1.2) h
    cases h'
  · have h1 : kcell (c, .inr tb) = kcell (c', .inr tb') := congrArg (fun x : GSem nD τ sig × ℕ × Fin 3 => x.1) h
    have h2 := kcell_injective h1
    cases h2; rfl

def ourToks : Finset (GSem nD τ sig × ℕ × Fin 3) := Finset.univ.map ⟨tokOf, tokOf_injective⟩

def u₀ : UU :=
  (initOf (Pipeline.cells cfgs cellOf_inj) (Pipeline.launchToks cfgs cellOf_inj), (initOf ourCells ourToks, 1))

/-! ## Sums over the cells of one device -/

theorem bigSep_bool (Ψ : Bool → sProp 𝕄) : bigSep Finset.univ Ψ = iprop(Ψ false ∗ Ψ true) :=
  bigSep_univ_eq_bigSepL [false, true] (by decide) (by decide) Ψ

theorem bigSep_fin3 (Φ : Fin 3 → sProp 𝕄) : bigSep Finset.univ Φ = iprop(Φ 0 ∗ Φ 1 ∗ Φ 2) :=
  bigSep_univ_eq_bigSepL [0, 1, 2] (by decide) (by decide) Φ

/-- A sum over the transfer cells, by family and number: the send cell's summand and the receive cell's. -/
theorem bigSep_trb (Ψ : Tr × Bool → sProp 𝕄) :
    bigSep Finset.univ Ψ
      = bigSep Finset.univ fun f : Fam => bigSep Finset.univ fun i : Fin f.n => iprop(Ψ (⟨f, i⟩, false) ∗ Ψ (⟨f, i⟩, true)) := by
  rw [bigSep_univ_prod, Pipeline.bigSep_univ_sigma]
  exact bigSep_congr fun f _ => bigSep_congr fun i _ => bigSep_bool _

theorem bigSep_cix (Ψ : CIx → sProp 𝕄) :
    bigSep Finset.univ Ψ
      = iprop(Ψ (.inl ()) ∗ bigSep Finset.univ fun f : Fam => bigSep Finset.univ fun i : Fin f.n =>
          iprop(Ψ (.inr (⟨f, i⟩, false)) ∗ Ψ (.inr (⟨f, i⟩, true)))) := by
  rw [bigSep_univ_sum, bigSep_univ_of_subsingleton (), bigSep_trb]
  rfl

/-! ## What the launch element deals each device -/

/-- The duty tokens of device c's own cells. -/
def toks (c : Dev nD) : sProp 𝕄 :=
  iprop((bigSep Finset.univ fun d : Fin 3 => dutyTok ER (barCell c) 0 d)
    ∗ bigSep Finset.univ fun tb : Tr × Bool => dutyTok ER (kcell (c, .inr tb)) 0 0)

/-- What the launch element deals device c: its cells' round states, positions and first rounds, and its cells' tokens. -/
def G (A : (c : Dev nD) → Buf (Elt F) ((c : Thread nD τ).loc main_arg0)) (c : Dev nD) : sProp 𝕄 :=
  iprop((bigSep Finset.univ fun k : CIx => roundState ER (Rd A) (kcell (c, k)) 0)
    ∗ (bigSep Finset.univ fun k : CIx => iprop(atPos ER (kcell (c, k)) 0 ∅ 0 ∗ reached ER (kcell (c, k)) 0)) ∗ toks (F := F) c)

theorem bigSep_ourCells (Φ : GSem nD τ sig → sProp 𝕄) :
    bigSep ourCells Φ = bigSep Finset.univ fun c : Dev nD => bigSep Finset.univ fun k : CIx => Φ (kcell (c, k)) := by
  unfold ourCells; rw [bigSep_map, bigSep_univ_prod]; rfl

theorem bigSep_ourToks :
    bigSep ourToks (fun x => (dutyTok ER x.1 x.2.1 x.2.2 : sProp 𝕄)) = bigSep Finset.univ fun c : Dev nD => toks (F := F) c := by
  unfold ourToks; rw [bigSep_map, bigSep_univ_prod]
  exact bigSep_congr fun c _ => by unfold toks; rw [bigSep_univ_sum]; rfl

theorem fund_cells (A : (c : Dev nD) → Buf (Elt F) ((c : Thread nD τ).loc main_arg0)) :
    BI.own (ER (initOf ourCells ourToks)) ⊢ (|==> bigSep Finset.univ (G A) : sProp 𝕄) := by
  iintro HX
  imod (Rounds.fund ER (Rd A) ourCells ourToks) $$ HX with ⟨Hst, Hr, Hat, Htok⟩
  imodintro
  ihave Hst' := (Entails.of_eq (bigSep_ourCells fun g => roundState ER (Rd A) g 0)) $$ Hst
  ihave Hat' := (Entails.of_eq (bigSep_ourCells (F := F) fun g => atPos ER g 0 ∅ 0)) $$ Hat
  ihave Hr' := (Entails.of_eq (bigSep_ourCells (F := F) fun g => reached ER g 0)) $$ Hr
  ihave Htok' := (Entails.of_eq (bigSep_ourToks (F := F))) $$ Htok
  unfold G; simp only [bigSep_sep']
  isplitl [Hst']; · iexact Hst'
  isplitl [Hat' Hr']
  · isplitl [Hat'] <;> iassumption
  iexact Htok'

theorem hu₀ (A : (c : Dev nD) → Buf (Elt F) ((c : Thread nD τ).loc main_arg0)) :
    (ownU u₀ : sProp 𝕄)
      ⊢ |={Set.univ}=> iprop(BI.own (EP (initOf (Pipeline.cells cfgs cellOf_inj) (Pipeline.launchToks cfgs cellOf_inj))) ∗ bigSep Finset.univ (G A)) := by
  unfold u₀
  iintro Hu
  ihave H := (ownU_pair _ _) $$ Hu
  icases H with ⟨HP, HX⟩
  ihave H2 := (own_pair_emb (embR : Emb (UB × Counters) 𝕄) (initOf ourCells ourToks) (1 : Counters)) $$ HX
  icases H2 with ⟨HX, -⟩
  imod (fund_cells A) $$ HX with HG
  imodintro
  isplitl [HP] <;> iassumption

/-! ## The semaphores at zero -/

/-- The 136 DMA semaphores: the eight of the local copies and the 128 of the transfers. -/
def lsem : (Fin 4 ⊕ Fin 4) ⊕ (Tr × Bool) → Fin 136 := Sum.elim (Sum.elim inS outS) dsem

theorem lsem_injective : Function.Injective lsem := by
  have hio : ∀ s s' : Fin 4, inS s ≠ outS s' := by decide
  have hi : ∀ s s' : Fin 4, inS s = inS s' → s = s' := by decide
  have ho : ∀ s s' : Fin 4, outS s = outS s' → s = s' := by decide
  have hd : ∀ (x : Fin 4 ⊕ Fin 4) (tb : Tr × Bool), Sum.elim inS outS x ≠ dsem tb := by
    rintro (s | s) tb h
    · have := congrArg decode h; rw [decode_dsem] at this
      exact absurd ((decode_inS s).symm.trans this) (by simp)
    · have := congrArg decode h; rw [decode_dsem] at this
      exact absurd ((decode_outS s).symm.trans this) (by simp)
  rintro ((s | s) | tb) ((s' | s') | tb') h
  · rw [hi s s' h]
  · exact absurd h (hio s s')
  · exact absurd h (hd (.inl s) tb')
  · exact absurd h.symm (hio s' s)
  · rw [ho s s' h]
  · exact absurd h (hd (.inr s) tb')
  · exact absurd h.symm (hd (.inl s') tb)
  · exact absurd h.symm (hd (.inr s') tb)
  · have h1 : dsem tb = dsem tb' := h
    have h2 := congrArg decode h1
    rw [decode_dsem, decode_dsem] at h2
    have h3 := Option.some.inj h2
    obtain ⟨t, b⟩ := tb; obtain ⟨t', b'⟩ := tb'
    cases h3; rfl

theorem lsem_bijective : Function.Bijective lsem :=
  (Fintype.bijective_iff_injective_and_card lsem).mpr ⟨lsem_injective, by decide⟩

def semEquiv : ((Fin 4 ⊕ Fin 4) ⊕ (Tr × Bool)) ≃ Fin 136 := Equiv.ofBijective lsem lsem_bijective

/-- The kernel's own semaphores at zero: the local copies' eight, and the transfer cells' counters. -/
theorem ownSems0_eq (c : Dev nD) :
    (Pipeline.ownSems0 (Ix := Unit) (Name := ℕ) (U := UU) (Lvl := ℕ) (Val := Elt F) (τ := τ) osem c : sProp 𝕄)
      = iprop(localSems (F := F) c ∗ bigSep Finset.univ fun tb : Tr × Bool => semVal (kcell (c, .inr tb)) 0) := by
  unfold Pipeline.ownSems0 localSems
  refine (bigSep_univ_equiv semEquiv _).trans ?_
  rw [bigSep_univ_sum, bigSep_univ_sum]
  rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem bigSep_cix' (Ψ : CIx → sProp 𝕄) :
    bigSep Finset.univ Ψ = iprop(Ψ (.inl ()) ∗ bigSep Finset.univ fun tb : Tr × Bool => Ψ (.inr tb)) := by
  rw [bigSep_univ_sum, bigSep_univ_of_subsingleton ()]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : CIx => semVal (kcell (c, k)) 0) ∗ localSems (F := F) c) : sProp 𝕄) := by
  rw [ownSems0_eq, unscopedSems0_eq, bigSep_cix']
  iintro ⟨⟨HL, HT⟩, HB⟩
  isplitl [HB HT]
  · isplitl [HB]; · iexact HB
    iexact HT
  · iexact HL

/-! ## The cells' invariants allocated -/

theorem core_alloc (A : (c : Dev nD) → Buf (Elt F) ((c : Thread nD τ).loc main_arg0)) (c : Dev nD) :
    iprop(Pipeline.ownSems0 (Ix := Unit) (Name := ℕ) (U := UU) (Lvl := ℕ) (Val := Elt F) (τ := τ) osem c ∗ unscopedSems0 c ∗ G A c)
      ⊢ |={Set.univ}=> iprop((bigSep Finset.univ fun k : CIx => iprop(∃ κ : ℕ, cellInv ER (Rd A) κ (kcell (c, k))))
          ∗ (bigSep Finset.univ fun k : CIx => iprop(atPos ER (kcell (c, k)) 0 ∅ 0 ∗ reached ER (kcell (c, k)) 0))
          ∗ toks (F := F) c ∗ localSems (F := F) c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun k : CIx => semVal (kcell (c, k)) 0) ∗ bigSep Finset.univ fun k : CIx => roundState ER (Rd A) (kcell (c, k)) 0)
      ⊢ (|={Set.univ}=> bigSep Finset.univ fun k : CIx => iprop(∃ κ : ℕ, cellInv ER (Rd A) κ (kcell (c, k))) : sProp 𝕄) from by
        rw [← bigSep_sep']
        exact (bigSep_mono fun k _ => (Rounds.body_intro ER (Rd A) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-! ## The records every device reads -/

/-- Every cell's invariant at the names K, and every cell's first round. -/
def gRecords (A : (c : Dev nD) → Buf (Elt F) ((c : Thread nD τ).loc main_arg0)) (K : GSem nD τ sig → ℕ) : sProp 𝕄 :=
  iprop((bigSep ourCells fun g => cellInv ER (Rd A) (K g) g) ∗ bigSep ourCells fun g => reached ER g 0)

instance gRecords_persistent (A : (c : Dev nD) → Buf (Elt F) ((c : Thread nD τ).loc main_arg0)) (K : GSem nD τ sig → ℕ) : BI.Persistent (gRecords A K) := by
  unfold gRecords; infer_instance

theorem mem_ourCells (ck : Dev nD × CIx) : kcell ck ∈ ourCells := Finset.mem_map_of_mem _ (Finset.mem_univ ck)

theorem inv_at' (A : (c : Dev nD) → Buf (Elt F) ((c : Thread nD τ).loc main_arg0)) (K : GSem nD τ sig → ℕ) (ck : Dev nD × CIx) :
    (bigSep ourCells fun g => (cellInv ER (Rd A) (K g) g : sProp 𝕄)) ⊢ cellInv ER (Rd A) (K (kcell ck)) (kcell ck) :=
  bigSep_elim (mem_ourCells ck)
theorem reached_at' (ck : Dev nD × CIx) :
    (bigSep ourCells fun g => (reached ER g 0 : sProp 𝕄)) ⊢ reached ER (kcell ck) 0 :=
  bigSep_elim (mem_ourCells ck)

theorem inv_at (A : (c : Dev nD) → Buf (Elt F) ((c : Thread nD τ).loc main_arg0)) (K : GSem nD τ sig → ℕ) (ck : Dev nD × CIx) :
    gRecords A K ⊢ cellInv ER (Rd A) (K (kcell ck)) (kcell ck) := by
  unfold gRecords
  iintro ⟨HI, -⟩
  iapply (inv_at' A K ck)
  iexact HI

theorem reached_at (A : (c : Dev nD) → Buf (Elt F) ((c : Thread nD τ).loc main_arg0)) (K : GSem nD τ sig → ℕ) (ck : Dev nD × CIx) :
    gRecords A K ⊢ reached ER (kcell ck) 0 := by
  unfold gRecords
  iintro ⟨-, HR⟩
  iapply (reached_at' (F := F) ck)
  iexact HR

theorem inv_bar (A : (c : Dev nD) → Buf (Elt F) ((c : Thread nD τ).loc main_arg0)) (K : GSem nD τ sig → ℕ) (c : Dev nD) :
    gRecords A K ⊢ cellInv ER (Rd A) (K (barCell c)) (barCell c) := inv_at A K (c, .inl ())
theorem inv_s (A : (c : Dev nD) → Buf (Elt F) ((c : Thread nD τ).loc main_arg0)) (K : GSem nD τ sig → ℕ) (c : Dev nD) (f : Fam) (i : Fin f.n) :
    gRecords A K ⊢ cellInv ER (Rd A) (K (sCell f c i)) (sCell f c i) := inv_at A K (c, .inr (⟨f, i⟩, false))
theorem inv_r (A : (c : Dev nD) → Buf (Elt F) ((c : Thread nD τ).loc main_arg0)) (K : GSem nD τ sig → ℕ) (c : Dev nD) (f : Fam) (i : Fin f.n) :
    gRecords A K ⊢ cellInv ER (Rd A) (K (rCell f c i)) (rCell f c i) := inv_at A K (c, .inr (⟨f, i⟩, true))
theorem reached_bar (A : (c : Dev nD) → Buf (Elt F) ((c : Thread nD τ).loc main_arg0)) (K : GSem nD τ sig → ℕ) (c : Dev nD) :
    gRecords A K ⊢ reached ER (barCell c) 0 := reached_at A K (c, .inl ())
theorem reached_s (A : (c : Dev nD) → Buf (Elt F) ((c : Thread nD τ).loc main_arg0)) (K : GSem nD τ sig → ℕ) (c : Dev nD) (f : Fam) (i : Fin f.n) :
    gRecords A K ⊢ reached ER (sCell f c i) 0 := reached_at A K (c, .inr (⟨f, i⟩, false))
theorem reached_r (A : (c : Dev nD) → Buf (Elt F) ((c : Thread nD τ).loc main_arg0)) (K : GSem nD τ sig → ℕ) (c : Dev nD) (f : Fam) (i : Fin f.n) :
    gRecords A K ⊢ reached ER (rCell f c i) 0 := reached_at A K (c, .inr (⟨f, i⟩, true))

theorem famInvs_intro (A : (c : Dev nD) → Buf (Elt F) ((c : Thread nD τ).loc main_arg0)) (K : GSem nD τ sig → ℕ) (c : Dev nD) (f : Fam) :
    gRecords A K ⊢ famInvs A K c f := by
  unfold famInvs
  refine bigSep_intro_persistent fun i _ => ?_
  iintro #H
  isplitr; · iapply (inv_s A K c f i); iexact H
  isplitr; · iapply (inv_r A K c f i); iexact H
  iapply (inv_r A K (peer f c) f i); iexact H

theorem famReached_intro (A : (c : Dev nD) → Buf (Elt F) ((c : Thread nD τ).loc main_arg0)) (K : GSem nD τ sig → ℕ) (c : Dev nD) (f : Fam) :
    gRecords A K ⊢ famReached (F := F) c f := by
  unfold famReached
  refine bigSep_intro_persistent fun i _ => ?_
  iintro #H
  isplitr; · iapply (reached_s A K c f i); iexact H
  isplitr; · iapply (reached_r A K c f i); iexact H
  iapply (reached_r A K (peer f c) f i); iexact H

theorem records_intro (A : (c : Dev nD) → Buf (Elt F) ((c : Thread nD τ).loc main_arg0)) (K : GSem nD τ sig → ℕ) (c : Dev nD) :
    gRecords A K ⊢ records A K c := by
  unfold records barInvs
  iintro #H
  isplitr
  · isplitr; · iapply (inv_bar A K c); iexact H
    isplitr; · iapply (inv_bar A K (Yn c)); iexact H
    isplitr; · iapply (inv_bar A K (Xn c)); iexact H
    iapply (inv_bar A K (Zn c)); iexact H
  isplitr; · iapply (famInvs_intro A K c .yq); iexact H
  isplitr; · iapply (famInvs_intro A K c .xf); iexact H
  isplitr; · iapply (famInvs_intro A K c .zf); iexact H
  isplitr; · iapply (famInvs_intro A K c .xd); iexact H
  isplitr; · iapply (famInvs_intro A K c .zd); iexact H
  isplitr; · iapply (reached_bar A K (Yn c)); iexact H
  isplitr; · iapply (reached_bar A K (Xn c)); iexact H
  isplitr; · iapply (reached_bar A K (Zn c)); iexact H
  isplitr; · iapply (famReached_intro A K c .yq); iexact H
  isplitr; · iapply (famReached_intro A K c .xf); iexact H
  isplitr; · iapply (famReached_intro A K c .zf); iexact H
  isplitr; · iapply (famReached_intro A K c .xd); iexact H
  iapply (famReached_intro A K c .zd); iexact H

/-! ## The tokens dealt to the devices that pay them -/

def peerEq (f : Fam) : Dev nD ≃ Dev nD := ⟨peer f, peer f, peer_peer f, peer_peer f⟩

/-- The tokens of device c's own transfer cells of family f; -/
def ownToks (c : Dev nD) (f : Fam) : sProp 𝕄 :=
  bigSep Finset.univ fun i : Fin f.n => iprop(dutyTok ER (sCell f c i) 0 0 ∗ dutyTok ER (rCell f c i) 0 0)

/-- the tokens of the duties device c pays. -/
def payToks (c : Dev nD) : sProp 𝕄 :=
  iprop((dutyTok ER (barCell (Yn c)) 0 0 ∗ dutyTok ER (barCell (Xn c)) 0 1 ∗ dutyTok ER (barCell (Zn c)) 0 2)
    ∗ bigSep Finset.univ fun f : Fam => famToks (F := F) c f)

theorem toks_eq (c : Dev nD) :
    toks (F := F) c = iprop((dutyTok ER (barCell c) 0 0 ∗ dutyTok ER (barCell c) 0 1 ∗ dutyTok ER (barCell c) 0 2)
      ∗ bigSep Finset.univ fun f : Fam => ownToks (F := F) c f) := by
  unfold toks; rw [bigSep_fin3, bigSep_trb]; rfl

/-- A receive cell's token goes to the neighbour whose transfer lands on it. -/
theorem fam_around (f : Fam) :
    (bigSep Finset.univ fun c : Dev nD => ownToks (F := F) c f) = bigSep Finset.univ fun c : Dev nD => famToks (F := F) c f := by
  unfold ownToks famToks
  simp only [bigSep_sep']
  rw [bigSep_univ_equiv (peerEq f) (fun c : Dev nD => bigSep Finset.univ fun i : Fin f.n => (dutyTok ER (rCell f c i) 0 0 : sProp 𝕄))]
  rfl

theorem toks_around : (bigSep Finset.univ fun c : Dev nD => toks (F := F) c) ⊢ bigSep Finset.univ fun c : Dev nD => payToks (F := F) c := by
  refine Entails.of_eq ?_
  rw [bigSep_congr (s := Finset.univ) (fun (c : Dev nD) _ => toks_eq (F := F) c)]
  unfold payToks
  rw [bigSep_sep', bigSep_sep', bigSep_sep', bigSep_sep', bigSep_sep', bigSep_sep',
    bigSep_univ_equiv Yeq (fun c : Dev nD => (dutyTok ER (barCell c) 0 0 : sProp 𝕄)),
    bigSep_univ_equiv Xeq (fun c : Dev nD => (dutyTok ER (barCell c) 0 1 : sProp 𝕄)),
    bigSep_univ_equiv Zeq (fun c : Dev nD => (dutyTok ER (barCell c) 0 2 : sProp 𝕄)),
    bigSep_univ_comm (fun (c : Dev nD) (f : Fam) => ownToks (F := F) c f),
    bigSep_univ_comm (fun (c : Dev nD) (f : Fam) => famToks (F := F) c f),
    bigSep_congr (s := Finset.univ) (fun (f : Fam) _ => fam_around (F := F) f)]
  rfl

/-! ## Each device's ghost state -/

theorem pos_eq (c : Dev nD) :
    (bigSep Finset.univ fun k : CIx => (atPos ER (kcell (c, k)) 0 ∅ 0 : sProp 𝕄))
      = iprop(atPos ER (barCell c) 0 ∅ 0 ∗ famPos (F := F) c .yq ∗ famPos (F := F) c .xf ∗ famPos (F := F) c .zf
          ∗ famPos (F := F) c .xd ∗ famPos (F := F) c .zd) := by
  rw [bigSep_cix, bigSep_fam]; rfl

theorem ghost_intro (A : (c : Dev nD) → Buf (Elt F) ((c : Thread nD τ).loc main_arg0)) (K : GSem nD τ sig → ℕ) (c : Dev nD) :
    iprop(gRecords A K ∗ (bigSep Finset.univ fun k : CIx => atPos ER (kcell (c, k)) 0 ∅ 0) ∗ payToks (F := F) c ∗ localSems (F := F) c)
      ⊢ G' A c := by
  rw [pos_eq]
  unfold payToks G' ghost linear
  rw [bigSep_fam]
  iintro ⟨#HR, ⟨Hb, Pyq, Pxf, Pzf, Pxd, Pzd⟩, ⟨⟨Ty, Tx, Tz⟩, Tyq, Txf, Tzf, Txd, Tzd⟩, Hloc⟩
  isplitr [Hloc]
  · iexists K
    isplitr
    · iapply (records_intro A K c); iexact HR
    isplitl [Hb]; · iexact Hb
    isplitl [Pyq]; · iexact Pyq
    isplitl [Pxf]; · iexact Pxf
    isplitl [Pzf]; · iexact Pzf
    isplitl [Pxd]; · iexact Pxd
    isplitl [Pzd]; · iexact Pzd
    isplitl [Ty]; · iexact Ty
    isplitl [Tx]; · iexact Tx
    isplitl [Tz]; · iexact Tz
    isplitl [Tyq]; · iexact Tyq
    isplitl [Txf]; · iexact Txf
    isplitl [Tzf]; · iexact Tzf
    isplitl [Txd]; · iexact Txd
    iexact Tzd
  · iexact Hloc

theorem bigSep_sep3 {I : Type} (s : Finset I) (X Y Z : I → sProp 𝕄) :
    bigSep s (fun i => iprop(X i ∗ Y i ∗ Z i)) = iprop(bigSep s X ∗ bigSep s Y ∗ bigSep s Z) := by
  rw [bigSep_sep', bigSep_sep']

theorem regroup (A : (c : Dev nD) → Buf (Elt F) ((c : Thread nD τ).loc main_arg0)) :
    (bigSep Finset.univ fun c : Dev nD => iprop((bigSep Finset.univ fun k : CIx => iprop(∃ κ : ℕ, cellInv ER (Rd A) κ (kcell (c, k))))
          ∗ (bigSep Finset.univ fun k : CIx => iprop(atPos ER (kcell (c, k)) 0 ∅ 0 ∗ reached ER (kcell (c, k)) 0))
          ∗ toks (F := F) c ∗ localSems (F := F) c) : sProp 𝕄)
      ⊢ bigSep Finset.univ (G' A) := by
  rw [bigSep_sep', bigSep_sep', bigSep_sep',
    ← bigSep_ourCells (fun g => iprop(∃ κ : ℕ, cellInv ER (Rd A) κ g)),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_ourCells (fun g => (reached ER g 0 : sProp 𝕄))]
  iintro ⟨HI, ⟨Hat, #HR⟩, Htok, Hloc⟩
  ihave HK := (BI.bigSep_exists_pi ourCells (fun (g : GSem nD τ sig) (κ : ℕ) => (cellInv ER (Rd A) κ g : sProp 𝕄))) $$ HI
  icases HK with ⟨%K, #HI⟩
  ihave Htk := (toks_around (F := F)) $$ Htok
  iapply (bigSep_with_persistent (R := gRecords A K) fun c _ => ghost_intro A K c)
  isplitr
  · unfold gRecords; isplitl; · iexact HI
    iexact HR
  · iapply (Entails.of_eq (bigSep_sep3 Finset.univ (fun c : Dev nD => bigSep Finset.univ fun k : CIx => (atPos ER (kcell (c, k)) 0 ∅ 0 : sProp 𝕄))
      (fun c => payToks (F := F) c) (fun c => localSems (F := F) c)).symm)
    isplitl [Hat]; · iexact Hat
    isplitl [Htk]; · iexact Htk
    iexact Hloc

/-- The global step: the own and the unscoped semaphores of every device at once. -/
theorem glob (A : (c : Dev nD) → Buf (Elt F) ((c : Thread nD τ).loc main_arg0)) :
    (bigSep Finset.univ fun c => iprop(Pipeline.ownSems0 (Ix := Unit) (Name := ℕ) (U := UU) (Lvl := ℕ) (Val := Elt F) (τ := τ) osem c ∗ unscopedSems0 c ∗ G A c) : sProp 𝕄)
      ⊢ |={Set.univ}=> bigSep Finset.univ (G' A) :=
  ((bigSep_mono fun c _ => core_alloc A c).trans (bigSep_fupd _ _)).trans (BI.fupd_mono (regroup A))

end Cert.KernelIdeal.AG

end
-- ==== Proof.ValueEq.lean ====
/-
The value of the all-gather: every device ends holding the whole array, converted.

Device c = 4*x + 2*y + z holds block y of the whole array X, cut along the rows in two halves
of 32768 rows.  The device whose half row r of the gathered array is taken from always has
y-coordinate r / 32768, so row r of the gathered array is row
(r / 32768) * 32768 + r % 32768 = r of X, converted, on every device.
-/
import proofs.«900667_g7700000000000668_dist_ag_v7x_xyz2x2x2_y_m32768_n1024_bf16_1_alg».proof.Proof.Proto
import Idealize.ShloMosaic.Lib.Layout

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The y-coordinate of the device a row is taken from is the half the row lies in. -/
theorem origin_y (c : Dev nD) (r : ℕ) (hr : r < 65536) : ((origin c r).val / 2) % 2 = r / 32768 := by
  have hc : c.val < 8 := c.isLt
  unfold origin
  split
  · next h => exact h.symm
  · next h =>
    show (4 * ((r % 32768) / 16384) + 2 * (1 - (c.val / 2) % 2) + ((r % 32768) / 8192) % 2) / 2 % 2 = r / 32768
    omega

/-- On the 2x2x2 mesh numbered row-major, a dimension cut along the middle axis gives device n
    block (n / 2) % 2. -/
theorem meshLin_y (n : ℕ) : Layout.meshLin [2, 2, 2] n [1] = (n / 2) % 2 := by
  show (n / (2 * 1)) % 2 * 1 + 0 = (n / 2) % 2
  omega

/-- A dimension that is not cut is one block. -/
theorem meshLin_nil (n : ℕ) : Layout.meshLin [2, 2, 2] n [] = 0 := rfl

/-- Every device's output array is the whole array, converted. -/
theorem Gout_eq_ref (X : (⟨S65536x1024, .f32⟩ : BufTy).Contents (Elt F)) (A : (c : Dev nD) → Buf (Elt F) ((c : Thread nD τ).loc main_arg0))
    (hA : ∀ c : Dev nD, A c = Layout.blockN ⟨2, ![32768, 1024]⟩ ⟨2, ![65536, 1024]⟩ (Layout.meshBlock [2, 2, 2] ![[1], []] c) X) (c : Dev nD) :
    Gout A c = truncf .bf16 X bitsLt_bf16_f32 := by
  funext e
  show cv (A (origin c (e 0).val) (ValueIdx.ix2 ⟨(e 0).val % 32768, Nat.mod_lt _ (by decide)⟩ (e 1))) = FloatOps.truncf .bf16 bitsLt_bf16_f32 (X e)
  rw [hA]
  show cv (X _) = _
  unfold cv
  congr 2
  funext b
  apply Fin.ext
  rw [Layout.TilesN.idx_val]
  have h0 := origin_y c (e 0).val (e 0).isLt
  match b with
  | ⟨0, _⟩ =>
    show Layout.meshLin [2, 2, 2] (origin c (e 0).val).val [1] * 32768 + (e 0).val % 32768 = (e 0).val
    rw [meshLin_y, h0]
    omega
  | ⟨1, _⟩ =>
    show Layout.meshLin [2, 2, 2] (origin c (e 0).val).val [] * 1024 + (e 1).val = (e 1).val
    rw [meshLin_nil]
    omega

end Cert.KernelIdeal.AG

end
-- ==== Proof.RefSide.lean ====
/-
The reference side: its run and the value it leaves, read index by index.
-/
import proofs.«900667_g7700000000000668_dist_ag_v7x_xyz2x2x2_y_m32768_n1024_bf16_1_alg».proof.Proof.Gen.ReferenceIdeal.Run
import proofs.«900667_g7700000000000668_dist_ag_v7x_xyz2x2x2_y_m32768_n1024_bf16_1_alg».proof.Proof.Gen.ReferenceIdeal.Read
import Idealize.ShloMosaic.Lib.Layout
import Idealize.ShloMosaic.Lib.ValueIdx
import Idealize.ShloMosaic.Lib.Pipeline.Value
import Idealize.ShloMosaic.PureOps.Ideal.Laws

noncomputable section

namespace Cert.ReferenceIdeal.AG

open Idealize.ShloMosaic Idealize.SL.Sem

end Cert.ReferenceIdeal.AG

end
-- ==== Proof.Assemble.lean ====
/-
The claims of the idealized kernel, from the run.

The kernel's run leaves every device's output array holding the gathered rows, converted, and its input half
unchanged.  When every device's input half is its block of one whole array, cut along the rows in two over the
middle mesh axis, the gathered rows are the whole array's, so every device ends holding the whole array converted:
what the reference, run on the whole array, leaves in its result.  The frame claims are the two runs with the
results dropped.
-/
import proofs.«900667_g7700000000000668_dist_ag_v7x_xyz2x2x2_y_m32768_n1024_bf16_1_alg».proof.Proof.Run
import proofs.«900667_g7700000000000668_dist_ag_v7x_xyz2x2x2_y_m32768_n1024_bf16_1_alg».proof.Proof.Fund
import proofs.«900667_g7700000000000668_dist_ag_v7x_xyz2x2x2_y_m32768_n1024_bf16_1_alg».proof.Proof.ValueEq
import proofs.«900667_g7700000000000668_dist_ag_v7x_xyz2x2x2_y_m32768_n1024_bf16_1_alg».proof.Proof.RefSide
import proofs.«900667_g7700000000000668_dist_ag_v7x_xyz2x2x2_y_m32768_n1024_bf16_1_alg».proof.Defs
import proofs.«900667_g7700000000000668_dist_ag_v7x_xyz2x2x2_y_m32768_n1024_bf16_1_alg».proof.Proof.Gen.Pre_finite_inputs_Kernel
import proofs.«900667_g7700000000000668_dist_ag_v7x_xyz2x2x2_y_m32768_n1024_bf16_1_alg».proof.Proof.Gen.Pre_finite_inputs_ReferenceIdeal

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The kernel's run at the ideal instance, from the body's obligation. -/
theorem run_ideal
    (hbody : ∀ (m : (ℓ : Loc nD τ sig) → Buf (Elt Ideal) ℓ) (c : Dev nD),
      Pipeline.BodyObligationLoose (dats (F := Ideal) (Am m) (Vm m) 0 c) (defs₀ (F := Ideal)) 𝒱₀ () Set.univ)
    (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v1) = Gout (Am m) c ∧ r.2.mem ((c.tc : Thread nD τ).loc main_arg0) = m ((c.tc : Thread nD τ).loc main_arg0)) :=
  run_main (F := Ideal) m g (G (Am m)) u₀ (hbody m) (hu₀ (Am m)) (glob (Am m))

/-- The idealized kernel runs and leaves its input halves unchanged. -/
theorem frame_KI
    (hbody : ∀ (m : (ℓ : Loc nD τ sig) → Buf (Elt Ideal) ℓ) (c : Dev nD),
      Pipeline.BodyObligationLoose (dats (F := Ideal) (Am m) (Vm m) 0 c) (defs₀ (F := Ideal)) 𝒱₀ () Set.univ) :
    Cert.frame_KernelIdeal :=
  fun m g _ => (θ_run (defs (F := Ideal)) _ _).mono (fun _ h c => (h c).2) (run_ideal hbody m g)

/-- The idealized reference runs and leaves its input array unchanged. -/
theorem frame_RI : Cert.frame_ReferenceIdeal :=
  fun m ρ _ => (θ_run Cert.ReferenceIdeal.defs _ _).mono (fun _ h c => (h c).2) (Cert.ReferenceIdeal.Value.run (F := Ideal) m ρ)

/-- From input halves that are the blocks of one whole array, both run, every device's output array ends at the
    reference's result, the whole array converted, and the arguments of both end unchanged. -/
theorem algebraic_KI
    (hbody : ∀ (m : (ℓ : Loc nD τ sig) → Buf (Elt Ideal) ℓ) (c : Dev nD),
      Pipeline.BodyObligationLoose (dats (F := Ideal) (Am m) (Vm m) 0 c) (defs₀ (F := Ideal)) 𝒱₀ () Set.univ) :
    Cert.algebraic_KernelIdeal_ReferenceIdeal := by
  intro m g m' g' _ hblk
  have hR := Cert.ReferenceIdeal.Value.run (F := Ideal) m' g'
  refine ⟨_, ?_, (θ_run Cert.ReferenceIdeal.defs _ _).mono (fun _ h => h 0) hR⟩
  refine (θ_run (defs (F := Ideal)) _ _).mono (fun _ h c => ?_) (run_ideal hbody m g)
  obtain ⟨h1, h2⟩ := h c
  exact ⟨h1.trans (Gout_eq_ref (F := Ideal)
    (m' (((0 : Dev Cert.ReferenceIdeal.nD).tc : Thread Cert.ReferenceIdeal.nD Cert.ReferenceIdeal.τ).loc Cert.ReferenceIdeal.main_arg0))
    (Am m) hblk c), h2⟩

end Cert.KernelIdeal.AG

end
-- ==== Proof.Bits.Proto.lean ====
/-
The all-gather protocol on the 2x2x2 mesh: names.

A device is 4*x + 2*y + z.  Each device holds the y-th half (32768 rows) of the whole
array and must end holding all 65536 rows, converted to bf16.  Its own half it converts and copies
locally.  The other half arrives in four quarters of 8192 rows, each in chunks of 512 rows:
the quarter 2*x + z straight from the y-neighbour (family yq), the quarter of the x-neighbour
forwarded by it (xf), the quarter of the z-neighbour forwarded by it (zf), and the diagonal
quarter in two halves, the first eight chunks relayed by the x-neighbour (xd), the last eight by
the z-neighbour (zd).  Every transfer has a send and a receive semaphore of its own.
-/
import proofs.«900667_g7700000000000668_dist_ag_v7x_xyz2x2x2_y_m32768_n1024_bf16_1_alg».proof.Proof.Gen.Kernel
import proofs.«900667_g7700000000000668_dist_ag_v7x_xyz2x2x2_y_m32768_n1024_bf16_1_alg».proof.Proof.Gen.Kernel.Launch
import Idealize.ShloMosaic.Lib.Pipeline.Launch
import Idealize.ShloMosaic.Lib.Pipeline.Kit
import Idealize.ShloMosaic.Lib.ValueIdx
import Idealize.ShloMosaic.Lib.Tactic
import Idealize.ShloMosaic.Lib.Transfers

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the protocol's (duties Fin 3), and the counters the local
copies' invariants draw their tokens from -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

/-! ## The three neighbours: each flips one mesh coordinate -/

def Yn (c : Dev nD) : Dev nD := ⟨k0_dev1 c, k0_dev1_lt c⟩
def Xn (c : Dev nD) : Dev nD := ⟨k0_dev2 c, k0_dev2_lt c⟩
def Zn (c : Dev nD) : Dev nD := ⟨k0_dev3 c, k0_dev3_lt c⟩

theorem Yn_val (c : Dev nD) : (Yn c).val = (4 * (c.val / 4) + (c.val % 2) + 2) - 2 * ((c.val / 2) % 2) := k0_dev1_eq c
theorem Xn_val (c : Dev nD) : (Xn c).val = (2 * ((c.val / 2) % 2) + (c.val % 2) + 4) - 4 * (c.val / 4) := k0_dev2_eq c
theorem Zn_val (c : Dev nD) : (Zn c).val = (4 * (c.val / 4) + 2 * ((c.val / 2) % 2) + 1) - (c.val % 2) := k0_dev3_eq c

theorem Yn_Yn : ∀ c : Dev nD, Yn (Yn c) = c := by decide +kernel
theorem Xn_Xn : ∀ c : Dev nD, Xn (Xn c) = c := by decide +kernel
theorem Zn_Zn : ∀ c : Dev nD, Zn (Zn c) = c := by decide +kernel

def Yeq : Dev nD ≃ Dev nD := ⟨Yn, Yn, Yn_Yn, Yn_Yn⟩
def Xeq : Dev nD ≃ Dev nD := ⟨Xn, Xn, Xn_Xn, Xn_Xn⟩
def Zeq : Dev nD ≃ Dev nD := ⟨Zn, Zn, Zn_Zn, Zn_Zn⟩

/-! ## The five families of transfers -/

inductive Fam | yq | xf | zf | xd | zd
  deriving DecidableEq

/-- How many chunks a family moves. -/
@[reducible] def Fam.n : Fam → ℕ | .yq => 16 | .xf => 16 | .zf => 16 | .xd => 8 | .zd => 8

/-- The neighbour a family's transfers go to. -/
def peer : Fam → Dev nD → Dev nD | .yq => Yn | .xf => Xn | .zf => Zn | .xd => Xn | .zd => Zn

theorem peer_peer (f : Fam) (c : Dev nD) : peer f (peer f c) = c :=
  match f with
  | .yq => Yn_Yn c | .xf => Xn_Xn c | .zf => Zn_Zn c | .xd => Xn_Xn c | .zd => Zn_Zn c

/-! ## The buffers and the chunks -/

abbrev xM : Memref sig .tc .hbm S32768x1024 .f32 := Memref.whole main_arg0
abbrev oM : Memref sig .tc .hbm S65536x1024 .bf16 := Memref.whole main_v1
abbrev stM : Memref sig .tc .vmem S4x1024x1024 .f32 := Memref.whole cc0_scratch0
abbrev obM : Memref sig .tc .vmem S4x1024x1024 .bf16 := Memref.whole cc0_scratch1
abbrev sbM : Memref sig .tc .vmem S8192x1024 .bf16 := Memref.whole cc0_scratch2

theorem sb_inb (i : Fin 16) : ∀ a, (![512 * i.val, 0] : Fin 2 → Nat) a + S512x1024.size a ≤ S8192x1024.size a := by
  intro a; have := i.isLt
  fin_cases a
  · show 512 * i.val + 512 ≤ 8192; omega
  · show 0 + 1024 ≤ 1024; omega

/-- Chunk i of the send buffer: rows 512*i up to 512*i + 511. -/
def sbChunk (i : Fin 16) : Memref sig .tc .vmem S512x1024 .bf16 :=
  sbM.slice (Rect.unit (s := S8192x1024) ![512 * i.val, 0] S512x1024.size (sb_inb i)) (fun _ => rfl)

/-- Where transfer i of family f, ISSUED by device c, reads (for the forwarding families) and writes on the
    neighbour, in the output array: the offsets are the issuer's. -/
def oOff : (f : Fam) → Dev nD → Fin f.n → (Fin 2 → Nat)
  | .yq, c, i => k0_off2 c (BitVec.ofNat 32 (512 * i.val))
  | .xf, c, i => k0_off4 c (BitVec.ofNat 32 (512 * i.val))
  | .zf, c, i => k0_off4 c (BitVec.ofNat 32 (512 * i.val))
  | .xd, c, i => k0_off5 c (BitVec.ofNat 32 (512 * i.val))
  | .zd, c, i => k0_off6 c (BitVec.ofNat 32 (4096 + 512 * i.val))

theorem oOff_inb : (f : Fam) → (c : Dev nD) → (i : Fin f.n) → ∀ a, oOff f c i a + S512x1024.size a ≤ S65536x1024.size a
  | .yq, c, i => k0_off2_inb c i
  | .xf, c, i => k0_off4_inb c i
  | .zf, c, i => k0_off4_inb c i
  | .xd, c, i => k0_off5_inb c i
  | .zd, c, i => k0_off6_inb c i

/-- That chunk: 512 rows of the output array. -/
def oChunk (f : Fam) (c : Dev nD) (i : Fin f.n) : Memref sig .tc .hbm S512x1024 .bf16 :=
  oM.slice (Rect.unit (s := S65536x1024) (oOff f c i) S512x1024.size (oOff_inb f c i)) (fun _ => rfl)

/-- The chunk of the output array that local copy i (of 32, 1024 rows each) of device c writes. -/
def oOwn (c : Dev nD) (i : Fin 32) : Memref sig .tc .hbm S1024x1024 .bf16 :=
  oM.slice (Rect.unit (s := S65536x1024) (k0_off3 c (BitVec.ofNat 32 (1024 * i.val))) S1024x1024.size (k0_off3_inb c i)) (fun _ => rfl)

/-! ## The semaphores and their cells -/

theorem sem16_inb (i : Fin 16) : ∀ a, (![i.val] : Fin 1 → Nat) a + S1.size a ≤ S16.size a := by
  intro a; have := i.isLt; fin_cases a; show i.val + 1 ≤ 16; omega
theorem sem8_inb (i : Fin 8) : ∀ a, (![i.val] : Fin 1 → Nat) a + S1.size a ≤ S8.size a := by
  intro a; have := i.isLt; fin_cases a; show i.val + 1 ≤ 8; omega
theorem sem4_inb (i : Fin 4) : ∀ a, (![i.val] : Fin 1 → Nat) a + S1.size a ≤ S4.size a := by
  intro a; have := i.isLt; fin_cases a; show i.val + 1 ≤ 4; omega

def sem16 (a : DmaSems sig S16) (i : Fin 16) : DmaSem sig := ((a.slice (Rect.unit (s := S16) ![i.val] S1.size (sem16_inb i))).squeeze S_ squeezes_S1_S_).sem
def sem8 (a : DmaSems sig S8) (i : Fin 8) : DmaSem sig := ((a.slice (Rect.unit (s := S8) ![i.val] S1.size (sem8_inb i))).squeeze S_ squeezes_S1_S_).sem
def sem4 (a : DmaSems sig S4) (i : Fin 4) : DmaSem sig := ((a.slice (Rect.unit (s := S4) ![i.val] S1.size (sem4_inb i))).squeeze S_ squeezes_S1_S_).sem

/-- The send semaphore of transfer i of family f (on the issuer) -/
def sS : (f : Fam) → Fin f.n → DmaSem sig
  | .yq, i => sem16 cc0_scratch5 i | .xf, i => sem16 cc0_scratch7 i | .zf, i => sem16 cc0_scratch9 i
  | .xd, i => sem8 cc0_scratch11 i | .zd, i => sem8 cc0_scratch13 i
/-- and its receive semaphore (on the neighbour). -/
def rS : (f : Fam) → Fin f.n → DmaSem sig
  | .yq, i => sem16 cc0_scratch6 i | .xf, i => sem16 cc0_scratch8 i | .zf, i => sem16 cc0_scratch10 i
  | .xd, i => sem8 cc0_scratch12 i | .zd, i => sem8 cc0_scratch14 i
def inS (s : Fin 4) : DmaSem sig := sem4 cc0_scratch3 s
def outS (s : Fin 4) : DmaSem sig := sem4 cc0_scratch4 s

/-- The runtime's barrier semaphore of collective id 0 (not scoped to the launch). -/
abbrev barS : Sem sig := (SemArray.scalar (sig.barrier 0 rfl) : Sems sig S_).sem

abbrev barCell (c : Dev nD) : GSem nD τ sig := ((c : Thread nD τ), .reg barS)
abbrev sCell (f : Fam) (c : Dev nD) (i : Fin f.n) : GSem nD τ sig := ((c : Thread nD τ), .dma (sS f i))
abbrev rCell (f : Fam) (c : Dev nD) (i : Fin f.n) : GSem nD τ sig := ((c : Thread nD τ), .dma (rS f i))

/-! ## Contents -/

variable (A : (c : Dev nD) → Buf (Elt F) ((c : Thread nD τ).loc main_arg0))

/-- The conversion every element undergoes. -/
def cv (a : F .f32) : F .bf16 := FloatOps.truncf .bf16 bitsLt_bf16_f32 a

/-- The device whose half holds row r of the gathered array as device c assembles it: c itself for
    its own half; for the other half the device of the other y whose (x, z) is the quarter's number. -/
def origin (c : Dev nD) (r : ℕ) : Dev nD :=
  if r / 32768 = (c.val / 2) % 2 then c
  else ⟨4 * ((r % 32768) / 16384) + 2 * (1 - (c.val / 2) % 2) + ((r % 32768) / 8192) % 2, by
    show _ < 8; omega⟩

/-- What device c's output array holds at the end: row r is row (r mod 32768) of (origin c r)'s half, converted. -/
def Gout (c : Dev nD) : (main_v1 : Ref sig .tc).ty.Contents (Elt F) := fun e =>
  cv (A (origin c (e 0).val) (ValueIdx.ix2 ⟨(e 0).val % 32768, Nat.mod_lt _ (by decide)⟩ (e 1)))

/-- What the send buffer holds once filled: device c's quarter 2*x + z of its own half, converted. -/
def SB (c : Dev nD) : (cc0_scratch2 : Ref sig .tc).ty.Contents (Elt F) := fun e =>
  cv (A c (ValueIdx.ix2 ⟨(16384 * (c.val / 4) + 8192 * (c.val % 2) + (e 0).val) % 32768, Nat.mod_lt _ (by decide)⟩ (e 1)))

end Cert.Kernel.AG

end
-- ==== Proof.Bits.Sched.lean ====
/-
The schedule of the all-gather's semaphore cells.

Every cell has one round.  A device's barrier cell has three duties of one unit, one per neighbour
(0: the y-neighbour, 1: the x-neighbour, 2: the z-neighbour); the signal of neighbour q hands the
device the chunks of q's output array it is going to write, at whatever they hold, and the fact that
q's receive cells for them stand at their first round.  A receive cell has the one duty of its
transfer's credit, paid by the neighbour's transfer landing: it hands the owner the chunk written,
holding the gathered array's rows.  A send cell has the one duty of the same credit, paid when the
source has been read: it hands the source back.  The two forwards of one received chunk to the x- and
the z-neighbour read it at the same time, each with half the chunk's share.
-/
import proofs.«900667_g7700000000000668_dist_ag_v7x_xyz2x2x2_y_m32768_n1024_bf16_1_alg».proof.Proof.Bits.Proto

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : (c : Dev nD) → Buf (Elt F) ((c : Thread nD τ).loc main_arg0))

/-- The credit of one chunk of 512 rows of the output array. -/
abbrev N : ℕ := (oChunk Fam.yq (0 : Dev nD) (0 : Fin 16)).view.dmaCredit
theorem N_pos : 0 < N := View.dmaCredit_pos _ (by decide)
theorem oChunk_credit (f : Fam) (c : Dev nD) (i : Fin f.n) : (oChunk f c i).view.dmaCredit = N := rfl

/-! ## Which transfer a DMA semaphore belongs to -/

/-- A transfer: its family and its number. -/
abbrev Tr : Type := Σ f : Fam, Fin f.n

/-- The transfer a DMA semaphore serves and whether as its receive semaphore; none for the eight
    semaphores of the local copies. -/
def decode (s : DmaSem sig) : Option (Bool × Tr) :=
  if h : 8 ≤ s.val ∧ s.val < 24 then some (false, ⟨.yq, ⟨s.val - 8, by show _ < 16; omega⟩⟩)
  else if h : 24 ≤ s.val ∧ s.val < 40 then some (true, ⟨.yq, ⟨s.val - 24, by show _ < 16; omega⟩⟩)
  else if h : 40 ≤ s.val ∧ s.val < 56 then some (false, ⟨.xf, ⟨s.val - 40, by show _ < 16; omega⟩⟩)
  else if h : 56 ≤ s.val ∧ s.val < 72 then some (true, ⟨.xf, ⟨s.val - 56, by show _ < 16; omega⟩⟩)
  else if h : 72 ≤ s.val ∧ s.val < 88 then some (false, ⟨.zf, ⟨s.val - 72, by show _ < 16; omega⟩⟩)
  else if h : 88 ≤ s.val ∧ s.val < 104 then some (true, ⟨.zf, ⟨s.val - 88, by show _ < 16; omega⟩⟩)
  else if h : 104 ≤ s.val ∧ s.val < 112 then some (false, ⟨.xd, ⟨s.val - 104, by show _ < 8; omega⟩⟩)
  else if h : 112 ≤ s.val ∧ s.val < 120 then some (true, ⟨.xd, ⟨s.val - 112, by show _ < 8; omega⟩⟩)
  else if h : 120 ≤ s.val ∧ s.val < 128 then some (false, ⟨.zd, ⟨s.val - 120, by show _ < 8; omega⟩⟩)
  else if h : 128 ≤ s.val ∧ s.val < 136 then some (true, ⟨.zd, ⟨s.val - 128, by show _ < 8; omega⟩⟩)
  else none

theorem decode_sS : ∀ (f : Fam) (i : Fin f.n), decode (sS f i) = some (false, ⟨f, i⟩) := by
  intro f i; cases f <;> (fin_cases i <;> rfl)
theorem decode_rS : ∀ (f : Fam) (i : Fin f.n), decode (rS f i) = some (true, ⟨f, i⟩) := by
  intro f i; cases f <;> (fin_cases i <;> rfl)
theorem decode_inS : ∀ s : Fin 4, decode (inS s) = none := by decide
theorem decode_outS : ∀ s : Fin 4, decode (outS s) = none := by decide

/-! ## The payloads -/

/-- What the neighbour (peer f p) hands p, with its barrier signal, for p's transfer i of family f: the chunk of
    ITS output array that the transfer writes, at whatever it holds. -/
def slotPay (f : Fam) (p : Dev nD) (i : Fin f.n) : sProp 𝕄 :=
  iprop(∃ fd : Buf (Elt F) ((oChunk f p i).view.loc (peer f p : Thread nD τ)),
      (oChunk f p i).view.loc (peer f p : Thread nD τ) ↦[(oChunk f p i).view.set]{fullShare} fd)

/-- What the three duties of p's barrier cell hand p. -/
def barPay (p : Dev nD) : Fin 3 → sProp 𝕄
  | 0 => bigSep Finset.univ (fun i : Fin 16 => slotPay (F := F) .yq p i)
  | 1 => iprop(bigSep Finset.univ (fun i : Fin 16 => slotPay (F := F) .xf p i) ∗ bigSep Finset.univ (fun i : Fin 8 => slotPay (F := F) .xd p i))
  | 2 => iprop(bigSep Finset.univ (fun i : Fin 16 => slotPay (F := F) .zf p i) ∗ bigSep Finset.univ (fun i : Fin 8 => slotPay (F := F) .zd p i))

/-- The gathered array as the contents of device p's buffer under a chunk written by its neighbour, -/
abbrev rBuf (f : Fam) (p : Dev nD) (i : Fin f.n) : Buf (Elt F) ((oChunk f (peer f p) i).view.loc (p : Thread nD τ)) := Gout A p
/-- under a chunk device c forwards, -/
abbrev oBuf (f : Fam) (c : Dev nD) (i : Fin f.n) : Buf (Elt F) ((oChunk f c i).view.loc (c : Thread nD τ)) := Gout A c
/-- and the filled send buffer as the contents under one of its chunks. -/
abbrev sbBuf (c : Dev nD) (i : Fin 16) : Buf (Elt F) ((sbChunk i).view.loc (c : Thread nD τ)) := SB A c

/-- What transfer i of family f, landing on p, hands p: the chunk it wrote, holding the gathered rows. -/
def recvPay (f : Fam) (p : Dev nD) (i : Fin f.n) : sProp 𝕄 :=
  (oChunk f (peer f p) i).view.loc (p : Thread nD τ) ↦[(oChunk f (peer f p) i).view.set]{fullShare} rBuf A f p i

/-- What transfer i of family f, read out of its source on c, hands c back: the source. -/
def sendPay : (f : Fam) → (c : Dev nD) → Fin f.n → sProp 𝕄
  | .yq, c, i => (sbChunk i).view.loc (c : Thread nD τ) ↦[(sbChunk i).view.set]{fullShare} sbBuf A c i
  | .xf, c, i => (oChunk .xf c i).view.loc (c : Thread nD τ) ↦[(oChunk .xf c i).view.set]{fullShare.left} oBuf A .xf c i
  | .zf, c, i => (oChunk .zf c i).view.loc (c : Thread nD τ) ↦[(oChunk .zf c i).view.set]{fullShare.right} oBuf A .zf c i
  | .xd, c, i => (oChunk .xd c i).view.loc (c : Thread nD τ) ↦[(oChunk .xd c i).view.set]{fullShare} oBuf A .xd c i
  | .zd, c, i => (oChunk .zd c i).view.loc (c : Thread nD τ) ↦[(oChunk .zd c i).view.set]{fullShare} oBuf A .zd c i

abbrev IsBar (g : GSem nD τ sig) : Prop := g.1.2 = .tc ∧ g.2 = .reg barS
/-- The cell of a transfer's send or receive semaphore on a TensorCore. -/
def IsXfer (g : GSem nD τ sig) : Prop := g.1.2 = .tc ∧ ∃ s, g.2 = .dma s ∧ (decode s).isSome

instance (g : GSem nD τ sig) : Decidable (IsXfer g) := by unfold IsXfer; infer_instance

def payOf (g : GSem nD τ sig) (d : Fin 3) : sProp 𝕄 :=
  match g.2 with
  | .reg _ => barPay g.1.1 d
  | .dma s => match decode s with
    | some (true, ⟨f, i⟩) => recvPay A f g.1.1 i
    | some (false, ⟨f, i⟩) => sendPay A f g.1.1 i
    | none => iprop(emp)

/-- One round: a barrier cell's three duties of one unit; a transfer cell's one duty of a chunk's credit. -/
def Rd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d := payOf A g d
  amount_pos g _ _ _ := by
    by_cases h : g.2 = .reg barS
    · rw [if_pos h]; exact Nat.one_pos
    · rw [if_neg h]; exact N_pos

/-! ## The schedule's tables -/

section Tables
variable (c : Dev nD)

theorem dma_ne_bar (s : DmaSem sig) : (SemLoc.dma s : SemLoc sig) ≠ .reg barS := fun h => by cases h
theorem not_bar_s (f : Fam) (i : Fin f.n) : ¬ IsBar (sCell f c i) := fun h => dma_ne_bar _ h.2
theorem not_bar_r (f : Fam) (i : Fin f.n) : ¬ IsBar (rCell f c i) := fun h => dma_ne_bar _ h.2
theorem isXfer_s (f : Fam) (i : Fin f.n) : IsXfer (sCell f c i) := ⟨rfl, sS f i, rfl, by rw [decode_sS]; rfl⟩
theorem isXfer_r (f : Fam) (i : Fin f.n) : IsXfer (rCell f c i) := ⟨rfl, rS f i, rfl, by rw [decode_rS]; rfl⟩
theorem not_xfer_bar : ¬ IsXfer (barCell c) := fun ⟨_, s, h, _⟩ => by cases h

theorem duties_bar : (Rd (F := F) A).duties (barCell c) 0 = Finset.univ := by dsimp only [Rd]; exact if_pos ⟨rfl, rfl, rfl⟩
theorem duties_s (f : Fam) (i : Fin f.n) : (Rd (F := F) A).duties (sCell f c i) 0 = {0} := by
  dsimp only [Rd]; rw [if_neg (fun h => not_bar_s c f i h.2)]; exact if_pos ⟨rfl, isXfer_s c f i⟩
theorem duties_r (f : Fam) (i : Fin f.n) : (Rd (F := F) A).duties (rCell f c i) 0 = {0} := by
  dsimp only [Rd]; rw [if_neg (fun h => not_bar_r c f i h.2)]; exact if_pos ⟨rfl, isXfer_r c f i⟩
theorem duties_later (g : GSem nD τ sig) : ∀ r, 1 ≤ r → (Rd (F := F) A).duties g r = ∅ :=
  fun r hr => by dsimp only [Rd]; rw [if_neg fun h => by omega, if_neg fun h => by omega]

theorem amount_bar (d : Fin 3) : (Rd (F := F) A).amount (barCell c) 0 d = 1 := by dsimp only [Rd]; exact if_pos rfl
theorem amount_s (f : Fam) (i : Fin f.n) (d : Fin 3) : (Rd (F := F) A).amount (sCell f c i) 0 d = N := by dsimp only [Rd]; exact if_neg (dma_ne_bar _)
theorem amount_r (f : Fam) (i : Fin f.n) (d : Fin 3) : (Rd (F := F) A).amount (rCell f c i) 0 d = N := by dsimp only [Rd]; exact if_neg (dma_ne_bar _)

theorem expect_bar : (Rd (F := F) A).expect (barCell c) 0 = 3 := by
  unfold Schedule.expect Schedule.amountOf
  rw [duties_bar, Finset.sum_congr rfl fun d _ => amount_bar A c d, Finset.sum_const, Finset.card_univ, Fintype.card_fin, smul_eq_mul]
theorem expect_s (f : Fam) (i : Fin f.n) : (Rd (F := F) A).expect (sCell f c i) 0 = N := by
  unfold Schedule.expect Schedule.amountOf; rw [duties_s, Finset.sum_singleton, amount_s]
theorem expect_r (f : Fam) (i : Fin f.n) : (Rd (F := F) A).expect (rCell f c i) 0 = N := by
  unfold Schedule.expect Schedule.amountOf; rw [duties_r, Finset.sum_singleton, amount_r]

theorem payload_bar (d : Fin 3) : (Rd (F := F) A).payload (barCell c) 0 d = barPay c d := rfl
theorem payload_s (f : Fam) (i : Fin f.n) (d : Fin 3) : (Rd (F := F) A).payload (sCell f c i) 0 d = sendPay A f c i := by
  show payOf A (sCell f c i) d = _
  unfold payOf; dsimp only; rw [decode_sS]
theorem payload_r (f : Fam) (i : Fin f.n) (d : Fin 3) : (Rd (F := F) A).payload (rCell f c i) 0 d = recvPay A f c i := by
  show payOf A (rCell f c i) d = _
  unfold payOf; dsimp only; rw [decode_rS]

/-- The rest of a send cell's round, nothing taken: the source back. -/
theorem rest_s (f : Fam) (i : Fin f.n) : bigSep ((Rd (F := F) A).duties (sCell f c i) 0 \ ∅) (fun d => (Rd (F := F) A).payload (sCell f c i) 0 d) = sendPay A f c i := by
  rw [Finset.sdiff_empty, duties_s, bigSep_singleton, payload_s]
/-- The rest of a receive cell's round, nothing taken: the chunk landed. -/
theorem rest_r (f : Fam) (i : Fin f.n) : bigSep ((Rd (F := F) A).duties (rCell f c i) 0 \ ∅) (fun d => (Rd (F := F) A).payload (rCell f c i) 0 d) = recvPay A f c i := by
  rw [Finset.sdiff_empty, duties_r, bigSep_singleton, payload_r]
/-- The rest of the barrier cell's round, nothing taken: the three neighbours' hand-overs. -/
theorem rest_bar : bigSep ((Rd (F := F) A).duties (barCell c) 0 \ ∅) (fun d => (Rd (F := F) A).payload (barCell c) 0 d) = iprop(barPay (F := F) c 0 ∗ barPay (F := F) c 1 ∗ barPay (F := F) c 2) := by
  rw [Finset.sdiff_empty, duties_bar, bigSep_univ_eq_bigSepL [0, 1, 2] (by decide) (by decide)]
  rfl

end Tables

instance Rd_payload_storable (g : GSem nD τ sig) (r : ℕ) (d : Fin 3) :
    BI.Storable (upEmb : UEmb _ 𝕄) ((Rd (F := F) A).payload g r d) := by
  show BI.Storable upEmb (payOf A g d)
  unfold payOf
  split
  · unfold barPay slotPay; split <;> infer_instance
  · split
    · unfold recvPay; infer_instance
    · unfold sendPay; split <;> infer_instance
    · infer_instance

end Cert.Kernel.AG

end
-- ==== Proof.Bits.Inv.lean ====
/-
What a device holds when its kernel begins and when it ends; what it owes the others at launch; the order of
the cells that rules out a cycle of waits.

Order: a local copy's cell and a send cell lie lowest (nobody else pays them); a barrier cell above them; the
receive cells of the straight transfers (yq) above the barrier; those of the forwards (xf, zf) above these, for a
forward is issued only after a yq chunk has landed; those of the diagonal relays (xd, zd) highest, for a relay is
issued only after a forwarded chunk has landed.  A device waits on a cell only while everything it still owes
lies strictly higher.
-/
import proofs.«900667_g7700000000000668_dist_ag_v7x_xyz2x2x2_y_m32768_n1024_bf16_1_alg».proof.Proof.Bits.Sched

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : (c : Dev nD) → Buf (Elt F) ((c : Thread nD τ).loc main_arg0))

/-! ## The ghost state of one device -/

/-- Per transfer i of family f that device c issues and its mirror that c receives: the three cells' invariants, -/
def famInvs (K : GSem nD τ sig → ℕ) (c : Dev nD) (f : Fam) : sProp 𝕄 :=
  bigSep Finset.univ fun i : Fin f.n =>
    iprop(cellInv ER (Rd A) (K (sCell f c i)) (sCell f c i) ∗ cellInv ER (Rd A) (K (rCell f c i)) (rCell f c i)
      ∗ cellInv ER (Rd A) (K (rCell f (peer f c) i)) (rCell f (peer f c) i))
/-- that the three cells stand at their first round, -/
def famReached (c : Dev nD) (f : Fam) : sProp 𝕄 :=
  bigSep Finset.univ fun i : Fin f.n =>
    iprop(reached ER (sCell f c i) 0 ∗ reached ER (rCell f c i) 0 ∗ reached ER (rCell f (peer f c) i) 0)
/-- c's positions on its own two cells, -/
def famPos (c : Dev nD) (f : Fam) : sProp 𝕄 :=
  bigSep Finset.univ fun i : Fin f.n => iprop(atPos ER (sCell f c i) 0 ∅ 0 ∗ atPos ER (rCell f c i) 0 ∅ 0)
/-- the tokens of the two duties its transfer pays (its own send cell's, the neighbour's receive cell's), -/
def famToks (c : Dev nD) (f : Fam) : sProp 𝕄 :=
  bigSep Finset.univ fun i : Fin f.n => iprop(dutyTok ER (sCell f c i) 0 0 ∗ dutyTok ER (rCell f (peer f c) i) 0 0)
/-- and the credit for the chunk it will receive. -/
def famCred (c : Dev nD) (f : Fam) : sProp 𝕄 :=
  bigSep Finset.univ fun i : Fin f.n => cred (tallyAt (rCell f c i) () N)

/-- The barrier cells' invariants device c opens: its own and its three neighbours'. -/
def barInvs (K : GSem nD τ sig → ℕ) (c : Dev nD) : sProp 𝕄 :=
  iprop(cellInv ER (Rd A) (K (barCell c)) (barCell c) ∗ cellInv ER (Rd A) (K (barCell (Yn c))) (barCell (Yn c))
    ∗ cellInv ER (Rd A) (K (barCell (Xn c))) (barCell (Xn c)) ∗ cellInv ER (Rd A) (K (barCell (Zn c))) (barCell (Zn c)))

/-- The persistent part: every invariant c opens, every first round it relies on. -/
def records (K : GSem nD τ sig → ℕ) (c : Dev nD) : sProp 𝕄 :=
  iprop(barInvs A K c ∗ famInvs A K c .yq ∗ famInvs A K c .xf ∗ famInvs A K c .zf ∗ famInvs A K c .xd ∗ famInvs A K c .zd
    ∗ reached ER (barCell (Yn c)) 0 ∗ reached ER (barCell (Xn c)) 0 ∗ reached ER (barCell (Zn c)) 0
    ∗ famReached c .yq ∗ famReached c .xf ∗ famReached c .zf ∗ famReached c .xd ∗ famReached c .zd)

instance records_persistent (K : GSem nD τ sig → ℕ) (c : Dev nD) : BI.Persistent (records A K c) := by
  unfold records barInvs famInvs famReached; infer_instance

/-- The linear part: c's positions on its cells, the tokens of the duties it pays: one unit to each neighbour's
    barrier cell (duty 0 of the y-neighbour's, 1 of the x-neighbour's, 2 of the z-neighbour's) and its transfers'. -/
def linear (c : Dev nD) : sProp 𝕄 :=
  iprop(atPos ER (barCell c) 0 ∅ 0 ∗ famPos c .yq ∗ famPos c .xf ∗ famPos c .zf ∗ famPos c .xd ∗ famPos c .zd
    ∗ dutyTok ER (barCell (Yn c)) 0 0 ∗ dutyTok ER (barCell (Xn c)) 0 1 ∗ dutyTok ER (barCell (Zn c)) 0 2
    ∗ famToks c .yq ∗ famToks c .xf ∗ famToks c .zf ∗ famToks c .xd ∗ famToks c .zd)

def ghost (K : GSem nD τ sig → ℕ) (c : Dev nD) : sProp 𝕄 := iprop(records A K c ∗ linear (F := F) c)

/-- The credit device c is dealt at launch: its barrier cell's three units and each receive cell's chunk. -/
def credits (c : Dev nD) : sProp 𝕄 :=
  iprop(cred (tallyAt (barCell c) () 3) ∗ famCred (F := F) c .yq ∗ famCred (F := F) c .xf ∗ famCred (F := F) c .zf
    ∗ famCred (F := F) c .xd ∗ famCred (F := F) c .zd)

/-- The eight semaphores of the local copies, at zero in the device's hand. -/
def localSems (c : Dev nD) : sProp 𝕄 :=
  iprop((bigSep Finset.univ fun s : Fin 4 => semVal (((c : Thread nD τ), .dma (inS s)) : GSem nD τ sig) 0)
    ∗ bigSep Finset.univ fun s : Fin 4 => semVal (((c : Thread nD τ), .dma (outS s)) : GSem nD τ sig) 0)

/-! ## What each device owes at launch; the levels -/

/-- One chunk's credit to the neighbour's receive cell per transfer of the family. -/
def owedFam (c : Dev nD) (f : Fam) : CellTallies nD τ sig Unit := ∑ i : Fin f.n, tallyAt (rCell f (peer f c) i) () N

/-- Everything device c owes: its 64 transfers' landings and one unit to each neighbour's barrier cell. -/
def O₀ (c : Dev nD) : CellTallies nD τ sig Unit :=
  owedFam c .zd + owedFam c .xd + owedFam c .zf + owedFam c .xf + owedFam c .yq
    + tallyAt (barCell (Zn c)) () 1 + tallyAt (barCell (Xn c)) () 1 + tallyAt (barCell (Yn c)) () 1

def L (g : GSem nD τ sig) : Finset Unit := if g.1.2 = .tc then {()} else ∅

/-- The level of a cell: see this file's header. -/
def lvOf : SemLoc sig → ℕ
  | .reg _ => 1
  | .dma s => match decode s with
    | some (true, ⟨.yq, _⟩) => 2
    | some (true, ⟨.xf, _⟩) => 3
    | some (true, ⟨.zf, _⟩) => 3
    | some (true, ⟨.xd, _⟩) => 4
    | some (true, ⟨.zd, _⟩) => 4
    | _ => 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

/-! ## The kernel's pre- and postcondition on one device -/

variable (V1 : (c : Dev nD) → Buf (Elt F) ((c : Thread nD τ).loc main_v1))

/-- What device c's body starts from, beside its buffers. -/
def start (c : Dev nD) : sProp 𝕄 :=
  iprop((∃ K, ghost A K c) ∗ credits (F := F) c ∗ localSems (F := F) c ∗ levAts L lv)

/-- Its buffers at entry: the input half, the output array at whatever it holds, the three scratch buffers. -/
def bufs0 (c : Dev nD) : sProp 𝕄 :=
  iprop((((c : Thread nD τ).loc main_arg0) ↦{fullShare} A c) ∗ (((c : Thread nD τ).loc main_v1) ↦{fullShare} V1 c)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- At exit: the input half unchanged, the output array holding the gathered rows, the scratch buffers at whatever. -/
def bufs1 (c : Dev nD) : sProp 𝕄 :=
  iprop((((c : Thread nD τ).loc main_arg0) ↦{fullShare} A c) ∗ (((c : Thread nD τ).loc main_v1) ↦{fullShare} Gout A c)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The kernel's own 136 DMA semaphores back at zero, in the device's hand: the 128 transfer cells closed. -/
def sems1 (c : Dev nD) : sProp 𝕄 :=
  bigSep Finset.univ fun s : DmaSem sig => semVal (((c : Thread nD τ), .dma s) : GSem nD τ sig) 0

def Φ₀ (c : Dev nD) : sProp 𝕄 := iprop(start A c ∗ bufs0 A V1 c)
def Φ₁ (c : Dev nD) : sProp 𝕄 := iprop(bufs1 A c ∗ sems1 (F := F) c)

/-- The proof data of the one pallas_call on device c: no windows; the invariant before and after the one point;
    everything owed before, nothing after. -/
def dats (_ : Fin 1) (c : Dev nD) : Dat τ (Elt F) Unit ℕ UU ℕ cfg0 c where
  A w := w.elim0
  after w _ := w.elim0
  Φ t := match t with
    | ⟨0, _⟩ => Φ₀ A V1 c
    | ⟨_ + 1, _⟩ => Φ₁ A c
  q _ := fullShare
  owed t := match t with
    | ⟨0, _⟩ => O₀ c
    | ⟨_ + 1, _⟩ => 0

abbrev 𝒱₀ : Variants := Variants.none

end Cert.Kernel.AG

end
-- ==== Proof.Bits.Credit.lean ====
/-
The credit each device is dealt at launch, and the levels that let it wait while it still owes.

Every device owes, per transfer it issues, one chunk's credit to the receive cell of that transfer on the
family's neighbour, and one unit to each neighbour's barrier cell.  A family's neighbour map is an involution,
so the receive cell of transfer i of family f on device c is owed its chunk's credit by exactly one device, the
neighbour of c in f; the barrier cell of c is owed one unit by each of its three neighbours.  The launch therefore
deals c three units on its barrier cell and one chunk's credit on each of its 64 receive cells.

A wait on a cell is allowed while everything the device still owes lies strictly above the cell: the local
copies' cells lie at 0, the barrier cell at 1, the receive cells at 2, 3 or 4 by family.
-/
import proofs.«900667_g7700000000000668_dist_ag_v7x_xyz2x2x2_y_m32768_n1024_bf16_1_alg».proof.Proof.Bits.Inv

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The levels of the cells -/

theorem lv_r (f : Fam) (c : Dev nD) (i : Fin f.n) :
    lv (rCell f c i) () = (match f with | .yq => 2 | .xf => 3 | .zf => 3 | .xd => 4 | .zd => 4) := by
  show lvOf (SemLoc.dma (rS f i)) = _
  unfold lvOf
  dsimp only
  rw [decode_rS]
  cases f <;> rfl

theorem lv_bar (c : Dev nD) : lv (barCell c) () = 1 := rfl

theorem lv_s (f : Fam) (c : Dev nD) (i : Fin f.n) : lv (sCell f c i) () = 0 := by
  show lvOf (SemLoc.dma (sS f i)) = _
  unfold lvOf
  dsimp only
  rw [decode_sS]

theorem lv_local (c : Dev nD) (q : DmaSem sig) (hq : decode q = none) : lv (((c : Thread nD τ), SemLoc.dma q) : GSem nD τ sig) () = 0 := by
  show lvOf (SemLoc.dma q) = _
  unfold lvOf
  dsimp only
  rw [hq]

/-- A receive cell lies at level 2 at least. -/
theorem two_le_lv_r (f : Fam) (c : Dev nD) (i : Fin f.n) : 2 ≤ lv (rCell f c i) () := by
  rw [lv_r]
  cases f
  · exact Nat.le_refl 2
  · exact (by decide : 2 ≤ 3)
  · exact (by decide : 2 ≤ 3)
  · exact (by decide : 2 ≤ 4)
  · exact (by decide : 2 ≤ 4)

/-! ## What a family's debt is positive on -/

theorem owedFam_pos (c : Dev nD) (f : Fam) {g : GSem nD τ sig} {u : Unit} (h : 0 < owedFam c f g u) :
    ∃ i, g = rCell f (peer f c) i := by
  unfold owedFam at h
  obtain ⟨i, _, hi⟩ := Pipeline.sum_pos_exists h
  exact ⟨i, (Pipeline.tallyAt_pos hi).1⟩

/-- The part of family f's debt of device c that covers the chunks in S. -/
def owedOn (c : Dev nD) (f : Fam) (S : Finset (Fin f.n)) : CellTallies nD τ sig Unit :=
  ∑ i ∈ S, tallyAt (rCell f (peer f c) i) () N

theorem owedOn_univ (c : Dev nD) (f : Fam) : owedOn c f Finset.univ = owedFam c f := rfl

theorem owedOn_empty (c : Dev nD) (f : Fam) : owedOn c f ∅ = 0 := Finset.sum_empty

theorem owedOn_pos (c : Dev nD) (f : Fam) (S : Finset (Fin f.n)) {g : GSem nD τ sig} {u : Unit} (h : 0 < owedOn c f S g u) :
    ∃ i ∈ S, g = rCell f (peer f c) i := by
  unfold owedOn at h
  obtain ⟨i, hiS, hi⟩ := Pipeline.sum_pos_exists h
  exact ⟨i, hiS, (Pipeline.tallyAt_pos hi).1⟩

theorem owedOn_insert (c : Dev nD) (f : Fam) (S : Finset (Fin f.n)) (i : Fin f.n) (hi : i ∉ S) :
    owedOn c f (insert i S) = owedOn c f S + tallyAt (rCell f (peer f c) i) () N := by
  unfold owedOn
  rw [Finset.sum_insert hi, add_comm]

/-! ## The evidence of the waits -/

theorem mayWait_local (c : Dev nD) (q : DmaSem sig) (hq : decode q = none) (O : CellTallies nD τ sig Unit)
    (hO : ∀ g u, 0 < O g u → g.1.2 = .tc ∧ 1 ≤ lv g u) :
    (levAts L lv : sProp 𝕄) ⊢ MayWait (c : Thread nD τ) (.dma q) () O :=
  Pipeline.mayWait_of_levAts (by rw [L_tc]; exact Finset.mem_singleton_self _) fun g u hg => by
    obtain ⟨h1, h2⟩ := hO g u hg
    refine ⟨?_, ?_⟩
    · unfold L; rw [if_pos h1]; exact Finset.mem_singleton_self _
    · rw [lv_local c q hq]; exact h2

theorem mayWait_bar (c : Dev nD) (O : CellTallies nD τ sig Unit)
    (hO : ∀ g u, 0 < O g u → g.1.2 = .tc ∧ 2 ≤ lv g u) :
    (levAts L lv : sProp 𝕄) ⊢ MayWait (c : Thread nD τ) (.reg barS) () O :=
  Pipeline.mayWait_of_levAts (by rw [L_tc]; exact Finset.mem_singleton_self _) fun g u hg => by
    obtain ⟨h1, h2⟩ := hO g u hg
    refine ⟨?_, ?_⟩
    · unfold L; rw [if_pos h1]; exact Finset.mem_singleton_self _
    · show 1 < lv g u; exact h2

theorem mayWait_recv (c : Dev nD) (f : Fam) (i : Fin f.n) (O : CellTallies nD τ sig Unit)
    (hO : ∀ g u, 0 < O g u → g.1.2 = .tc ∧ lv (rCell f c i) () < lv g u) :
    (levAts L lv : sProp 𝕄) ⊢ MayWait (c : Thread nD τ) (.dma (rS f i)) () O :=
  Pipeline.mayWait_of_levAts (by rw [L_tc]; exact Finset.mem_singleton_self _) fun g u hg => by
    obtain ⟨h1, h2⟩ := hO g u hg
    refine ⟨?_, h2⟩
    unfold L; rw [if_pos h1]; exact Finset.mem_singleton_self _

/-! ## The launch credit -/

/-- Every device owing one unit to the barrier cell of its neighbour under an involution nb, device c is dealt
    one unit on its own barrier cell. -/
theorem launch_bar1 (nb : Dev nD → Dev nD) (h : ∀ c, nb (nb c) = c) (c : Dev nD) :
    (Pipeline.launchCred (fun d => tallyAt (barCell (nb d)) () 1) c : sProp 𝕄) ⊢ cred (tallyAt (barCell c) () 1) :=
  Pipeline.launchCred_tallyAt (SemLoc.reg barS) nb nb h h () 1 c

/-- Every device owing family f's chunks to its neighbour's receive cells, device c is dealt a chunk's credit on
    each of its own receive cells of the family. -/
theorem launch_fam (f : Fam) (c : Dev nD) :
    (Pipeline.launchCred (fun d => owedFam d f) c : sProp 𝕄) ⊢ famCred (F := F) c f := by
  unfold famCred
  have e : (Pipeline.launchCred (fun d => owedFam d f) c : sProp 𝕄)
      = bigSep Finset.univ fun i : Fin f.n => Pipeline.launchCred (fun d => tallyAt (rCell f (peer f d) i) () N) c :=
    Pipeline.launchCred_sum Finset.univ (fun (i : Fin f.n) (d : Dev nD) => (tallyAt (rCell f (peer f d) i) () N : CellTallies nD τ sig Unit)) c
  rw [e]
  exact bigSep_mono fun i _ =>
    Pipeline.launchCred_tallyAt (SemLoc.dma (rS f i)) (peer f) (peer f) (peer_peer f) (peer_peer f) () N c

/-- The launch credit of a sum of debts, from the launch credits of the two. -/
theorem launchCred_add_entails (O D : Dev nD → CellTallies nD τ sig Unit) (c : Dev nD) {P Q : sProp 𝕄}
    (hO : (Pipeline.launchCred O c : sProp 𝕄) ⊢ P) (hD : (Pipeline.launchCred D c : sProp 𝕄) ⊢ Q) :
    (Pipeline.launchCred (fun d => O d + D d) c : sProp 𝕄) ⊢ iprop(P ∗ Q) := by
  rw [Pipeline.launchCred_add]
  exact BI.sep_mono hO hD

theorem bar_units (c : Dev nD) :
    iprop(cred (tallyAt (barCell c) () 1) ∗ cred (tallyAt (barCell c) () 1) ∗ cred (tallyAt (barCell c) () 1))
      ⊢ (cred (tallyAt (barCell c) () 3) : sProp 𝕄) := by
  have e : (tallyAt (barCell c) () 3 : CellTallies nD τ sig Unit)
      = tallyAt (barCell c) () 1 + (tallyAt (barCell c) () 1 + tallyAt (barCell c) () 1) := by
    rw [tallyAt_add, tallyAt_add]
  rw [e]
  exact (sep_mono_right (cred_add _ _).2).trans (cred_add _ _).2

theorem creds (c : Dev nD) : (Pipeline.launchCred O₀ c : sProp 𝕄) ⊢ credits (F := F) c := by
  have h := launchCred_add_entails (F := F) _ _ c (launchCred_add_entails (F := F) _ _ c (launchCred_add_entails (F := F) _ _ c
    (launchCred_add_entails (F := F) _ _ c (launchCred_add_entails (F := F) _ _ c (launchCred_add_entails (F := F) _ _ c
      (launchCred_add_entails (F := F) _ _ c (launch_fam (F := F) .zd c) (launch_fam (F := F) .xd c)) (launch_fam (F := F) .zf c))
      (launch_fam (F := F) .xf c)) (launch_fam (F := F) .yq c)) (launch_bar1 (F := F) Zn Zn_Zn c)) (launch_bar1 (F := F) Xn Xn_Xn c))
    (launch_bar1 (F := F) Yn Yn_Yn c)
  refine (show (Pipeline.launchCred O₀ c : sProp 𝕄) ⊢ _ from h).trans ?_
  unfold credits
  iintro ⟨⟨⟨⟨⟨⟨⟨Hzd, Hxd⟩, Hzf⟩, Hxf⟩, Hyq⟩, HZ⟩, HX⟩, HY⟩
  isplitl [HZ HX HY]
  · iapply (bar_units (F := F) c)
    isplitl [HZ]; · iexact HZ
    isplitl [HX]; · iexact HX
    iexact HY
  isplitl [Hyq]; · iexact Hyq
  isplitl [Hxf]; · iexact Hxf
  isplitl [Hzf]; · iexact Hzf
  isplitl [Hxd]; · iexact Hxd
  iexact Hzd

/-! ## The level of everything a debt is positive on -/

/-- The level of a family's receive cells. -/
def lvF : Fam → ℕ | .yq => 2 | .xf => 3 | .zf => 3 | .xd => 4 | .zd => 4

theorem lv_r_eq (f : Fam) (c : Dev nD) (i : Fin f.n) : lv (rCell f c i) () = lvF f := by
  rw [lv_r]; cases f <;> rfl

theorem two_le_lvF (f : Fam) : 2 ≤ lvF f := by cases f <;> decide

/-- A part of a family's debt is positive only on TensorCore cells at the family's level. -/
theorem owedOn_lv (c : Dev nD) (f : Fam) (S : Finset (Fin f.n)) {g : GSem nD τ sig} {u : Unit} (h : 0 < owedOn c f S g u) :
    g.1.2 = .tc ∧ lv g u = lvF f := by
  obtain ⟨i, _, rfl⟩ := owedOn_pos c f S h
  exact ⟨rfl, lv_r_eq f (peer f c) i⟩

theorem owedFam_lv (c : Dev nD) (f : Fam) {g : GSem nD τ sig} {u : Unit} (h : 0 < owedFam c f g u) :
    g.1.2 = .tc ∧ lv g u = lvF f := by
  obtain ⟨i, rfl⟩ := owedFam_pos c f h
  exact ⟨rfl, lv_r_eq f (peer f c) i⟩

/-- One transfer's debt is positive only on its receive cell. -/
theorem owedOne_lv (f : Fam) (d : Dev nD) (i : Fin f.n) (k : ℕ) {g : GSem nD τ sig} {u : Unit} (h : 0 < tallyAt (rCell f d i) () k g u) :
    g.1.2 = .tc ∧ lv g u = lvF f := by
  obtain ⟨rfl, _⟩ := Pipeline.tallyAt_pos h
  exact ⟨rfl, lv_r_eq f d i⟩

/-- A unit owed to a barrier cell is positive only there, at level 1. -/
theorem owedBar_lv (d : Dev nD) (k : ℕ) {g : GSem nD τ sig} {u : Unit} (h : 0 < tallyAt (barCell d) () k g u) :
    g.1.2 = .tc ∧ lv g u = 1 := by
  obtain ⟨rfl, _⟩ := Pipeline.tallyAt_pos h
  exact ⟨rfl, rfl⟩

/-- Everything owed at launch lies on TensorCore cells at level 1 at least. -/
theorem O₀_lv (c : Dev nD) {g : GSem nD τ sig} {u : Unit} (h : 0 < O₀ c g u) : g.1.2 = .tc ∧ 1 ≤ lv g u := by
  unfold O₀ at h
  rcases Pipeline.add_pos_cases h with h | h
  · rcases Pipeline.add_pos_cases h with h | h
    · rcases Pipeline.add_pos_cases h with h | h
      · rcases Pipeline.add_pos_cases h with h | h
        · rcases Pipeline.add_pos_cases h with h | h
          · rcases Pipeline.add_pos_cases h with h | h
            · rcases Pipeline.add_pos_cases h with h | h
              · obtain ⟨h1, h2⟩ := owedFam_lv c .zd h; exact ⟨h1, by rw [h2]; decide⟩
              · obtain ⟨h1, h2⟩ := owedFam_lv c .xd h; exact ⟨h1, by rw [h2]; decide⟩
            · obtain ⟨h1, h2⟩ := owedFam_lv c .zf h; exact ⟨h1, by rw [h2]; decide⟩
          · obtain ⟨h1, h2⟩ := owedFam_lv c .xf h; exact ⟨h1, by rw [h2]; decide⟩
        · obtain ⟨h1, h2⟩ := owedFam_lv c .yq h; exact ⟨h1, by rw [h2]; decide⟩
      · obtain ⟨h1, h2⟩ := owedBar_lv (Zn c) 1 h; exact ⟨h1, by rw [h2]⟩
    · obtain ⟨h1, h2⟩ := owedBar_lv (Xn c) 1 h; exact ⟨h1, by rw [h2]⟩
  · obtain ⟨h1, h2⟩ := owedBar_lv (Yn c) 1 h; exact ⟨h1, by rw [h2]⟩

end Cert.Kernel.AG

end
-- ==== Proof.Bits.LaunchDefs.lean ====
/-
Names shared by the two halves of the launch: the kernel's own semaphores as the launch theorem indexes them,
and what the global step leaves each device.
-/
import proofs.«900667_g7700000000000668_dist_ag_v7x_xyz2x2x2_y_m32768_n1024_bf16_1_alg».proof.Proof.Bits.Inv

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : (c : Dev nD) → Buf (Elt F) ((c : Thread nD τ).loc main_arg0))

/-- The kernel's own (scoped) semaphores: all 136 DMA semaphores. -/
abbrev osem : Fin 136 → SemLoc sig := fun s => .dma s

theorem ownSemFacts : Pipeline.OwnSemFacts cfg0.spec osem := by decide

/-- What the global step leaves device c: its ghost state at some names, and the eight semaphores of its local
    copies at zero. -/
def G' (c : Dev nD) : sProp 𝕄 := iprop((∃ K, ghost A K c) ∗ localSems (F := F) c)

end Cert.Kernel.AG

end
-- ==== Proof.Bits.Run.lean ====
/-
The launch assembled: from any memory with zero counters, the eight kernels run to completion and leave every
device's output array holding the gathered rows, converted, and its input half unchanged.

The pallas_call has no window and no prefetched table.  The input half and the output array are unscoped: the
launch hands them whole to each device, which carries them with its ghost state, its credit and the level facts
into its kernel's precondition, and out of its postcondition to the end, where they are read against the final
state.  The three scratch buffers are scoped: they enter at the kernel's entry and leave at its exit, as do the
kernel's own DMA semaphores, back at zero.  The body's obligation and the global step that turns what the launch
deals into each device's ghost state are hypotheses here.
-/
import proofs.«900667_g7700000000000668_dist_ag_v7x_xyz2x2x2_y_m32768_n1024_bf16_1_alg».proof.Proof.Bits.Credit
import proofs.«900667_g7700000000000668_dist_ag_v7x_xyz2x2x2_y_m32768_n1024_bf16_1_alg».proof.Proof.Bits.LaunchDefs
import proofs.«900667_g7700000000000668_dist_ag_v7x_xyz2x2x2_y_m32768_n1024_bf16_1_alg».proof.Proof.Gen.Kernel.Points
import Idealize.ShloMosaic.Lib.Pipeline.Launch
import Idealize.ShloMosaic.Lib.Pipeline.Kit

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The input half and the output array of device c in the initial memory. -/
abbrev Am (c : Dev nD) : Buf (Elt F) ((c : Thread nD τ).loc main_arg0) := m ((c : Thread nD τ).loc main_arg0)
abbrev Vm (c : Dev nD) : Buf (Elt F) ((c : Thread nD τ).loc main_v1) := m ((c : Thread nD τ).loc main_v1)

/-! ## What travels from the launch into the kernel and from the kernel to the end -/

/-- What device c carries from the launch to its kernel's entry: its start and its two arrays, whole. -/
def X (c : Dev nD) : sProp 𝕄 :=
  iprop(start (Am m) c ∗ (((c : Thread nD τ).loc main_arg0) ↦{fullShare} Am m c) ∗ (((c : Thread nD τ).loc main_v1) ↦{fullShare} Vm m c))

/-- What it carries from its kernel's exit to the end: the input half unchanged, the output array gathered. -/
def Y (c : Dev nD) : sProp 𝕄 :=
  iprop((((c : Thread nD τ).loc main_arg0) ↦{fullShare} Am m c) ∗ (((c : Thread nD τ).loc main_v1) ↦{fullShare} Gout (Am m) c))

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Am m) c)
      ⊢ |={Set.univ}=> iprop(X m c ∗ emp) := by
  rw [Pipeline.unscopedRestP_none, unscopedRest0_eq]
  unfold G' X start
  iintro ⟨⟨Ha, Hv⟩, Hlev, Hcr, -, ⟨HG, Hloc⟩⟩
  ihave Hc := (creds (F := F) c) $$ Hcr
  imodintro
  isplitl
  · isplitl [HG Hc Hloc Hlev]
    · isplitl [HG]; · iexact HG
      isplitl [Hc]; · iexact Hc
      isplitl [Hloc]; · iexact Hloc
      iexact Hlev
    · isplitl [Ha]; · iexact Ha
      iexact Hv
  · iempintro

theorem phi0_intro (c : Dev nD) :
    iprop(X m c ∗ Pipeline.prefHeld Pipeline.Prefetch.none c (fun _ => fullShare.right) (fun k => k.elim0) ∗ Pipeline.scopedRest cfg0.spec c)
      ⊢ (dats (Am m) (Vm m) 0 c).Φ 0 := by
  rw [show (dats (Am m) (Vm m) 0 c).Φ 0 = Φ₀ (Am m) (Vm m) c from rfl, scopedRest0_eq]
  unfold Φ₀ X bufs0
  iintro ⟨⟨Hs, Ha, Hv⟩, -, ⟨H0, H1, H2⟩⟩
  isplitl [Hs]; · iexact Hs
  isplitl [Ha]; · iexact Ha
  isplitl [Hv]; · iexact Hv
  isplitl [H0]; · iexact H0
  isplitl [H1]; · iexact H1
  iexact H2

theorem phi1_exit (c : Dev nD) :
    (dats (Am m) (Vm m) 0 c).Φ (Fin.last cfg0.N) ⊢ iprop(Y m c ∗ Pipeline.ownSems0 osem c ∗ Pipeline.scopedRest cfg0.spec c) := by
  rw [show (dats (Am m) (Vm m) 0 c).Φ (Fin.last cfg0.N) = Φ₁ (Am m) c from rfl, scopedRest0_eq]
  unfold Φ₁ bufs1 Y sems1 Pipeline.ownSems0
  iintro ⟨⟨Ha, Hv, H0, H1, H2⟩, Hs⟩
  isplitl [Ha Hv]
  · isplitl [Ha]; · iexact Ha
    iexact Hv
  isplitl [Hs]; · iexact Hs
  isplitl [H0]; · iexact H0
  isplitl [H1]; · iexact H1
  iexact H2

/-- No window, so no staging cell to wait on. -/
theorem waits (c : Dev nD) : (levAts L lv : sProp 𝕄) ⊢ Pipeline.cellsWaits cfgs (dats (Am m) (Vm m)) () 0 c :=
  Pipeline.cellsWaits_intro cfgs (dats (Am m) (Vm m)) () 0 c fun w s t => w.elim0

/-- What the end reads off device c's memory. -/
def QY (c : Dev nD) (s : MemSt nD τ sig (Elt F)) : Prop :=
  s.mem ((c : Thread nD τ).loc main_v1) = Gout (Am m) c ∧ s.mem ((c : Thread nD τ).loc main_arg0) = m ((c : Thread nD τ).loc main_arg0)

theorem read_end (c : Dev nD) (s' : Phys nD τ sig (Elt F)) :
    iprop(Y m c ∗ emp ∗ SI s') ⊢ |={Set.univ}=> iprop(⌜QY m c s'.mem⌝ ∗ (SI s' : sProp 𝕄)) := by
  unfold Y
  iintro ⟨⟨Ha, Hv⟩, -, HSI⟩
  icombine HSI Ha gives %ha
  icombine HSI Hv gives %hv
  imodintro
  isplitr
  · ipureintro; exact ⟨Buf.eq_of_forall_mem_univ hv, Buf.eq_of_forall_mem_univ ha⟩
  iexact HSI

/-! ## The run -/

set_option maxRecDepth 8000 in
/-- At the compiled mesh of eight devices, for any float values, from any memory with zero counters: every weakly
    fair execution of @main terminates, and every final state has each device's output array holding the gathered
    rows, converted, and its input half unchanged. -/
theorem run_main (G : Dev nD → sProp 𝕄) (u₀ : UU)
    (hbody : ∀ c : Dev nD, Pipeline.BodyObligationLoose (dats (Am m) (Vm m) 0 c) (defs₀ (F := F)) 𝒱₀ () Set.univ)
    (hu₀ : (ownU u₀ : sProp 𝕄) ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄) ⊢ |={Set.univ}=> bigSep Finset.univ (G' (Am m))) :
    θ_run defs (onTc (τ := τ) (main (F := F))) ⟨m, fun _ => 0, ρ⟩ (fun r => ∀ c : Dev nD,
      r.2.mem ((c.tc : Thread nD τ).loc main_v1) = Gout (Am m) c ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats (Am m) (Vm m)) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := fun c w => w.elim0)
    (hdistinct := winFacts0.arr_inj)
    (O₀ := O₀) (howed₀ := fun _ => rfl) (howedN := fun _ => rfl)
    (L := L) (lv := lv) (hL := L_of_ne) (hwaits := waits m)
    (G := G) (G' := G' (Am m)) (u₀ := u₀)
    (hu₀ := hu₀)
    (hglob := hglob)
    (hA := fun _ w => w.elim0) (hpf := fun _ k => k.elim0)
    (X := X m) (Y := Y m) (Z := fun _ => iprop(emp))
    (hX := start_intro m ρ) (hin := phi0_intro m) (hout := phi1_exit m)
    (QY := QY m)
    (hY := read_end m)
    (hQ := fun _ h c => (h c).2.2)

end Cert.Kernel.AG

end
-- ==== Proof.Bits.Fund.lean ====
/-
The launch of the all-gather's protocol: the ghost state of its 8 * 129 semaphore cells is funded under one update,
every cell's invariant allocated, and each device dealt what it starts from.

A device's cells: its barrier cell and, for each transfer (family f, number i), its send and its receive cell.  A
barrier cell's three duty tokens go to the three neighbours that pay them; a receive cell's token goes to the
neighbour whose transfer lands on it; a send cell's token stays.  The eight semaphores of the local copies take no
part in the rounds discipline: their counters at zero stay in the device's hand.
-/
import proofs.«900667_g7700000000000668_dist_ag_v7x_xyz2x2x2_y_m32768_n1024_bf16_1_alg».proof.Proof.Bits.LaunchDefs

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Indexing the cells -/

instance : Fintype Fam := ⟨{.yq, .xf, .zf, .xd, .zd}, fun f => by cases f <;> decide⟩

theorem bigSep_fam (Φ : Fam → sProp 𝕄) : bigSep Finset.univ Φ = iprop(Φ .yq ∗ Φ .xf ∗ Φ .zf ∗ Φ .xd ∗ Φ .zd) :=
  bigSep_univ_eq_bigSepL ([.yq, .xf, .zf, .xd, .zd] : List Fam) (by decide) (by decide) Φ

/-- The DMA semaphore of a transfer: its send semaphore (false) or its receive semaphore (true). -/
def dsem : Tr × Bool → DmaSem sig
  | (⟨f, i⟩, false) => sS f i
  | (⟨f, i⟩, true) => rS f i

theorem decode_dsem : ∀ tb : Tr × Bool, decode (dsem tb) = some (tb.2, tb.1)
  | (⟨f, i⟩, false) => decode_sS f i
  | (⟨f, i⟩, true) => decode_rS f i

/-- A device's cells under the rounds discipline: the barrier cell, and two per transfer. -/
abbrev CIx : Type := Unit ⊕ (Tr × Bool)

def csem : CIx → SemLoc sig
  | .inl _ => .reg barS
  | .inr tb => .dma (dsem tb)

abbrev kcell (ck : Dev nD × CIx) : GSem nD τ sig := ((ck.1 : Thread nD τ), csem ck.2)

theorem csem_injective : Function.Injective csem := by
  rintro (u | tb) (u' | tb') h
  · rfl
  · have h' : (SemLoc.reg barS : SemLoc sig) = .dma (dsem tb') := h
    cases h'
  · have h' : (SemLoc.dma (dsem tb) : SemLoc sig) = .reg barS := h
    cases h'
  · have h1 : dsem tb = dsem tb' := SemLoc.dma.inj h
    have h2 := congrArg decode h1
    rw [decode_dsem, decode_dsem] at h2
    have h3 := Option.some.inj h2
    obtain ⟨t, b⟩ := tb; obtain ⟨t', b'⟩ := tb'
    cases h3; rfl

theorem kcell_injective : Function.Injective (kcell : Dev nD × CIx → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

def ourCells : Finset (GSem nD τ sig) := Finset.univ.map ⟨kcell, kcell_injective⟩

/-- The duty tokens of a device's own cells: the barrier cell's three, one per transfer cell. -/
abbrev TIx : Type := Fin 3 ⊕ (Tr × Bool)

abbrev tokOf (cj : Dev nD × TIx) : GSem nD τ sig × ℕ × Fin 3 := match cj.2 with
  | .inl d => (barCell cj.1, 0, d)
  | .inr tb => (kcell (cj.1, .inr tb), 0, 0)

theorem tokOf_injective : Function.Injective (tokOf : Dev nD × TIx → GSem nD τ sig × ℕ × Fin 3) := by
  rintro ⟨c, (d | tb)⟩ ⟨c', (d' | tb')⟩ h
  · have h1 : c = c' := congrArg (fun x : GSem nD τ sig × ℕ × Fin 3 => x.1.1.1) h
    have h2 : d = d' := congrArg (fun x : GSem nD τ sig × ℕ × Fin 3 => x.2.2) h
    rw [h1, h2]
  · have h' : (SemLoc.reg barS : SemLoc sig) = .dma (dsem tb') := congrArg (fun x : GSem nD τ sig × ℕ × Fin 3 => x.1.2) h
    cases h'
  · have h' : (SemLoc.dma (dsem tb) : SemLoc sig) = .reg barS := congrArg (fun x : GSem nD τ sig × ℕ × Fin 3 => x.1.2) h
    cases h'
  · have h1 : kcell (c, .inr tb) = kcell (c', .inr tb') := congrArg (fun x : GSem nD τ sig × ℕ × Fin 3 => x.1) h
    have h2 := kcell_injective h1
    cases h2; rfl

def ourToks : Finset (GSem nD τ sig × ℕ × Fin 3) := Finset.univ.map ⟨tokOf, tokOf_injective⟩

def u₀ : UU :=
  (initOf (Pipeline.cells cfgs cellOf_inj) (Pipeline.launchToks cfgs cellOf_inj), (initOf ourCells ourToks, 1))

/-! ## Sums over the cells of one device -/

theorem bigSep_bool (Ψ : Bool → sProp 𝕄) : bigSep Finset.univ Ψ = iprop(Ψ false ∗ Ψ true) :=
  bigSep_univ_eq_bigSepL [false, true] (by decide) (by decide) Ψ

theorem bigSep_fin3 (Φ : Fin 3 → sProp 𝕄) : bigSep Finset.univ Φ = iprop(Φ 0 ∗ Φ 1 ∗ Φ 2) :=
  bigSep_univ_eq_bigSepL [0, 1, 2] (by decide) (by decide) Φ

/-- A sum over the transfer cells, by family and number: the send cell's summand and the receive cell's. -/
theorem bigSep_trb (Ψ : Tr × Bool → sProp 𝕄) :
    bigSep Finset.univ Ψ
      = bigSep Finset.univ fun f : Fam => bigSep Finset.univ fun i : Fin f.n => iprop(Ψ (⟨f, i⟩, false) ∗ Ψ (⟨f, i⟩, true)) := by
  rw [bigSep_univ_prod, Pipeline.bigSep_univ_sigma]
  exact bigSep_congr fun f _ => bigSep_congr fun i _ => bigSep_bool _

theorem bigSep_cix (Ψ : CIx → sProp 𝕄) :
    bigSep Finset.univ Ψ
      = iprop(Ψ (.inl ()) ∗ bigSep Finset.univ fun f : Fam => bigSep Finset.univ fun i : Fin f.n =>
          iprop(Ψ (.inr (⟨f, i⟩, false)) ∗ Ψ (.inr (⟨f, i⟩, true)))) := by
  rw [bigSep_univ_sum, bigSep_univ_of_subsingleton (), bigSep_trb]
  rfl

/-! ## What the launch element deals each device -/

/-- The duty tokens of device c's own cells. -/
def toks (c : Dev nD) : sProp 𝕄 :=
  iprop((bigSep Finset.univ fun d : Fin 3 => dutyTok ER (barCell c) 0 d)
    ∗ bigSep Finset.univ fun tb : Tr × Bool => dutyTok ER (kcell (c, .inr tb)) 0 0)

/-- What the launch element deals device c: its cells' round states, positions and first rounds, and its cells' tokens. -/
def G (A : (c : Dev nD) → Buf (Elt F) ((c : Thread nD τ).loc main_arg0)) (c : Dev nD) : sProp 𝕄 :=
  iprop((bigSep Finset.univ fun k : CIx => roundState ER (Rd A) (kcell (c, k)) 0)
    ∗ (bigSep Finset.univ fun k : CIx => iprop(atPos ER (kcell (c, k)) 0 ∅ 0 ∗ reached ER (kcell (c, k)) 0)) ∗ toks (F := F) c)

theorem bigSep_ourCells (Φ : GSem nD τ sig → sProp 𝕄) :
    bigSep ourCells Φ = bigSep Finset.univ fun c : Dev nD => bigSep Finset.univ fun k : CIx => Φ (kcell (c, k)) := by
  unfold ourCells; rw [bigSep_map, bigSep_univ_prod]; rfl

theorem bigSep_ourToks :
    bigSep ourToks (fun x => (dutyTok ER x.1 x.2.1 x.2.2 : sProp 𝕄)) = bigSep Finset.univ fun c : Dev nD => toks (F := F) c := by
  unfold ourToks; rw [bigSep_map, bigSep_univ_prod]
  exact bigSep_congr fun c _ => by unfold toks; rw [bigSep_univ_sum]; rfl

theorem fund_cells (A : (c : Dev nD) → Buf (Elt F) ((c : Thread nD τ).loc main_arg0)) :
    BI.own (ER (initOf ourCells ourToks)) ⊢ (|==> bigSep Finset.univ (G A) : sProp 𝕄) := by
  iintro HX
  imod (Rounds.fund ER (Rd A) ourCells ourToks) $$ HX with ⟨Hst, Hr, Hat, Htok⟩
  imodintro
  ihave Hst' := (Entails.of_eq (bigSep_ourCells fun g => roundState ER (Rd A) g 0)) $$ Hst
  ihave Hat' := (Entails.of_eq (bigSep_ourCells (F := F) fun g => atPos ER g 0 ∅ 0)) $$ Hat
  ihave Hr' := (Entails.of_eq (bigSep_ourCells (F := F) fun g => reached ER g 0)) $$ Hr
  ihave Htok' := (Entails.of_eq (bigSep_ourToks (F := F))) $$ Htok
  unfold G; simp only [bigSep_sep']
  isplitl [Hst']; · iexact Hst'
  isplitl [Hat' Hr']
  · isplitl [Hat'] <;> iassumption
  iexact Htok'

theorem hu₀ (A : (c : Dev nD) → Buf (Elt F) ((c : Thread nD τ).loc main_arg0)) :
    (ownU u₀ : sProp 𝕄)
      ⊢ |={Set.univ}=> iprop(BI.own (EP (initOf (Pipeline.cells cfgs cellOf_inj) (Pipeline.launchToks cfgs cellOf_inj))) ∗ bigSep Finset.univ (G A)) := by
  unfold u₀
  iintro Hu
  ihave H := (ownU_pair _ _) $$ Hu
  icases H with ⟨HP, HX⟩
  ihave H2 := (own_pair_emb (embR : Emb (UB × Counters) 𝕄) (initOf ourCells ourToks) (1 : Counters)) $$ HX
  icases H2 with ⟨HX, -⟩
  imod (fund_cells A) $$ HX with HG
  imodintro
  isplitl [HP] <;> iassumption

/-! ## The semaphores at zero -/

/-- The 136 DMA semaphores: the eight of the local copies and the 128 of the transfers. -/
def lsem : (Fin 4 ⊕ Fin 4) ⊕ (Tr × Bool) → Fin 136 := Sum.elim (Sum.elim inS outS) dsem

theorem lsem_injective : Function.Injective lsem := by
  have hio : ∀ s s' : Fin 4, inS s ≠ outS s' := by decide
  have hi : ∀ s s' : Fin 4, inS s = inS s' → s = s' := by decide
  have ho : ∀ s s' : Fin 4, outS s = outS s' → s = s' := by decide
  have hd : ∀ (x : Fin 4 ⊕ Fin 4) (tb : Tr × Bool), Sum.elim inS outS x ≠ dsem tb := by
    rintro (s | s) tb h
    · have := congrArg decode h; rw [decode_dsem] at this
      exact absurd ((decode_inS s).symm.trans this) (by simp)
    · have := congrArg decode h; rw [decode_dsem] at this
      exact absurd ((decode_outS s).symm.trans this) (by simp)
  rintro ((s | s) | tb) ((s' | s') | tb') h
  · rw [hi s s' h]
  · exact absurd h (hio s s')
  · exact absurd h (hd (.inl s) tb')
  · exact absurd h.symm (hio s' s)
  · rw [ho s s' h]
  · exact absurd h (hd (.inr s) tb')
  · exact absurd h.symm (hd (.inl s') tb)
  · exact absurd h.symm (hd (.inr s') tb)
  · have h1 : dsem tb = dsem tb' := h
    have h2 := congrArg decode h1
    rw [decode_dsem, decode_dsem] at h2
    have h3 := Option.some.inj h2
    obtain ⟨t, b⟩ := tb; obtain ⟨t', b'⟩ := tb'
    cases h3; rfl

theorem lsem_bijective : Function.Bijective lsem :=
  (Fintype.bijective_iff_injective_and_card lsem).mpr ⟨lsem_injective, by decide⟩

def semEquiv : ((Fin 4 ⊕ Fin 4) ⊕ (Tr × Bool)) ≃ Fin 136 := Equiv.ofBijective lsem lsem_bijective

/-- The kernel's own semaphores at zero: the local copies' eight, and the transfer cells' counters. -/
theorem ownSems0_eq (c : Dev nD) :
    (Pipeline.ownSems0 (Ix := Unit) (Name := ℕ) (U := UU) (Lvl := ℕ) (Val := Elt F) (τ := τ) osem c : sProp 𝕄)
      = iprop(localSems (F := F) c ∗ bigSep Finset.univ fun tb : Tr × Bool => semVal (kcell (c, .inr tb)) 0) := by
  unfold Pipeline.ownSems0 localSems
  refine (bigSep_univ_equiv semEquiv _).trans ?_
  rw [bigSep_univ_sum, bigSep_univ_sum]
  rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem bigSep_cix' (Ψ : CIx → sProp 𝕄) :
    bigSep Finset.univ Ψ = iprop(Ψ (.inl ()) ∗ bigSep Finset.univ fun tb : Tr × Bool => Ψ (.inr tb)) := by
  rw [bigSep_univ_sum, bigSep_univ_of_subsingleton ()]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : CIx => semVal (kcell (c, k)) 0) ∗ localSems (F := F) c) : sProp 𝕄) := by
  rw [ownSems0_eq, unscopedSems0_eq, bigSep_cix']
  iintro ⟨⟨HL, HT⟩, HB⟩
  isplitl [HB HT]
  · isplitl [HB]; · iexact HB
    iexact HT
  · iexact HL

/-! ## The cells' invariants allocated -/

theorem core_alloc (A : (c : Dev nD) → Buf (Elt F) ((c : Thread nD τ).loc main_arg0)) (c : Dev nD) :
    iprop(Pipeline.ownSems0 (Ix := Unit) (Name := ℕ) (U := UU) (Lvl := ℕ) (Val := Elt F) (τ := τ) osem c ∗ unscopedSems0 c ∗ G A c)
      ⊢ |={Set.univ}=> iprop((bigSep Finset.univ fun k : CIx => iprop(∃ κ : ℕ, cellInv ER (Rd A) κ (kcell (c, k))))
          ∗ (bigSep Finset.univ fun k : CIx => iprop(atPos ER (kcell (c, k)) 0 ∅ 0 ∗ reached ER (kcell (c, k)) 0))
          ∗ toks (F := F) c ∗ localSems (F := F) c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun k : CIx => semVal (kcell (c, k)) 0) ∗ bigSep Finset.univ fun k : CIx => roundState ER (Rd A) (kcell (c, k)) 0)
      ⊢ (|={Set.univ}=> bigSep Finset.univ fun k : CIx => iprop(∃ κ : ℕ, cellInv ER (Rd A) κ (kcell (c, k))) : sProp 𝕄) from by
        rw [← bigSep_sep']
        exact (bigSep_mono fun k _ => (Rounds.body_intro ER (Rd A) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-! ## The records every device reads -/

/-- Every cell's invariant at the names K, and every cell's first round. -/
def gRecords (A : (c : Dev nD) → Buf (Elt F) ((c : Thread nD τ).loc main_arg0)) (K : GSem nD τ sig → ℕ) : sProp 𝕄 :=
  iprop((bigSep ourCells fun g => cellInv ER (Rd A) (K g) g) ∗ bigSep ourCells fun g => reached ER g 0)

instance gRecords_persistent (A : (c : Dev nD) → Buf (Elt F) ((c : Thread nD τ).loc main_arg0)) (K : GSem nD τ sig → ℕ) : BI.Persistent (gRecords A K) := by
  unfold gRecords; infer_instance

theorem mem_ourCells (ck : Dev nD × CIx) : kcell ck ∈ ourCells := Finset.mem_map_of_mem _ (Finset.mem_univ ck)

theorem inv_at' (A : (c : Dev nD) → Buf (Elt F) ((c : Thread nD τ).loc main_arg0)) (K : GSem nD τ sig → ℕ) (ck : Dev nD × CIx) :
    (bigSep ourCells fun g => (cellInv ER (Rd A) (K g) g : sProp 𝕄)) ⊢ cellInv ER (Rd A) (K (kcell ck)) (kcell ck) :=
  bigSep_elim (mem_ourCells ck)
theorem reached_at' (ck : Dev nD × CIx) :
    (bigSep ourCells fun g => (reached ER g 0 : sProp 𝕄)) ⊢ reached ER (kcell ck) 0 :=
  bigSep_elim (mem_ourCells ck)

theorem inv_at (A : (c : Dev nD) → Buf (Elt F) ((c : Thread nD τ).loc main_arg0)) (K : GSem nD τ sig → ℕ) (ck : Dev nD × CIx) :
    gRecords A K ⊢ cellInv ER (Rd A) (K (kcell ck)) (kcell ck) := by
  unfold gRecords
  iintro ⟨HI, -⟩
  iapply (inv_at' A K ck)
  iexact HI

theorem reached_at (A : (c : Dev nD) → Buf (Elt F) ((c : Thread nD τ).loc main_arg0)) (K : GSem nD τ sig → ℕ) (ck : Dev nD × CIx) :
    gRecords A K ⊢ reached ER (kcell ck) 0 := by
  unfold gRecords
  iintro ⟨-, HR⟩
  iapply (reached_at' (F := F) ck)
  iexact HR

theorem inv_bar (A : (c : Dev nD) → Buf (Elt F) ((c : Thread nD τ).loc main_arg0)) (K : GSem nD τ sig → ℕ) (c : Dev nD) :
    gRecords A K ⊢ cellInv ER (Rd A) (K (barCell c)) (barCell c) := inv_at A K (c, .inl ())
theorem inv_s (A : (c : Dev nD) → Buf (Elt F) ((c : Thread nD τ).loc main_arg0)) (K : GSem nD τ sig → ℕ) (c : Dev nD) (f : Fam) (i : Fin f.n) :
    gRecords A K ⊢ cellInv ER (Rd A) (K (sCell f c i)) (sCell f c i) := inv_at A K (c, .inr (⟨f, i⟩, false))
theorem inv_r (A : (c : Dev nD) → Buf (Elt F) ((c : Thread nD τ).loc main_arg0)) (K : GSem nD τ sig → ℕ) (c : Dev nD) (f : Fam) (i : Fin f.n) :
    gRecords A K ⊢ cellInv ER (Rd A) (K (rCell f c i)) (rCell f c i) := inv_at A K (c, .inr (⟨f, i⟩, true))
theorem reached_bar (A : (c : Dev nD) → Buf (Elt F) ((c : Thread nD τ).loc main_arg0)) (K : GSem nD τ sig → ℕ) (c : Dev nD) :
    gRecords A K ⊢ reached ER (barCell c) 0 := reached_at A K (c, .inl ())
theorem reached_s (A : (c : Dev nD) → Buf (Elt F) ((c : Thread nD τ).loc main_arg0)) (K : GSem nD τ sig → ℕ) (c : Dev nD) (f : Fam) (i : Fin f.n) :
    gRecords A K ⊢ reached ER (sCell f c i) 0 := reached_at A K (c, .inr (⟨f, i⟩, false))
theorem reached_r (A : (c : Dev nD) → Buf (Elt F) ((c : Thread nD τ).loc main_arg0)) (K : GSem nD τ sig → ℕ) (c : Dev nD) (f : Fam) (i : Fin f.n) :
    gRecords A K ⊢ reached ER (rCell f c i) 0 := reached_at A K (c, .inr (⟨f, i⟩, true))

theorem famInvs_intro (A : (c : Dev nD) → Buf (Elt F) ((c : Thread nD τ).loc main_arg0)) (K : GSem nD τ sig → ℕ) (c : Dev nD) (f : Fam) :
    gRecords A K ⊢ famInvs A K c f := by
  unfold famInvs
  refine bigSep_intro_persistent fun i _ => ?_
  iintro #H
  isplitr; · iapply (inv_s A K c f i); iexact H
  isplitr; · iapply (inv_r A K c f i); iexact H
  iapply (inv_r A K (peer f c) f i); iexact H

theorem famReached_intro (A : (c : Dev nD) → Buf (Elt F) ((c : Thread nD τ).loc main_arg0)) (K : GSem nD τ sig → ℕ) (c : Dev nD) (f : Fam) :
    gRecords A K ⊢ famReached (F := F) c f := by
  unfold famReached
  refine bigSep_intro_persistent fun i _ => ?_
  iintro #H
  isplitr; · iapply (reached_s A K c f i); iexact H
  isplitr; · iapply (reached_r A K c f i); iexact H
  iapply (reached_r A K (peer f c) f i); iexact H

theorem records_intro (A : (c : Dev nD) → Buf (Elt F) ((c : Thread nD τ).loc main_arg0)) (K : GSem nD τ sig → ℕ) (c : Dev nD) :
    gRecords A K ⊢ records A K c := by
  unfold records barInvs
  iintro #H
  isplitr
  · isplitr; · iapply (inv_bar A K c); iexact H
    isplitr; · iapply (inv_bar A K (Yn c)); iexact H
    isplitr; · iapply (inv_bar A K (Xn c)); iexact H
    iapply (inv_bar A K (Zn c)); iexact H
  isplitr; · iapply (famInvs_intro A K c .yq); iexact H
  isplitr; · iapply (famInvs_intro A K c .xf); iexact H
  isplitr; · iapply (famInvs_intro A K c .zf); iexact H
  isplitr; · iapply (famInvs_intro A K c .xd); iexact H
  isplitr; · iapply (famInvs_intro A K c .zd); iexact H
  isplitr; · iapply (reached_bar A K (Yn c)); iexact H
  isplitr; · iapply (reached_bar A K (Xn c)); iexact H
  isplitr; · iapply (reached_bar A K (Zn c)); iexact H
  isplitr; · iapply (famReached_intro A K c .yq); iexact H
  isplitr; · iapply (famReached_intro A K c .xf); iexact H
  isplitr; · iapply (famReached_intro A K c .zf); iexact H
  isplitr; · iapply (famReached_intro A K c .xd); iexact H
  iapply (famReached_intro A K c .zd); iexact H

/-! ## The tokens dealt to the devices that pay them -/

def peerEq (f : Fam) : Dev nD ≃ Dev nD := ⟨peer f, peer f, peer_peer f, peer_peer f⟩

/-- The tokens of device c's own transfer cells of family f; -/
def ownToks (c : Dev nD) (f : Fam) : sProp 𝕄 :=
  bigSep Finset.univ fun i : Fin f.n => iprop(dutyTok ER (sCell f c i) 0 0 ∗ dutyTok ER (rCell f c i) 0 0)

/-- the tokens of the duties device c pays. -/
def payToks (c : Dev nD) : sProp 𝕄 :=
  iprop((dutyTok ER (barCell (Yn c)) 0 0 ∗ dutyTok ER (barCell (Xn c)) 0 1 ∗ dutyTok ER (barCell (Zn c)) 0 2)
    ∗ bigSep Finset.univ fun f : Fam => famToks (F := F) c f)

theorem toks_eq (c : Dev nD) :
    toks (F := F) c = iprop((dutyTok ER (barCell c) 0 0 ∗ dutyTok ER (barCell c) 0 1 ∗ dutyTok ER (barCell c) 0 2)
      ∗ bigSep Finset.univ fun f : Fam => ownToks (F := F) c f) := by
  unfold toks; rw [bigSep_fin3, bigSep_trb]; rfl

/-- A receive cell's token goes to the neighbour whose transfer lands on it. -/
theorem fam_around (f : Fam) :
    (bigSep Finset.univ fun c : Dev nD => ownToks (F := F) c f) = bigSep Finset.univ fun c : Dev nD => famToks (F := F) c f := by
  unfold ownToks famToks
  simp only [bigSep_sep']
  rw [bigSep_univ_equiv (peerEq f) (fun c : Dev nD => bigSep Finset.univ fun i : Fin f.n => (dutyTok ER (rCell f c i) 0 0 : sProp 𝕄))]
  rfl

theorem toks_around : (bigSep Finset.univ fun c : Dev nD => toks (F := F) c) ⊢ bigSep Finset.univ fun c : Dev nD => payToks (F := F) c := by
  refine Entails.of_eq ?_
  rw [bigSep_congr (s := Finset.univ) (fun (c : Dev nD) _ => toks_eq (F := F) c)]
  unfold payToks
  rw [bigSep_sep', bigSep_sep', bigSep_sep', bigSep_sep', bigSep_sep', bigSep_sep',
    bigSep_univ_equiv Yeq (fun c : Dev nD => (dutyTok ER (barCell c) 0 0 : sProp 𝕄)),
    bigSep_univ_equiv Xeq (fun c : Dev nD => (dutyTok ER (barCell c) 0 1 : sProp 𝕄)),
    bigSep_univ_equiv Zeq (fun c : Dev nD => (dutyTok ER (barCell c) 0 2 : sProp 𝕄)),
    bigSep_univ_comm (fun (c : Dev nD) (f : Fam) => ownToks (F := F) c f),
    bigSep_univ_comm (fun (c : Dev nD) (f : Fam) => famToks (F := F) c f),
    bigSep_congr (s := Finset.univ) (fun (f : Fam) _ => fam_around (F := F) f)]
  rfl

/-! ## Each device's ghost state -/

theorem pos_eq (c : Dev nD) :
    (bigSep Finset.univ fun k : CIx => (atPos ER (kcell (c, k)) 0 ∅ 0 : sProp 𝕄))
      = iprop(atPos ER (barCell c) 0 ∅ 0 ∗ famPos (F := F) c .yq ∗ famPos (F := F) c .xf ∗ famPos (F := F) c .zf
          ∗ famPos (F := F) c .xd ∗ famPos (F := F) c .zd) := by
  rw [bigSep_cix, bigSep_fam]; rfl

theorem ghost_intro (A : (c : Dev nD) → Buf (Elt F) ((c : Thread nD τ).loc main_arg0)) (K : GSem nD τ sig → ℕ) (c : Dev nD) :
    iprop(gRecords A K ∗ (bigSep Finset.univ fun k : CIx => atPos ER (kcell (c, k)) 0 ∅ 0) ∗ payToks (F := F) c ∗ localSems (F := F) c)
      ⊢ G' A c := by
  rw [pos_eq]
  unfold payToks G' ghost linear
  rw [bigSep_fam]
  iintro ⟨#HR, ⟨Hb, Pyq, Pxf, Pzf, Pxd, Pzd⟩, ⟨⟨Ty, Tx, Tz⟩, Tyq, Txf, Tzf, Txd, Tzd⟩, Hloc⟩
  isplitr [Hloc]
  · iexists K
    isplitr
    · iapply (records_intro A K c); iexact HR
    isplitl [Hb]; · iexact Hb
    isplitl [Pyq]; · iexact Pyq
    isplitl [Pxf]; · iexact Pxf
    isplitl [Pzf]; · iexact Pzf
    isplitl [Pxd]; · iexact Pxd
    isplitl [Pzd]; · iexact Pzd
    isplitl [Ty]; · iexact Ty
    isplitl [Tx]; · iexact Tx
    isplitl [Tz]; · iexact Tz
    isplitl [Tyq]; · iexact Tyq
    isplitl [Txf]; · iexact Txf
    isplitl [Tzf]; · iexact Tzf
    isplitl [Txd]; · iexact Txd
    iexact Tzd
  · iexact Hloc

theorem bigSep_sep3 {I : Type} (s : Finset I) (X Y Z : I → sProp 𝕄) :
    bigSep s (fun i => iprop(X i ∗ Y i ∗ Z i)) = iprop(bigSep s X ∗ bigSep s Y ∗ bigSep s Z) := by
  rw [bigSep_sep', bigSep_sep']

theorem regroup (A : (c : Dev nD) → Buf (Elt F) ((c : Thread nD τ).loc main_arg0)) :
    (bigSep Finset.univ fun c : Dev nD => iprop((bigSep Finset.univ fun k : CIx => iprop(∃ κ : ℕ, cellInv ER (Rd A) κ (kcell (c, k))))
          ∗ (bigSep Finset.univ fun k : CIx => iprop(atPos ER (kcell (c, k)) 0 ∅ 0 ∗ reached ER (kcell (c, k)) 0))
          ∗ toks (F := F) c ∗ localSems (F := F) c) : sProp 𝕄)
      ⊢ bigSep Finset.univ (G' A) := by
  rw [bigSep_sep', bigSep_sep', bigSep_sep',
    ← bigSep_ourCells (fun g => iprop(∃ κ : ℕ, cellInv ER (Rd A) κ g)),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_ourCells (fun g => (reached ER g 0 : sProp 𝕄))]
  iintro ⟨HI, ⟨Hat, #HR⟩, Htok, Hloc⟩
  ihave HK := (BI.bigSep_exists_pi ourCells (fun (g : GSem nD τ sig) (κ : ℕ) => (cellInv ER (Rd A) κ g : sProp 𝕄))) $$ HI
  icases HK with ⟨%K, #HI⟩
  ihave Htk := (toks_around (F := F)) $$ Htok
  iapply (bigSep_with_persistent (R := gRecords A K) fun c _ => ghost_intro A K c)
  isplitr
  · unfold gRecords; isplitl; · iexact HI
    iexact HR
  · iapply (Entails.of_eq (bigSep_sep3 Finset.univ (fun c : Dev nD => bigSep Finset.univ fun k : CIx => (atPos ER (kcell (c, k)) 0 ∅ 0 : sProp 𝕄))
      (fun c => payToks (F := F) c) (fun c => localSems (F := F) c)).symm)
    isplitl [Hat]; · iexact Hat
    isplitl [Htk]; · iexact Htk
    iexact Hloc

/-- The global step: the own and the unscoped semaphores of every device at once. -/
theorem glob (A : (c : Dev nD) → Buf (Elt F) ((c : Thread nD τ).loc main_arg0)) :
    (bigSep Finset.univ fun c => iprop(Pipeline.ownSems0 (Ix := Unit) (Name := ℕ) (U := UU) (Lvl := ℕ) (Val := Elt F) (τ := τ) osem c ∗ unscopedSems0 c ∗ G A c) : sProp 𝕄)
      ⊢ |={Set.univ}=> bigSep Finset.univ (G' A) :=
  ((bigSep_mono fun c _ => core_alloc A c).trans (bigSep_fupd _ _)).trans (BI.fupd_mono (regroup A))

end Cert.Kernel.AG

end
-- ==== Proof.Bits.AssembleK.lean ====
/-
The frame claim of the word-level kernel, from the run: the kernel's run with the output array's value dropped.
-/
import proofs.«900667_g7700000000000668_dist_ag_v7x_xyz2x2x2_y_m32768_n1024_bf16_1_alg».proof.Proof.Bits.Run
import proofs.«900667_g7700000000000668_dist_ag_v7x_xyz2x2x2_y_m32768_n1024_bf16_1_alg».proof.Proof.Bits.Fund
import proofs.«900667_g7700000000000668_dist_ag_v7x_xyz2x2x2_y_m32768_n1024_bf16_1_alg».proof.Defs
import proofs.«900667_g7700000000000668_dist_ag_v7x_xyz2x2x2_y_m32768_n1024_bf16_1_alg».proof.Proof.Gen.Pre_finite_inputs_Kernel

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The kernel's run at the word-level instance, from the body's obligation. -/
theorem run_bits
    (hbody : ∀ (m : (ℓ : Loc nD τ sig) → Buf (Elt Bits) ℓ) (c : Dev nD),
      Pipeline.BodyObligationLoose (dats (F := Bits) (Am m) (Vm m) 0 c) (defs₀ (F := Bits)) 𝒱₀ () Set.univ)
    (m : (ℓ : Loc nD τ sig) → Buf (Elt Bits) ℓ) (g : Dev nD → PrngReg) :
    θ_run (defs (F := Bits)) (onTc (τ := τ) (main (F := Bits))) ⟨m, fun _ => 0, g⟩ (fun r => ∀ c : Dev nD,
      r.2.mem ((c.tc : Thread nD τ).loc main_v1) = Gout (Am m) c ∧ r.2.mem ((c.tc : Thread nD τ).loc main_arg0) = m ((c.tc : Thread nD τ).loc main_arg0)) :=
  run_main (F := Bits) m g (G (Am m)) u₀ (hbody m) (hu₀ (Am m)) (glob (Am m))

/-- The kernel runs and leaves its input halves unchanged. -/
theorem frame_K
    (hbody : ∀ (m : (ℓ : Loc nD τ sig) → Buf (Elt Bits) ℓ) (c : Dev nD),
      Pipeline.BodyObligationLoose (dats (F := Bits) (Am m) (Vm m) 0 c) (defs₀ (F := Bits)) 𝒱₀ () Set.univ) :
    Cert.frame_Kernel :=
  fun m g _ => (θ_run (defs (F := Bits)) _ _).mono (fun _ h c => (h c).2) (run_bits hbody m g)

end Cert.Kernel.AG

end
-- ==== Proof.Landing.lean ====
/-
The landings of the all-gather's remote copies, and what a send cell hands back.

A remote copy of transfer i of family f, issued by device c, writes on the neighbour's output
array, on the rows of the chunk, what it read from its source on c.  For a forward the source is
the same rows of c's output array, holding the gathered array as c assembles it; the rows lie in
the half of the other y, where the device a row is taken from depends on the assembling device only
through its y, and the x- and z-neighbours share c's y: the rows written are the gathered array's
as the neighbour assembles it.  For the transfer to the y-neighbour the source is chunk i of the send
buffer, row 512 i + j of which is row 16384 x + 8192 z + 512 i + j of c's own half, converted; the
y-neighbour takes exactly that row of the other half from the device of the other y whose (x, z) is
the quarter's number, which is c.
-/
import proofs.«900667_g7700000000000668_dist_ag_v7x_xyz2x2x2_y_m32768_n1024_bf16_1_alg».proof.Proof.Sched
import Idealize.ShloMosaic.Lib.Pipeline.Value

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : (c : Dev nD) → Buf (Elt F) ((c : Thread nD τ).loc main_arg0))

/-! ## The send cells -/

/-- A send cell's payload is the source handed back. -/
theorem pay_s (f : Fam) (c : Dev nD) (i : Fin f.n) : sendPay A f c i ⊢ (Rd A).payload (sCell f c i) 0 0 :=
  Entails.of_eq (payload_s A c f i 0).symm

/-! ## The mesh coordinates of a device and of its neighbours -/

/-- A device is 4*x + 2*y + z with x, y, z below 2. -/
theorem dev_coords : ∀ c : Dev nD, c.val = 4 * (c.val / 4) + 2 * ((c.val / 2) % 2) + c.val % 2
    ∧ c.val / 4 ≤ 1 ∧ (c.val / 2) % 2 ≤ 1 ∧ c.val % 2 ≤ 1 := by decide

theorem Xn_y : ∀ c : Dev nD, ((Xn c).val / 2) % 2 = (c.val / 2) % 2 := by decide +kernel
theorem Zn_y : ∀ c : Dev nD, ((Zn c).val / 2) % 2 = (c.val / 2) % 2 := by decide +kernel
theorem peer_y (f : Fam) (hf : f ≠ .yq) (c : Dev nD) : ((peer f c).val / 2) % 2 = (c.val / 2) % 2 := by
  cases f
  · exact absurd rfl hf
  · exact Xn_y c
  · exact Zn_y c
  · exact Xn_y c
  · exact Zn_y c

/-! ## The device a row is taken from -/

/-- In the half of the other y, the device a row is taken from depends on the assembling device only through its y. -/
theorem origin_congr (c q : Dev nD) (r : ℕ) (hy : (q.val / 2) % 2 = (c.val / 2) % 2) (hr : r / 32768 ≠ (c.val / 2) % 2) :
    origin q r = origin c r := by
  unfold origin
  rw [if_neg hr, if_neg (by rw [hy]; exact hr)]
  apply Fin.ext
  show 4 * ((r % 32768) / 16384) + 2 * (1 - (q.val / 2) % 2) + ((r % 32768) / 8192) % 2
     = 4 * ((r % 32768) / 16384) + 2 * (1 - (c.val / 2) % 2) + ((r % 32768) / 8192) % 2
  rw [hy]

/-- Seen from the y-neighbour, the rows of c's own quarter of c's half are taken from c. -/
theorem origin_Yn (c : Dev nD) (r : ℕ)
    (h0 : 32768 * ((c.val / 2) % 2) + 16384 * (c.val / 4) + 8192 * (c.val % 2) ≤ r)
    (h1 : r < 32768 * ((c.val / 2) % 2) + 16384 * (c.val / 4) + 8192 * (c.val % 2) + 8192) :
    origin (Yn c) r = c := by
  have hY := Yn_val c
  obtain ⟨hc, hx, hy, hz⟩ := dev_coords c
  generalize c.val / 4 = x at hc hx hY h0 h1
  generalize (c.val / 2) % 2 = y at hc hy hY h0 h1
  generalize c.val % 2 = z at hc hz hY h0 h1
  have hx' : x = 0 ∨ x = 1 := by omega
  have hy' : y = 0 ∨ y = 1 := by omega
  have hz' : z = 0 ∨ z = 1 := by omega
  unfold origin
  rw [if_neg (by
    rw [hY]
    rcases hx' with rfl | rfl <;> rcases hy' with rfl | rfl <;> rcases hz' with rfl | rfl <;> omega)]
  apply Fin.ext
  show 4 * ((r % 32768) / 16384) + 2 * (1 - ((Yn c).val / 2) % 2) + ((r % 32768) / 8192) % 2 = c.val
  rw [hY, hc]
  rcases hx' with rfl | rfl <;> rcases hy' with rfl | rfl <;> rcases hz' with rfl | rfl <;> omega

/-! ## The rows of a chunk -/

theorem oOff_yq (c : Dev nD) (i : Fin 16) : oOff .yq c i = ![32768 * ((c.val / 2) % 2) + 16384 * (c.val / 4) + 8192 * (c.val % 2) + 512 * i.val, 0] := k0_off2_eq c i
theorem oOff_xf (c : Dev nD) (i : Fin 16) : oOff .xf c i = ![(16384 * (c.val / 4) + 8192 * (c.val % 2) + 512 * i.val + 32768) - 32768 * ((c.val / 2) % 2), 0] := k0_off4_eq c i
theorem oOff_zf (c : Dev nD) (i : Fin 16) : oOff .zf c i = ![(16384 * (c.val / 4) + 8192 * (c.val % 2) + 512 * i.val + 32768) - 32768 * ((c.val / 2) % 2), 0] := k0_off4_eq c i
theorem oOff_xd (c : Dev nD) (i : Fin 8) : oOff .xd c i = ![(16384 * (c.val / 4) + 512 * i.val + 40960) - (32768 * ((c.val / 2) % 2) + 8192 * (c.val % 2)), 0] := k0_off5_eq c i
theorem oOff_zd (c : Dev nD) (i : Fin 8) : oOff .zd c i = ![(8192 * (c.val % 2) + 512 * i.val + 53248) - (32768 * ((c.val / 2) % 2) + 16384 * (c.val / 4)), 0] := k0_off6_eq c i

/-- The rows of a chunk a device forwards lie in the half of the other y. -/
theorem fwd_rows (f : Fam) (hf : f ≠ .yq) (c : Dev nD) (i : Fin f.n) (j : ℕ) (hj : j < 512) :
    (oOff f c i 0 + j) / 32768 ≠ (c.val / 2) % 2 := by
  obtain ⟨hc, hx, hy, hz⟩ := dev_coords c
  have hi := i.isLt
  cases f
  · exact absurd rfl hf
  · rw [oOff_xf]
    show ((16384 * (c.val / 4) + 8192 * (c.val % 2) + 512 * i.val + 32768) - 32768 * ((c.val / 2) % 2) + j) / 32768 ≠ _
    change i.val < 16 at hi
    generalize c.val / 4 = x at hx ⊢
    generalize (c.val / 2) % 2 = y at hy ⊢
    generalize c.val % 2 = z at hz ⊢
    omega
  · rw [oOff_zf]
    show ((16384 * (c.val / 4) + 8192 * (c.val % 2) + 512 * i.val + 32768) - 32768 * ((c.val / 2) % 2) + j) / 32768 ≠ _
    change i.val < 16 at hi
    generalize c.val / 4 = x at hx ⊢
    generalize (c.val / 2) % 2 = y at hy ⊢
    generalize c.val % 2 = z at hz ⊢
    omega
  · rw [oOff_xd]
    show ((16384 * (c.val / 4) + 512 * i.val + 40960) - (32768 * ((c.val / 2) % 2) + 8192 * (c.val % 2)) + j) / 32768 ≠ _
    change i.val < 8 at hi
    generalize c.val / 4 = x at hx ⊢
    generalize (c.val / 2) % 2 = y at hy ⊢
    generalize c.val % 2 = z at hz ⊢
    omega
  · rw [oOff_zd]
    show ((8192 * (c.val % 2) + 512 * i.val + 53248) - (32768 * ((c.val / 2) % 2) + 16384 * (c.val / 4)) + j) / 32768 ≠ _
    change i.val < 8 at hi
    generalize c.val / 4 = x at hx ⊢
    generalize (c.val / 2) % 2 = y at hy ⊢
    generalize c.val % 2 = z at hz ⊢
    omega

/-- Where an index of a chunk of the output array sits in the array. -/
theorem oChunk_emb_val (f : Fam) (c : Dev nD) (i : Fin f.n) (y : S512x1024.Idx) (a : Fin 2) :
    (((oChunk f c i).view.emb y : S65536x1024.Idx) a).val = oOff f c i a + (y a).val := by
  show oOff f c i a + 1 * (y a).val = _
  rw [Nat.one_mul]

/-- Where an index of a chunk of the send buffer sits in the buffer. -/
theorem sbChunk_emb_val (i : Fin 16) (y : S512x1024.Idx) (a : Fin 2) :
    (((sbChunk i).view.emb y : S8192x1024.Idx) a).val = (![512 * i.val, 0] : Fin 2 → Nat) a + (y a).val := by
  show (![512 * i.val, 0] : Fin 2 → Nat) a + 1 * (y a).val = _
  rw [Nat.one_mul]

/-! ## The forwards -/

/-- On the rows of a chunk device c forwards, the gathered array as the neighbour assembles it is the gathered
    array as c assembles it. -/
theorem Gout_fwd (f : Fam) (hf : f ≠ .yq) (c : Dev nD) (i : Fin f.n) (y : S512x1024.Idx) :
    Gout A (peer f c) ((oChunk f c i).view.emb y) = Gout A c ((oChunk f c i).view.emb y) := by
  have ho : origin (peer f c) ((oChunk f c i).view.emb y (0 : Fin 2)).val
      = origin c ((oChunk f c i).view.emb y (0 : Fin 2)).val :=
    origin_congr c (peer f c) _ (peer_y f hf c) (by
      rw [oChunk_emb_val]; exact fwd_rows f hf c i (y 0).val (y 0).isLt)
  show cv (A (origin (peer f c) ((oChunk f c i).view.emb y (0 : Fin 2)).val) _)
     = cv (A (origin c ((oChunk f c i).view.emb y (0 : Fin 2)).val) _)
  rw [ho]

theorem landing_fwd_aux (f : Fam) (hf : f ≠ .yq) (c c' : Dev nD) (hc' : c' = c) (i : Fin f.n)
    (fd : Buf (Elt F) ((oChunk f c i).view.loc (peer f c : Thread nD τ))) :
    (((oChunk f c i).view.loc (peer f c : Thread nD τ)) ↦[(oChunk f c i).view.set]{fullShare} ((oChunk f c i).view.write (Elt F) fd ((oChunk f c i).view.read (Elt F) (oBuf A f c i)) Finset.univ) : sProp 𝕄)
      ⊢ ((oChunk f c' i).view.loc (peer f c : Thread nD τ)) ↦[(oChunk f c' i).view.set]{fullShare} (Gout A (peer f c) : Buf (Elt F) ((oChunk f c' i).view.loc (peer f c : Thread nD τ))) := by
  subst hc'
  apply Entails.of_eq
  apply pointsTo_congr
  intro j hj
  obtain ⟨y, rfl⟩ := View.exists_emb_of_mem_set _ hj
  rw [View.write_emb_of_mem _ _ (Finset.mem_univ y), View.read_apply, cast_cast, cast_eq]
  exact (Gout_fwd A f hf c' i y).symm

/-- A forward's landing is the neighbour's receive cell's payload. -/
theorem landing_fwd (f : Fam) (hf : f ≠ .yq) (c : Dev nD) (i : Fin f.n) (fd : Buf (Elt F) ((oChunk f c i).view.loc (peer f c : Thread nD τ))) :
    (((oChunk f c i).view.loc (peer f c : Thread nD τ)) ↦[(oChunk f c i).view.set]{fullShare} ((oChunk f c i).view.write (Elt F) fd ((oChunk f c i).view.read (Elt F) (oBuf A f c i)) Finset.univ) : sProp 𝕄)
      ⊢ (Rd A).payload (rCell f (peer f c) i) 0 0 := by
  rw [payload_r]
  exact landing_fwd_aux A f hf c (peer f (peer f c)) (peer_peer f c) i fd

/-! ## The transfer to the y-neighbour -/

/-- On the rows of the chunk transfer i to the y-neighbour writes, the gathered array as the y-neighbour
    assembles it is chunk i of c's filled send buffer. -/
theorem Gout_yq (c : Dev nD) (i : Fin 16) (y : S512x1024.Idx) :
    Gout A (Yn c) ((oChunk .yq c i).view.emb y) = SB A c ((sbChunk i).view.emb y) := by
  have hi : i.val < 16 := i.isLt
  have hy0 : (y 0).val < 512 := (y 0).isLt
  have hr : ((oChunk .yq c i).view.emb y (0 : Fin 2)).val
      = 32768 * ((c.val / 2) % 2) + 16384 * (c.val / 4) + 8192 * (c.val % 2) + 512 * i.val + (y 0).val := by
    rw [oChunk_emb_val, oOff_yq]; rfl
  have hs : ((sbChunk i).view.emb y (0 : Fin 2)).val = 512 * i.val + (y 0).val := by
    rw [sbChunk_emb_val]; rfl
  have ho : origin (Yn c) ((oChunk .yq c i).view.emb y (0 : Fin 2)).val = c :=
    origin_Yn c _ (by rw [hr]; omega) (by rw [hr]; omega)
  have h0 : (⟨((oChunk .yq c i).view.emb y (0 : Fin 2)).val % 32768, Nat.mod_lt _ (by decide)⟩ : Fin 32768)
      = ⟨(16384 * (c.val / 4) + 8192 * (c.val % 2) + ((sbChunk i).view.emb y (0 : Fin 2)).val) % 32768, Nat.mod_lt _ (by decide)⟩ :=
    Fin.ext (by show _ % 32768 = _ % 32768; rw [hr, hs]; omega)
  have h1 : ((oChunk .yq c i).view.emb y (1 : Fin 2) : Fin 1024) = (sbChunk i).view.emb y (1 : Fin 2) :=
    Fin.ext (by rw [oChunk_emb_val, sbChunk_emb_val, oOff_yq]; rfl)
  show cv (A (origin (Yn c) ((oChunk .yq c i).view.emb y (0 : Fin 2)).val)
        (ValueIdx.ix2 ⟨((oChunk .yq c i).view.emb y (0 : Fin 2)).val % 32768, Nat.mod_lt _ (by decide)⟩ ((oChunk .yq c i).view.emb y (1 : Fin 2))))
     = cv (A c (ValueIdx.ix2 ⟨(16384 * (c.val / 4) + 8192 * (c.val % 2) + ((sbChunk i).view.emb y (0 : Fin 2)).val) % 32768, Nat.mod_lt _ (by decide)⟩
        ((sbChunk i).view.emb y (1 : Fin 2))))
  rw [ho, h0, h1]

theorem landing_yq_aux (c c' : Dev nD) (hc' : c' = c) (i : Fin 16) (fd : Buf (Elt F) ((oChunk .yq c i).view.loc (Yn c : Thread nD τ))) :
    (((oChunk .yq c i).view.loc (Yn c : Thread nD τ)) ↦[(oChunk .yq c i).view.set]{fullShare} ((oChunk .yq c i).view.write (Elt F) fd ((sbChunk i).view.read (Elt F) (sbBuf A c i)) Finset.univ) : sProp 𝕄)
      ⊢ ((oChunk .yq c' i).view.loc (Yn c : Thread nD τ)) ↦[(oChunk .yq c' i).view.set]{fullShare} (Gout A (Yn c) : Buf (Elt F) ((oChunk .yq c' i).view.loc (Yn c : Thread nD τ))) := by
  subst hc'
  apply Entails.of_eq
  apply pointsTo_congr
  intro j hj
  obtain ⟨y, rfl⟩ := View.exists_emb_of_mem_set _ hj
  rw [View.write_emb_of_mem _ _ (Finset.mem_univ y), View.read_apply, cast_cast]
  exact (cast_eq _ _).trans (Gout_yq A c' i y).symm

/-- The landing of a transfer to the y-neighbour is its receive cell's payload. -/
theorem landing_yq (c : Dev nD) (i : Fin 16) (fd : Buf (Elt F) ((oChunk .yq c i).view.loc (Yn c : Thread nD τ))) :
    (((oChunk .yq c i).view.loc (Yn c : Thread nD τ)) ↦[(oChunk .yq c i).view.set]{fullShare} ((oChunk .yq c i).view.write (Elt F) fd ((sbChunk i).view.read (Elt F) (sbBuf A c i)) Finset.univ) : sProp 𝕄)
      ⊢ (Rd A).payload (rCell .yq (Yn c) i) 0 0 := by
  rw [payload_r]
  exact landing_yq_aux A c (Yn (Yn c)) (Yn_Yn c) i fd

end Cert.KernelIdeal.AG

end
-- ==== Proof.Geom.lean ====
/-
The chunks of the output array and of the send buffer, as sets of rows.

A device 4*x + 2*y + z keeps the half 32768*y .. 32768*y + 32767 of its output array for its own 32 local
copies of 1024 rows, and its three neighbours write the other half in chunks of 512 rows: the quarter
2*x + z by the y-neighbour, the quarter 2*(1-x) + z by the x-neighbour, the quarter 2*x + (1-z) by the
z-neighbour, and the diagonal quarter half by the x- and half by the z-neighbour.  The chunk a device
receives is the chunk it forwards; the 96 chunks tile the array; the whole-array points-to splits and joins
along them, and a chunk's full share along its two halves.
-/
import proofs.«900667_g7700000000000668_dist_ag_v7x_xyz2x2x2_y_m32768_n1024_bf16_1_alg».proof.Proof.Sched
import Idealize.ShloMosaic.Lib.Pipeline.Value

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The chunk a device receives is the chunk it forwards -/

theorem oOff_yq_recv : ∀ (c : Dev nD) (i : Fin 16), oOff .yq (Yn c) i = oOff .xf c i := by decide +kernel
theorem oOff_zf_recv : ∀ (c : Dev nD) (i : Fin 8),
    oOff .zf (Zn c) ⟨i.val, by have := i.isLt; show _ < 16; omega⟩ = oOff .xd c i := by decide +kernel
theorem oOff_xf_recv : ∀ (c : Dev nD) (i : Fin 8),
    oOff .xf (Xn c) ⟨i.val + 8, by have := i.isLt; show _ < 16; omega⟩ = oOff .zd c i := by decide +kernel

theorem oChunk_yq_recv (c : Dev nD) (i : Fin 16) : oChunk .yq (Yn c) i = oChunk .xf c i :=
  Memref.slice_unit_congr oM (oOff_yq_recv c i) _ _ (fun _ => rfl) (fun _ => rfl)
theorem oChunk_xf_zf (c : Dev nD) (i : Fin 16) : oChunk .xf c i = oChunk .zf c i := rfl
theorem oChunk_zf_recv (c : Dev nD) (i : Fin 8) :
    oChunk .zf (Zn c) ⟨i.val, by have := i.isLt; show _ < 16; omega⟩ = oChunk .xd c i :=
  Memref.slice_unit_congr oM (oOff_zf_recv c i) _ _ (fun _ => rfl) (fun _ => rfl)
theorem oChunk_xf_recv (c : Dev nD) (i : Fin 8) :
    oChunk .xf (Xn c) ⟨i.val + 8, by have := i.isLt; show _ < 16; omega⟩ = oChunk .zd c i :=
  Memref.slice_unit_congr oM (oOff_xf_recv c i) _ _ (fun _ => rfl) (fun _ => rfl)

/-! ## The two halves of a chunk's share -/

theorem chunk_halves (M : Memref sig .tc .hbm S512x1024 .bf16) (c : Dev nD) (g : Buf (Elt F) (M.view.loc (c : Thread nD τ))) :
    (M.view.loc (c : Thread nD τ) ↦[M.view.set]{fullShare} g : sProp 𝕄)
      ⊣⊢ iprop((M.view.loc (c : Thread nD τ) ↦[M.view.set]{fullShare.left} g) ∗ (M.view.loc (c : Thread nD τ) ↦[M.view.set]{fullShare.right} g)) :=
  pointsTo_share (PosShare.mem_left_op_right fullShare)

/-! ## Blocks of whole rows of a two-axis array -/

/-- The elements of a block of whole rows: those whose row lies in the block's interval. -/
theorem mem_rows {R C n : ℕ} {off : Fin 2 → ℕ} (h1 : off 1 = 0)
    (inb : ∀ a, off a + (![n, C] : Fin 2 → ℕ) a ≤ (⟨2, ![R, C]⟩ : Shape).size a)
    (e : (⟨2, ![R, C]⟩ : Shape).Idx) :
    e ∈ (Rect.unit (s := ⟨2, ![R, C]⟩) off ![n, C] inb).set ↔ off 0 ≤ (e 0).val ∧ (e 0).val < off 0 + n := by
  rw [Rect.mem_set_unit, Fin.forall_fin_two]
  have h := (e 1).isLt
  constructor
  · intro h'; exact h'.1
  · intro h'
    refine ⟨h', ?_⟩
    rw [h1]
    exact ⟨Nat.zero_le _, by rw [Nat.zero_add]; exact h⟩

/-- Two blocks of whole rows whose intervals do not meet are disjoint. -/
theorem rows_disjoint {R C n n' : ℕ} {off off' : Fin 2 → ℕ}
    (inb : ∀ a, off a + (![n, C] : Fin 2 → ℕ) a ≤ (⟨2, ![R, C]⟩ : Shape).size a)
    (inb' : ∀ a, off' a + (![n', C] : Fin 2 → ℕ) a ≤ (⟨2, ![R, C]⟩ : Shape).size a)
    (h : off 0 + n ≤ off' 0 ∨ off' 0 + n' ≤ off 0) :
    Disjoint (Rect.unit (s := ⟨2, ![R, C]⟩) off ![n, C] inb).set (Rect.unit (s := ⟨2, ![R, C]⟩) off' ![n', C] inb').set :=
  Rect.unit_disjoint 0 h

/-- A points-to of a whole buffer along a finite family of pairwise disjoint element sets that cover it. -/
theorem pointsTo_cover {ℓ : Loc nD τ sig} {T : Type} [Fintype T] (K : T → Finset (Idx ℓ))
    (hd : ∀ t t', t ≠ t' → Disjoint (K t) (K t')) (hcov : ∀ e, ∃ t, e ∈ K t)
    (q : PosShare TreeShare) (g : Buf (Elt F) ℓ) :
    (ℓ ↦{q} g : sProp 𝕄) = bigSep Finset.univ fun t => ℓ ↦[K t]{q} g := by
  have hU : (Finset.univ : Finset (Idx ℓ)) = Finset.univ.biUnion K := by
    ext e
    simp only [Finset.mem_univ, Finset.mem_biUnion, true_and, true_iff]
    exact hcov e
  rw [← pointsTo_biUnion Finset.univ K (fun t _ t' _ h => hd t t' h), ← hU]

/-! ## The send buffer: sixteen chunks of 512 rows -/

theorem sbChunk_set (i : Fin 16) :
    (sbChunk i).view.set = (Rect.unit (s := S8192x1024) ![512 * i.val, 0] S512x1024.size (sb_inb i)).set :=
  View.set_slice_whole _ _

theorem sb_split (c : Dev nD) (g : Buf (Elt F) ((c : Thread nD τ).loc cc0_scratch2)) :
    (((c : Thread nD τ).loc cc0_scratch2) ↦{fullShare} g : sProp 𝕄)
      ⊣⊢ bigSep Finset.univ fun i : Fin 16 => (sbChunk i).view.loc (c : Thread nD τ) ↦[(sbChunk i).view.set]{fullShare} g := by
  have h := BI.equiv_iff.mpr (pointsTo_cover (F := F) (ℓ := (c : Thread nD τ).loc cc0_scratch2) (fun i : Fin 16 => (sbChunk i).view.set) ?_ ?_ fullShare g)
  · exact ⟨h.1, h.2⟩
  · intro i j hij
    rw [sbChunk_set, sbChunk_set]
    refine rows_disjoint (R := 8192) (C := 1024) (n := 512) (n' := 512) (sb_inb i) (sb_inb j) ?_
    have : i.val ≠ j.val := fun e => hij (Fin.ext e)
    show 512 * i.val + 512 ≤ 512 * j.val ∨ 512 * j.val + 512 ≤ 512 * i.val
    omega
  · intro e
    have he : (e 0).val < 8192 := (e 0).isLt
    refine ⟨⟨(e 0).val / 512, by omega⟩, ?_⟩
    rw [sbChunk_set]
    refine (mem_rows (R := 8192) (C := 1024) (n := 512) (off := ![512 * ((e 0).val / 512), 0]) rfl _ e).mpr ?_
    show 512 * ((e 0).val / 512) ≤ (e 0).val ∧ (e 0).val < 512 * ((e 0).val / 512) + 512
    omega

/-! ## The output array: 96 chunks -/

/-- The chunks of a device's output array: its own 32 of 1024 rows, then the chunks of 512 rows its
    y-neighbour, its x-neighbour (a whole quarter, then half the diagonal one) and its z-neighbour
    (the same) write. -/
abbrev PT : Type := Fin 32 ⊕ Fin 16 ⊕ Fin 16 ⊕ Fin 8 ⊕ Fin 16 ⊕ Fin 8

/-- The first row of each chunk on the device of mesh coordinates x, y, z, -/
def rLo (x y z : ℕ) : PT → ℕ
  | .inl i => 32768 * y + 1024 * i.val
  | .inr (.inl i) => 32768 * (1 - y) + 16384 * x + 8192 * z + 512 * i.val
  | .inr (.inr (.inl i)) => 32768 * (1 - y) + 16384 * (1 - x) + 8192 * z + 512 * i.val
  | .inr (.inr (.inr (.inl i))) => 32768 * (1 - y) + 16384 * (1 - x) + 8192 * (1 - z) + 512 * i.val
  | .inr (.inr (.inr (.inr (.inl i)))) => 32768 * (1 - y) + 16384 * x + 8192 * (1 - z) + 512 * i.val
  | .inr (.inr (.inr (.inr (.inr i)))) => 32768 * (1 - y) + 16384 * (1 - x) + 8192 * (1 - z) + 4096 + 512 * i.val

/-- that is, on device c, -/
def pLo (c : Dev nD) (t : PT) : ℕ := rLo (c.val / 4) ((c.val / 2) % 2) (c.val % 2) t

/-- its number of rows, -/
def pLen : PT → ℕ
  | .inl _ => 1024
  | .inr _ => 512

/-- and its elements. -/
def pSet (c : Dev nD) : PT → Finset (Idx ((c : Thread nD τ).loc main_v1))
  | .inl i => (oOwn c i).view.set
  | .inr (.inl i) => (oChunk .yq (Yn c) i).view.set
  | .inr (.inr (.inl i)) => (oChunk .xf (Xn c) i).view.set
  | .inr (.inr (.inr (.inl i))) => (oChunk .xd (Xn c) i).view.set
  | .inr (.inr (.inr (.inr (.inl i)))) => (oChunk .zf (Zn c) i).view.set
  | .inr (.inr (.inr (.inr (.inr i)))) => (oChunk .zd (Zn c) i).view.set

/-! The offsets in closed form. -/

theorem off_own (c : Dev nD) (i : Fin 32) : k0_off3 c (BitVec.ofNat 32 (1024 * i.val)) = ![pLo c (.inl i), 0] :=
  k0_off3_eq c i
theorem off_yq : ∀ (c : Dev nD) (i : Fin 16), oOff .yq (Yn c) i = ![pLo c (.inr (.inl i)), 0] := by decide +kernel
theorem off_xf : ∀ (c : Dev nD) (i : Fin 16), oOff .xf (Xn c) i = ![pLo c (.inr (.inr (.inl i))), 0] := by decide +kernel
theorem off_xd : ∀ (c : Dev nD) (i : Fin 8), oOff .xd (Xn c) i = ![pLo c (.inr (.inr (.inr (.inl i)))), 0] := by decide +kernel
theorem off_zf : ∀ (c : Dev nD) (i : Fin 16), oOff .zf (Zn c) i = ![pLo c (.inr (.inr (.inr (.inr (.inl i))))), 0] := by
  decide +kernel
theorem off_zd : ∀ (c : Dev nD) (i : Fin 8), oOff .zd (Zn c) i = ![pLo c (.inr (.inr (.inr (.inr (.inr i))))), 0] := by
  decide +kernel

/-- The elements of a block of rows of the output array. -/
theorem mem_oSlice (c : Dev nD) {n lo : ℕ} {off : Fin 2 → ℕ} (ho : off = ![lo, 0])
    (inb : ∀ a, off a + (![n, 1024] : Fin 2 → ℕ) a ≤ S65536x1024.size a)
    (e : Idx ((c : Thread nD τ).loc main_v1)) :
    e ∈ (oM.slice (Rect.unit (s := S65536x1024) off ![n, 1024] inb) (fun _ => rfl)).view.set
      ↔ lo ≤ (e 0).val ∧ (e 0).val < lo + n := by
  subst ho
  have hs : (oM.slice (Rect.unit (s := S65536x1024) ![lo, 0] ![n, 1024] inb) (fun _ => rfl)).view.set
      = (Rect.unit (s := S65536x1024) ![lo, 0] ![n, 1024] inb).set := View.set_slice_whole main_v1 _
  rw [hs]
  exact mem_rows (R := 65536) (C := 1024) rfl inb e

theorem mem_pSet (c : Dev nD) (t : PT) (e : Idx ((c : Thread nD τ).loc main_v1)) :
    e ∈ pSet c t ↔ pLo c t ≤ (e 0).val ∧ (e 0).val < pLo c t + pLen t := by
  rcases t with i | i | i | i | i | i
  · exact mem_oSlice c (off_own c i) (k0_off3_inb c i) e
  · exact mem_oSlice c (off_yq c i) (oOff_inb .yq (Yn c) i) e
  · exact mem_oSlice c (off_xf c i) (oOff_inb .xf (Xn c) i) e
  · exact mem_oSlice c (off_xd c i) (oOff_inb .xd (Xn c) i) e
  · exact mem_oSlice c (off_zf c i) (oOff_inb .zf (Zn c) i) e
  · exact mem_oSlice c (off_zd c i) (oOff_inb .zd (Zn c) i) e

/-- The chunks' intervals of rows are pairwise apart, -/
theorem rLo_sep (x y z : ℕ) (hx : x = 0 ∨ x = 1) (hy : y = 0 ∨ y = 1) (hz : z = 0 ∨ z = 1) (t t' : PT) (h : t ≠ t') :
    rLo x y z t + pLen t ≤ rLo x y z t' ∨ rLo x y z t' + pLen t' ≤ rLo x y z t := by
  rcases hx with rfl | rfl <;> rcases hy with rfl | rfl <;> rcases hz with rfl | rfl <;>
    rcases t with i | i | i | i | i | i <;> rcases t' with j | j | j | j | j | j <;>
    simp only [rLo, pLen] <;>
    first
      | omega
      | (have hij : i.val ≠ j.val := fun e => h (by have := Fin.ext e; subst this; rfl)
         omega)

/-- and every row lies in one. -/
theorem rLo_cover (x y z : ℕ) (hx : x = 0 ∨ x = 1) (hy : y = 0 ∨ y = 1) (hz : z = 0 ∨ z = 1) (r : ℕ) (hr : r < 65536) :
    ∃ t : PT, rLo x y z t ≤ r ∧ r < rLo x y z t + pLen t := by
  by_cases h1 : r / 32768 = y
  · exact ⟨.inl ⟨(r % 32768) / 1024, by omega⟩, by simp only [rLo, pLen]; omega⟩
  · by_cases h2 : (r % 32768) / 16384 = x
    · by_cases h3 : (r % 16384) / 8192 = z
      · exact ⟨.inr (.inl ⟨(r % 8192) / 512, by omega⟩), by simp only [rLo, pLen]; omega⟩
      · exact ⟨.inr (.inr (.inr (.inr (.inl ⟨(r % 8192) / 512, by omega⟩)))), by simp only [rLo, pLen]; omega⟩
    · by_cases h3 : (r % 16384) / 8192 = z
      · exact ⟨.inr (.inr (.inl ⟨(r % 8192) / 512, by omega⟩)), by simp only [rLo, pLen]; omega⟩
      · by_cases h4 : (r % 8192) / 512 < 8
        · exact ⟨.inr (.inr (.inr (.inl ⟨(r % 8192) / 512, h4⟩))), by simp only [rLo, pLen]; omega⟩
        · exact ⟨.inr (.inr (.inr (.inr (.inr ⟨(r % 8192) / 512 - 8, by omega⟩)))), by simp only [rLo, pLen]; omega⟩

theorem pLo_sep (c : Dev nD) (t t' : PT) (h : t ≠ t') :
    pLo c t + pLen t ≤ pLo c t' ∨ pLo c t' + pLen t' ≤ pLo c t := by
  have hc : c.val < 8 := c.isLt
  exact rLo_sep _ _ _ (by omega) (by omega) (by omega) t t' h

theorem pLo_cover (c : Dev nD) (r : ℕ) (hr : r < 65536) : ∃ t : PT, pLo c t ≤ r ∧ r < pLo c t + pLen t := by
  have hc : c.val < 8 := c.isLt
  exact rLo_cover _ _ _ (by omega) (by omega) (by omega) r hr

theorem pSet_disjoint (c : Dev nD) (t t' : PT) (h : t ≠ t') : Disjoint (pSet c t) (pSet c t') := by
  rw [Finset.disjoint_left]
  intro e h1 h2
  rw [mem_pSet] at h1 h2
  have := pLo_sep c t t' h
  omega

theorem pSet_cover (c : Dev nD) (e : Idx ((c : Thread nD τ).loc main_v1)) : ∃ t, e ∈ pSet c t := by
  obtain ⟨t, ht⟩ := pLo_cover c (e 0).val (e 0).isLt
  exact ⟨t, (mem_pSet c t e).mpr ht⟩

/-! ## Splitting and joining the whole output array along its chunks -/

/-- Device c's output array in pieces at the contents g: the 32 chunks it keeps for its own copies, and the
    chunks its y-, x- and z-neighbour are going to write. -/
def oPieces (c : Dev nD) (g : Buf (Elt F) ((c : Thread nD τ).loc main_v1)) : sProp 𝕄 := iprop(
      (bigSep Finset.univ fun i : Fin 32 => (oOwn c i).view.loc (c : Thread nD τ) ↦[(oOwn c i).view.set]{fullShare} g)
    ∗ (bigSep Finset.univ fun i : Fin 16 => (oChunk .yq (Yn c) i).view.loc (c : Thread nD τ) ↦[(oChunk .yq (Yn c) i).view.set]{fullShare} g)
    ∗ (bigSep Finset.univ fun i : Fin 16 => (oChunk .xf (Xn c) i).view.loc (c : Thread nD τ) ↦[(oChunk .xf (Xn c) i).view.set]{fullShare} g)
    ∗ (bigSep Finset.univ fun i : Fin 8 => (oChunk .xd (Xn c) i).view.loc (c : Thread nD τ) ↦[(oChunk .xd (Xn c) i).view.set]{fullShare} g)
    ∗ (bigSep Finset.univ fun i : Fin 16 => (oChunk .zf (Zn c) i).view.loc (c : Thread nD τ) ↦[(oChunk .zf (Zn c) i).view.set]{fullShare} g)
    ∗ (bigSep Finset.univ fun i : Fin 8 => (oChunk .zd (Zn c) i).view.loc (c : Thread nD τ) ↦[(oChunk .zd (Zn c) i).view.set]{fullShare} g))

theorem o_split (c : Dev nD) (g : Buf (Elt F) ((c : Thread nD τ).loc main_v1)) :
    (((c : Thread nD τ).loc main_v1) ↦{fullShare} g : sProp 𝕄) ⊣⊢ oPieces c g := by
  have h : (((c : Thread nD τ).loc main_v1) ↦{fullShare} g : sProp 𝕄) = oPieces c g := by
    rw [pointsTo_cover (F := F) (ℓ := (c : Thread nD τ).loc main_v1) (pSet c) (pSet_disjoint c) (pSet_cover c) fullShare g,
      bigSep_univ_sum, bigSep_univ_sum, bigSep_univ_sum, bigSep_univ_sum, bigSep_univ_sum]
    rfl
  have h' := BI.equiv_iff.mpr h
  exact ⟨h'.1, h'.2⟩

end Cert.KernelIdeal.AG

end
-- ==== Proof.Send.lean ====
/-
The remote copies of the all-gather, one rule per transfer.

Transfer i of family f, issued by device c to the family's neighbour, reads its source on c — chunk i of the
filled send buffer for the transfers to the y-neighbour, the received chunk of c's own output array for the
forwards and the relays — and writes the same 512 rows of the neighbour's output array, which the neighbour
handed c with its barrier signal.  The source goes to the transfer's send cell, to come back when it has been
read; the rows written go to the neighbour's receive cell, holding the gathered array as the neighbour assembles
it; the device owes one landing less and is credited the chunk on its send cell.
-/
import proofs.«900667_g7700000000000668_dist_ag_v7x_xyz2x2x2_y_m32768_n1024_bf16_1_alg».proof.Proof.Landing
import proofs.«900667_g7700000000000668_dist_ag_v7x_xyz2x2x2_y_m32768_n1024_bf16_1_alg».proof.Proof.Credit
import proofs.«900667_g7700000000000668_dist_ag_v7x_xyz2x2x2_y_m32768_n1024_bf16_1_alg».proof.Proof.Geom
import proofs.«900667_g7700000000000668_dist_ag_v7x_xyz2x2x2_y_m32768_n1024_bf16_1_alg».proof.Proof.Gen.KernelIdeal.Skeleton

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : (c : Dev nD) → Buf (Elt F) ((c : Thread nD τ).loc main_arg0))

/-! ## A family's sixteen or eight transfers, one by one -/

theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## One landing less owed -/

/-- Transfer i's landing peeled off the chunks S of family f still owed. -/
theorem owedOn_peel (c : Dev nD) (f : Fam) (S : Finset (Fin f.n)) (i : Fin f.n) (hi : i ∈ S) :
    owedOn c f S = owedOn c f (S.erase i) + tallyAt (rCell f (peer f c) i) () N := by
  conv_lhs => rw [← Finset.insert_erase hi]
  exact owedOn_insert c f _ i (Finset.notMem_erase i S)

/-- The same under whatever else is owed. -/
theorem owed_peel (c : Dev nD) (f : Fam) (X : CellTallies nD τ sig Unit) (S : Finset (Fin f.n)) (i : Fin f.n) (hi : i ∈ S) :
    X + owedOn c f S = (X + owedOn c f (S.erase i)) + tallyAt (rCell f (peer f c) i) () N := by
  rw [owedOn_peel c f S i hi, add_assoc]

/-- The transfers of a family from the k-th on: those not yet issued when the first k have been. -/
def later (f : Fam) (k : ℕ) : Finset (Fin f.n) := Finset.univ.filter fun j => k ≤ j.val

theorem later_zero (f : Fam) : later f 0 = Finset.univ := by
  unfold later; exact Finset.filter_true_of_mem fun j _ => Nat.zero_le _

theorem later_all (f : Fam) : later f f.n = ∅ := by
  unfold later; exact Finset.filter_false_of_mem fun j _ => Nat.not_le.mpr j.isLt

theorem later_succ (f : Fam) (i : Fin f.n) : later f i.val = insert i (later f (i.val + 1)) := by
  ext j
  simp only [later, Finset.mem_filter, Finset.mem_univ, true_and, Finset.mem_insert, Fin.ext_iff]
  omega

theorem not_mem_later_succ (f : Fam) (i : Fin f.n) : i ∉ later f (i.val + 1) := by
  simp only [later, Finset.mem_filter, Finset.mem_univ, true_and]
  omega

/-- Everything a family owes at launch, -/
theorem owedFam_later (c : Dev nD) (f : Fam) : owedFam c f = owedOn c f (later f 0) := by
  rw [later_zero, owedOn_univ]

/-- transfer i's landing peeled off when the transfers before it have been issued, -/
theorem owed_peel_later (c : Dev nD) (f : Fam) (X : CellTallies nD τ sig Unit) (i : Fin f.n) :
    X + owedOn c f (later f i.val) = (X + owedOn c f (later f (i.val + 1))) + tallyAt (rCell f (peer f c) i) () N := by
  rw [later_succ f i, owedOn_insert c f _ i (not_mem_later_succ f i), add_assoc]

/-- and nothing when all have. -/
theorem owedOn_later_all (c : Dev nD) (f : Fam) : owedOn c f (later f f.n) = 0 := by
  rw [later_all, owedOn_empty]

/-! ## The transfers -/

/-- The share of the received chunk a forward reads with: the forwards to the x- and to the z-neighbour read one
    chunk at the same time, each with half; a relay reads its chunk alone. -/
def qF : Fam → PosShare TreeShare
  | .xf => fullShare.left
  | .zf => fullShare.right
  | _ => fullShare

theorem sendPay_fwd (f : Fam) (hf : f ≠ .yq) (c : Dev nD) (i : Fin f.n) :
    sendPay A f c i = ((oChunk f c i).view.loc (c : Thread nD τ) ↦[(oChunk f c i).view.set]{qF f} oBuf A f c i) := by
  cases f
  · exact absurd rfl hf
  all_goals rfl

/-- Transfer i to the y-neighbour: chunk i of the filled send buffer to the rows of the y-neighbour's output array
    it handed over. -/
theorem wp_send_yq (K : GSem nD τ sig → ℕ) (c n : Dev nD) (hn : n = Yn c) (i : Fin 16)
    {hsc : (oChunk .yq c i : Memref sig (Dev.tc n : Thread nD τ).2.kind .hbm S512x1024 .bf16).view.ref.isScScratch = false}
    {hsrc : (sbChunk i).view.WordExact} {hdst : (oChunk .yq c i).view.WordExact}
    {hsem : DmaTarget.Typed .vmem (.dma (rS .yq i)) (.remote (Dev.tc n : Thread nD τ) (oChunk .yq c i) (.dma (sS .yq i)) hsc)}
    {α : Type} {Q : α → sProp 𝕄} {k : PUnit → Prog (TpuEff nD τ sig (Elt F) Λ₀ .tc) α}
    (fd : Buf (Elt F) ((oChunk .yq c i).view.loc (Yn c : Thread nD τ)))
    (O₀ O : CellTallies nD τ sig Unit) (hO : O₀ = O + tallyAt (rCell .yq (Yn c) i) () N) (W : Waits sig Unit) :
    iprop(cellInv ER (Rd A) (K (sCell .yq c i)) (sCell .yq c i) ∗ cellInv ER (Rd A) (K (rCell .yq (Yn c) i)) (rCell .yq (Yn c) i)
        ∗ ((sbChunk i).view.loc (c : Thread nD τ) ↦[(sbChunk i).view.set]{fullShare} sbBuf A c i)
        ∗ ((oChunk .yq c i).view.loc (Yn c : Thread nD τ) ↦[(oChunk .yq c i).view.set]{fullShare} fd)
        ∗ owes (c : Thread nD τ) O₀ W
        ∗ dutyTok ER (sCell .yq c i) 0 0 ∗ reached ER (sCell .yq c i) 0
        ∗ dutyTok ER (rCell .yq (Yn c) i) 0 0 ∗ reached ER (rCell .yq (Yn c) i) 0)
      ⊢ iprop(((cred (tallyAt (sCell .yq c i) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sbChunk i) (.remote (Dev.tc n : Thread nD τ) (oChunk .yq c i) (.dma (sS .yq i)) hsc) (.dma (rS .yq i)) hsrc hdst hsem) k) Q) := by
  subst hn
  exact Rounds.wp_send_pointsTo 𝒱₀ ER (Rd A) (c : Thread nD τ) none (κ₁ := K (sCell .yq c i)) (κ₂ := K (rCell .yq (Yn c) i))
    (r₁ := 0) (r₂ := 0) (d₁ := 0) (d₂ := 0) (fd := fd) (sS := SemLoc.dma (sS .yq i)) (sem := SemLoc.dma (rS .yq i))
    (by rw [duties_s]; exact Finset.mem_singleton_self _) (by rw [duties_r]; exact Finset.mem_singleton_self _)
    () () N (oChunk_credit .yq c i) (amount_s A c .yq i 0) (amount_r A (Yn c) .yq i 0) O hO (W := W)
    (pay_s A .yq c i) (landing_yq A c i fd)

/-- Transfer i of a forwarding or relaying family f: the received chunk of c's own output array, at the gathered
    array's rows, to the same rows of the neighbour's output array. -/
theorem wp_send_fam (K : GSem nD τ sig → ℕ) (f : Fam) (hf : f ≠ .yq) (c n : Dev nD) (hn : n = peer f c) (i : Fin f.n)
    {hsc : (oChunk f c i : Memref sig (Dev.tc n : Thread nD τ).2.kind .hbm S512x1024 .bf16).view.ref.isScScratch = false}
    {hsrc : (oChunk f c i).view.WordExact} {hdst : (oChunk f c i).view.WordExact}
    {hsem : DmaTarget.Typed .hbm (.dma (rS f i)) (.remote (Dev.tc n : Thread nD τ) (oChunk f c i) (.dma (sS f i)) hsc)}
    {α : Type} {Q : α → sProp 𝕄} {k : PUnit → Prog (TpuEff nD τ sig (Elt F) Λ₀ .tc) α}
    (fd : Buf (Elt F) ((oChunk f c i).view.loc (peer f c : Thread nD τ)))
    (O₀ O : CellTallies nD τ sig Unit) (hO : O₀ = O + tallyAt (rCell f (peer f c) i) () N) (W : Waits sig Unit) :
    iprop(cellInv ER (Rd A) (K (sCell f c i)) (sCell f c i) ∗ cellInv ER (Rd A) (K (rCell f (peer f c) i)) (rCell f (peer f c) i)
        ∗ ((oChunk f c i).view.loc (c : Thread nD τ) ↦[(oChunk f c i).view.set]{qF f} oBuf A f c i)
        ∗ ((oChunk f c i).view.loc (peer f c : Thread nD τ) ↦[(oChunk f c i).view.set]{fullShare} fd)
        ∗ owes (c : Thread nD τ) O₀ W
        ∗ dutyTok ER (sCell f c i) 0 0 ∗ reached ER (sCell f c i) 0
        ∗ dutyTok ER (rCell f (peer f c) i) 0 0 ∗ reached ER (rCell f (peer f c) i) 0)
      ⊢ iprop(((cred (tallyAt (sCell f c i) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oChunk f c i) (.remote (Dev.tc n : Thread nD τ) (oChunk f c i) (.dma (sS f i)) hsc) (.dma (rS f i)) hsrc hdst hsem) k) Q) := by
  subst hn
  exact Rounds.wp_send_pointsTo 𝒱₀ ER (Rd A) (c : Thread nD τ) none (κ₁ := K (sCell f c i)) (κ₂ := K (rCell f (peer f c) i))
    (r₁ := 0) (r₂ := 0) (d₁ := 0) (d₂ := 0) (fd := fd) (sS := SemLoc.dma (sS f i)) (sem := SemLoc.dma (rS f i))
    (by rw [duties_s]; exact Finset.mem_singleton_self _) (by rw [duties_r]; exact Finset.mem_singleton_self _)
    () () N (oChunk_credit f c i) (amount_s A c f i 0) (amount_r A (peer f c) f i 0) O hO (W := W)
    ((Entails.of_eq (sendPay_fwd A f hf c i).symm).trans (pay_s A f c i)) (landing_fwd A f hf c i fd)

/-! ## What a chunk of the send buffer holds once filled

Local copy i brings the rows 16384 x + 8192 z + 512 i .. + 511 of the device's half into the first 512 rows of
slot i mod 4 of the staging buffer; the kernel loads them, converts them and stores them as chunk i of the send
buffer, whose row 512 i + j is then row 16384 x + 8192 z + 512 i + j of the half, converted. -/

theorem st_inb (s : Fin 4) : ∀ a, (![s.val, 0, 0] : Fin 3 → Nat) a + S1x512x1024.size a ≤ S4x1024x1024.size a := by
  intro a; have := s.isLt
  fin_cases a
  · show s.val + 1 ≤ 4; omega
  · show 0 + 512 ≤ 1024; omega
  · show 0 + 1024 ≤ 1024; omega

/-- The first 512 rows of slot s of the staging buffer, as a load reads them, -/
abbrev stRect (s : Fin 4) : Rect S4x1024x1024 := Rect.unit (s := S4x1024x1024) ![s.val, 0, 0] S1x512x1024.size (st_inb s)

/-- and as a local copy writes them. -/
def stSlot (s : Fin 4) : Memref sig .tc .vmem S512x1024 .f32 :=
  (stM.slice (stRect s) (fun _ => rfl)).squeeze S512x1024 squeezes_S1x512x1024_S512x1024

/-- The rows of the input half that go to chunk i of the send buffer. -/
def xChunk (c : Dev nD) (i : Fin 16) : Memref sig .tc .hbm S512x1024 .f32 :=
  xM.slice (Rect.unit (s := S32768x1024) (k0_off1 c (BitVec.ofNat 32 (512 * i.val))) S512x1024.size (k0_off1_inb c i)) (fun _ => rfl)

/-- The conversion of a loaded block of 512 rows, element by element. -/
def cvBlock (v : Vec F S1x512x1024 .f32) : FVec F S512x1024 .bf16 := fun y => cv (v (Fin.cons ⟨0, Nat.one_pos⟩ y))

/-- Slot s of the staging buffer holds the rows that go to chunk i. -/
def Staged (c : Dev nD) (s : Fin 4) (i : Fin 16) (g : Buf (Elt F) ((c : Thread nD τ).loc cc0_scratch0)) : Prop :=
  (stSlot s).view.read (Elt F) g = (xChunk c i).view.read (Elt F) (A c)

/-- A load of the first 512 rows of slot s reads what the slot's view reads. -/
theorem st_load_apply (c : Dev nD) (s : Fin 4) (g : Buf (Elt F) ((c : Thread nD τ).loc cc0_scratch0)) (y : S512x1024.Idx) :
    View.readAt (Elt F) stM.view (stRect s).toLoadRect g (Fin.cons ⟨0, Nat.one_pos⟩ y) = (stSlot s).view.read (Elt F) g y := by
  have h : (stSlot s).view.emb y = stM.view.emb ((stRect s).toLoadRect.idx (Fin.cons ⟨0, Nat.one_pos⟩ y)) := by
    show stM.view.emb ((stRect s).emb (Shape.reshapeEquiv _ y)) = _
    rw [Shape.reshapeEquiv_cons_one]
    rfl
  have e1 := View.read_apply (Val := Elt F) (v := (stSlot s).view) g y
  rw [View.readAt_apply, View.read_apply, e1, h]
  rfl

/-- Where an index of the rows that go to chunk i sits in the input half. -/
theorem xChunk_emb_val (c : Dev nD) (i : Fin 16) (y : S512x1024.Idx) (a : Fin 2) :
    (((xChunk c i).view.emb y : S32768x1024.Idx) a).val = k0_off1 c (BitVec.ofNat 32 (512 * i.val)) a + (y a).val := by
  show k0_off1 c (BitVec.ofNat 32 (512 * i.val)) a + 1 * (y a).val = _
  rw [Nat.one_mul]

/-- The rows that go to chunk i, converted, are chunk i of the filled send buffer. -/
theorem SB_chunk (c : Dev nD) (i : Fin 16) (y : S512x1024.Idx) :
    cv (A c ((xChunk c i).view.emb y)) = SB A c ((sbChunk i).view.emb y) := by
  obtain ⟨hc, hx, _, hz⟩ := dev_coords c
  have hi : i.val < 16 := i.isLt
  have hy0 : (y 0).val < 512 := (y 0).isLt
  have h0 : ((xChunk c i).view.emb y (0 : Fin 2) : Fin 32768)
      = ⟨(16384 * (c.val / 4) + 8192 * (c.val % 2) + ((sbChunk i).view.emb y (0 : Fin 2)).val) % 32768, Nat.mod_lt _ (by decide)⟩ :=
    Fin.ext (by
      rw [xChunk_emb_val, sbChunk_emb_val, k0_off1_eq]
      show 16384 * (c.val / 4) + 8192 * (c.val % 2) + 512 * i.val + (y 0).val
        = (16384 * (c.val / 4) + 8192 * (c.val % 2) + (512 * i.val + (y 0).val)) % 32768
      omega)
  have h1 : ((xChunk c i).view.emb y (1 : Fin 2) : Fin 1024) = (sbChunk i).view.emb y (1 : Fin 2) :=
    Fin.ext (by rw [xChunk_emb_val, sbChunk_emb_val, k0_off1_eq]; rfl)
  rw [ValueIdx.eq_ix2 ((xChunk c i).view.emb y), h0, h1]
  rfl

/-- Chunk i of the send buffer, stored with the converted load of a slot that holds its rows, is chunk i of the
    filled send buffer. -/
theorem sb_filled (c : Dev nD) (i : Fin 16) (s : Fin 4) (g : Buf (Elt F) ((c : Thread nD τ).loc cc0_scratch0))
    (f2 : Buf (Elt F) ((sbChunk i).view.loc (c : Thread nD τ))) (w : FVec F S512x1024 .bf16)
    (hw : w = cvBlock (View.readAt (Elt F) stM.view (stRect s).toLoadRect g)) (hg : Staged A c s i g) :
    ((sbChunk i).view.loc (c : Thread nD τ) ↦[(sbChunk i).view.set]{fullShare} (sbChunk i).view.write (Elt F) f2 w Finset.univ : sProp 𝕄)
      = ((sbChunk i).view.loc (c : Thread nD τ) ↦[(sbChunk i).view.set]{fullShare} sbBuf A c i) := by
  subst hw
  apply pointsTo_congr
  intro e he
  obtain ⟨y, rfl⟩ := View.exists_emb_of_mem_set _ he
  rw [View.write_emb_of_mem _ _ (Finset.mem_univ y)]
  have hv : cvBlock (View.readAt (Elt F) stM.view (stRect s).toLoadRect g) y = cv (A c ((xChunk c i).view.emb y)) := by
    show cv (View.readAt (Elt F) stM.view (stRect s).toLoadRect g (Fin.cons ⟨0, Nat.one_pos⟩ y)) = _
    rw [st_load_apply, hg]
    rfl
  rw [hv, SB_chunk]
  rfl

/-- A local copy of the rows of chunk i into slot s leaves them there, -/
theorem staged_write (c : Dev nD) (s : Fin 4) (i : Fin 16) (g : Buf (Elt F) ((c : Thread nD τ).loc cc0_scratch0)) :
    Staged A c s i ((stSlot s).view.write (Elt F) g (ReadAs.same.apply ((xChunk c i).view.read (Elt F) (A c))) Finset.univ) :=
  View.read_write_univ _ _

theorem stSlot_set (s : Fin 4) : (stSlot s).view.set = (stRect s).set := by
  show ((stM.view.slice (stRect s)).reshape S512x1024 _).set = _
  rw [View.set_reshape]
  exact View.set_slice_whole _ _

/-- and a write into another slot keeps them. -/
theorem staged_write_other (c : Dev nD) (s s' : Fin 4) (h : s ≠ s') (i : Fin 16)
    (g : Buf (Elt F) ((c : Thread nD τ).loc cc0_scratch0)) (w : S512x1024.Idx → Elt F .f32) (hg : Staged A c s i g) :
    Staged A c s i ((stSlot s').view.write (Elt F) g w Finset.univ) := by
  unfold Staged
  rw [← hg]
  apply View.read_congr
  intro j hj
  apply View.write_of_not_mem
  rw [View.setOn_univ, stSlot_set]
  rw [stSlot_set] at hj
  have hne : s.val ≠ s'.val := fun e => h (Fin.ext e)
  exact Finset.disjoint_left.mp (Rect.unit_disjoint (0 : Fin 3) (by
    show s.val + 1 ≤ s'.val ∨ s'.val + 1 ≤ s.val
    omega)) hj

/-! The sixteen conversions as the program names them. -/

theorem cvBlock_eq (v : Vec F S1x512x1024 .f32) :
    shapeCast S512x1024 (truncf .bf16 (shapeCast S512x1024 v shapeCasts_S1x512x1024_S512x1024) bitsLt_bf16_f32) shapeCasts_S512x1024_S512x1024
      = cvBlock v := by
  rw [shapeCast_self]
  funext y
  show FloatOps.truncf .bf16 bitsLt_bf16_f32 (shapeCast S512x1024 v shapeCasts_S1x512x1024_S512x1024 y) = cv (v (Fin.cons ⟨0, Nat.one_pos⟩ y))
  rw [shapeCast_dropUnit_apply]
  rfl

theorem k0_pay1_eq (v : Vec F S1x512x1024 .f32) : k0_pay1 v = cvBlock v := cvBlock_eq v

/-- Proves that slot s holds the rows of chunk i under contents written slot by slot: the copy of those rows into
    slot s, then writes into the other slots only. -/
macro "staged_chain" : tactic => `(tactic| repeat (first
  | exact staged_write _ _ _ _ _
  | refine staged_write_other _ _ _ 0 (by decide) _ _ _ ?_
  | refine staged_write_other _ _ _ 1 (by decide) _ _ _ ?_
  | refine staged_write_other _ _ _ 2 (by decide) _ _ _ ?_
  | refine staged_write_other _ _ _ 3 (by decide) _ _ _ ?_))

theorem k0_pay4_3_eq (v : Vec F S1x512x1024 .f32) : k0_pay4 (k0_pay3 v) = cvBlock v := cvBlock_eq v
theorem k0_pay16_15_eq (v : Vec F S1x512x1024 .f32) : k0_pay16 (k0_pay15 v) = cvBlock v := cvBlock_eq v
theorem k0_pay2_eq (v : Vec F S1x512x1024 .f32) : k0_pay2 v = cvBlock v := cvBlock_eq v
theorem k0_pay5_eq (v : Vec F S1x512x1024 .f32) : k0_pay5 v = cvBlock v := cvBlock_eq v
theorem k0_pay6_eq (v : Vec F S1x512x1024 .f32) : k0_pay6 v = cvBlock v := cvBlock_eq v
theorem k0_pay7_eq (v : Vec F S1x512x1024 .f32) : k0_pay7 v = cvBlock v := cvBlock_eq v
theorem k0_pay8_eq (v : Vec F S1x512x1024 .f32) : k0_pay8 v = cvBlock v := cvBlock_eq v
theorem k0_pay9_eq (v : Vec F S1x512x1024 .f32) : k0_pay9 v = cvBlock v := cvBlock_eq v
theorem k0_pay10_eq (v : Vec F S1x512x1024 .f32) : k0_pay10 v = cvBlock v := cvBlock_eq v
theorem k0_pay11_eq (v : Vec F S1x512x1024 .f32) : k0_pay11 v = cvBlock v := cvBlock_eq v
theorem k0_pay12_eq (v : Vec F S1x512x1024 .f32) : k0_pay12 v = cvBlock v := cvBlock_eq v
theorem k0_pay13_eq (v : Vec F S1x512x1024 .f32) : k0_pay13 v = cvBlock v := cvBlock_eq v
theorem k0_pay14_eq (v : Vec F S1x512x1024 .f32) : k0_pay14 v = cvBlock v := cvBlock_eq v
theorem k0_pay17_eq (v : Vec F S1x512x1024 .f32) : k0_pay17 v = cvBlock v := cvBlock_eq v
theorem k0_pay18_eq (v : Vec F S1x512x1024 .f32) : k0_pay18 v = cvBlock v := cvBlock_eq v

end Cert.KernelIdeal.AG

end
-- ==== Proof.Ledger.lean ====
/-
The ledger of the waits: which waits a device may make while it still owes.

A device may wait on a cell of its own while everything it still owes lies on TensorCore cells strictly
above that cell.  The local copies' cells lie at level 0, the barrier cell at 1, the receive cells at 2, 3
or 4 by family; what a device owes is a sum of whole family debts, parts of them, single transfers'
debts and barrier units, each lying at one known level, so that a bound on the whole sum is read off its
summands.
-/
import proofs.«900667_g7700000000000668_dist_ag_v7x_xyz2x2x2_y_m32768_n1024_bf16_1_alg».proof.Proof.Credit

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Debts above a level -/

/-- Everything owed lies on TensorCore cells at level k at least. -/
def AllLv (k : ℕ) (O : CellTallies nD τ sig Unit) : Prop := ∀ g u, 0 < O g u → g.1.2 = .tc ∧ k ≤ lv g u

theorem AllLv.zero (k : ℕ) : AllLv k (0 : CellTallies nD τ sig Unit) := fun g u h => absurd h (Nat.lt_irrefl 0)

theorem AllLv.add {k : ℕ} {O D : CellTallies nD τ sig Unit} (hO : AllLv k O) (hD : AllLv k D) : AllLv k (O + D) :=
  fun g u h => (Pipeline.add_pos_cases h).elim (hO g u) (hD g u)

theorem AllLv.mono {k k' : ℕ} {O : CellTallies nD τ sig Unit} (h : k ≤ k') (hO : AllLv k' O) : AllLv k O :=
  fun g u hg => ⟨(hO g u hg).1, Nat.le_trans h (hO g u hg).2⟩

/-- A family's debt lies at the family's level. -/
theorem AllLv.fam {k : ℕ} (c : Dev nD) (f : Fam) (h : k ≤ lvF f) : AllLv k (owedFam c f) := fun g u hg => by
  obtain ⟨h1, h2⟩ := owedFam_lv c f hg
  exact ⟨h1, by rw [h2]; exact h⟩

theorem AllLv.on {k : ℕ} (c : Dev nD) (f : Fam) (S : Finset (Fin f.n)) (h : k ≤ lvF f) : AllLv k (owedOn c f S) := fun g u hg => by
  obtain ⟨h1, h2⟩ := owedOn_lv c f S hg
  exact ⟨h1, by rw [h2]; exact h⟩

theorem AllLv.one {k : ℕ} (f : Fam) (d : Dev nD) (i : Fin f.n) (n : ℕ) (h : k ≤ lvF f) : AllLv k (tallyAt (rCell f d i) () n) := fun g u hg => by
  obtain ⟨h1, h2⟩ := owedOne_lv f d i n hg
  exact ⟨h1, by rw [h2]; exact h⟩

/-- A unit owed to a barrier cell lies at level 1. -/
theorem AllLv.bar {k : ℕ} (d : Dev nD) (n : ℕ) (h : k ≤ 1) : AllLv k (tallyAt (barCell d) () n) := fun g u hg => by
  obtain ⟨h1, h2⟩ := owedBar_lv d n hg
  exact ⟨h1, by rw [h2]; exact h⟩

/-! ## The waits a device may make while it owes -/

/-- A wait on any cell of device c, while everything owed lies strictly above the cell. -/
theorem led_any (c : Dev nD) (sm : SemLoc sig) (O : CellTallies nD τ sig Unit) (hO : AllLv (lvOf sm + 1) O) :
    (levAts L lv : sProp 𝕄) ⊢ MayWait (c : Thread nD τ) sm () O :=
  Pipeline.mayWait_of_levAts (by rw [L_tc]; exact Finset.mem_singleton_self _) fun g u hg => by
    obtain ⟨h1, h2⟩ := hO g u hg
    refine ⟨?_, h2⟩
    unfold L; rw [if_pos h1]; exact Finset.mem_singleton_self _

/-- A wait on a local copy's cell, while everything owed lies at level 1 at least. -/
theorem led_local (c : Dev nD) (q : DmaSem sig) (O : CellTallies nD τ sig Unit) (hq : decode q = none) (hO : AllLv 1 O) :
    (levAts L lv : sProp 𝕄) ⊢ MayWait (c : Thread nD τ) (.dma q) () O :=
  mayWait_local c q hq O hO

/-- A wait on the barrier cell, while everything owed lies at level 2 at least. -/
theorem led_bar (c : Dev nD) (O : CellTallies nD τ sig Unit) (hO : AllLv 2 O) :
    (levAts L lv : sProp 𝕄) ⊢ MayWait (c : Thread nD τ) (.reg barS) () O :=
  mayWait_bar c O hO

/-- A wait on a receive cell, while everything owed lies strictly above the family's level. -/
theorem led_recv (c : Dev nD) (f : Fam) (i : Fin f.n) (O : CellTallies nD τ sig Unit) (hO : AllLv (lvF f + 1) O) :
    (levAts L lv : sProp 𝕄) ⊢ MayWait (c : Thread nD τ) (.dma (rS f i)) () O :=
  mayWait_recv c f i O fun g u hg => by
    obtain ⟨h1, h2⟩ := hO g u hg
    exact ⟨h1, by rw [lv_r_eq]; exact h2⟩

/-- Closes the side conditions of the ledger lemmas: that a semaphore is a local copy's, and that a sum of family
    debts, parts of them, single transfers' debts and barrier units lies at a level at least. -/
macro "ag_disch" : tactic => `(tactic| first
  | (with_reducible refine (?_ : decode _ = none)); decide
  | repeat' (first
      | (with_reducible refine AllLv.add ?_ ?_)
      | (with_reducible refine AllLv.fam _ _ ?_); decide
      | (with_reducible refine AllLv.on _ _ _ ?_); decide
      | (with_reducible refine AllLv.one _ _ _ _ ?_); decide
      | (with_reducible refine AllLv.bar _ _ ?_); decide
      | (with_reducible exact AllLv.zero _)))

end Cert.KernelIdeal.AG

end
-- ==== Proof.Finish.lean ====
/-
The end of the kernel on one device.  Every transfer cell has had its one round consumed, so it closes and its
counter at zero is the device's again; with the eight counters of the local copies these are the kernel's 136 DMA
semaphores at zero.  The pieces of the output array, each holding the gathered rows, join into the whole array;
the sixteen chunks of the send buffer join into the whole buffer.
-/
import proofs.«900667_g7700000000000668_dist_ag_v7x_xyz2x2x2_y_m32768_n1024_bf16_1_alg».proof.Proof.Fund
import proofs.«900667_g7700000000000668_dist_ag_v7x_xyz2x2x2_y_m32768_n1024_bf16_1_alg».proof.Proof.Geom

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Device c's positions on its transfer cells of family f once their one round is consumed. -/
def famPos1 (c : Dev nD) (f : Fam) : sProp 𝕄 :=
  bigSep Finset.univ fun i : Fin f.n => iprop(atPos ER (sCell f c i) 1 ∅ 0 ∗ atPos ER (rCell f c i) 1 ∅ 0)

/-- The counters of device c's transfer cells of family f, at zero. -/
def famSems0 (c : Dev nD) (f : Fam) : sProp 𝕄 :=
  bigSep Finset.univ fun i : Fin f.n => iprop(semVal (sCell f c i) 0 ∗ semVal (rCell f c i) 0)

instance famInvs_persistent (A : (c : Dev nD) → Buf (Elt F) ((c : Thread nD τ).loc main_arg0)) (K : GSem nD τ sig → ℕ) (c : Dev nD) (f : Fam) :
    BI.Persistent (famInvs A K c f) := by unfold famInvs; infer_instance

/-- A cell past its only round closes: no duty is left, and its counter at zero goes back to its owner. -/
theorem close_cell (A : (c : Dev nD) → Buf (Elt F) ((c : Thread nD τ).loc main_arg0)) (κ : ℕ) (g : GSem nD τ sig) :
    iprop(cellInv ER (Rd A) κ g ∗ atPos ER g 1 ∅ 0) ⊢ (|={Set.univ}=> semVal g 0 : sProp 𝕄) :=
  Rounds.cell_close ER (Rd A) (Set.mem_univ κ) (fun h => h) (R := 1) (duties_later A g)

theorem close_pair (A : (c : Dev nD) → Buf (Elt F) ((c : Thread nD τ).loc main_arg0)) (K : GSem nD τ sig → ℕ) (c : Dev nD) (f : Fam) (i : Fin f.n) :
    iprop((cellInv ER (Rd A) (K (sCell f c i)) (sCell f c i) ∗ cellInv ER (Rd A) (K (rCell f c i)) (rCell f c i)
          ∗ cellInv ER (Rd A) (K (rCell f (peer f c) i)) (rCell f (peer f c) i))
        ∗ (atPos ER (sCell f c i) 1 ∅ 0 ∗ atPos ER (rCell f c i) 1 ∅ 0))
      ⊢ (|={Set.univ}=> iprop(semVal (sCell f c i) 0 ∗ semVal (rCell f c i) 0) : sProp 𝕄) := by
  iintro ⟨⟨#Is, #Ir, -⟩, Ps, Pr⟩
  imod (close_cell A (K (sCell f c i)) (sCell f c i)) $$ [Ps] with Hs
  · isplitr; · iexact Is
    iexact Ps
  imod (close_cell A (K (rCell f c i)) (rCell f c i)) $$ [Pr] with Hr
  · isplitr; · iexact Ir
    iexact Pr
  imodintro
  isplitl [Hs]; · iexact Hs
  iexact Hr

theorem close_fam (A : (c : Dev nD) → Buf (Elt F) ((c : Thread nD τ).loc main_arg0)) (K : GSem nD τ sig → ℕ) (c : Dev nD) (f : Fam) :
    iprop(famInvs A K c f ∗ famPos1 (F := F) c f) ⊢ (|={Set.univ}=> famSems0 (F := F) c f : sProp 𝕄) := by
  unfold famInvs famPos1 famSems0
  rw [← bigSep_sep']
  exact (bigSep_mono fun i _ => close_pair A K c f i).trans (bigSep_fupd _ _)

/-- The kernel's 136 DMA semaphores: the eight of the local copies and the transfer cells' 128. -/
theorem sems1_eq (c : Dev nD) :
    sems1 (F := F) c = iprop(localSems (F := F) c ∗ famSems0 (F := F) c .yq ∗ famSems0 (F := F) c .xf ∗ famSems0 (F := F) c .zf
      ∗ famSems0 (F := F) c .xd ∗ famSems0 (F := F) c .zd) := by
  have h : sems1 (F := F) c
      = Pipeline.ownSems0 (Ix := Unit) (Name := ℕ) (U := UU) (Lvl := ℕ) (Val := Elt F) (τ := τ) osem c := rfl
  rw [h, ownSems0_eq, bigSep_trb, bigSep_fam]
  rfl

theorem finish (A : (c : Dev nD) → Buf (Elt F) ((c : Thread nD τ).loc main_arg0)) (K : GSem nD τ sig → ℕ) (c : Dev nD)
    (f0 : Buf (Elt F) ((c : Thread nD τ).loc cc0_scratch0)) (f1 : Buf (Elt F) ((c : Thread nD τ).loc cc0_scratch1)) :
    iprop(records A K c ∗ famPos1 (F := F) c .yq ∗ famPos1 (F := F) c .xf ∗ famPos1 (F := F) c .zf ∗ famPos1 (F := F) c .xd
        ∗ famPos1 (F := F) c .zd ∗ localSems (F := F) c
        ∗ (((c : Thread nD τ).loc main_arg0) ↦{fullShare} A c) ∗ oPieces (F := F) c (Gout A c)
        ∗ (((c : Thread nD τ).loc cc0_scratch0) ↦{fullShare} f0) ∗ (((c : Thread nD τ).loc cc0_scratch1) ↦{fullShare} f1)
        ∗ (bigSep Finset.univ fun i : Fin 16 => (sbChunk i).view.loc (c : Thread nD τ) ↦[(sbChunk i).view.set]{fullShare} sbBuf A c i))
      ⊢ |={Set.univ}=> Φ₁ A c := by
  unfold records
  iintro ⟨⟨-, #Iyq, #Ixf, #Izf, #Ixd, #Izd, -⟩, Pyq, Pxf, Pzf, Pxd, Pzd, Hloc, Hx, Ho, H0, H1, Hsb⟩
  imod (close_fam A K c .yq) $$ [Pyq] with Syq
  · isplitr; · iexact Iyq
    iexact Pyq
  imod (close_fam A K c .xf) $$ [Pxf] with Sxf
  · isplitr; · iexact Ixf
    iexact Pxf
  imod (close_fam A K c .zf) $$ [Pzf] with Szf
  · isplitr; · iexact Izf
    iexact Pzf
  imod (close_fam A K c .xd) $$ [Pxd] with Sxd
  · isplitr; · iexact Ixd
    iexact Pxd
  imod (close_fam A K c .zd) $$ [Pzd] with Szd
  · isplitr; · iexact Izd
    iexact Pzd
  imodintro
  unfold Φ₁ bufs1
  rw [sems1_eq]
  isplitl [Hx Ho H0 H1 Hsb]
  · isplitl [Hx]; · iexact Hx
    isplitl [Ho]; · iapply (o_split (F := F) c (Gout A c)).2; iexact Ho
    isplitl [H0]; · iexists f0; iexact H0
    isplitl [H1]; · iexists f1; iexact H1
    iexists (SB A c); iapply (sb_split (F := F) c (SB A c)).2; iexact Hsb
  · isplitl [Hloc]; · iexact Hloc
    isplitl [Syq]; · iexact Syq
    isplitl [Sxf]; · iexact Sxf
    isplitl [Szf]; · iexact Szf
    isplitl [Sxd]; · iexact Sxd
    iexact Szd

end Cert.KernelIdeal.AG

end
-- ==== Proof.Steps.lean ====
/-
The steps of one device's kernel that take a rule of the rounds discipline, each written once: a wait on a receive
cell, a wait on a send cell, a forward of a received chunk, and the bookkeeping that opens a family's ghost state
into one hypothesis per transfer.  Hypotheses are named by what they are, the family and the chunk:
HIs/HIr/HIp (invariant of the send cell, of the receive cell, of the neighbour's receive cell), HRs/HRp (those cells
stand at their first round), HTs/HTp (the tokens of the two duties the transfer pays), HPs/HPr (the device's position
on its send and its receive cell), HC (the credit for the chunk it receives), HD (the neighbour's chunk it will
write), HG (the chunk received), HcS (the credit a transfer's departure returns), HB (a source handed back).
-/
import proofs.«900667_g7700000000000668_dist_ag_v7x_xyz2x2x2_y_m32768_n1024_bf16_1_alg».proof.Proof.Send
import proofs.«900667_g7700000000000668_dist_ag_v7x_xyz2x2x2_y_m32768_n1024_bf16_1_alg».proof.Proof.Ledger
import proofs.«900667_g7700000000000668_dist_ag_v7x_xyz2x2x2_y_m32768_n1024_bf16_1_alg».proof.Proof.Finish
import proofs.«900667_g7700000000000668_dist_ag_v7x_xyz2x2x2_y_m32768_n1024_bf16_1_alg».proof.Proof.Gen.KernelIdeal.Skeleton
import proofs.«900667_g7700000000000668_dist_ag_v7x_xyz2x2x2_y_m32768_n1024_bf16_1_alg».proof.Proof.Gen.KernelIdeal.Points
import Idealize.ShloMosaic.Lib.Tactic

noncomputable section

namespace Cert.KernelIdeal.AG

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

instance famReached_persistent (c : Dev nD) (f : Fam) : BI.Persistent (famReached (F := F) c f) := by unfold famReached; infer_instance

/-- An assertion set aside: a credit token is kept under this name until the step that spends it, so that no earlier
    step takes it. -/
def aside (P : sProp 𝕄) : sProp 𝕄 := P
theorem aside_eq (P : sProp 𝕄) : aside P = P := rfl

open Lean in
/-- The name of the hypothesis of kind p for transfer i of family f. -/
def agH (p : String) (f : TSyntax `ident) (i : TSyntax `num) : Ident :=
  mkIdent (Name.mkSimple (p ++ "_" ++ f.getId.toString ++ "_" ++ toString i.getNat))

open Lean in
/-- The family as a term. -/
def agF (f : TSyntax `ident) : Ident := mkIdent (`Cert.KernelIdeal.AG.Fam ++ f.getId)

set_option hygiene false

/-! ## Taking one transfer's landing off what the device owes

What the device owes is kept as five sums, one per family, in the order zd, xd, zf, xf, yq; issuing transfer i of
one family takes its chunk's credit off that family's sum. -/

variable (A : (c : Dev nD) → Buf (Elt F) ((c : Thread nD τ).loc main_arg0))

theorem owedOn_peel_later (c : Dev nD) (f : Fam) (i : Fin f.n) :
    owedOn c f (later f i.val) = owedOn c f (later f (i.val + 1)) + tallyAt (rCell f (peer f c) i) () N := by
  rw [later_succ f i, owedOn_insert c f _ i (not_mem_later_succ f i)]

theorem peel1 (c : Dev nD) (f : Fam) (i : Fin f.n) (B C D E : CellTallies nD τ sig Unit) :
    owedOn c f (later f i.val) + B + C + D + E = (owedOn c f (later f (i.val + 1)) + B + C + D + E) + tallyAt (rCell f (peer f c) i) () N := by
  rw [owedOn_peel_later c f i]; ac_rfl
theorem peel2 (c : Dev nD) (f : Fam) (i : Fin f.n) (X C D E : CellTallies nD τ sig Unit) :
    X + owedOn c f (later f i.val) + C + D + E = (X + owedOn c f (later f (i.val + 1)) + C + D + E) + tallyAt (rCell f (peer f c) i) () N := by
  rw [owedOn_peel_later c f i]; ac_rfl
theorem peel3 (c : Dev nD) (f : Fam) (i : Fin f.n) (X B D E : CellTallies nD τ sig Unit) :
    X + B + owedOn c f (later f i.val) + D + E = (X + B + owedOn c f (later f (i.val + 1)) + D + E) + tallyAt (rCell f (peer f c) i) () N := by
  rw [owedOn_peel_later c f i]; ac_rfl
theorem peel4 (c : Dev nD) (f : Fam) (i : Fin f.n) (X B C E : CellTallies nD τ sig Unit) :
    X + B + C + owedOn c f (later f i.val) + E = (X + B + C + owedOn c f (later f (i.val + 1)) + E) + tallyAt (rCell f (peer f c) i) () N := by
  rw [owedOn_peel_later c f i]; ac_rfl
theorem peel5 (c : Dev nD) (f : Fam) (i : Fin f.n) (X B C D : CellTallies nD τ sig Unit) :
    X + B + C + D + owedOn c f (later f i.val) = (X + B + C + D + owedOn c f (later f (i.val + 1))) + tallyAt (rCell f (peer f c) i) () N := by
  rw [owedOn_peel_later c f i]; ac_rfl

/-- What the device owes at launch, as the five sums and the three barrier units. -/
theorem O₀_later (c : Dev nD) : O₀ c = owedOn c .zd (later .zd 0) + owedOn c .xd (later .xd 0) + owedOn c .zf (later .zf 0) + owedOn c .xf (later .xf 0) + owedOn c .yq (later .yq 0)
    + tallyAt (barCell (Zn c)) () 1 + tallyAt (barCell (Xn c)) () 1 + tallyAt (barCell (Yn c)) () 1 := by
  unfold O₀; rw [owedFam_later c .zd, owedFam_later c .xd, owedFam_later c .zf, owedFam_later c .xf, owedFam_later c .yq]

/-- A family all of whose transfers have been issued owes nothing. -/
theorem AllLv.on_later_done (c : Dev nD) (f : Fam) (n : ℕ) (h : f.n ≤ n) (k : ℕ) : AllLv k (owedOn c f (later f n)) := by
  have : later f n = ∅ := by
    unfold later; exact Finset.filter_false_of_mem fun j _ => by have := j.isLt; omega
  rw [this, owedOn_empty]; exact AllLv.zero k

/-- Everything still owed lies high enough: over sums of the families' remaining transfers. -/
macro "ag_lv" : tactic => `(tactic| first
  | (with_reducible refine (?_ : decode _ = none)); decide
  | repeat' (first
      | (with_reducible refine AllLv.add ?_ ?_)
      | (with_reducible refine AllLv.on_later_done _ _ _ (by decide) _)
      | (with_reducible refine AllLv.fam _ _ ?_); decide
      | (with_reducible refine AllLv.on _ _ _ ?_); decide
      | (with_reducible refine AllLv.one _ _ _ _ ?_); decide
      | (with_reducible refine AllLv.bar _ _ ?_); decide
      | (with_reducible exact AllLv.zero _)))

open Lean in
/-- The number N of the program's device word k0_devN that addresses transfer i of family f. -/
def agDev (f : Name) (i : Nat) : Nat :=
  match f.toString with
  | "yq" => 4 + i | "xf" => 20 + 2 * i | "zf" => 21 + 2 * i | "xd" => 52 + i | "zd" => 60 + i | _ => 0

open Lean in
/-- A forward: transfer i of family f (not yq) of device c, its source held as Hsrc (= sendPay A f c i). -/
macro "ag_fwd " f:ident i:num src:ident : tactic => do
  let fam := agF f
  let n := agDev f.getId i.getNat
  let kdev := mkIdent (`Cert.KernelIdeal ++ Name.mkSimple ("k0_dev" ++ toString n))
  let kdeveq := mkIdent (`Cert.KernelIdeal.Gen ++ Name.mkSimple ("k0_dev" ++ toString n ++ "_eq"))
  let nval := mkIdent (match f.getId.toString with | "xf" => `Cert.KernelIdeal.AG.Xn_val | "xd" => `Cert.KernelIdeal.AG.Xn_val | _ => `Cert.KernelIdeal.AG.Zn_val)
  let peel := mkIdent (match f.getId.toString with | "zd" => `Cert.KernelIdeal.AG.peel1 | "xd" => `Cert.KernelIdeal.AG.peel2 | "zf" => `Cert.KernelIdeal.AG.peel3 | "xf" => `Cert.KernelIdeal.AG.peel4 | _ => `Cert.KernelIdeal.AG.peel5)
  let hIs := agH "HIs" f i; let hIp := agH "HIp" f i; let hRs := agH "HRs" f i; let hRp := agH "HRp" f i
  let hTs := agH "HTs" f i; let hTp := agH "HTp" f i; let hD := agH "HD" f i; let hcS := agH "HcS" f i
  let fd := agH "fd" f i
  `(tactic| (
    have hdev : ∀ h, (⟨$kdev c, h⟩ : Dev nD) = peer $fam c := fun h => Fin.ext (($kdeveq c).trans ($nval c).symm)
    ihave $src:ident := (Entails.of_eq (sendPay_fwd A $fam (by decide) c $i)) $$ $src:ident
    iapply (wp_send_fam A K $fam (by decide) c _ (hdev _) $i $fd _ _ ($peel c $fam $i _ _ _ _) _) $$ [$src:ident $hD:ident HO $hTs:ident $hTp:ident]
    · isplitr; · iexact $hIs:ident
      isplitr; · iexact $hIp:ident
      isplitl [$src:ident]; · iexact $src:ident
      isplitl [$hD:ident]; · iexact $hD:ident
      isplitl [HO]; · iexact HO
      isplitl [$hTs:ident]; · iexact $hTs:ident
      isplitr; · iexact $hRs:ident
      isplitl [$hTp:ident]; · iexact $hTp:ident
      iexact $hRp:ident
    iintro ⟨$hcS:ident, HO⟩
    ihave $hcS:ident := (Entails.of_eq (aside_eq (F := F) _).symm) $$ $hcS:ident
    iclear $hIp:ident $hRs:ident $hRp:ident))

open Lean in
/-- Sets the hypothesis of kind p of transfer i of family f aside. -/
macro "ag_aside " p:ident f:ident i:num : tactic => do
  let h := agH p.getId.toString f i
  `(tactic| ihave $h:ident := (Entails.of_eq (aside_eq (F := F) _).symm) $$ $h:ident)

open Lean in
/-- Sets aside the credits HC_f_0 … of a family of n transfers. -/
macro "ag_asideC " f:ident n:num : tactic => do
  let mut tacs : Array (TSyntax `tactic) := #[]
  for i in [0:n.getNat] do
    tacs := tacs.push (← `(tactic| ag_aside HC $f $(Syntax.mkNumLit (toString i))))
  `(tactic| ($[$tacs]*))

open Lean in
/-- After transfer i of family f has been issued: the neighbour's cell's invariant and the two first-round facts go. -/
macro "ag_sent " f:ident i:num : tactic => do
  let a := agH "HIp" f i; let b := agH "HRs" f i; let d := agH "HRp" f i
  `(tactic| iclear $a:ident $b:ident $d:ident)

open Lean in
/-- The invariants and first-round facts of transfer i of family f, out of the family's persistent records
    (HIf, HRf name the family's two records). -/
macro "ag_rec " f:ident i:num : tactic => do
  let fam := agF f
  let hIf := mkIdent (Name.mkSimple ("HI" ++ f.getId.toString))
  let hRf := mkIdent (Name.mkSimple ("HR" ++ f.getId.toString))
  let hIs := agH "HIs" f i; let hIr := agH "HIr" f i; let hIp := agH "HIp" f i
  let hRs := agH "HRs" f i; let hRr := agH "HRr" f i; let hRp := agH "HRp" f i
  `(tactic| (
    ihave #HIx := (show famInvs A K c $fam ⊢ _ from bigSep_elim (Finset.mem_univ ($i : Fin (Fam.n $fam)))) $$ $hIf:ident
    icases HIx with ⟨#$hIs:ident, #$hIr:ident, #$hIp:ident⟩
    ihave #HRx := (show famReached (F := F) c $fam ⊢ _ from bigSep_elim (Finset.mem_univ ($i : Fin (Fam.n $fam)))) $$ $hRf:ident
    icases HRx with ⟨#$hRs:ident, -, #$hRp:ident⟩))

open Lean in
/-- The wait on the receive cell of transfer i of family f: the chunk the neighbour's transfer wrote comes back as HG. -/
macro "ag_rwait " f:ident i:num : tactic => do
  let fam := agF f
  let hIr := agH "HIr" f i; let hC := agH "HC" f i; let hPr := agH "HPr" f i; let hG := agH "HG" f i
  `(tactic| (
    ihave $hC:ident := (Entails.of_eq (aside_eq (F := F) _)) $$ $hC:ident
    iapply (Rounds.wp_wait_rest_token 𝒱₀ ER (Rd A) (c : Thread nD τ) none (κ := K (rCell $fam c $i))
        (wpE_waitDma2_eq 𝒱₀ (c : Thread nD τ) none Set.univ) (Set.mem_univ _) () (R := 0) (m := 0) (T := ∅)
        (by exact (Nat.zero_add _).trans (expect_r A c $fam $i).symm)) $$ [$hC:ident HO $hPr:ident]
    · isplitr; · iexact $hIr:ident
      isplitl [$hC:ident]; · iexact $hC:ident
      isplitl [HO]; · iexact HO
      isplitr; · iapply (led_recv c $fam $i _ (by ag_lv)); iexact Hlev
      iexact $hPr:ident
    iintro ⟨HO, $hPr:ident, -, Hpay⟩
    ihave $hG:ident : recvPay A $fam c $i $$ [Hpay]
    · iapply (Entails.of_eq (rest_r A c $fam $i)); iexact Hpay
    iclear $hIr:ident))

open Lean in
/-- The wait on the send cell of transfer i of family f: its source comes back as HB. -/
macro "ag_swait " f:ident i:num : tactic => do
  let fam := agF f
  let hIs := agH "HIs" f i; let hcS := agH "HcS" f i; let hPs := agH "HPs" f i; let hB := agH "HB" f i
  `(tactic| (
    ihave $hcS:ident := (Entails.of_eq (aside_eq (F := F) _)) $$ $hcS:ident
    iapply (Rounds.wp_wait_rest_token 𝒱₀ ER (Rd A) (c : Thread nD τ) none (κ := K (sCell $fam c $i))
        (wpE_waitDma2_eq 𝒱₀ (c : Thread nD τ) none Set.univ) (Set.mem_univ _) () (R := 0) (m := 0) (T := ∅)
        (by exact (Nat.zero_add _).trans (expect_s A c $fam $i).symm)) $$ [$hcS:ident HO $hPs:ident]
    · isplitr; · iexact $hIs:ident
      isplitl [$hcS:ident]; · iexact $hcS:ident
      isplitl [HO]; · iexact HO
      isplitr; · iapply (led_any c (.dma (sS $fam $i)) _ (by ag_lv)); iexact Hlev
      iexact $hPs:ident
    iintro ⟨HO, $hPs:ident, -, Hpay⟩
    ihave $hB:ident : sendPay A $fam c $i $$ [Hpay]
    · iapply (Entails.of_eq (rest_s A c $fam $i)); iexact Hpay
    iclear $hIs:ident))

end Cert.KernelIdeal.AG

end
-- ==== Proof.StepsYq.lean ====
/-
The sixteen transfers to the y-neighbour, each taken by one step, and the opening of a family's linear ghost state
into one hypothesis per transfer.

Before transfer i the kernel has waited for local copy i, loaded the 512 rows it brought into slot i mod 4 of the
staging buffer, converted them and stored them as chunk i of the send buffer.  The step restates that chunk as chunk
i of the filled send buffer and issues the transfer: the chunk goes to the transfer's send cell, the rows of the
y-neighbour's output array it handed over go, written, to the y-neighbour's receive cell, and the device owes one
landing less.
-/
import proofs.«900667_g7700000000000668_dist_ag_v7x_xyz2x2x2_y_m32768_n1024_bf16_1_alg».proof.Proof.Steps

noncomputable section

namespace Cert.KernelIdeal.AG

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : (c : Dev nD) → Buf (Elt F) ((c : Thread nD τ).loc main_arg0))

/-! ## What the neighbours hand over -/

/-- What the neighbour peer f c hands c for c's transfers of family f: the chunks of its output array they write. -/
def dslots (f : Fam) (c : Dev nD) : sProp 𝕄 := bigSep Finset.univ fun i : Fin f.n => slotPay (F := F) f c i

theorem slotPay_open (f : Fam) (c : Dev nD) (i : Fin f.n) :
    slotPay (F := F) f c i ⊢ iprop(∃ fd : Buf (Elt F) ((oChunk f c i).view.loc (peer f c : Thread nD τ)),
      (oChunk f c i).view.loc (peer f c : Thread nD τ) ↦[(oChunk f c i).view.set]{fullShare} fd) := Entails.refl _

/-! ## A chunk of the send buffer, stored, restated -/

/-- Contents X of chunk i that are the store of the converted load of a slot holding the chunk's rows are chunk i of
    the filled send buffer. -/
theorem sb_filled_of (c : Dev nD) (i : Fin 16) (s : Fin 4) (X : Buf (Elt F) ((sbChunk i).view.loc (c : Thread nD τ))) :
    iprop(((sbChunk i).view.loc (c : Thread nD τ) ↦[(sbChunk i).view.set]{fullShare} X)
        ∗ ⌜∃ (g : Buf (Elt F) ((c : Thread nD τ).loc cc0_scratch0)) (f2 : Buf (Elt F) ((sbChunk i).view.loc (c : Thread nD τ)))
            (w : FVec F S512x1024 .bf16), X = (sbChunk i).view.write (Elt F) f2 w Finset.univ
              ∧ w = cvBlock (View.readAt (Elt F) stM.view (stRect s).toLoadRect g) ∧ Staged A c s i g⌝)
      ⊢ ((sbChunk i).view.loc (c : Thread nD τ) ↦[(sbChunk i).view.set]{fullShare} sbBuf A c i : sProp 𝕄) := by
  iintro ⟨H, %h⟩
  obtain ⟨g, f2, w, rfl, hw, hg⟩ := h
  ihave H := (Entails.of_eq (sb_filled A c i s g f2 w hw hg)) $$ H
  iexact H

set_option hygiene false

open Lean in
/-- The name of the hypothesis of kind p for transfer i of family f. -/
def agHn (p : String) (f : Name) (i : Nat) : Ident :=
  mkIdent (Name.mkSimple (p ++ "_" ++ f.toString ++ "_" ++ toString i))

open Lean in
/-- The name of the hypothesis holding chunk i of the send buffer. -/
def agS (i : Nat) : Ident := mkIdent (Name.mkSimple ("Hs_" ++ toString i))

open Lean in
/-- How many transfers a family has. -/
def agN (f : Name) : Nat := match f.toString with | "xd" => 8 | "zd" => 8 | _ => 16

open Lean in
/-- The send buffer, held whole as Hsb, cut into its sixteen chunks Hs_0 … Hs_15. -/
macro "ag_cut_sb" : tactic => do
  let pats : Array (TSyntax ``icasesPatAlts) ← (Array.range 16).mapM fun i => do
    let h := agS i
    `(icasesPatAlts| $h:ident)
  `(tactic| (
    ihave Hsx := (sb_split c _).1 $$ Hsb
    ihave Hsx := (Entails.of_eq (bigSep_fin16 (F := F) _)) $$ Hsx
    icases Hsx with ⟨$[$pats],*⟩))

open Lean in
/-- A family's linear ghost state, held as HTf (tokens), HPf (positions), HCf (credits) and HDf (the neighbour's
    chunks), opened into one hypothesis per transfer: HTs_f_i HTp_f_i, HPs_f_i HPr_f_i, HC_f_i, HD_f_i at contents
    fd_f_i. -/
macro "ag_open " f:ident : tactic => do
  let fam := agF f
  let fn := f.getId
  let n := agN fn
  let hT := mkIdent (Name.mkSimple ("HT" ++ fn.toString))
  let hP := mkIdent (Name.mkSimple ("HP" ++ fn.toString))
  let hC := mkIdent (Name.mkSimple ("HC" ++ fn.toString))
  let hD := mkIdent (Name.mkSimple ("HD" ++ fn.toString))
  let split := mkIdent (if n == 16 then `Cert.KernelIdeal.AG.bigSep_fin16 else `Cert.KernelIdeal.AG.bigSep_fin8)
  let patsT : Array (TSyntax ``icasesPatAlts) ← (Array.range n).mapM fun i => do
    let a := agHn "HTs" fn i; let b := agHn "HTp" fn i
    `(icasesPatAlts| ⟨$a:ident, $b:ident⟩)
  let patsP : Array (TSyntax ``icasesPatAlts) ← (Array.range n).mapM fun i => do
    let a := agHn "HPs" fn i; let b := agHn "HPr" fn i
    `(icasesPatAlts| ⟨$a:ident, $b:ident⟩)
  let patsC : Array (TSyntax ``icasesPatAlts) ← (Array.range n).mapM fun i => do
    let a := agHn "HC" fn i
    `(icasesPatAlts| $a:ident)
  let patsD : Array (TSyntax ``icasesPatAlts) ← (Array.range n).mapM fun i => do
    let a := agHn "HD" fn i
    `(icasesPatAlts| $a:ident)
  let opens : Array (TSyntax `tactic) ← (Array.range n).mapM fun i => do
    let a := agHn "HD" fn i; let fd := agHn "fd" fn i
    let fdb : TSyntax ``Lean.binderIdent := ⟨mkNode ``Lean.binderIdent #[fd]⟩
    let pp ← `(icasesPat| % $fdb)
    let pa ← `(icasesPat| $a:ident)
    let alt1 ← `(icasesPatAlts| $pp:icasesPat)
    let alt2 ← `(icasesPatAlts| $pa:icasesPat)
    let pat ← `(icasesPat| ⟨$alt1, $alt2⟩)
    let lit := Syntax.mkNumLit (toString i)
    `(tactic| (ihave $a:ident := (slotPay_open (F := F) $fam c ($lit : Fin (Fam.n $fam))) $$ $a:ident
               icases $a:ident with $pat:icasesPat))
  `(tactic| (
    ihave HTx := (show famToks (F := F) c $fam ⊢ _ from Entails.of_eq ($split (F := F) _)) $$ $hT:ident
    icases HTx with ⟨$[$patsT],*⟩
    ihave HPx := (show famPos (F := F) c $fam ⊢ _ from Entails.of_eq ($split (F := F) _)) $$ $hP:ident
    icases HPx with ⟨$[$patsP],*⟩
    ihave HCx := (show famCred (F := F) c $fam ⊢ _ from Entails.of_eq ($split (F := F) _)) $$ $hC:ident
    icases HCx with ⟨$[$patsC],*⟩
    ihave HDx := (show dslots (F := F) $fam c ⊢ _ from Entails.of_eq ($split (F := F) _)) $$ $hD:ident
    icases HDx with ⟨$[$patsD],*⟩
    $[$opens]*))

open Lean in
/-- The equation of the conversion the kernel's i-th iteration stores. -/
def agPay (i : Nat) : Ident :=
  mkIdent (`Cert.KernelIdeal.AG ++ Name.mkSimple (match i with
    | 0 => "k0_pay1_eq" | 1 => "k0_pay2_eq" | 2 => "k0_pay4_3_eq" | 3 => "k0_pay5_eq" | 4 => "k0_pay6_eq" | 5 => "k0_pay7_eq"
    | 6 => "k0_pay8_eq" | 7 => "k0_pay9_eq" | 8 => "k0_pay10_eq" | 9 => "k0_pay11_eq" | 10 => "k0_pay12_eq"
    | 11 => "k0_pay13_eq" | 12 => "k0_pay14_eq" | 13 => "k0_pay16_15_eq" | 14 => "k0_pay17_eq" | _ => "k0_pay18_eq"))

open Lean in
/-- Transfer i to the y-neighbour, chunk i of the send buffer held as Hs_i as the store left it, with the conversion's
    equation pay and the staging slot it was loaded from. -/
macro "ag_yq' " i:num slot:num pay:term : tactic => do
  let fn := `yq
  let fam := mkIdent `Cert.KernelIdeal.AG.Fam.yq
  let fId := mkIdent fn
  let iv := i.getNat
  let n := 4 + iv
  let kdev := mkIdent (`Cert.KernelIdeal ++ Name.mkSimple ("k0_dev" ++ toString n))
  let kdeveq := mkIdent (`Cert.KernelIdeal.Gen ++ Name.mkSimple ("k0_dev" ++ toString n ++ "_eq"))
  let hs := agS iv
  let hIs := agHn "HIs" fn iv; let hIp := agHn "HIp" fn iv; let hRs := agHn "HRs" fn iv; let hRp := agHn "HRp" fn iv
  let hTs := agHn "HTs" fn iv; let hTp := agHn "HTp" fn iv; let hD := agHn "HD" fn iv; let hcS := agHn "HcS" fn iv
  let fd := agHn "fd" fn iv
  `(tactic| (
    ag_rec $fId $i
    ihave $hs:ident : ((sbChunk $i).view.loc (c : Thread nD τ) ↦[(sbChunk $i).view.set]{fullShare} sbBuf A c $i) $$ [$hs:ident]
    · iapply (sb_filled_of A c $i $slot _)
      isplitl [$hs:ident]
      · iexact $hs:ident
      · ipureintro; exact ⟨_, _, _, rfl, $pay _, by staged_chain⟩
    have hdev : ∀ h, (⟨$kdev c, h⟩ : Dev nD) = Yn c := fun h => Fin.ext (($kdeveq c).trans (Yn_val c).symm)
    iapply (wp_send_yq A K c _ (hdev _) $i $fd _ _ (peel5 c $fam $i _ _ _ _) _) $$ [$hs:ident $hD:ident HO $hTs:ident $hTp:ident]
    · isplitr; · iexact $hIs:ident
      isplitr; · iexact $hIp:ident
      isplitl [$hs:ident]; · iexact $hs:ident
      isplitl [$hD:ident]; · iexact $hD:ident
      isplitl [HO]; · iexact HO
      isplitl [$hTs:ident]; · iexact $hTs:ident
      isplitr; · iexact $hRs:ident
      isplitl [$hTp:ident]; · iexact $hTp:ident
      iexact $hRp:ident
    iintro ⟨$hcS:ident, HO⟩))

open Lean in
/-- The same, slot and conversion read off the transfer's number. -/
macro "ag_yq " i:num : tactic => do
  let iv := i.getNat
  let slot := Syntax.mkNumLit (toString (iv % 4))
  let pay := agPay iv
  `(tactic| ag_yq' $i $slot $pay)

end Cert.KernelIdeal.AG

end
-- ==== Proof.Chunks.lean ====
/-
The chunk a device receives is the source of what it forwards, and back.

The rows the y-neighbour writes on device c are the rows c forwards to its x- and to its z-neighbour, each
forward reading them with half their share; the first eight chunks the z-neighbour forwards to c are the rows
c relays to its x-neighbour, and the last eight chunks the x-neighbour forwards to c are the rows c relays to its
z-neighbour.  The chunks are the same blocks of rows of the output array because their first rows are equal, and
what they hold is the gathered array as c assembles it either way; so what a receive cell hands c is what the
send needs, and what the send cells hand back, with the chunks received and not sent on and the chunks of
c's own copies, is c's whole output array in pieces, holding the gathered array.
-/
import proofs.«900667_g7700000000000668_dist_ag_v7x_xyz2x2x2_y_m32768_n1024_bf16_1_alg».proof.Proof.Send
import proofs.«900667_g7700000000000668_dist_ag_v7x_xyz2x2x2_y_m32768_n1024_bf16_1_alg».proof.Proof.Geom

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : (c : Dev nD) → Buf (Elt F) ((c : Thread nD τ).loc main_arg0))

/-! ## A chunk through its first row -/

/-- The block of 512 rows of the output array at an offset. -/
abbrev chunkAt (off : Fin 2 → ℕ) (inb : ∀ a, off a + S512x1024.size a ≤ S65536x1024.size a) : Memref sig .tc .hbm S512x1024 .bf16 :=
  oM.slice (Rect.unit (s := S65536x1024) off S512x1024.size inb) (fun _ => rfl)

/-- Blocks at equal offsets are held alike. -/
theorem chunk_congr (c : Dev nD) (off off' : Fin 2 → ℕ) (h : off = off')
    (inb : ∀ a, off a + S512x1024.size a ≤ S65536x1024.size a) (inb' : ∀ a, off' a + S512x1024.size a ≤ S65536x1024.size a)
    (q : PosShare TreeShare) (g : Buf (Elt F) ((c : Thread nD τ).loc main_v1)) :
    ((chunkAt off inb).view.loc (c : Thread nD τ) ↦[(chunkAt off inb).view.set]{q} g : sProp 𝕄)
      = ((chunkAt off' inb').view.loc (c : Thread nD τ) ↦[(chunkAt off' inb').view.set]{q} g) := by
  subst h; rfl

/-! ## What is received is what is sent on -/

theorem recv_yq_eq (c : Dev nD) (i : Fin 16) :
    recvPay A .yq c i = ((oChunk .xf c i).view.loc (c : Thread nD τ) ↦[(oChunk .xf c i).view.set]{fullShare} Gout A c) :=
  chunk_congr c _ _ (oOff_yq_recv c i) (oOff_inb .yq (Yn c) i) (oOff_inb .xf c i) fullShare (Gout A c)

/-- The chunk the y-neighbour wrote, to the two forwards, half its share each. -/
theorem recv_yq_fwd (c : Dev nD) (i : Fin 16) : recvPay A .yq c i ⊢ iprop(sendPay A .xf c i ∗ sendPay A .zf c i) := by
  rw [recv_yq_eq]
  exact (chunk_halves (oChunk .xf c i) c (Gout A c)).1

theorem recv_zf_eq (c : Dev nD) (i : Fin 8) :
    recvPay A .zf c ⟨i.val, by have := i.isLt; show _ < 16; omega⟩ = sendPay A .xd c i :=
  chunk_congr c _ _ (oOff_zf_recv c i) (oOff_inb .zf (Zn c) ⟨i.val, by have := i.isLt; show _ < 16; omega⟩) (oOff_inb .xd c i) fullShare (Gout A c)

/-- One of the first eight chunks the z-neighbour forwarded, to the relay to the x-neighbour. -/
theorem recv_zf_fwd (c : Dev nD) (i : Fin 8) : recvPay A .zf c ⟨i.val, by have := i.isLt; show _ < 16; omega⟩ ⊢ sendPay A .xd c i :=
  Entails.of_eq (recv_zf_eq A c i)

theorem recv_xf_eq (c : Dev nD) (i : Fin 8) :
    recvPay A .xf c ⟨i.val + 8, by have := i.isLt; show _ < 16; omega⟩ = sendPay A .zd c i :=
  chunk_congr c _ _ (oOff_xf_recv c i) (oOff_inb .xf (Xn c) ⟨i.val + 8, by have := i.isLt; show _ < 16; omega⟩) (oOff_inb .zd c i) fullShare (Gout A c)

/-- One of the last eight chunks the x-neighbour forwarded, to the relay to the z-neighbour. -/
theorem recv_xf_fwd (c : Dev nD) (i : Fin 8) : recvPay A .xf c ⟨i.val + 8, by have := i.isLt; show _ < 16; omega⟩ ⊢ sendPay A .zd c i :=
  Entails.of_eq (recv_xf_eq A c i)

/-! ## And back -/

/-- A chunk received and not sent on. -/
theorem back_recv (f : Fam) (c : Dev nD) (i : Fin f.n) :
    recvPay A f c i ⊢ ((oChunk f (peer f c) i).view.loc (c : Thread nD τ) ↦[(oChunk f (peer f c) i).view.set]{fullShare} Gout A c) :=
  Entails.of_eq rfl

/-- The two halves the forwards hand back are the chunk the y-neighbour wrote. -/
theorem back_yq (c : Dev nD) (i : Fin 16) :
    iprop(sendPay A .xf c i ∗ sendPay A .zf c i)
      ⊢ ((oChunk .yq (Yn c) i).view.loc (c : Thread nD τ) ↦[(oChunk .yq (Yn c) i).view.set]{fullShare} Gout A c) := by
  refine (show iprop(sendPay A .xf c i ∗ sendPay A .zf c i) ⊢ _ from (chunk_halves (oChunk .xf c i) c (Gout A c)).2).trans ?_
  exact Entails.of_eq (recv_yq_eq A c i).symm

/-- What the relay to the x-neighbour hands back is one of the first eight chunks the z-neighbour forwarded. -/
theorem back_zf_lo (c : Dev nD) (i : Fin 8) :
    sendPay A .xd c i ⊢ ((oChunk .zf (Zn c) ⟨i.val, by have := i.isLt; show _ < 16; omega⟩).view.loc (c : Thread nD τ)
      ↦[(oChunk .zf (Zn c) ⟨i.val, by have := i.isLt; show _ < 16; omega⟩).view.set]{fullShare} Gout A c) :=
  Entails.of_eq (recv_zf_eq A c i).symm

/-- What the relay to the z-neighbour hands back is one of the last eight chunks the x-neighbour forwarded. -/
theorem back_xf_hi (c : Dev nD) (i : Fin 8) :
    sendPay A .zd c i ⊢ ((oChunk .xf (Xn c) ⟨i.val + 8, by have := i.isLt; show _ < 16; omega⟩).view.loc (c : Thread nD τ)
      ↦[(oChunk .xf (Xn c) ⟨i.val + 8, by have := i.isLt; show _ < 16; omega⟩).view.set]{fullShare} Gout A c) :=
  Entails.of_eq (recv_xf_eq A c i).symm

/-! ## Sixteen chunks as the first eight and the last eight -/

theorem bigSep_fin16_halves (Φ : Fin 16 → sProp 𝕄) :
    bigSep Finset.univ Φ
      = iprop((bigSep Finset.univ fun i : Fin 8 => Φ ⟨i.val, by have := i.isLt; show _ < 16; omega⟩)
          ∗ (bigSep Finset.univ fun i : Fin 8 => Φ ⟨i.val + 8, by have := i.isLt; show _ < 16; omega⟩)) := by
  rw [bigSep_fin16, bigSep_fin8, bigSep_fin8]
  show _ = iprop((Φ 0 ∗ Φ 1 ∗ Φ 2 ∗ Φ 3 ∗ Φ 4 ∗ Φ 5 ∗ Φ 6 ∗ Φ 7) ∗ (Φ 8 ∗ Φ 9 ∗ Φ 10 ∗ Φ 11 ∗ Φ 12 ∗ Φ 13 ∗ Φ 14 ∗ Φ 15))
  have assoc : ∀ P Q R : sProp 𝕄, iprop((P ∗ Q) ∗ R) = iprop(P ∗ Q ∗ R) := fun P Q R => BI.equiv_iff.mp ⟨BI.sep_assoc, BI.sep_assoc'⟩
  simp only [assoc]

/-! ## The whole output array from what the device holds at the end -/

/-- The chunks of its own copies, the two halves of each chunk the y-neighbour wrote, the chunks the x- and the
    z-neighbour forwarded — those sent on as the relays hand them back, the others as received — and the relayed
    halves of the diagonal quarter as received: the output array in pieces, holding the gathered array. -/
theorem oPieces_of_parts (c : Dev nD) :
    iprop((bigSep Finset.univ fun i : Fin 32 => (oOwn c i).view.loc (c : Thread nD τ) ↦[(oOwn c i).view.set]{fullShare} Gout A c)
        ∗ (bigSep Finset.univ fun i : Fin 16 => iprop(sendPay A .xf c i ∗ sendPay A .zf c i))
        ∗ ((bigSep Finset.univ fun i : Fin 8 => recvPay A .xf c ⟨i.val, by have := i.isLt; show _ < 16; omega⟩)
            ∗ (bigSep Finset.univ fun i : Fin 8 => sendPay A .zd c i))
        ∗ (bigSep Finset.univ fun i : Fin 8 => recvPay A .xd c i)
        ∗ ((bigSep Finset.univ fun i : Fin 8 => sendPay A .xd c i)
            ∗ (bigSep Finset.univ fun i : Fin 8 => recvPay A .zf c ⟨i.val + 8, by have := i.isLt; show _ < 16; omega⟩))
        ∗ (bigSep Finset.univ fun i : Fin 8 => recvPay A .zd c i))
      ⊢ oPieces (F := F) c (Gout A c) := by
  unfold oPieces
  refine sep_mono .rfl (sep_mono ?_ (sep_mono ?_ (sep_mono ?_ (sep_mono ?_ ?_))))
  · exact bigSep_mono fun i _ => back_yq A c i
  · rw [bigSep_fin16_halves (F := F) (fun i : Fin 16 => (oChunk .xf (Xn c) i).view.loc (c : Thread nD τ) ↦[(oChunk .xf (Xn c) i).view.set]{fullShare} Gout A c)]
    exact sep_mono (bigSep_mono fun i _ => back_recv A .xf c _) (bigSep_mono fun i _ => back_xf_hi A c i)
  · exact bigSep_mono fun i _ => back_recv A .xd c i
  · rw [bigSep_fin16_halves (F := F) (fun i : Fin 16 => (oChunk .zf (Zn c) i).view.loc (c : Thread nD τ) ↦[(oChunk .zf (Zn c) i).view.set]{fullShare} Gout A c)]
    exact sep_mono (bigSep_mono fun i _ => back_zf_lo A c i) (bigSep_mono fun i _ => back_recv A .zf c _)
  · exact bigSep_mono fun i _ => back_recv A .zd c i

end Cert.KernelIdeal.AG

end
-- ==== Proof.Own.lean ====
/-
The device's own half of the gathered array.

Local copy i (of 32) brings the rows 1024 i .. 1024 i + 1023 of the device's half of the input into slot i mod 4 of
the staging buffer; the kernel loads the slot, converts it, stores it into slot i mod 4 of the output staging buffer,
and a second local copy brings that slot into the chunk of the output array the device keeps for it: rows
32768 y + 1024 i .. of the array, which in the gathered array are the device's own rows 1024 i .., converted.
-/
import proofs.«900667_g7700000000000668_dist_ag_v7x_xyz2x2x2_y_m32768_n1024_bf16_1_alg».proof.Proof.Steps

noncomputable section

namespace Cert.KernelIdeal.AG

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The slots and the rows -/

theorem slot_inb (s : Fin 4) : ∀ a, (![s.val, 0, 0] : Fin 3 → Nat) a + S1x1024x1024.size a ≤ S4x1024x1024.size a := by
  intro a; have := s.isLt
  fin_cases a
  · show s.val + 1 ≤ 4; omega
  · show 0 + 1024 ≤ 1024; omega
  · show 0 + 1024 ≤ 1024; omega

/-- Slot s of a staging buffer, whole, as a load or a store names it, -/
abbrev slotRect (s : Fin 4) : Rect S4x1024x1024 := Rect.unit (s := S4x1024x1024) ![s.val, 0, 0] S1x1024x1024.size (slot_inb s)

/-- and as a local copy names it: of the input staging buffer, -/
def stSlotW (s : Fin 4) : Memref sig .tc .vmem S1024x1024 .f32 :=
  (stM.slice (slotRect s) (fun _ => rfl)).squeeze S1024x1024 squeezes_S1x1024x1024_S1024x1024

/-- of the output staging buffer. -/
def obSlot (s : Fin 4) : Memref sig .tc .vmem S1024x1024 .bf16 :=
  (obM.slice (slotRect s) (fun _ => rfl)).squeeze S1024x1024 squeezes_S1x1024x1024_S1024x1024

theorem xOwn_inb (i : Fin 32) : ∀ a, (![1024 * i.val, 0] : Fin 2 → Nat) a + S1024x1024.size a ≤ S32768x1024.size a := by
  intro a; have := i.isLt
  fin_cases a
  · show 1024 * i.val + 1024 ≤ 32768; omega
  · show 0 + 1024 ≤ 1024; omega

/-- The rows of the input half that local copy i brings in. -/
def xOwn (i : Fin 32) : Memref sig .tc .hbm S1024x1024 .f32 :=
  xM.slice (Rect.unit (s := S32768x1024) ![1024 * i.val, 0] S1024x1024.size (xOwn_inb i)) (fun _ => rfl)

/-! ## The conversion of a loaded slot -/

/-- The conversion of a loaded slot, element by element, in the shape it is stored in. -/
def cvSlot (v : Vec F S1x1024x1024 .f32) : FVec F S1x1024x1024 .bf16 :=
  shapeCast S1x1024x1024 (fun y : S1024x1024.Idx => cv (v (Fin.cons ⟨0, Nat.one_pos⟩ y))) shapeCasts_S1024x1024_S1x1024x1024

theorem cvSlot_eq (v : Vec F S1x1024x1024 .f32) :
    shapeCast S1x1024x1024 (truncf .bf16 (shapeCast S1024x1024 v shapeCasts_S1x1024x1024_S1024x1024) bitsLt_bf16_f32) shapeCasts_S1024x1024_S1x1024x1024
      = cvSlot v := by
  unfold cvSlot
  congr 1
  funext y
  show FloatOps.truncf .bf16 bitsLt_bf16_f32 (shapeCast S1024x1024 v shapeCasts_S1x1024x1024_S1024x1024 y) = cv (v (Fin.cons ⟨0, Nat.one_pos⟩ y))
  rw [shapeCast_dropUnit_apply]
  rfl

theorem cvSlot_apply (v : Vec F S1x1024x1024 .f32) (y : S1024x1024.Idx) :
    cvSlot v (Fin.cons ⟨0, Nat.one_pos⟩ y) = cv (v (Fin.cons ⟨0, Nat.one_pos⟩ y)) := by
  unfold cvSlot
  rw [shapeCast_addUnit_apply]
  rfl

/-! The thirty-two conversions as the program names them. -/

theorem k0_pay19_eq (v : Vec F S1x1024x1024 .f32) : k0_pay19 v = cvSlot v := cvSlot_eq v
theorem k0_pay20_eq (v : Vec F S1x1024x1024 .f32) : k0_pay20 v = cvSlot v := cvSlot_eq v
theorem k0_pay21_eq (v : Vec F S1x1024x1024 .f32) : k0_pay21 v = cvSlot v := cvSlot_eq v
theorem k0_pay22_eq (v : Vec F S1x1024x1024 .f32) : k0_pay22 v = cvSlot v := cvSlot_eq v
theorem k0_pay23_eq (v : Vec F S1x1024x1024 .f32) : k0_pay23 v = cvSlot v := cvSlot_eq v
theorem k0_pay24_eq (v : Vec F S1x1024x1024 .f32) : k0_pay24 v = cvSlot v := cvSlot_eq v
theorem k0_pay25_eq (v : Vec F S1x1024x1024 .f32) : k0_pay25 v = cvSlot v := cvSlot_eq v
theorem k0_pay26_eq (v : Vec F S1x1024x1024 .f32) : k0_pay26 v = cvSlot v := cvSlot_eq v
theorem k0_pay27_eq (v : Vec F S1x1024x1024 .f32) : k0_pay27 v = cvSlot v := cvSlot_eq v
theorem k0_pay32_eq (v : Vec F S1x1024x1024 .f32) : k0_pay32 v = cvSlot v := cvSlot_eq v
theorem k0_pay33_eq (v : Vec F S1x1024x1024 .f32) : k0_pay33 v = cvSlot v := cvSlot_eq v
theorem k0_pay34_eq (v : Vec F S1x1024x1024 .f32) : k0_pay34 v = cvSlot v := cvSlot_eq v
theorem k0_pay35_eq (v : Vec F S1x1024x1024 .f32) : k0_pay35 v = cvSlot v := cvSlot_eq v
theorem k0_pay36_eq (v : Vec F S1x1024x1024 .f32) : k0_pay36 v = cvSlot v := cvSlot_eq v
theorem k0_pay37_eq (v : Vec F S1x1024x1024 .f32) : k0_pay37 v = cvSlot v := cvSlot_eq v
theorem k0_pay38_eq (v : Vec F S1x1024x1024 .f32) : k0_pay38 v = cvSlot v := cvSlot_eq v
theorem k0_pay39_eq (v : Vec F S1x1024x1024 .f32) : k0_pay39 v = cvSlot v := cvSlot_eq v
theorem k0_pay40_eq (v : Vec F S1x1024x1024 .f32) : k0_pay40 v = cvSlot v := cvSlot_eq v
theorem k0_pay41_eq (v : Vec F S1x1024x1024 .f32) : k0_pay41 v = cvSlot v := cvSlot_eq v
theorem k0_pay42_eq (v : Vec F S1x1024x1024 .f32) : k0_pay42 v = cvSlot v := cvSlot_eq v
theorem k0_pay43_eq (v : Vec F S1x1024x1024 .f32) : k0_pay43 v = cvSlot v := cvSlot_eq v
theorem k0_pay44_eq (v : Vec F S1x1024x1024 .f32) : k0_pay44 v = cvSlot v := cvSlot_eq v
theorem k0_pay45_eq (v : Vec F S1x1024x1024 .f32) : k0_pay45 v = cvSlot v := cvSlot_eq v
theorem k0_pay46_eq (v : Vec F S1x1024x1024 .f32) : k0_pay46 v = cvSlot v := cvSlot_eq v
theorem k0_pay47_eq (v : Vec F S1x1024x1024 .f32) : k0_pay47 v = cvSlot v := cvSlot_eq v
theorem k0_pay48_eq (v : Vec F S1x1024x1024 .f32) : k0_pay48 v = cvSlot v := cvSlot_eq v
theorem k0_pay49_eq (v : Vec F S1x1024x1024 .f32) : k0_pay49 v = cvSlot v := cvSlot_eq v
theorem k0_pay54_eq (v : Vec F S1x1024x1024 .f32) : k0_pay54 v = cvSlot v := cvSlot_eq v
theorem k0_pay29_28_eq (v : Vec F S1x1024x1024 .f32) : k0_pay29 (k0_pay28 v) = cvSlot v := cvSlot_eq v
theorem k0_pay31_30_eq (v : Vec F S1x1024x1024 .f32) : k0_pay31 (k0_pay30 v) = cvSlot v := cvSlot_eq v
theorem k0_pay51_50_eq (v : Vec F S1x1024x1024 .f32) : k0_pay51 (k0_pay50 v) = cvSlot v := cvSlot_eq v
theorem k0_pay53_52_eq (v : Vec F S1x1024x1024 .f32) : k0_pay53 (k0_pay52 v) = cvSlot v := cvSlot_eq v

/-! ## Reading a slot -/

/-- A load of slot s of the input staging buffer reads what the slot's view reads. -/
theorem st_slot_load (c : Dev nD) (s : Fin 4) (g : Buf (Elt F) ((c : Thread nD τ).loc cc0_scratch0)) (y : S1024x1024.Idx) :
    View.readAt (Elt F) stM.view (slotRect s).toLoadRect g (Fin.cons ⟨0, Nat.one_pos⟩ y) = (stSlotW s).view.read (Elt F) g y := by
  have h : (stSlotW s).view.emb y = stM.view.emb ((slotRect s).toLoadRect.idx (Fin.cons ⟨0, Nat.one_pos⟩ y)) := by
    show stM.view.emb ((slotRect s).emb (Shape.reshapeEquiv _ y)) = _
    rw [Shape.reshapeEquiv_cons_one]
    rfl
  have e1 := View.read_apply (Val := Elt F) (v := (stSlotW s).view) g y
  rw [View.readAt_apply, View.read_apply, e1, h]
  rfl

/-- The same of the output staging buffer. -/
theorem ob_slot_load (c : Dev nD) (s : Fin 4) (g : Buf (Elt F) ((c : Thread nD τ).loc cc0_scratch1)) (y : S1024x1024.Idx) :
    View.readAt (Elt F) obM.view (slotRect s).toLoadRect g (Fin.cons ⟨0, Nat.one_pos⟩ y) = (obSlot s).view.read (Elt F) g y := by
  have h : (obSlot s).view.emb y = obM.view.emb ((slotRect s).toLoadRect.idx (Fin.cons ⟨0, Nat.one_pos⟩ y)) := by
    show obM.view.emb ((slotRect s).emb (Shape.reshapeEquiv _ y)) = _
    rw [Shape.reshapeEquiv_cons_one]
    rfl
  have e1 := View.read_apply (Val := Elt F) (v := (obSlot s).view) g y
  rw [View.readAt_apply, View.read_apply, e1, h]
  rfl

/-- Slot s of the output staging buffer, just stored with w, reads w. -/
theorem ob_slot_stored (c : Dev nD) (s : Fin 4) (f1 : Buf (Elt F) ((c : Thread nD τ).loc cc0_scratch1))
    (L : List (View.Piece (Elt F) S4x1024x1024 .bf16)) (w : FVec F S1x1024x1024 .bf16) (y : S1024x1024.Idx) :
    (obSlot s).view.read (Elt F) (obM.view.writes (Elt F) f1 (⟨slotRect s, w⟩ :: L)) y = w (Fin.cons ⟨0, Nat.one_pos⟩ y) := by
  rw [← ob_slot_load c s, View.readAt_rect, View.writes_cons, View.read_write_univ]

/-! ## The rows in the staging buffer -/

variable (A : (c : Dev nD) → Buf (Elt F) ((c : Thread nD τ).loc main_arg0))

/-- Slot s of the input staging buffer holds the rows local copy i brings in. -/
def StagedW (c : Dev nD) (s : Fin 4) (i : Fin 32) (g : Buf (Elt F) ((c : Thread nD τ).loc cc0_scratch0)) : Prop :=
  (stSlotW s).view.read (Elt F) g = (xOwn i).view.read (Elt F) (A c)

/-- Local copy i into slot s leaves its rows there, -/
theorem stagedW_write (c : Dev nD) (s : Fin 4) (i : Fin 32) (g : Buf (Elt F) ((c : Thread nD τ).loc cc0_scratch0)) :
    StagedW A c s i ((stSlotW s).view.write (Elt F) g (ReadAs.same.apply ((xOwn i).view.read (Elt F) (A c))) Finset.univ) :=
  View.read_write_univ _ _

theorem stSlotW_set (s : Fin 4) : (stSlotW s).view.set = (slotRect s).set := by
  show ((stM.view.slice (slotRect s)).reshape S1024x1024 _).set = _
  rw [View.set_reshape]
  exact View.set_slice_whole _ _

/-- and a write into another slot keeps them. -/
theorem stagedW_write_other (c : Dev nD) (s s' : Fin 4) (h : s ≠ s') (i : Fin 32)
    (g : Buf (Elt F) ((c : Thread nD τ).loc cc0_scratch0)) (w : S1024x1024.Idx → Elt F .f32) (hg : StagedW A c s i g) :
    StagedW A c s i ((stSlotW s').view.write (Elt F) g w Finset.univ) := by
  unfold StagedW
  rw [← hg]
  apply View.read_congr
  intro j hj
  apply View.write_of_not_mem
  rw [View.setOn_univ, stSlotW_set]
  rw [stSlotW_set] at hj
  have hne : s.val ≠ s'.val := fun e => h (Fin.ext e)
  exact Finset.disjoint_left.mp (Rect.unit_disjoint (0 : Fin 3) (by
    show s.val + 1 ≤ s'.val ∨ s'.val + 1 ≤ s.val
    omega)) hj

/-- Proves that slot s holds the rows of local copy i under contents written slot by slot: the copy into slot s,
    then writes into the other slots only. -/
macro "stagedW_chain" : tactic => `(tactic| repeat (first
  | exact stagedW_write _ _ _ _ _
  | refine stagedW_write_other _ _ _ 0 (by decide) _ _ _ ?_
  | refine stagedW_write_other _ _ _ 1 (by decide) _ _ _ ?_
  | refine stagedW_write_other _ _ _ 2 (by decide) _ _ _ ?_
  | refine stagedW_write_other _ _ _ 3 (by decide) _ _ _ ?_))

/-! ## The rows in the gathered array -/

theorem oOwn_emb_val (c : Dev nD) (i : Fin 32) (y : S1024x1024.Idx) (a : Fin 2) :
    (((oOwn c i).view.emb y : S65536x1024.Idx) a).val = k0_off3 c (BitVec.ofNat 32 (1024 * i.val)) a + (y a).val := by
  show k0_off3 c (BitVec.ofNat 32 (1024 * i.val)) a + 1 * (y a).val = _
  rw [Nat.one_mul]

theorem xOwn_emb_val (i : Fin 32) (y : S1024x1024.Idx) (a : Fin 2) :
    (((xOwn i).view.emb y : S32768x1024.Idx) a).val = (![1024 * i.val, 0] : Fin 2 → Nat) a + (y a).val := by
  show (![1024 * i.val, 0] : Fin 2 → Nat) a + 1 * (y a).val = _
  rw [Nat.one_mul]

/-- On the rows the device keeps for its own copy i, the gathered array is the device's own rows, converted. -/
theorem Gout_own (c : Dev nD) (i : Fin 32) (y : S1024x1024.Idx) :
    cv (A c ((xOwn i).view.emb y)) = Gout A c ((oOwn c i).view.emb y) := by
  have hi : i.val < 32 := i.isLt
  have hy0 : (y 0).val < 1024 := (y 0).isLt
  have hyc : (c.val / 2) % 2 < 2 := Nat.mod_lt _ (by decide)
  have hr : ((oOwn c i).view.emb y (0 : Fin 2)).val = 32768 * ((c.val / 2) % 2) + 1024 * i.val + (y 0).val := by
    rw [oOwn_emb_val, off_own]; rfl
  have hx : ((xOwn i).view.emb y (0 : Fin 2)).val = 1024 * i.val + (y 0).val := by
    rw [xOwn_emb_val]; rfl
  have ho : origin c ((oOwn c i).view.emb y (0 : Fin 2)).val = c := by
    unfold origin
    rw [if_pos (by rw [hr]; omega)]
  have h0 : ((xOwn i).view.emb y (0 : Fin 2) : Fin 32768)
      = ⟨((oOwn c i).view.emb y (0 : Fin 2)).val % 32768, Nat.mod_lt _ (by decide)⟩ :=
    Fin.ext (by show _ = _ % 32768; rw [hr, hx]; omega)
  have h1 : ((xOwn i).view.emb y (1 : Fin 2) : Fin 1024) = (oOwn c i).view.emb y (1 : Fin 2) :=
    Fin.ext (by rw [xOwn_emb_val, oOwn_emb_val, off_own]; rfl)
  show cv (A c ((xOwn i).view.emb y))
     = cv (A (origin c ((oOwn c i).view.emb y (0 : Fin 2)).val)
        (ValueIdx.ix2 ⟨((oOwn c i).view.emb y (0 : Fin 2)).val % 32768, Nat.mod_lt _ (by decide)⟩ ((oOwn c i).view.emb y (1 : Fin 2))))
  rw [ho, ValueIdx.eq_ix2 ((xOwn i).view.emb y), h0, h1]
  rfl

/-! ## An own chunk, delivered, restated -/

/-- The chunk the device keeps for its own copy i, written by the copy out of slot s of the output staging buffer
    just stored with the converted load of a slot holding the copy's rows, holds the gathered array. -/
theorem own_filled (c : Dev nD) (i : Fin 32) (s : Fin 4) (g : Buf (Elt F) ((c : Thread nD τ).loc cc0_scratch0))
    (f1 : Buf (Elt F) ((c : Thread nD τ).loc cc0_scratch1)) (L : List (View.Piece (Elt F) S4x1024x1024 .bf16))
    (w : FVec F S1x1024x1024 .bf16) (X0 : Buf (Elt F) ((oOwn c i).view.loc (c : Thread nD τ)))
    (hw : w = cvSlot (View.readAt (Elt F) stM.view (slotRect s).toLoadRect g)) (hg : StagedW A c s i g) :
    ((oOwn c i).view.loc (c : Thread nD τ) ↦[(oOwn c i).view.set]{fullShare}
        (oOwn c i).view.writes (Elt F) X0 [⟨Rect.whole S1024x1024,
          ReadAs.same.apply ((obSlot s).view.read (Elt F) (obM.view.writes (Elt F) f1 (⟨slotRect s, w⟩ :: L)))⟩] : sProp 𝕄)
      = ((oOwn c i).view.loc (c : Thread nD τ) ↦[(oOwn c i).view.set]{fullShare} Gout A c) := by
  subst hw
  rw [← View.write_univ_eq_writes_whole, View.writes_nil]
  apply pointsTo_congr
  intro e he
  obtain ⟨y, rfl⟩ := View.exists_emb_of_mem_set _ he
  rw [View.write_emb_of_mem _ _ (Finset.mem_univ y)]
  have hv : ReadAs.same.apply ((obSlot s).view.read (Elt F) (obM.view.writes (Elt F) f1
        (⟨slotRect s, cvSlot (View.readAt (Elt F) stM.view (slotRect s).toLoadRect g)⟩ :: L))) y
      = cv (A c ((xOwn i).view.emb y)) := by
    show (obSlot s).view.read (Elt F) _ y = _
    rw [ob_slot_stored, cvSlot_apply, st_slot_load, hg]
    rfl
  rw [hv, Gout_own]
  rfl

/-- The same with the pieces found in the contents as the preceding steps leave them. -/
theorem own_filled_of (c : Dev nD) (i : Fin 32) (s : Fin 4) (X : Buf (Elt F) ((oOwn c i).view.loc (c : Thread nD τ))) :
    iprop(((oOwn c i).view.loc (c : Thread nD τ) ↦[(oOwn c i).view.set]{fullShare} X)
        ∗ ⌜∃ (g : Buf (Elt F) ((c : Thread nD τ).loc cc0_scratch0)) (f1 : Buf (Elt F) ((c : Thread nD τ).loc cc0_scratch1))
            (L : List (View.Piece (Elt F) S4x1024x1024 .bf16)) (w : FVec F S1x1024x1024 .bf16)
            (X0 : Buf (Elt F) ((oOwn c i).view.loc (c : Thread nD τ))),
            X = (oOwn c i).view.writes (Elt F) X0 [⟨Rect.whole S1024x1024,
                  ReadAs.same.apply ((obSlot s).view.read (Elt F) (obM.view.writes (Elt F) f1 (⟨slotRect s, w⟩ :: L)))⟩]
              ∧ w = cvSlot (View.readAt (Elt F) stM.view (slotRect s).toLoadRect g) ∧ StagedW A c s i g⌝)
      ⊢ ((oOwn c i).view.loc (c : Thread nD τ) ↦[(oOwn c i).view.set]{fullShare} Gout A c : sProp 𝕄) := by
  iintro ⟨H, %h⟩
  obtain ⟨g, f1, L, w, X0, rfl, hw, hg⟩ := h
  ihave H := (Entails.of_eq (own_filled A c i s g f1 L w X0 hw hg)) $$ H
  iexact H

/-! ## The thirty-two own chunks, one hypothesis each -/

theorem bigSep_fin32 (Φ : Fin 32 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) :=
  bigSep_univ_eq_bigSepL [0, 1, 2, 3, 4, 5, 6, 7, 8, 9, 10, 11, 12, 13, 14, 15, 16, 17, 18, 19, 20, 21, 22, 23, 24, 25, 26, 27, 28, 29, 30, 31] (by decide) (by decide) Φ

set_option hygiene false

open Lean in
/-- The name of the hypothesis holding the chunk of own copy i. -/
def agOwnH (i : Nat) : Ident := mkIdent (Name.mkSimple ("Hown_" ++ toString i))

open Lean in
/-- The equation of the conversion iteration i of the own copies stores. -/
def agOwnPay (i : Nat) : Ident :=
  mkIdent (`Cert.KernelIdeal.AG ++ Name.mkSimple (
    if i ≤ 8 then "k0_pay" ++ toString (19 + i) ++ "_eq"
    else if i == 9 then "k0_pay29_28_eq"
    else if i == 10 then "k0_pay31_30_eq"
    else if i ≤ 28 then "k0_pay" ++ toString (32 + (i - 11)) ++ "_eq"
    else if i == 29 then "k0_pay51_50_eq"
    else if i == 30 then "k0_pay53_52_eq"
    else "k0_pay54_eq"))

open Lean in
/-- The output array's own part, held as Hown, cut into its thirty-two chunks Hown_0 … Hown_31. -/
macro "ag_cut_own" : tactic => do
  let pats : Array (TSyntax ``icasesPatAlts) ← (Array.range 32).mapM fun i => do
    let h := agOwnH i
    `(icasesPatAlts| $h:ident)
  `(tactic| (
    ihave Hownx := (Entails.of_eq (bigSep_fin32 (F := F) _)) $$ Hown
    icases Hownx with ⟨$[$pats],*⟩))

open Lean in
/-- The chunk of own copy i, delivered and held as Hown_i as the preceding steps leave it, restated as holding the gathered array. -/
macro "ag_own " i:num : tactic => do
  let iv := i.getNat
  let h := agOwnH iv
  let slot := Syntax.mkNumLit (toString (iv % 4))
  let pay := agOwnPay iv
  `(tactic| (
    ihave $h:ident : ((oOwn c $i).view.loc (c : Thread nD τ) ↦[(oOwn c $i).view.set]{fullShare} Gout A c) $$ [$h:ident]
    · iapply (own_filled_of A c $i $slot _)
      isplitl [$h:ident]
      · iexact $h:ident
      · ipureintro; exact ⟨_, _, _, _, _, rfl, $pay _, by stagedW_chain⟩))

open Lean in
/-- The thirty-two chunks Hown_0 … Hown_31, each holding the gathered array, joined into Hown. -/
macro "ag_own_join" : tactic => do
  let hs : Array (TSyntax `frameIdent) ← (Array.range 32).mapM fun i => do
    let h := agOwnH i
    `(frameIdent| $h:ident)
  let steps : Array (TSyntax `tactic) ← (Array.range 31).mapM fun i => do
    let h := agOwnH i
    `(tactic| (isplitl [$h:ident]; · iexact $h:ident))
  let last := agOwnH 31
  `(tactic| (
    ihave Hown : (bigSep Finset.univ fun i : Fin 32 => (oOwn c i).view.loc (c : Thread nD τ) ↦[(oOwn c i).view.set]{fullShare} Gout A c) $$ [$hs*]
    · iapply (Entails.of_eq (bigSep_fin32 (F := F) _).symm)
      $[$steps]*
      iexact $last:ident))

open Lean in
/-- All thirty-two chunks restated, then joined. -/
macro "ag_own_all" : tactic => do
  let each : Array (TSyntax `tactic) ← (Array.range 32).mapM fun i => do
    let lit := Syntax.mkNumLit (toString i)
    `(tactic| ag_own $lit)
  let all := each.push (← `(tactic| ag_own_join))
  `(tactic| ($[$all]*))

end Cert.KernelIdeal.AG

end
-- ==== Proof.Collect.lean ====
/-
The end of one device's kernel: what it holds transfer by transfer, gathered into what the closing takes.

Every transfer cell's round has been consumed: the device's positions on its cells stand past it; every send cell
has handed its source back and every receive cell the chunk written.  The sources of the transfers to the y-neighbour
are the sixteen chunks of the filled send buffer; the sources of the forwards and relays, with the chunks received and
not sent on and the chunks of the device's own copies, are its whole output array in pieces, holding the gathered
array; nothing is owed any more.
-/
import proofs.«900667_g7700000000000668_dist_ag_v7x_xyz2x2x2_y_m32768_n1024_bf16_1_alg».proof.Proof.StepsYq
import proofs.«900667_g7700000000000668_dist_ag_v7x_xyz2x2x2_y_m32768_n1024_bf16_1_alg».proof.Proof.Chunks
import proofs.«900667_g7700000000000668_dist_ag_v7x_xyz2x2x2_y_m32768_n1024_bf16_1_alg».proof.Proof.Finish

noncomputable section

namespace Cert.KernelIdeal.AG

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : (c : Dev nD) → Buf (Elt F) ((c : Thread nD τ).loc main_arg0))

/-! ## Small restatements -/

/-- A whole buffer held through its memref's view is the buffer held whole. -/
theorem whole_view_eq (b : Ref sig .tc) (c : Dev nD) (q : PosShare TreeShare) (f : Buf (Elt F) ((c : Thread nD τ).loc b)) :
    ((Memref.whole b).view.loc (c : Thread nD τ) ↦[(Memref.whole b : Memref sig .tc _ _ _).view.set]{q} f : sProp 𝕄)
      = (((c : Thread nD τ).loc b) ↦{q} f) := by
  rw [View.set_whole]

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- What the send cell of a transfer to the y-neighbour hands back: the chunk of the filled send buffer. -/
theorem sendPay_yq (c : Dev nD) (i : Fin 16) :
    sendPay A .yq c i = ((sbChunk i).view.loc (c : Thread nD τ) ↦[(sbChunk i).view.set]{fullShare} sbBuf A c i) := rfl

/-! ## Nothing owed -/

theorem later_ge (f : Fam) (n : ℕ) (h : f.n ≤ n) : later f n = ∅ := by
  unfold later; exact Finset.filter_false_of_mem fun j _ => by have := j.isLt; omega

theorem owedOn_later_ge (c : Dev nD) (f : Fam) (n : ℕ) (h : f.n ≤ n) : owedOn c f (later f n) = 0 := by
  rw [later_ge f n h, owedOn_empty]

/-- Every family's transfers issued, the device owes nothing. -/
theorem owed_done (c : Dev nD) (a b d e g : ℕ) (h : 8 ≤ a ∧ 8 ≤ b ∧ 16 ≤ d ∧ 16 ≤ e ∧ 16 ≤ g) :
    owedOn c .zd (later .zd a) + owedOn c .xd (later .xd b) + owedOn c .zf (later .zf d) + owedOn c .xf (later .xf e)
      + owedOn c .yq (later .yq g) = 0 := by
  obtain ⟨ha, hb, hd, he, hg⟩ := h
  rw [owedOn_later_ge c .zd a ha, owedOn_later_ge c .xd b hb, owedOn_later_ge c .zf d hd, owedOn_later_ge c .xf e he,
    owedOn_later_ge c .yq g hg]
  simp only [add_zero]

theorem owes_done (c : Dev nD) (a b d e g : ℕ) (W : Waits sig Unit) :
    iprop(owes (c : Thread nD τ) (owedOn c .zd (later .zd a) + owedOn c .xd (later .xd b) + owedOn c .zf (later .zf d)
          + owedOn c .xf (later .xf e) + owedOn c .yq (later .yq g)) W
        ∗ ⌜8 ≤ a ∧ 8 ≤ b ∧ 16 ≤ d ∧ 16 ≤ e ∧ 16 ≤ g⌝)
      ⊢ (owes (c : Thread nD τ) 0 W : sProp 𝕄) := by
  iintro ⟨H, %h⟩
  rw [owed_done c a b d e g h]
  iexact H

set_option hygiene false

open Lean in
/-- Names h_f_lo … h_f_(hi-1). -/
def agNames (p : String) (f : Name) (lo hi : Nat) : Array Ident :=
  (Array.range (hi - lo)).map fun k => agHn p f (lo + k)

open Lean in
/-- A goal Φ 0 ∗ Φ 1 ∗ … ∗ Φ (n-1) proved component by component: component k by fill k from the hypotheses use k. -/
def agFill (n : Nat) (use : Nat → Array Ident) (fill : Nat → MacroM (TSyntax `tactic)) : MacroM (TSyntax `tactic) := do
  let mut tacs : Array (TSyntax `tactic) := #[]
  for k in [0:n] do
    let t ← fill k
    if k + 1 < n then
      let hs := use k
      tacs := tacs.push (← `(tactic| (isplitl [$[$hs:ident]*]; · $t:tactic)))
    else
      tacs := tacs.push t
  `(tactic| ($[$tacs]*))

open Lean in
/-- Device c's positions on its cells of family f, past their round: HQf from HPs_f_i and HPr_f_i. -/
macro "ag_mk_pos " f:ident : tactic => do
  let fam := agF f
  let fn := f.getId
  let n := agN fn
  let hQ := mkIdent (Name.mkSimple ("HQ" ++ fn.toString))
  let split := mkIdent (if n == 16 then `Cert.KernelIdeal.AG.bigSep_fin16 else `Cert.KernelIdeal.AG.bigSep_fin8)
  let all := (Array.range n).foldl (fun acc i => acc.push (agHn "HPs" fn i) |>.push (agHn "HPr" fn i)) #[]
  let body ← agFill n (fun k => #[agHn "HPs" fn k, agHn "HPr" fn k]) fun k => do
    let a := agHn "HPs" fn k; let b := agHn "HPr" fn k
    `(tactic| (isplitl [$a:ident]; · iexact $a:ident
               iexact $b:ident))
  `(tactic| (
    ihave $hQ:ident : famPos1 (F := F) c $fam $$ [$[$all:ident]*]
    · iapply (show _ ⊢ famPos1 (F := F) c $fam from Entails.of_eq ($split (F := F) _).symm)
      $body:tactic))

open Lean in
/-- The filled send buffer in its sixteen chunks: HSB from HB_yq_i. -/
macro "ag_mk_sb" : tactic => do
  let fn := `yq
  let all := agNames "HB" fn 0 16
  let body ← agFill 16 (fun k => #[agHn "HB" fn k]) fun k => do
    let a := agHn "HB" fn k
    let lit := Syntax.mkNumLit (toString k)
    `(tactic| (iapply (Entails.of_eq (sendPay_yq A c $lit)); iexact $a:ident))
  `(tactic| (
    ihave HSB : (bigSep Finset.univ fun i : Fin 16 => (sbChunk i).view.loc (c : Thread nD τ) ↦[(sbChunk i).view.set]{fullShare} sbBuf A c i) $$ [$[$all:ident]*]
    · iapply (show _ ⊢ (bigSep Finset.univ fun i : Fin 16 => (sbChunk i).view.loc (c : Thread nD τ) ↦[(sbChunk i).view.set]{fullShare} sbBuf A c i)
          from Entails.of_eq (bigSep_fin16 (F := F) _).symm)
      $body:tactic))

open Lean in
/-- One bigSep over Fin 8 filled from named hypotheses. -/
def agFill8 (names : Array Ident) : MacroM (TSyntax `tactic) := do
  let body ← agFill 8 (fun k => #[names[k]!]) fun k => do
    let a := names[k]!
    `(tactic| iexact $a:ident)
  `(tactic| (iapply (Entails.of_eq (bigSep_fin8 (F := F) _).symm); $body:tactic))

open Lean in
/-- The output array in pieces, holding the gathered array: HOUT from Hown, the sources handed back and the chunks
    received and not sent on. -/
macro "ag_mk_out" : tactic => do
  let bxf := agNames "HB" `xf 0 16; let bzf := agNames "HB" `zf 0 16
  let bxd := agNames "HB" `xd 0 8; let bzd := agNames "HB" `zd 0 8
  let gxf := agNames "HG" `xf 0 8; let gzf := agNames "HG" `zf 8 16
  let gxd := agNames "HG" `xd 0 8; let gzd := agNames "HG" `zd 0 8
  let two := (Array.range 16).foldl (fun acc i => acc.push bxf[i]! |>.push bzf[i]!) #[]
  let body2 ← agFill 16 (fun k => #[bxf[k]!, bzf[k]!]) fun k => do
    let a := bxf[k]!; let b := bzf[k]!
    `(tactic| (isplitl [$a:ident]; · iexact $a:ident
               iexact $b:ident))
  let f3a ← agFill8 gxf; let f3b ← agFill8 bzd
  let f4 ← agFill8 gxd
  let f5a ← agFill8 bxd; let f5b ← agFill8 gzf
  let f6 ← agFill8 gzd
  `(tactic| (
    ihave HOUT : oPieces (F := F) c (Gout A c) $$ [Hown $[$two:ident]* $[$gxf:ident]* $[$bzd:ident]* $[$gxd:ident]* $[$bxd:ident]* $[$gzf:ident]* $[$gzd:ident]*]
    · iapply (oPieces_of_parts A c)
      isplitl [Hown]; · iexact Hown
      isplitl [$[$two:ident]*]
      · iapply (Entails.of_eq (bigSep_fin16 (F := F) _).symm)
        $body2:tactic
      isplitl [$[$gxf:ident]* $[$bzd:ident]*]
      · isplitl [$[$gxf:ident]*]
        · $f3a:tactic
        · $f3b:tactic
      isplitl [$[$gxd:ident]*]
      · $f4:tactic
      isplitl [$[$bxd:ident]* $[$gzf:ident]*]
      · isplitl [$[$bxd:ident]*]
        · $f5a:tactic
        · $f5b:tactic
      $f6:tactic))

open Lean in
/-- Nothing owed: HO at zero. -/
macro "ag_owes_done" : tactic => `(tactic| (
    ihave HO : owes (c : Thread nD τ) 0 _ $$ [HO]
    · iapply (owes_done c _ _ _ _ _ _)
      isplitl [HO]
      · iexact HO
      · ipureintro; decide))

open Lean in
/-- The closing, under an update: the cells closed, the buffers joined, and the continuation Hk applied. -/
macro "ag_finish" : tactic => `(tactic| (
    ag_mk_pos yq
    ag_mk_pos xf
    ag_mk_pos zf
    ag_mk_pos xd
    ag_mk_pos zd
    ag_mk_sb
    ag_mk_out
    ag_owes_done
    imod (finish A K c _ _) $$ [HQyq HQxf HQzf HQxd HQzd Hi0 Hi1 Hi2 Hi3 Ho0 Ho1 Ho2 Ho3 Hx HOUT Hst Hob HSB] with HΦ
    · isplitr
      · unfold records barInvs
        isplitr
        · isplitr; · iexact HIb
          isplitr; · iexact HIbY
          isplitr; · iexact HIbX
          iexact HIbZ
        isplitr; · iexact HIyq
        isplitr; · iexact HIxf
        isplitr; · iexact HIzf
        isplitr; · iexact HIxd
        isplitr; · iexact HIzd
        isplitr; · iexact HrY
        isplitr; · iexact HrX
        isplitr; · iexact HrZ
        isplitr; · iexact HRyq
        isplitr; · iexact HRxf
        isplitr; · iexact HRzf
        isplitr; · iexact HRxd
        iexact HRzd
      isplitl [HQyq]; · iexact HQyq
      isplitl [HQxf]; · iexact HQxf
      isplitl [HQzf]; · iexact HQzf
      isplitl [HQxd]; · iexact HQxd
      isplitl [HQzd]; · iexact HQzd
      isplitl [Hi0 Hi1 Hi2 Hi3 Ho0 Ho1 Ho2 Ho3]
      · unfold localSems
        isplitl [Hi0 Hi1 Hi2 Hi3]
        · iapply (Entails.of_eq (bigSep_four (F := F) _).symm)
          isplitl [Hi0]; · iexact Hi0
          isplitl [Hi1]; · iexact Hi1
          isplitl [Hi2]; · iexact Hi2
          iexact Hi3
        · iapply (Entails.of_eq (bigSep_four (F := F) _).symm)
          isplitl [Ho0]; · iexact Ho0
          isplitl [Ho1]; · iexact Ho1
          isplitl [Ho2]; · iexact Ho2
          iexact Ho3
      isplitl [Hx]; · iapply (Entails.of_eq (whole_view_eq (F := F) main_arg0 c fullShare _)); iexact Hx
      isplitl [HOUT]; · iexact HOUT
      isplitl [Hst]; · iapply (Entails.of_eq (whole_view_eq (F := F) cc0_scratch0 c fullShare _)); iexact Hst
      isplitl [Hob]; · iapply (Entails.of_eq (whole_view_eq (F := F) cc0_scratch1 c fullShare _)); iexact Hob
      iexact HSB
    imodintro
    iapply Hk
    isplitl [HΦ]; · iexact HΦ
    iexists _
    iexact HO))

end Cert.KernelIdeal.AG

end
-- ==== Proof.Body.lean ====
/-
One device's kernel, run from what the launch hands it to what it hands back.
-/
import proofs.«900667_g7700000000000668_dist_ag_v7x_xyz2x2x2_y_m32768_n1024_bf16_1_alg».proof.Proof.StepsYq
import proofs.«900667_g7700000000000668_dist_ag_v7x_xyz2x2x2_y_m32768_n1024_bf16_1_alg».proof.Proof.Chunks
import proofs.«900667_g7700000000000668_dist_ag_v7x_xyz2x2x2_y_m32768_n1024_bf16_1_alg».proof.Proof.Own
import proofs.«900667_g7700000000000668_dist_ag_v7x_xyz2x2x2_y_m32768_n1024_bf16_1_alg».proof.Proof.Collect

noncomputable section

namespace Cert.KernelIdeal.AG

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (A : (c : Dev nD) → Buf (Elt F) ((c : Thread nD τ).loc main_arg0))
variable (V1 : (c : Dev nD) → Buf (Elt F) ((c : Thread nD τ).loc main_v1))

/-! ## The buffers in the form the stepping rules take them: through their memrefs' views -/

theorem xM_eq (c : Dev nD) (f : Buf (Elt F) ((c : Thread nD τ).loc main_arg0)) :
    ((xM : Memref sig .tc .hbm S32768x1024 .f32).view.loc (c : Thread nD τ) ↦[(xM : Memref sig .tc .hbm S32768x1024 .f32).view.set]{fullShare} f : sProp 𝕄) = (((c : Thread nD τ).loc main_arg0) ↦{fullShare} f) := by
  rw [View.set_whole]
theorem stM_eq (c : Dev nD) (f : Buf (Elt F) ((c : Thread nD τ).loc cc0_scratch0)) :
    ((stM : Memref sig .tc .vmem S4x1024x1024 .f32).view.loc (c : Thread nD τ) ↦[(stM : Memref sig .tc .vmem S4x1024x1024 .f32).view.set]{fullShare} f : sProp 𝕄) = (((c : Thread nD τ).loc cc0_scratch0) ↦{fullShare} f) := by
  rw [View.set_whole]
theorem obM_eq (c : Dev nD) (f : Buf (Elt F) ((c : Thread nD τ).loc cc0_scratch1)) :
    ((obM : Memref sig .tc .vmem S4x1024x1024 .bf16).view.loc (c : Thread nD τ) ↦[(obM : Memref sig .tc .vmem S4x1024x1024 .bf16).view.set]{fullShare} f : sProp 𝕄) = (((c : Thread nD τ).loc cc0_scratch1) ↦{fullShare} f) := by
  rw [View.set_whole]

/-! ## The barrier's hand-overs -/

/-- The chunks of family f that device c hands the neighbour peer f c, at contents g. -/
def slots (f : Fam) (c : Dev nD) (g : Buf (Elt F) ((c : Thread nD τ).loc main_v1)) : sProp 𝕄 :=
  bigSep Finset.univ fun i : Fin f.n => (oChunk f (peer f c) i).view.loc (c : Thread nD τ) ↦[(oChunk f (peer f c) i).view.set]{fullShare} g

theorem slotPay_intro (f : Fam) (p q : Dev nD) (h : peer f p = q) (i : Fin f.n) (fd : Buf (Elt F) ((oChunk f p i).view.loc (q : Thread nD τ))) :
    ((oChunk f p i).view.loc (q : Thread nD τ) ↦[(oChunk f p i).view.set]{fullShare} fd : sProp 𝕄) ⊢ slotPay (F := F) f p i := by
  subst h; unfold slotPay; iintro H; iexists fd; iexact H

theorem slots_pay (f : Fam) (c : Dev nD) (g : Buf (Elt F) ((c : Thread nD τ).loc main_v1)) :
    slots f c g ⊢ bigSep Finset.univ (fun i : Fin f.n => slotPay (F := F) f (peer f c) i) := by
  unfold slots
  exact bigSep_mono fun i _ => slotPay_intro f (peer f c) c (peer_peer f c) i g

theorem barPay0 (c : Dev nD) (g : Buf (Elt F) ((c : Thread nD τ).loc main_v1)) : slots .yq c g ⊢ barPay (F := F) (Yn c) 0 := slots_pay .yq c g
theorem barPay1 (c : Dev nD) (g : Buf (Elt F) ((c : Thread nD τ).loc main_v1)) : iprop(slots .xf c g ∗ slots .xd c g) ⊢ barPay (F := F) (Xn c) 1 :=
  BI.sep_mono (slots_pay .xf c g) (slots_pay .xd c g)
theorem barPay2 (c : Dev nD) (g : Buf (Elt F) ((c : Thread nD τ).loc main_v1)) : iprop(slots .zf c g ∗ slots .zd c g) ⊢ barPay (F := F) (Zn c) 2 :=
  BI.sep_mono (slots_pay .zf c g) (slots_pay .zd c g)

/-- The output array cut as the kernel deals with it: the device's own 32 chunks and what it hands each neighbour. -/
theorem oPieces_slots (c : Dev nD) (g : Buf (Elt F) ((c : Thread nD τ).loc main_v1)) :
    oPieces (F := F) c g = iprop((bigSep Finset.univ fun i : Fin 32 => (oOwn c i).view.loc (c : Thread nD τ) ↦[(oOwn c i).view.set]{fullShare} g)
      ∗ slots .yq c g ∗ slots .xf c g ∗ slots .xd c g ∗ slots .zf c g ∗ slots .zd c g) := rfl

theorem rest_bar' (c : Dev nD) : bigSep ((Rd (F := F) A).duties (barCell c) 0 \ ∅) (fun d => (Rd (F := F) A).payload (barCell c) 0 d)
    = iprop(dslots (F := F) .yq c ∗ (dslots (F := F) .xf c ∗ dslots (F := F) .xd c) ∗ (dslots (F := F) .zf c ∗ dslots (F := F) .zd c)) := rest_bar A c

theorem bigSep_fin32' (Φ : Fin 32 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15
    ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) :=
  bigSep_univ_eq_bigSepL [0, 1, 2, 3, 4, 5, 6, 7, 8, 9, 10, 11, 12, 13, 14, 15, 16, 17, 18, 19, 20, 21, 22, 23, 24, 25, 26, 27, 28, 29, 30, 31] (by decide) (by decide) Φ

theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

set_option hygiene false

open Lean in
/-- The statements that need no rule of the protocol, stepped; a wait made while the device owes is allowed by the levels of what it still owes. -/
macro "ag_run" : tactic => `(tactic| first | sl_exec (disch := ag_lv) | skip)

open Lean in
/-- Phase one, iteration i: the local copy awaited, the rows converted into the send buffer, the next local copy
    started; then chunk i sent to the y-neighbour. -/
macro "ag_p1 " i:num : tactic => `(tactic| (ag_run; ag_yq $i; ag_aside HcS yq $i; ag_sent yq $i))

open Lean in
/-- Phase three, iteration i: chunk i of the y-neighbour's quarter has landed; it is forwarded both ways, each
    forward reading it with half its share. -/
macro "ag_p3 " i:num : tactic => do
  let hG := agH "HG" (mkIdent `yq) i
  let hx := agH "Hsx" (mkIdent `xf) i
  let hz := agH "Hsz" (mkIdent `zf) i
  `(tactic| (
    ag_rwait yq $i
    ihave Hboth := (recv_yq_fwd A c $i) $$ $hG:ident
    icases Hboth with ⟨$hx:ident, $hz:ident⟩
    ag_run
    ag_rec xf $i
    ag_fwd xf $i $hx:ident
    ag_run
    ag_rec zf $i
    ag_fwd zf $i $hz:ident
    ag_run))

open Lean in
/-- Phase four, iteration i < 8: chunk i of the z-neighbour's forward has landed; it is relayed to the x-neighbour. -/
macro "ag_p4 " i:num : tactic => do
  let hG := agH "HG" (mkIdent `zf) i
  let hs := agH "Hsd" (mkIdent `xd) i
  `(tactic| (
    ag_rwait zf $i
    ihave $hs:ident : sendPay A .xd c $i $$ [$hG:ident]
    · iapply (recv_zf_fwd A c $i); iexact $hG:ident
    ag_run
    ag_rec xd $i
    ag_fwd xd $i $hs:ident
    ag_run))

open Lean in
/-- Phase five, iteration i < 8: chunk i + 8 of the x-neighbour's forward has landed; it is relayed to the z-neighbour. -/
macro "ag_p5 " i:num : tactic => do
  let j := Syntax.mkNumLit (toString (i.getNat + 8))
  let hG := agH "HG" (mkIdent `xf) j
  let hs := agH "Hsd" (mkIdent `zd) i
  `(tactic| (
    ag_rwait xf $j
    ihave $hs:ident : sendPay A .zd c $i $$ [$hG:ident]
    · iapply (recv_xf_fwd A c $i); iexact $hG:ident
    ag_run
    ag_rec zd $i
    ag_fwd zd $i $hs:ident
    ag_run))

open Lean in
/-- A step repeated for i = lo, …, hi - 1. -/
def agLoop (lo hi : Nat) (k : TSyntax `num → MacroM (TSyntax `tactic)) : MacroM (TSyntax `tactic) := do
  let mut tacs : Array (TSyntax `tactic) := #[]
  for i in [lo:hi] do
    tacs := tacs.push (← k (Syntax.mkNumLit (toString i)))
  `(tactic| ($[$tacs]*))

open Lean in
/-- The own chunks the first 28 local copies delivered, restated as the gathered array's rows. -/
macro "ag_own_lo" : tactic => agLoop 0 28 fun i => `(tactic| ag_own $i)
open Lean in
/-- The last four, delivered by the kernel's last waits. -/
macro "ag_own_hi" : tactic => agLoop 28 32 fun i => `(tactic| ag_own $i)

open Lean in
macro "ag_phase1" : tactic => agLoop 0 16 fun i => `(tactic| ag_p1 $i)
open Lean in
macro "ag_phase3" : tactic => agLoop 0 16 fun i => `(tactic| ag_p3 $i)
open Lean in
macro "ag_phase4" : tactic => agLoop 0 8 fun i => `(tactic| ag_p4 $i)
open Lean in
macro "ag_phase5" : tactic => agLoop 0 8 fun i => `(tactic| ag_p5 $i)
open Lean in
/-- The landings nobody forwards: chunks 8..15 of the z-neighbour's forward, chunks 0..7 of the x-neighbour's. -/
macro "ag_phase6" : tactic => do
  let a ← agLoop 8 16 fun i => `(tactic| (ag_rwait zf $i; ag_run))
  let b ← agLoop 0 8 fun i => `(tactic| (ag_rwait xf $i; ag_run))
  `(tactic| ($a; $b))
open Lean in
/-- The relays: each one's landing here, then its departure. -/
macro "ag_phase7" : tactic => do
  let a ← agLoop 0 8 fun i => `(tactic| (ag_rwait xd $i; ag_run; ag_swait xd $i; ag_run))
  let b ← agLoop 0 8 fun i => `(tactic| (ag_rwait zd $i; ag_run; ag_swait zd $i; ag_run))
  `(tactic| ($a; $b))
open Lean in
/-- The departures of the straight transfers and of the forwards. -/
macro "ag_phase8" : tactic => agLoop 0 16 fun i => `(tactic| (ag_swait yq $i; ag_run; ag_swait xf $i; ag_run; ag_swait zf $i; ag_run))

set_option maxHeartbeats 16000000 in
set_option sl_exec.dmaWindow true in
set_option sl_exec.dmaWindowSet true in
theorem sound_body (K : GSem nD τ sig → ℕ) (c : Dev nD) (W : Waits sig Unit) (Kt : PUnit → sProp 𝕄) :
    iprop((ghost A K c ∗ credits (F := F) c ∗ localSems (F := F) c ∗ levAts L lv ∗ bufs0 A V1 c ∗ owes (c : Thread nD τ) (O₀ c) W)
        ∗ ((Φ₁ A c ∗ ∃ W' : Waits sig Unit, owes (c : Thread nD τ) 0 W') -∗ Kt ⟨⟩))
      ⊢ wp frame (wpE (defs₀ (F := F)) 𝒱₀ c none) Set.univ
          (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14) Kt := by
  unfold ghost records barInvs linear credits localSems bufs0
  iintro ⟨⟨⟨⟨⟨#HIb, #HIbY, #HIbX, #HIbZ⟩, #HIyq, #HIxf, #HIzf, #HIxd, #HIzd, #HrY, #HrX, #HrZ, #HRyq, #HRxf, #HRzf, #HRxd, #HRzd⟩,
      ⟨HatB, HPyq, HPxf, HPzf, HPxd, HPzd, HtY, HtX, HtZ, HTyq, HTxf, HTzf, HTxd, HTzd⟩⟩,
    ⟨HcB, HCyq, HCxf, HCzf, HCxd, HCzd⟩, ⟨Hin, Hout⟩, #Hlev, ⟨Hx, Ho, ⟨%f0, Hst⟩, ⟨%f1, Hob⟩, ⟨%f2, Hsb⟩⟩, HO⟩, Hk⟩
  -- the output array cut into the device's own chunks and what it hands its neighbours
  ihave Ho := (o_split (F := F) c (V1 c)).1 $$ Ho
  ihave Ho := (Entails.of_eq (oPieces_slots c (V1 c))) $$ Ho
  icases Ho with ⟨Hown, HSyq, HSxf, HSxd, HSzf, HSzd⟩
  ihave Hx := (Entails.of_eq (xM_eq c _).symm) $$ Hx
  ihave Hst := (Entails.of_eq (stM_eq c _).symm) $$ Hst
  ihave Hob := (Entails.of_eq (obM_eq c _).symm) $$ Hob
  rw [O₀_later c]
  sl_exec
  -- the three signals of the entry handshake, each with the chunks the neighbour is going to write
  iapply (Rounds.wp_signal 𝒱₀ ER (Rd A) (c : Thread nD τ) none (dst := (Yn c : Thread nD τ)) (κ := K (barCell (Yn c)))
      (d := (0 : Fin 3)) (by rw [duties_bar]; exact Finset.mem_univ _) ((amount_bar A (Yn c) 0).trans (by decide)) () _ rfl) $$ [HO HtY HSyq]
  · isplitr; · iexact HIbY
    isplitl [HO]; · iexact HO
    isplitl [HtY]; · iexact HtY
    isplitl [HSyq]
    · rw [payload_bar]; iapply (barPay0 c (V1 c)); iexact HSyq
    · iexact HrY
  iintro HO
  rw [wp_ret]; imodintro
  sl_exec
  iapply (Rounds.wp_signal 𝒱₀ ER (Rd A) (c : Thread nD τ) none (dst := (Xn c : Thread nD τ)) (κ := K (barCell (Xn c)))
      (d := (1 : Fin 3)) (by rw [duties_bar]; exact Finset.mem_univ _) ((amount_bar A (Xn c) 1).trans (by decide)) () _ rfl) $$ [HO HtX HSxf HSxd]
  · isplitr; · iexact HIbX
    isplitl [HO]; · iexact HO
    isplitl [HtX]; · iexact HtX
    isplitl [HSxf HSxd]
    · rw [payload_bar]; iapply (barPay1 c (V1 c)); isplitl [HSxf] <;> iassumption
    · iexact HrX
  iintro HO
  rw [wp_ret]; imodintro
  sl_exec
  iapply (Rounds.wp_signal 𝒱₀ ER (Rd A) (c : Thread nD τ) none (dst := (Zn c : Thread nD τ)) (κ := K (barCell (Zn c)))
      (d := (2 : Fin 3)) (by rw [duties_bar]; exact Finset.mem_univ _) ((amount_bar A (Zn c) 2).trans (by decide)) () _ rfl) $$ [HO HtZ HSzf HSzd]
  · isplitr; · iexact HIbZ
    isplitl [HO]; · iexact HO
    isplitl [HtZ]; · iexact HtZ
    isplitl [HSzf HSzd]
    · rw [payload_bar]; iapply (barPay2 c (V1 c)); isplitl [HSzf] <;> iassumption
    · iexact HrZ
  iintro HO
  rw [wp_ret]; imodintro
  sl_exec
  -- the wait for the three neighbours' signals: their chunks come with them
  iapply (Rounds.wp_wait_rest_token 𝒱₀ ER (Rd A) (c : Thread nD τ) none (κ := K (barCell c))
      (wpE_semWait_eq 𝒱₀ (c : Thread nD τ) none Set.univ) (Set.mem_univ _) () (W := W) (R := 0) (m := 0) (T := ∅)
      (by rw [expect_bar]; decide)) $$ [HcB HO HatB]
  · isplitr; · iexact HIb
    isplitl [HcB]; · iexact HcB
    isplitl [HO]; · iexact HO
    isplitr; · iapply (led_bar c _ (by ag_lv)); iexact Hlev
    iexact HatB
  iintro ⟨HO, HatB, -, Hpay⟩
  ihave Hp := (Entails.of_eq (rest_bar' A c)) $$ Hpay
  icases Hp with ⟨HDyq, ⟨HDxf, HDxd⟩, ⟨HDzf, HDzd⟩⟩
  rw [wp_ret]; imodintro
  ihave Hin' := (Entails.of_eq (bigSep_fin4 _)) $$ Hin
  icases Hin' with ⟨Hi0, Hi1, Hi2, Hi3⟩
  ihave Hout' := (Entails.of_eq (bigSep_fin4 _)) $$ Hout
  icases Hout' with ⟨Ho0, Ho1, Ho2, Ho3⟩
  have hled := @led_any F _ c
  -- each family's linear state, one hypothesis per transfer; the send buffer in its sixteen chunks
  ag_open yq
  -- the credits are set aside until the waits that spend them
  ag_asideC yq 16
  ag_cut_sb
  ihave Hown := (Entails.of_eq (bigSep_fin32' _)) $$ Hown
  icases Hown with ⟨Hown_0, Hown_1, Hown_2, Hown_3, Hown_4, Hown_5, Hown_6, Hown_7, Hown_8, Hown_9, Hown_10, Hown_11, Hown_12, Hown_13, Hown_14, Hown_15,
    Hown_16, Hown_17, Hown_18, Hown_19, Hown_20, Hown_21, Hown_22, Hown_23, Hown_24, Hown_25, Hown_26, Hown_27, Hown_28, Hown_29, Hown_30, Hown_31⟩
  -- phase one: the device's quarter of its own half, converted, to the y-neighbour
  ag_phase1
  -- phase two: the device's own half, converted, into its own output array (all local)
  ag_run
  -- what the first 28 local copies wrote is the device's own half of the gathered array
  ag_own_lo
  -- the input half and the staging buffer are idle from here on: set aside
  ihave Hx := (Entails.of_eq (aside_eq (F := F) _).symm) $$ Hx
  ihave Hst := (Entails.of_eq (aside_eq (F := F) _).symm) $$ Hst
  -- phase three: the y-neighbour's quarter, as it lands, forwarded to the x- and the z-neighbour
  ag_open xf
  ag_asideC xf 16
  ag_open zf
  ag_asideC zf 16
  ag_phase3
  -- phases four and five: the diagonal quarter relayed, half through each neighbour
  ag_open xd
  ag_asideC xd 8
  ag_phase4
  ag_open zd
  ag_asideC zd 8
  ag_phase5
  -- the landings still out, then every departure
  ag_phase6
  ag_phase7
  ag_phase8
  -- the last four local copies into the device's own output array
  ag_run
  -- the last four chunks of the device's own half; then all 32 together
  ag_own_hi
  ag_own_join
  ihave Hx := (Entails.of_eq (aside_eq (F := F) _)) $$ Hx
  ihave Hst := (Entails.of_eq (aside_eq (F := F) _)) $$ Hst
  first | rw [wp_ret] | skip
  -- everything back in the launch's form: cells closed, buffers whole, the output array at the gathered rows
  ag_finish

end Cert.KernelIdeal.AG

end
-- ==== Proof.Bits.Landing.lean ====
/-
The landings of the all-gather's remote copies, and what a send cell hands back.

A remote copy of transfer i of family f, issued by device c, writes on the neighbour's output
array, on the rows of the chunk, what it read from its source on c.  For a forward the source is
the same rows of c's output array, holding the gathered array as c assembles it; the rows lie in
the half of the other y, where the device a row is taken from depends on the assembling device only
through its y, and the x- and z-neighbours share c's y: the rows written are the gathered array's
as the neighbour assembles it.  For the transfer to the y-neighbour the source is chunk i of the send
buffer, row 512 i + j of which is row 16384 x + 8192 z + 512 i + j of c's own half, converted; the
y-neighbour takes exactly that row of the other half from the device of the other y whose (x, z) is
the quarter's number, which is c.
-/
import proofs.«900667_g7700000000000668_dist_ag_v7x_xyz2x2x2_y_m32768_n1024_bf16_1_alg».proof.Proof.Bits.Sched
import Idealize.ShloMosaic.Lib.Pipeline.Value

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : (c : Dev nD) → Buf (Elt F) ((c : Thread nD τ).loc main_arg0))

/-! ## The send cells -/

/-- A send cell's payload is the source handed back. -/
theorem pay_s (f : Fam) (c : Dev nD) (i : Fin f.n) : sendPay A f c i ⊢ (Rd A).payload (sCell f c i) 0 0 :=
  Entails.of_eq (payload_s A c f i 0).symm

/-! ## The mesh coordinates of a device and of its neighbours -/

/-- A device is 4*x + 2*y + z with x, y, z below 2. -/
theorem dev_coords : ∀ c : Dev nD, c.val = 4 * (c.val / 4) + 2 * ((c.val / 2) % 2) + c.val % 2
    ∧ c.val / 4 ≤ 1 ∧ (c.val / 2) % 2 ≤ 1 ∧ c.val % 2 ≤ 1 := by decide

theorem Xn_y : ∀ c : Dev nD, ((Xn c).val / 2) % 2 = (c.val / 2) % 2 := by decide +kernel
theorem Zn_y : ∀ c : Dev nD, ((Zn c).val / 2) % 2 = (c.val / 2) % 2 := by decide +kernel
theorem peer_y (f : Fam) (hf : f ≠ .yq) (c : Dev nD) : ((peer f c).val / 2) % 2 = (c.val / 2) % 2 := by
  cases f
  · exact absurd rfl hf
  · exact Xn_y c
  · exact Zn_y c
  · exact Xn_y c
  · exact Zn_y c

/-! ## The device a row is taken from -/

/-- In the half of the other y, the device a row is taken from depends on the assembling device only through its y. -/
theorem origin_congr (c q : Dev nD) (r : ℕ) (hy : (q.val / 2) % 2 = (c.val / 2) % 2) (hr : r / 32768 ≠ (c.val / 2) % 2) :
    origin q r = origin c r := by
  unfold origin
  rw [if_neg hr, if_neg (by rw [hy]; exact hr)]
  apply Fin.ext
  show 4 * ((r % 32768) / 16384) + 2 * (1 - (q.val / 2) % 2) + ((r % 32768) / 8192) % 2
     = 4 * ((r % 32768) / 16384) + 2 * (1 - (c.val / 2) % 2) + ((r % 32768) / 8192) % 2
  rw [hy]

/-- Seen from the y-neighbour, the rows of c's own quarter of c's half are taken from c. -/
theorem origin_Yn (c : Dev nD) (r : ℕ)
    (h0 : 32768 * ((c.val / 2) % 2) + 16384 * (c.val / 4) + 8192 * (c.val % 2) ≤ r)
    (h1 : r < 32768 * ((c.val / 2) % 2) + 16384 * (c.val / 4) + 8192 * (c.val % 2) + 8192) :
    origin (Yn c) r = c := by
  have hY := Yn_val c
  obtain ⟨hc, hx, hy, hz⟩ := dev_coords c
  generalize c.val / 4 = x at hc hx hY h0 h1
  generalize (c.val / 2) % 2 = y at hc hy hY h0 h1
  generalize c.val % 2 = z at hc hz hY h0 h1
  have hx' : x = 0 ∨ x = 1 := by omega
  have hy' : y = 0 ∨ y = 1 := by omega
  have hz' : z = 0 ∨ z = 1 := by omega
  unfold origin
  rw [if_neg (by
    rw [hY]
    rcases hx' with rfl | rfl <;> rcases hy' with rfl | rfl <;> rcases hz' with rfl | rfl <;> omega)]
  apply Fin.ext
  show 4 * ((r % 32768) / 16384) + 2 * (1 - ((Yn c).val / 2) % 2) + ((r % 32768) / 8192) % 2 = c.val
  rw [hY, hc]
  rcases hx' with rfl | rfl <;> rcases hy' with rfl | rfl <;> rcases hz' with rfl | rfl <;> omega

/-! ## The rows of a chunk -/

theorem oOff_yq (c : Dev nD) (i : Fin 16) : oOff .yq c i = ![32768 * ((c.val / 2) % 2) + 16384 * (c.val / 4) + 8192 * (c.val % 2) + 512 * i.val, 0] := k0_off2_eq c i
theorem oOff_xf (c : Dev nD) (i : Fin 16) : oOff .xf c i = ![(16384 * (c.val / 4) + 8192 * (c.val % 2) + 512 * i.val + 32768) - 32768 * ((c.val / 2) % 2), 0] := k0_off4_eq c i
theorem oOff_zf (c : Dev nD) (i : Fin 16) : oOff .zf c i = ![(16384 * (c.val / 4) + 8192 * (c.val % 2) + 512 * i.val + 32768) - 32768 * ((c.val / 2) % 2), 0] := k0_off4_eq c i
theorem oOff_xd (c : Dev nD) (i : Fin 8) : oOff .xd c i = ![(16384 * (c.val / 4) + 512 * i.val + 40960) - (32768 * ((c.val / 2) % 2) + 8192 * (c.val % 2)), 0] := k0_off5_eq c i
theorem oOff_zd (c : Dev nD) (i : Fin 8) : oOff .zd c i = ![(8192 * (c.val % 2) + 512 * i.val + 53248) - (32768 * ((c.val / 2) % 2) + 16384 * (c.val / 4)), 0] := k0_off6_eq c i

/-- The rows of a chunk a device forwards lie in the half of the other y. -/
theorem fwd_rows (f : Fam) (hf : f ≠ .yq) (c : Dev nD) (i : Fin f.n) (j : ℕ) (hj : j < 512) :
    (oOff f c i 0 + j) / 32768 ≠ (c.val / 2) % 2 := by
  obtain ⟨hc, hx, hy, hz⟩ := dev_coords c
  have hi := i.isLt
  cases f
  · exact absurd rfl hf
  · rw [oOff_xf]
    show ((16384 * (c.val / 4) + 8192 * (c.val % 2) + 512 * i.val + 32768) - 32768 * ((c.val / 2) % 2) + j) / 32768 ≠ _
    change i.val < 16 at hi
    generalize c.val / 4 = x at hx ⊢
    generalize (c.val / 2) % 2 = y at hy ⊢
    generalize c.val % 2 = z at hz ⊢
    omega
  · rw [oOff_zf]
    show ((16384 * (c.val / 4) + 8192 * (c.val % 2) + 512 * i.val + 32768) - 32768 * ((c.val / 2) % 2) + j) / 32768 ≠ _
    change i.val < 16 at hi
    generalize c.val / 4 = x at hx ⊢
    generalize (c.val / 2) % 2 = y at hy ⊢
    generalize c.val % 2 = z at hz ⊢
    omega
  · rw [oOff_xd]
    show ((16384 * (c.val / 4) + 512 * i.val + 40960) - (32768 * ((c.val / 2) % 2) + 8192 * (c.val % 2)) + j) / 32768 ≠ _
    change i.val < 8 at hi
    generalize c.val / 4 = x at hx ⊢
    generalize (c.val / 2) % 2 = y at hy ⊢
    generalize c.val % 2 = z at hz ⊢
    omega
  · rw [oOff_zd]
    show ((8192 * (c.val % 2) + 512 * i.val + 53248) - (32768 * ((c.val / 2) % 2) + 16384 * (c.val / 4)) + j) / 32768 ≠ _
    change i.val < 8 at hi
    generalize c.val / 4 = x at hx ⊢
    generalize (c.val / 2) % 2 = y at hy ⊢
    generalize c.val % 2 = z at hz ⊢
    omega

/-- Where an index of a chunk of the output array sits in the array. -/
theorem oChunk_emb_val (f : Fam) (c : Dev nD) (i : Fin f.n) (y : S512x1024.Idx) (a : Fin 2) :
    (((oChunk f c i).view.emb y : S65536x1024.Idx) a).val = oOff f c i a + (y a).val := by
  show oOff f c i a + 1 * (y a).val = _
  rw [Nat.one_mul]

/-- Where an index of a chunk of the send buffer sits in the buffer. -/
theorem sbChunk_emb_val (i : Fin 16) (y : S512x1024.Idx) (a : Fin 2) :
    (((sbChunk i).view.emb y : S8192x1024.Idx) a).val = (![512 * i.val, 0] : Fin 2 → Nat) a + (y a).val := by
  show (![512 * i.val, 0] : Fin 2 → Nat) a + 1 * (y a).val = _
  rw [Nat.one_mul]

/-! ## The forwards -/

/-- On the rows of a chunk device c forwards, the gathered array as the neighbour assembles it is the gathered
    array as c assembles it. -/
theorem Gout_fwd (f : Fam) (hf : f ≠ .yq) (c : Dev nD) (i : Fin f.n) (y : S512x1024.Idx) :
    Gout A (peer f c) ((oChunk f c i).view.emb y) = Gout A c ((oChunk f c i).view.emb y) := by
  have ho : origin (peer f c) ((oChunk f c i).view.emb y (0 : Fin 2)).val
      = origin c ((oChunk f c i).view.emb y (0 : Fin 2)).val :=
    origin_congr c (peer f c) _ (peer_y f hf c) (by
      rw [oChunk_emb_val]; exact fwd_rows f hf c i (y 0).val (y 0).isLt)
  show cv (A (origin (peer f c) ((oChunk f c i).view.emb y (0 : Fin 2)).val) _)
     = cv (A (origin c ((oChunk f c i).view.emb y (0 : Fin 2)).val) _)
  rw [ho]

theorem landing_fwd_aux (f : Fam) (hf : f ≠ .yq) (c c' : Dev nD) (hc' : c' = c) (i : Fin f.n)
    (fd : Buf (Elt F) ((oChunk f c i).view.loc (peer f c : Thread nD τ))) :
    (((oChunk f c i).view.loc (peer f c : Thread nD τ)) ↦[(oChunk f c i).view.set]{fullShare} ((oChunk f c i).view.write (Elt F) fd ((oChunk f c i).view.read (Elt F) (oBuf A f c i)) Finset.univ) : sProp 𝕄)
      ⊢ ((oChunk f c' i).view.loc (peer f c : Thread nD τ)) ↦[(oChunk f c' i).view.set]{fullShare} (Gout A (peer f c) : Buf (Elt F) ((oChunk f c' i).view.loc (peer f c : Thread nD τ))) := by
  subst hc'
  apply Entails.of_eq
  apply pointsTo_congr
  intro j hj
  obtain ⟨y, rfl⟩ := View.exists_emb_of_mem_set _ hj
  rw [View.write_emb_of_mem _ _ (Finset.mem_univ y), View.read_apply, cast_cast, cast_eq]
  exact (Gout_fwd A f hf c' i y).symm

/-- A forward's landing is the neighbour's receive cell's payload. -/
theorem landing_fwd (f : Fam) (hf : f ≠ .yq) (c : Dev nD) (i : Fin f.n) (fd : Buf (Elt F) ((oChunk f c i).view.loc (peer f c : Thread nD τ))) :
    (((oChunk f c i).view.loc (peer f c : Thread nD τ)) ↦[(oChunk f c i).view.set]{fullShare} ((oChunk f c i).view.write (Elt F) fd ((oChunk f c i).view.read (Elt F) (oBuf A f c i)) Finset.univ) : sProp 𝕄)
      ⊢ (Rd A).payload (rCell f (peer f c) i) 0 0 := by
  rw [payload_r]
  exact landing_fwd_aux A f hf c (peer f (peer f c)) (peer_peer f c) i fd

/-! ## The transfer to the y-neighbour -/

/-- On the rows of the chunk transfer i to the y-neighbour writes, the gathered array as the y-neighbour
    assembles it is chunk i of c's filled send buffer. -/
theorem Gout_yq (c : Dev nD) (i : Fin 16) (y : S512x1024.Idx) :
    Gout A (Yn c) ((oChunk .yq c i).view.emb y) = SB A c ((sbChunk i).view.emb y) := by
  have hi : i.val < 16 := i.isLt
  have hy0 : (y 0).val < 512 := (y 0).isLt
  have hr : ((oChunk .yq c i).view.emb y (0 : Fin 2)).val
      = 32768 * ((c.val / 2) % 2) + 16384 * (c.val / 4) + 8192 * (c.val % 2) + 512 * i.val + (y 0).val := by
    rw [oChunk_emb_val, oOff_yq]; rfl
  have hs : ((sbChunk i).view.emb y (0 : Fin 2)).val = 512 * i.val + (y 0).val := by
    rw [sbChunk_emb_val]; rfl
  have ho : origin (Yn c) ((oChunk .yq c i).view.emb y (0 : Fin 2)).val = c :=
    origin_Yn c _ (by rw [hr]; omega) (by rw [hr]; omega)
  have h0 : (⟨((oChunk .yq c i).view.emb y (0 : Fin 2)).val % 32768, Nat.mod_lt _ (by decide)⟩ : Fin 32768)
      = ⟨(16384 * (c.val / 4) + 8192 * (c.val % 2) + ((sbChunk i).view.emb y (0 : Fin 2)).val) % 32768, Nat.mod_lt _ (by decide)⟩ :=
    Fin.ext (by show _ % 32768 = _ % 32768; rw [hr, hs]; omega)
  have h1 : ((oChunk .yq c i).view.emb y (1 : Fin 2) : Fin 1024) = (sbChunk i).view.emb y (1 : Fin 2) :=
    Fin.ext (by rw [oChunk_emb_val, sbChunk_emb_val, oOff_yq]; rfl)
  show cv (A (origin (Yn c) ((oChunk .yq c i).view.emb y (0 : Fin 2)).val)
        (ValueIdx.ix2 ⟨((oChunk .yq c i).view.emb y (0 : Fin 2)).val % 32768, Nat.mod_lt _ (by decide)⟩ ((oChunk .yq c i).view.emb y (1 : Fin 2))))
     = cv (A c (ValueIdx.ix2 ⟨(16384 * (c.val / 4) + 8192 * (c.val % 2) + ((sbChunk i).view.emb y (0 : Fin 2)).val) % 32768, Nat.mod_lt _ (by decide)⟩
        ((sbChunk i).view.emb y (1 : Fin 2))))
  rw [ho, h0, h1]

theorem landing_yq_aux (c c' : Dev nD) (hc' : c' = c) (i : Fin 16) (fd : Buf (Elt F) ((oChunk .yq c i).view.loc (Yn c : Thread nD τ))) :
    (((oChunk .yq c i).view.loc (Yn c : Thread nD τ)) ↦[(oChunk .yq c i).view.set]{fullShare} ((oChunk .yq c i).view.write (Elt F) fd ((sbChunk i).view.read (Elt F) (sbBuf A c i)) Finset.univ) : sProp 𝕄)
      ⊢ ((oChunk .yq c' i).view.loc (Yn c : Thread nD τ)) ↦[(oChunk .yq c' i).view.set]{fullShare} (Gout A (Yn c) : Buf (Elt F) ((oChunk .yq c' i).view.loc (Yn c : Thread nD τ))) := by
  subst hc'
  apply Entails.of_eq
  apply pointsTo_congr
  intro j hj
  obtain ⟨y, rfl⟩ := View.exists_emb_of_mem_set _ hj
  rw [View.write_emb_of_mem _ _ (Finset.mem_univ y), View.read_apply, cast_cast]
  exact (cast_eq _ _).trans (Gout_yq A c' i y).symm

/-- The landing of a transfer to the y-neighbour is its receive cell's payload. -/
theorem landing_yq (c : Dev nD) (i : Fin 16) (fd : Buf (Elt F) ((oChunk .yq c i).view.loc (Yn c : Thread nD τ))) :
    (((oChunk .yq c i).view.loc (Yn c : Thread nD τ)) ↦[(oChunk .yq c i).view.set]{fullShare} ((oChunk .yq c i).view.write (Elt F) fd ((sbChunk i).view.read (Elt F) (sbBuf A c i)) Finset.univ) : sProp 𝕄)
      ⊢ (Rd A).payload (rCell .yq (Yn c) i) 0 0 := by
  rw [payload_r]
  exact landing_yq_aux A c (Yn (Yn c)) (Yn_Yn c) i fd

end Cert.Kernel.AG

end
-- ==== Proof.Bits.Geom.lean ====
/-
The chunks of the output array and of the send buffer, as sets of rows.

A device 4*x + 2*y + z keeps the half 32768*y .. 32768*y + 32767 of its output array for its own 32 local
copies of 1024 rows, and its three neighbours write the other half in chunks of 512 rows: the quarter
2*x + z by the y-neighbour, the quarter 2*(1-x) + z by the x-neighbour, the quarter 2*x + (1-z) by the
z-neighbour, and the diagonal quarter half by the x- and half by the z-neighbour.  The chunk a device
receives is the chunk it forwards; the 96 chunks tile the array; the whole-array points-to splits and joins
along them, and a chunk's full share along its two halves.
-/
import proofs.«900667_g7700000000000668_dist_ag_v7x_xyz2x2x2_y_m32768_n1024_bf16_1_alg».proof.Proof.Bits.Sched
import Idealize.ShloMosaic.Lib.Pipeline.Value

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The chunk a device receives is the chunk it forwards -/

theorem oOff_yq_recv : ∀ (c : Dev nD) (i : Fin 16), oOff .yq (Yn c) i = oOff .xf c i := by decide +kernel
theorem oOff_zf_recv : ∀ (c : Dev nD) (i : Fin 8),
    oOff .zf (Zn c) ⟨i.val, by have := i.isLt; show _ < 16; omega⟩ = oOff .xd c i := by decide +kernel
theorem oOff_xf_recv : ∀ (c : Dev nD) (i : Fin 8),
    oOff .xf (Xn c) ⟨i.val + 8, by have := i.isLt; show _ < 16; omega⟩ = oOff .zd c i := by decide +kernel

theorem oChunk_yq_recv (c : Dev nD) (i : Fin 16) : oChunk .yq (Yn c) i = oChunk .xf c i :=
  Memref.slice_unit_congr oM (oOff_yq_recv c i) _ _ (fun _ => rfl) (fun _ => rfl)
theorem oChunk_xf_zf (c : Dev nD) (i : Fin 16) : oChunk .xf c i = oChunk .zf c i := rfl
theorem oChunk_zf_recv (c : Dev nD) (i : Fin 8) :
    oChunk .zf (Zn c) ⟨i.val, by have := i.isLt; show _ < 16; omega⟩ = oChunk .xd c i :=
  Memref.slice_unit_congr oM (oOff_zf_recv c i) _ _ (fun _ => rfl) (fun _ => rfl)
theorem oChunk_xf_recv (c : Dev nD) (i : Fin 8) :
    oChunk .xf (Xn c) ⟨i.val + 8, by have := i.isLt; show _ < 16; omega⟩ = oChunk .zd c i :=
  Memref.slice_unit_congr oM (oOff_xf_recv c i) _ _ (fun _ => rfl) (fun _ => rfl)

/-! ## The two halves of a chunk's share -/

theorem chunk_halves (M : Memref sig .tc .hbm S512x1024 .bf16) (c : Dev nD) (g : Buf (Elt F) (M.view.loc (c : Thread nD τ))) :
    (M.view.loc (c : Thread nD τ) ↦[M.view.set]{fullShare} g : sProp 𝕄)
      ⊣⊢ iprop((M.view.loc (c : Thread nD τ) ↦[M.view.set]{fullShare.left} g) ∗ (M.view.loc (c : Thread nD τ) ↦[M.view.set]{fullShare.right} g)) :=
  pointsTo_share (PosShare.mem_left_op_right fullShare)

/-! ## Blocks of whole rows of a two-axis array -/

/-- The elements of a block of whole rows: those whose row lies in the block's interval. -/
theorem mem_rows {R C n : ℕ} {off : Fin 2 → ℕ} (h1 : off 1 = 0)
    (inb : ∀ a, off a + (![n, C] : Fin 2 → ℕ) a ≤ (⟨2, ![R, C]⟩ : Shape).size a)
    (e : (⟨2, ![R, C]⟩ : Shape).Idx) :
    e ∈ (Rect.unit (s := ⟨2, ![R, C]⟩) off ![n, C] inb).set ↔ off 0 ≤ (e 0).val ∧ (e 0).val < off 0 + n := by
  rw [Rect.mem_set_unit, Fin.forall_fin_two]
  have h := (e 1).isLt
  constructor
  · intro h'; exact h'.1
  · intro h'
    refine ⟨h', ?_⟩
    rw [h1]
    exact ⟨Nat.zero_le _, by rw [Nat.zero_add]; exact h⟩

/-- Two blocks of whole rows whose intervals do not meet are disjoint. -/
theorem rows_disjoint {R C n n' : ℕ} {off off' : Fin 2 → ℕ}
    (inb : ∀ a, off a + (![n, C] : Fin 2 → ℕ) a ≤ (⟨2, ![R, C]⟩ : Shape).size a)
    (inb' : ∀ a, off' a + (![n', C] : Fin 2 → ℕ) a ≤ (⟨2, ![R, C]⟩ : Shape).size a)
    (h : off 0 + n ≤ off' 0 ∨ off' 0 + n' ≤ off 0) :
    Disjoint (Rect.unit (s := ⟨2, ![R, C]⟩) off ![n, C] inb).set (Rect.unit (s := ⟨2, ![R, C]⟩) off' ![n', C] inb').set :=
  Rect.unit_disjoint 0 h

/-- A points-to of a whole buffer along a finite family of pairwise disjoint element sets that cover it. -/
theorem pointsTo_cover {ℓ : Loc nD τ sig} {T : Type} [Fintype T] (K : T → Finset (Idx ℓ))
    (hd : ∀ t t', t ≠ t' → Disjoint (K t) (K t')) (hcov : ∀ e, ∃ t, e ∈ K t)
    (q : PosShare TreeShare) (g : Buf (Elt F) ℓ) :
    (ℓ ↦{q} g : sProp 𝕄) = bigSep Finset.univ fun t => ℓ ↦[K t]{q} g := by
  have hU : (Finset.univ : Finset (Idx ℓ)) = Finset.univ.biUnion K := by
    ext e
    simp only [Finset.mem_univ, Finset.mem_biUnion, true_and, true_iff]
    exact hcov e
  rw [← pointsTo_biUnion Finset.univ K (fun t _ t' _ h => hd t t' h), ← hU]

/-! ## The send buffer: sixteen chunks of 512 rows -/

theorem sbChunk_set (i : Fin 16) :
    (sbChunk i).view.set = (Rect.unit (s := S8192x1024) ![512 * i.val, 0] S512x1024.size (sb_inb i)).set :=
  View.set_slice_whole _ _

theorem sb_split (c : Dev nD) (g : Buf (Elt F) ((c : Thread nD τ).loc cc0_scratch2)) :
    (((c : Thread nD τ).loc cc0_scratch2) ↦{fullShare} g : sProp 𝕄)
      ⊣⊢ bigSep Finset.univ fun i : Fin 16 => (sbChunk i).view.loc (c : Thread nD τ) ↦[(sbChunk i).view.set]{fullShare} g := by
  have h := BI.equiv_iff.mpr (pointsTo_cover (F := F) (ℓ := (c : Thread nD τ).loc cc0_scratch2) (fun i : Fin 16 => (sbChunk i).view.set) ?_ ?_ fullShare g)
  · exact ⟨h.1, h.2⟩
  · intro i j hij
    rw [sbChunk_set, sbChunk_set]
    refine rows_disjoint (R := 8192) (C := 1024) (n := 512) (n' := 512) (sb_inb i) (sb_inb j) ?_
    have : i.val ≠ j.val := fun e => hij (Fin.ext e)
    show 512 * i.val + 512 ≤ 512 * j.val ∨ 512 * j.val + 512 ≤ 512 * i.val
    omega
  · intro e
    have he : (e 0).val < 8192 := (e 0).isLt
    refine ⟨⟨(e 0).val / 512, by omega⟩, ?_⟩
    rw [sbChunk_set]
    refine (mem_rows (R := 8192) (C := 1024) (n := 512) (off := ![512 * ((e 0).val / 512), 0]) rfl _ e).mpr ?_
    show 512 * ((e 0).val / 512) ≤ (e 0).val ∧ (e 0).val < 512 * ((e 0).val / 512) + 512
    omega

/-! ## The output array: 96 chunks -/

/-- The chunks of a device's output array: its own 32 of 1024 rows, then the chunks of 512 rows its
    y-neighbour, its x-neighbour (a whole quarter, then half the diagonal one) and its z-neighbour
    (the same) write. -/
abbrev PT : Type := Fin 32 ⊕ Fin 16 ⊕ Fin 16 ⊕ Fin 8 ⊕ Fin 16 ⊕ Fin 8

/-- The first row of each chunk on the device of mesh coordinates x, y, z, -/
def rLo (x y z : ℕ) : PT → ℕ
  | .inl i => 32768 * y + 1024 * i.val
  | .inr (.inl i) => 32768 * (1 - y) + 16384 * x + 8192 * z + 512 * i.val
  | .inr (.inr (.inl i)) => 32768 * (1 - y) + 16384 * (1 - x) + 8192 * z + 512 * i.val
  | .inr (.inr (.inr (.inl i))) => 32768 * (1 - y) + 16384 * (1 - x) + 8192 * (1 - z) + 512 * i.val
  | .inr (.inr (.inr (.inr (.inl i)))) => 32768 * (1 - y) + 16384 * x + 8192 * (1 - z) + 512 * i.val
  | .inr (.inr (.inr (.inr (.inr i)))) => 32768 * (1 - y) + 16384 * (1 - x) + 8192 * (1 - z) + 4096 + 512 * i.val

/-- that is, on device c, -/
def pLo (c : Dev nD) (t : PT) : ℕ := rLo (c.val / 4) ((c.val / 2) % 2) (c.val % 2) t

/-- its number of rows, -/
def pLen : PT → ℕ
  | .inl _ => 1024
  | .inr _ => 512

/-- and its elements. -/
def pSet (c : Dev nD) : PT → Finset (Idx ((c : Thread nD τ).loc main_v1))
  | .inl i => (oOwn c i).view.set
  | .inr (.inl i) => (oChunk .yq (Yn c) i).view.set
  | .inr (.inr (.inl i)) => (oChunk .xf (Xn c) i).view.set
  | .inr (.inr (.inr (.inl i))) => (oChunk .xd (Xn c) i).view.set
  | .inr (.inr (.inr (.inr (.inl i)))) => (oChunk .zf (Zn c) i).view.set
  | .inr (.inr (.inr (.inr (.inr i)))) => (oChunk .zd (Zn c) i).view.set

/-! The offsets in closed form. -/

theorem off_own (c : Dev nD) (i : Fin 32) : k0_off3 c (BitVec.ofNat 32 (1024 * i.val)) = ![pLo c (.inl i), 0] :=
  k0_off3_eq c i
theorem off_yq : ∀ (c : Dev nD) (i : Fin 16), oOff .yq (Yn c) i = ![pLo c (.inr (.inl i)), 0] := by decide +kernel
theorem off_xf : ∀ (c : Dev nD) (i : Fin 16), oOff .xf (Xn c) i = ![pLo c (.inr (.inr (.inl i))), 0] := by decide +kernel
theorem off_xd : ∀ (c : Dev nD) (i : Fin 8), oOff .xd (Xn c) i = ![pLo c (.inr (.inr (.inr (.inl i)))), 0] := by decide +kernel
theorem off_zf : ∀ (c : Dev nD) (i : Fin 16), oOff .zf (Zn c) i = ![pLo c (.inr (.inr (.inr (.inr (.inl i))))), 0] := by
  decide +kernel
theorem off_zd : ∀ (c : Dev nD) (i : Fin 8), oOff .zd (Zn c) i = ![pLo c (.inr (.inr (.inr (.inr (.inr i))))), 0] := by
  decide +kernel

/-- The elements of a block of rows of the output array. -/
theorem mem_oSlice (c : Dev nD) {n lo : ℕ} {off : Fin 2 → ℕ} (ho : off = ![lo, 0])
    (inb : ∀ a, off a + (![n, 1024] : Fin 2 → ℕ) a ≤ S65536x1024.size a)
    (e : Idx ((c : Thread nD τ).loc main_v1)) :
    e ∈ (oM.slice (Rect.unit (s := S65536x1024) off ![n, 1024] inb) (fun _ => rfl)).view.set
      ↔ lo ≤ (e 0).val ∧ (e 0).val < lo + n := by
  subst ho
  have hs : (oM.slice (Rect.unit (s := S65536x1024) ![lo, 0] ![n, 1024] inb) (fun _ => rfl)).view.set
      = (Rect.unit (s := S65536x1024) ![lo, 0] ![n, 1024] inb).set := View.set_slice_whole main_v1 _
  rw [hs]
  exact mem_rows (R := 65536) (C := 1024) rfl inb e

theorem mem_pSet (c : Dev nD) (t : PT) (e : Idx ((c : Thread nD τ).loc main_v1)) :
    e ∈ pSet c t ↔ pLo c t ≤ (e 0).val ∧ (e 0).val < pLo c t + pLen t := by
  rcases t with i | i | i | i | i | i
  · exact mem_oSlice c (off_own c i) (k0_off3_inb c i) e
  · exact mem_oSlice c (off_yq c i) (oOff_inb .yq (Yn c) i) e
  · exact mem_oSlice c (off_xf c i) (oOff_inb .xf (Xn c) i) e
  · exact mem_oSlice c (off_xd c i) (oOff_inb .xd (Xn c) i) e
  · exact mem_oSlice c (off_zf c i) (oOff_inb .zf (Zn c) i) e
  · exact mem_oSlice c (off_zd c i) (oOff_inb .zd (Zn c) i) e

/-- The chunks' intervals of rows are pairwise apart, -/
theorem rLo_sep (x y z : ℕ) (hx : x = 0 ∨ x = 1) (hy : y = 0 ∨ y = 1) (hz : z = 0 ∨ z = 1) (t t' : PT) (h : t ≠ t') :
    rLo x y z t + pLen t ≤ rLo x y z t' ∨ rLo x y z t' + pLen t' ≤ rLo x y z t := by
  rcases hx with rfl | rfl <;> rcases hy with rfl | rfl <;> rcases hz with rfl | rfl <;>
    rcases t with i | i | i | i | i | i <;> rcases t' with j | j | j | j | j | j <;>
    simp only [rLo, pLen] <;>
    first
      | omega
      | (have hij : i.val ≠ j.val := fun e => h (by have := Fin.ext e; subst this; rfl)
         omega)

/-- and every row lies in one. -/
theorem rLo_cover (x y z : ℕ) (hx : x = 0 ∨ x = 1) (hy : y = 0 ∨ y = 1) (hz : z = 0 ∨ z = 1) (r : ℕ) (hr : r < 65536) :
    ∃ t : PT, rLo x y z t ≤ r ∧ r < rLo x y z t + pLen t := by
  by_cases h1 : r / 32768 = y
  · exact ⟨.inl ⟨(r % 32768) / 1024, by omega⟩, by simp only [rLo, pLen]; omega⟩
  · by_cases h2 : (r % 32768) / 16384 = x
    · by_cases h3 : (r % 16384) / 8192 = z
      · exact ⟨.inr (.inl ⟨(r % 8192) / 512, by omega⟩), by simp only [rLo, pLen]; omega⟩
      · exact ⟨.inr (.inr (.inr (.inr (.inl ⟨(r % 8192) / 512, by omega⟩)))), by simp only [rLo, pLen]; omega⟩
    · by_cases h3 : (r % 16384) / 8192 = z
      · exact ⟨.inr (.inr (.inl ⟨(r % 8192) / 512, by omega⟩)), by simp only [rLo, pLen]; omega⟩
      · by_cases h4 : (r % 8192) / 512 < 8
        · exact ⟨.inr (.inr (.inr (.inl ⟨(r % 8192) / 512, h4⟩))), by simp only [rLo, pLen]; omega⟩
        · exact ⟨.inr (.inr (.inr (.inr (.inr ⟨(r % 8192) / 512 - 8, by omega⟩)))), by simp only [rLo, pLen]; omega⟩

theorem pLo_sep (c : Dev nD) (t t' : PT) (h : t ≠ t') :
    pLo c t + pLen t ≤ pLo c t' ∨ pLo c t' + pLen t' ≤ pLo c t := by
  have hc : c.val < 8 := c.isLt
  exact rLo_sep _ _ _ (by omega) (by omega) (by omega) t t' h

theorem pLo_cover (c : Dev nD) (r : ℕ) (hr : r < 65536) : ∃ t : PT, pLo c t ≤ r ∧ r < pLo c t + pLen t := by
  have hc : c.val < 8 := c.isLt
  exact rLo_cover _ _ _ (by omega) (by omega) (by omega) r hr

theorem pSet_disjoint (c : Dev nD) (t t' : PT) (h : t ≠ t') : Disjoint (pSet c t) (pSet c t') := by
  rw [Finset.disjoint_left]
  intro e h1 h2
  rw [mem_pSet] at h1 h2
  have := pLo_sep c t t' h
  omega

theorem pSet_cover (c : Dev nD) (e : Idx ((c : Thread nD τ).loc main_v1)) : ∃ t, e ∈ pSet c t := by
  obtain ⟨t, ht⟩ := pLo_cover c (e 0).val (e 0).isLt
  exact ⟨t, (mem_pSet c t e).mpr ht⟩

/-! ## Splitting and joining the whole output array along its chunks -/

/-- Device c's output array in pieces at the contents g: the 32 chunks it keeps for its own copies, and the
    chunks its y-, x- and z-neighbour are going to write. -/
def oPieces (c : Dev nD) (g : Buf (Elt F) ((c : Thread nD τ).loc main_v1)) : sProp 𝕄 := iprop(
      (bigSep Finset.univ fun i : Fin 32 => (oOwn c i).view.loc (c : Thread nD τ) ↦[(oOwn c i).view.set]{fullShare} g)
    ∗ (bigSep Finset.univ fun i : Fin 16 => (oChunk .yq (Yn c) i).view.loc (c : Thread nD τ) ↦[(oChunk .yq (Yn c) i).view.set]{fullShare} g)
    ∗ (bigSep Finset.univ fun i : Fin 16 => (oChunk .xf (Xn c) i).view.loc (c : Thread nD τ) ↦[(oChunk .xf (Xn c) i).view.set]{fullShare} g)
    ∗ (bigSep Finset.univ fun i : Fin 8 => (oChunk .xd (Xn c) i).view.loc (c : Thread nD τ) ↦[(oChunk .xd (Xn c) i).view.set]{fullShare} g)
    ∗ (bigSep Finset.univ fun i : Fin 16 => (oChunk .zf (Zn c) i).view.loc (c : Thread nD τ) ↦[(oChunk .zf (Zn c) i).view.set]{fullShare} g)
    ∗ (bigSep Finset.univ fun i : Fin 8 => (oChunk .zd (Zn c) i).view.loc (c : Thread nD τ) ↦[(oChunk .zd (Zn c) i).view.set]{fullShare} g))

theorem o_split (c : Dev nD) (g : Buf (Elt F) ((c : Thread nD τ).loc main_v1)) :
    (((c : Thread nD τ).loc main_v1) ↦{fullShare} g : sProp 𝕄) ⊣⊢ oPieces c g := by
  have h : (((c : Thread nD τ).loc main_v1) ↦{fullShare} g : sProp 𝕄) = oPieces c g := by
    rw [pointsTo_cover (F := F) (ℓ := (c : Thread nD τ).loc main_v1) (pSet c) (pSet_disjoint c) (pSet_cover c) fullShare g,
      bigSep_univ_sum, bigSep_univ_sum, bigSep_univ_sum, bigSep_univ_sum, bigSep_univ_sum]
    rfl
  have h' := BI.equiv_iff.mpr h
  exact ⟨h'.1, h'.2⟩

end Cert.Kernel.AG

end
-- ==== Proof.Bits.Send.lean ====
/-
The remote copies of the all-gather, one rule per transfer.

Transfer i of family f, issued by device c to the family's neighbour, reads its source on c — chunk i of the
filled send buffer for the transfers to the y-neighbour, the received chunk of c's own output array for the
forwards and the relays — and writes the same 512 rows of the neighbour's output array, which the neighbour
handed c with its barrier signal.  The source goes to the transfer's send cell, to come back when it has been
read; the rows written go to the neighbour's receive cell, holding the gathered array as the neighbour assembles
it; the device owes one landing less and is credited the chunk on its send cell.
-/
import proofs.«900667_g7700000000000668_dist_ag_v7x_xyz2x2x2_y_m32768_n1024_bf16_1_alg».proof.Proof.Bits.Landing
import proofs.«900667_g7700000000000668_dist_ag_v7x_xyz2x2x2_y_m32768_n1024_bf16_1_alg».proof.Proof.Bits.Credit
import proofs.«900667_g7700000000000668_dist_ag_v7x_xyz2x2x2_y_m32768_n1024_bf16_1_alg».proof.Proof.Bits.Geom
import proofs.«900667_g7700000000000668_dist_ag_v7x_xyz2x2x2_y_m32768_n1024_bf16_1_alg».proof.Proof.Gen.Kernel.Skeleton

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : (c : Dev nD) → Buf (Elt F) ((c : Thread nD τ).loc main_arg0))

/-! ## A family's sixteen or eight transfers, one by one -/

theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## One landing less owed -/

/-- Transfer i's landing peeled off the chunks S of family f still owed. -/
theorem owedOn_peel (c : Dev nD) (f : Fam) (S : Finset (Fin f.n)) (i : Fin f.n) (hi : i ∈ S) :
    owedOn c f S = owedOn c f (S.erase i) + tallyAt (rCell f (peer f c) i) () N := by
  conv_lhs => rw [← Finset.insert_erase hi]
  exact owedOn_insert c f _ i (Finset.notMem_erase i S)

/-- The same under whatever else is owed. -/
theorem owed_peel (c : Dev nD) (f : Fam) (X : CellTallies nD τ sig Unit) (S : Finset (Fin f.n)) (i : Fin f.n) (hi : i ∈ S) :
    X + owedOn c f S = (X + owedOn c f (S.erase i)) + tallyAt (rCell f (peer f c) i) () N := by
  rw [owedOn_peel c f S i hi, add_assoc]

/-- The transfers of a family from the k-th on: those not yet issued when the first k have been. -/
def later (f : Fam) (k : ℕ) : Finset (Fin f.n) := Finset.univ.filter fun j => k ≤ j.val

theorem later_zero (f : Fam) : later f 0 = Finset.univ := by
  unfold later; exact Finset.filter_true_of_mem fun j _ => Nat.zero_le _

theorem later_all (f : Fam) : later f f.n = ∅ := by
  unfold later; exact Finset.filter_false_of_mem fun j _ => Nat.not_le.mpr j.isLt

theorem later_succ (f : Fam) (i : Fin f.n) : later f i.val = insert i (later f (i.val + 1)) := by
  ext j
  simp only [later, Finset.mem_filter, Finset.mem_univ, true_and, Finset.mem_insert, Fin.ext_iff]
  omega

theorem not_mem_later_succ (f : Fam) (i : Fin f.n) : i ∉ later f (i.val + 1) := by
  simp only [later, Finset.mem_filter, Finset.mem_univ, true_and]
  omega

/-- Everything a family owes at launch, -/
theorem owedFam_later (c : Dev nD) (f : Fam) : owedFam c f = owedOn c f (later f 0) := by
  rw [later_zero, owedOn_univ]

/-- transfer i's landing peeled off when the transfers before it have been issued, -/
theorem owed_peel_later (c : Dev nD) (f : Fam) (X : CellTallies nD τ sig Unit) (i : Fin f.n) :
    X + owedOn c f (later f i.val) = (X + owedOn c f (later f (i.val + 1))) + tallyAt (rCell f (peer f c) i) () N := by
  rw [later_succ f i, owedOn_insert c f _ i (not_mem_later_succ f i), add_assoc]

/-- and nothing when all have. -/
theorem owedOn_later_all (c : Dev nD) (f : Fam) : owedOn c f (later f f.n) = 0 := by
  rw [later_all, owedOn_empty]

/-! ## The transfers -/

/-- The share of the received chunk a forward reads with: the forwards to the x- and to the z-neighbour read one
    chunk at the same time, each with half; a relay reads its chunk alone. -/
def qF : Fam → PosShare TreeShare
  | .xf => fullShare.left
  | .zf => fullShare.right
  | _ => fullShare

theorem sendPay_fwd (f : Fam) (hf : f ≠ .yq) (c : Dev nD) (i : Fin f.n) :
    sendPay A f c i = ((oChunk f c i).view.loc (c : Thread nD τ) ↦[(oChunk f c i).view.set]{qF f} oBuf A f c i) := by
  cases f
  · exact absurd rfl hf
  all_goals rfl

/-- Transfer i to the y-neighbour: chunk i of the filled send buffer to the rows of the y-neighbour's output array
    it handed over. -/
theorem wp_send_yq (K : GSem nD τ sig → ℕ) (c n : Dev nD) (hn : n = Yn c) (i : Fin 16)
    {hsc : (oChunk .yq c i : Memref sig (Dev.tc n : Thread nD τ).2.kind .hbm S512x1024 .bf16).view.ref.isScScratch = false}
    {hsrc : (sbChunk i).view.WordExact} {hdst : (oChunk .yq c i).view.WordExact}
    {hsem : DmaTarget.Typed .vmem (.dma (rS .yq i)) (.remote (Dev.tc n : Thread nD τ) (oChunk .yq c i) (.dma (sS .yq i)) hsc)}
    {α : Type} {Q : α → sProp 𝕄} {k : PUnit → Prog (TpuEff nD τ sig (Elt F) Λ₀ .tc) α}
    (fd : Buf (Elt F) ((oChunk .yq c i).view.loc (Yn c : Thread nD τ)))
    (O₀ O : CellTallies nD τ sig Unit) (hO : O₀ = O + tallyAt (rCell .yq (Yn c) i) () N) (W : Waits sig Unit) :
    iprop(cellInv ER (Rd A) (K (sCell .yq c i)) (sCell .yq c i) ∗ cellInv ER (Rd A) (K (rCell .yq (Yn c) i)) (rCell .yq (Yn c) i)
        ∗ ((sbChunk i).view.loc (c : Thread nD τ) ↦[(sbChunk i).view.set]{fullShare} sbBuf A c i)
        ∗ ((oChunk .yq c i).view.loc (Yn c : Thread nD τ) ↦[(oChunk .yq c i).view.set]{fullShare} fd)
        ∗ owes (c : Thread nD τ) O₀ W
        ∗ dutyTok ER (sCell .yq c i) 0 0 ∗ reached ER (sCell .yq c i) 0
        ∗ dutyTok ER (rCell .yq (Yn c) i) 0 0 ∗ reached ER (rCell .yq (Yn c) i) 0)
      ⊢ iprop(((cred (tallyAt (sCell .yq c i) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sbChunk i) (.remote (Dev.tc n : Thread nD τ) (oChunk .yq c i) (.dma (sS .yq i)) hsc) (.dma (rS .yq i)) hsrc hdst hsem) k) Q) := by
  subst hn
  exact Rounds.wp_send_pointsTo 𝒱₀ ER (Rd A) (c : Thread nD τ) none (κ₁ := K (sCell .yq c i)) (κ₂ := K (rCell .yq (Yn c) i))
    (r₁ := 0) (r₂ := 0) (d₁ := 0) (d₂ := 0) (fd := fd) (sS := SemLoc.dma (sS .yq i)) (sem := SemLoc.dma (rS .yq i))
    (by rw [duties_s]; exact Finset.mem_singleton_self _) (by rw [duties_r]; exact Finset.mem_singleton_self _)
    () () N (oChunk_credit .yq c i) (amount_s A c .yq i 0) (amount_r A (Yn c) .yq i 0) O hO (W := W)
    (pay_s A .yq c i) (landing_yq A c i fd)

/-- Transfer i of a forwarding or relaying family f: the received chunk of c's own output array, at the gathered
    array's rows, to the same rows of the neighbour's output array. -/
theorem wp_send_fam (K : GSem nD τ sig → ℕ) (f : Fam) (hf : f ≠ .yq) (c n : Dev nD) (hn : n = peer f c) (i : Fin f.n)
    {hsc : (oChunk f c i : Memref sig (Dev.tc n : Thread nD τ).2.kind .hbm S512x1024 .bf16).view.ref.isScScratch = false}
    {hsrc : (oChunk f c i).view.WordExact} {hdst : (oChunk f c i).view.WordExact}
    {hsem : DmaTarget.Typed .hbm (.dma (rS f i)) (.remote (Dev.tc n : Thread nD τ) (oChunk f c i) (.dma (sS f i)) hsc)}
    {α : Type} {Q : α → sProp 𝕄} {k : PUnit → Prog (TpuEff nD τ sig (Elt F) Λ₀ .tc) α}
    (fd : Buf (Elt F) ((oChunk f c i).view.loc (peer f c : Thread nD τ)))
    (O₀ O : CellTallies nD τ sig Unit) (hO : O₀ = O + tallyAt (rCell f (peer f c) i) () N) (W : Waits sig Unit) :
    iprop(cellInv ER (Rd A) (K (sCell f c i)) (sCell f c i) ∗ cellInv ER (Rd A) (K (rCell f (peer f c) i)) (rCell f (peer f c) i)
        ∗ ((oChunk f c i).view.loc (c : Thread nD τ) ↦[(oChunk f c i).view.set]{qF f} oBuf A f c i)
        ∗ ((oChunk f c i).view.loc (peer f c : Thread nD τ) ↦[(oChunk f c i).view.set]{fullShare} fd)
        ∗ owes (c : Thread nD τ) O₀ W
        ∗ dutyTok ER (sCell f c i) 0 0 ∗ reached ER (sCell f c i) 0
        ∗ dutyTok ER (rCell f (peer f c) i) 0 0 ∗ reached ER (rCell f (peer f c) i) 0)
      ⊢ iprop(((cred (tallyAt (sCell f c i) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oChunk f c i) (.remote (Dev.tc n : Thread nD τ) (oChunk f c i) (.dma (sS f i)) hsc) (.dma (rS f i)) hsrc hdst hsem) k) Q) := by
  subst hn
  exact Rounds.wp_send_pointsTo 𝒱₀ ER (Rd A) (c : Thread nD τ) none (κ₁ := K (sCell f c i)) (κ₂ := K (rCell f (peer f c) i))
    (r₁ := 0) (r₂ := 0) (d₁ := 0) (d₂ := 0) (fd := fd) (sS := SemLoc.dma (sS f i)) (sem := SemLoc.dma (rS f i))
    (by rw [duties_s]; exact Finset.mem_singleton_self _) (by rw [duties_r]; exact Finset.mem_singleton_self _)
    () () N (oChunk_credit f c i) (amount_s A c f i 0) (amount_r A (peer f c) f i 0) O hO (W := W)
    ((Entails.of_eq (sendPay_fwd A f hf c i).symm).trans (pay_s A f c i)) (landing_fwd A f hf c i fd)

/-! ## What a chunk of the send buffer holds once filled

Local copy i brings the rows 16384 x + 8192 z + 512 i .. + 511 of the device's half into the first 512 rows of
slot i mod 4 of the staging buffer; the kernel loads them, converts them and stores them as chunk i of the send
buffer, whose row 512 i + j is then row 16384 x + 8192 z + 512 i + j of the half, converted. -/

theorem st_inb (s : Fin 4) : ∀ a, (![s.val, 0, 0] : Fin 3 → Nat) a + S1x512x1024.size a ≤ S4x1024x1024.size a := by
  intro a; have := s.isLt
  fin_cases a
  · show s.val + 1 ≤ 4; omega
  · show 0 + 512 ≤ 1024; omega
  · show 0 + 1024 ≤ 1024; omega

/-- The first 512 rows of slot s of the staging buffer, as a load reads them, -/
abbrev stRect (s : Fin 4) : Rect S4x1024x1024 := Rect.unit (s := S4x1024x1024) ![s.val, 0, 0] S1x512x1024.size (st_inb s)

/-- and as a local copy writes them. -/
def stSlot (s : Fin 4) : Memref sig .tc .vmem S512x1024 .f32 :=
  (stM.slice (stRect s) (fun _ => rfl)).squeeze S512x1024 squeezes_S1x512x1024_S512x1024

/-- The rows of the input half that go to chunk i of the send buffer. -/
def xChunk (c : Dev nD) (i : Fin 16) : Memref sig .tc .hbm S512x1024 .f32 :=
  xM.slice (Rect.unit (s := S32768x1024) (k0_off1 c (BitVec.ofNat 32 (512 * i.val))) S512x1024.size (k0_off1_inb c i)) (fun _ => rfl)

/-- The conversion of a loaded block of 512 rows, element by element. -/
def cvBlock (v : Vec F S1x512x1024 .f32) : FVec F S512x1024 .bf16 := fun y => cv (v (Fin.cons ⟨0, Nat.one_pos⟩ y))

/-- Slot s of the staging buffer holds the rows that go to chunk i. -/
def Staged (c : Dev nD) (s : Fin 4) (i : Fin 16) (g : Buf (Elt F) ((c : Thread nD τ).loc cc0_scratch0)) : Prop :=
  (stSlot s).view.read (Elt F) g = (xChunk c i).view.read (Elt F) (A c)

/-- A load of the first 512 rows of slot s reads what the slot's view reads. -/
theorem st_load_apply (c : Dev nD) (s : Fin 4) (g : Buf (Elt F) ((c : Thread nD τ).loc cc0_scratch0)) (y : S512x1024.Idx) :
    View.readAt (Elt F) stM.view (stRect s).toLoadRect g (Fin.cons ⟨0, Nat.one_pos⟩ y) = (stSlot s).view.read (Elt F) g y := by
  have h : (stSlot s).view.emb y = stM.view.emb ((stRect s).toLoadRect.idx (Fin.cons ⟨0, Nat.one_pos⟩ y)) := by
    show stM.view.emb ((stRect s).emb (Shape.reshapeEquiv _ y)) = _
    rw [Shape.reshapeEquiv_cons_one]
    rfl
  have e1 := View.read_apply (Val := Elt F) (v := (stSlot s).view) g y
  rw [View.readAt_apply, View.read_apply, e1, h]
  rfl

/-- Where an index of the rows that go to chunk i sits in the input half. -/
theorem xChunk_emb_val (c : Dev nD) (i : Fin 16) (y : S512x1024.Idx) (a : Fin 2) :
    (((xChunk c i).view.emb y : S32768x1024.Idx) a).val = k0_off1 c (BitVec.ofNat 32 (512 * i.val)) a + (y a).val := by
  show k0_off1 c (BitVec.ofNat 32 (512 * i.val)) a + 1 * (y a).val = _
  rw [Nat.one_mul]

/-- The rows that go to chunk i, converted, are chunk i of the filled send buffer. -/
theorem SB_chunk (c : Dev nD) (i : Fin 16) (y : S512x1024.Idx) :
    cv (A c ((xChunk c i).view.emb y)) = SB A c ((sbChunk i).view.emb y) := by
  obtain ⟨hc, hx, _, hz⟩ := dev_coords c
  have hi : i.val < 16 := i.isLt
  have hy0 : (y 0).val < 512 := (y 0).isLt
  have h0 : ((xChunk c i).view.emb y (0 : Fin 2) : Fin 32768)
      = ⟨(16384 * (c.val / 4) + 8192 * (c.val % 2) + ((sbChunk i).view.emb y (0 : Fin 2)).val) % 32768, Nat.mod_lt _ (by decide)⟩ :=
    Fin.ext (by
      rw [xChunk_emb_val, sbChunk_emb_val, k0_off1_eq]
      show 16384 * (c.val / 4) + 8192 * (c.val % 2) + 512 * i.val + (y 0).val
        = (16384 * (c.val / 4) + 8192 * (c.val % 2) + (512 * i.val + (y 0).val)) % 32768
      omega)
  have h1 : ((xChunk c i).view.emb y (1 : Fin 2) : Fin 1024) = (sbChunk i).view.emb y (1 : Fin 2) :=
    Fin.ext (by rw [xChunk_emb_val, sbChunk_emb_val, k0_off1_eq]; rfl)
  rw [ValueIdx.eq_ix2 ((xChunk c i).view.emb y), h0, h1]
  rfl

/-- Chunk i of the send buffer, stored with the converted load of a slot that holds its rows, is chunk i of the
    filled send buffer. -/
theorem sb_filled (c : Dev nD) (i : Fin 16) (s : Fin 4) (g : Buf (Elt F) ((c : Thread nD τ).loc cc0_scratch0))
    (f2 : Buf (Elt F) ((sbChunk i).view.loc (c : Thread nD τ))) (w : FVec F S512x1024 .bf16)
    (hw : w = cvBlock (View.readAt (Elt F) stM.view (stRect s).toLoadRect g)) (hg : Staged A c s i g) :
    ((sbChunk i).view.loc (c : Thread nD τ) ↦[(sbChunk i).view.set]{fullShare} (sbChunk i).view.write (Elt F) f2 w Finset.univ : sProp 𝕄)
      = ((sbChunk i).view.loc (c : Thread nD τ) ↦[(sbChunk i).view.set]{fullShare} sbBuf A c i) := by
  subst hw
  apply pointsTo_congr
  intro e he
  obtain ⟨y, rfl⟩ := View.exists_emb_of_mem_set _ he
  rw [View.write_emb_of_mem _ _ (Finset.mem_univ y)]
  have hv : cvBlock (View.readAt (Elt F) stM.view (stRect s).toLoadRect g) y = cv (A c ((xChunk c i).view.emb y)) := by
    show cv (View.readAt (Elt F) stM.view (stRect s).toLoadRect g (Fin.cons ⟨0, Nat.one_pos⟩ y)) = _
    rw [st_load_apply, hg]
    rfl
  rw [hv, SB_chunk]
  rfl

/-- A local copy of the rows of chunk i into slot s leaves them there, -/
theorem staged_write (c : Dev nD) (s : Fin 4) (i : Fin 16) (g : Buf (Elt F) ((c : Thread nD τ).loc cc0_scratch0)) :
    Staged A c s i ((stSlot s).view.write (Elt F) g (ReadAs.same.apply ((xChunk c i).view.read (Elt F) (A c))) Finset.univ) :=
  View.read_write_univ _ _

theorem stSlot_set (s : Fin 4) : (stSlot s).view.set = (stRect s).set := by
  show ((stM.view.slice (stRect s)).reshape S512x1024 _).set = _
  rw [View.set_reshape]
  exact View.set_slice_whole _ _

/-- and a write into another slot keeps them. -/
theorem staged_write_other (c : Dev nD) (s s' : Fin 4) (h : s ≠ s') (i : Fin 16)
    (g : Buf (Elt F) ((c : Thread nD τ).loc cc0_scratch0)) (w : S512x1024.Idx → Elt F .f32) (hg : Staged A c s i g) :
    Staged A c s i ((stSlot s').view.write (Elt F) g w Finset.univ) := by
  unfold Staged
  rw [← hg]
  apply View.read_congr
  intro j hj
  apply View.write_of_not_mem
  rw [View.setOn_univ, stSlot_set]
  rw [stSlot_set] at hj
  have hne : s.val ≠ s'.val := fun e => h (Fin.ext e)
  exact Finset.disjoint_left.mp (Rect.unit_disjoint (0 : Fin 3) (by
    show s.val + 1 ≤ s'.val ∨ s'.val + 1 ≤ s.val
    omega)) hj

/-! The sixteen conversions as the program names them. -/

theorem cvBlock_eq (v : Vec F S1x512x1024 .f32) :
    shapeCast S512x1024 (truncf .bf16 (shapeCast S512x1024 v shapeCasts_S1x512x1024_S512x1024) bitsLt_bf16_f32) shapeCasts_S512x1024_S512x1024
      = cvBlock v := by
  rw [shapeCast_self]
  funext y
  show FloatOps.truncf .bf16 bitsLt_bf16_f32 (shapeCast S512x1024 v shapeCasts_S1x512x1024_S512x1024 y) = cv (v (Fin.cons ⟨0, Nat.one_pos⟩ y))
  rw [shapeCast_dropUnit_apply]
  rfl

theorem k0_pay1_eq (v : Vec F S1x512x1024 .f32) : k0_pay1 v = cvBlock v := cvBlock_eq v

/-- Proves that slot s holds the rows of chunk i under contents written slot by slot: the copy of those rows into
    slot s, then writes into the other slots only. -/
macro "staged_chain" : tactic => `(tactic| repeat (first
  | exact staged_write _ _ _ _ _
  | refine staged_write_other _ _ _ 0 (by decide) _ _ _ ?_
  | refine staged_write_other _ _ _ 1 (by decide) _ _ _ ?_
  | refine staged_write_other _ _ _ 2 (by decide) _ _ _ ?_
  | refine staged_write_other _ _ _ 3 (by decide) _ _ _ ?_))

theorem k0_pay4_3_eq (v : Vec F S1x512x1024 .f32) : k0_pay4 (k0_pay3 v) = cvBlock v := cvBlock_eq v
theorem k0_pay16_15_eq (v : Vec F S1x512x1024 .f32) : k0_pay16 (k0_pay15 v) = cvBlock v := cvBlock_eq v
theorem k0_pay2_eq (v : Vec F S1x512x1024 .f32) : k0_pay2 v = cvBlock v := cvBlock_eq v
theorem k0_pay5_eq (v : Vec F S1x512x1024 .f32) : k0_pay5 v = cvBlock v := cvBlock_eq v
theorem k0_pay6_eq (v : Vec F S1x512x1024 .f32) : k0_pay6 v = cvBlock v := cvBlock_eq v
theorem k0_pay7_eq (v : Vec F S1x512x1024 .f32) : k0_pay7 v = cvBlock v := cvBlock_eq v
theorem k0_pay8_eq (v : Vec F S1x512x1024 .f32) : k0_pay8 v = cvBlock v := cvBlock_eq v
theorem k0_pay9_eq (v : Vec F S1x512x1024 .f32) : k0_pay9 v = cvBlock v := cvBlock_eq v
theorem k0_pay10_eq (v : Vec F S1x512x1024 .f32) : k0_pay10 v = cvBlock v := cvBlock_eq v
theorem k0_pay11_eq (v : Vec F S1x512x1024 .f32) : k0_pay11 v = cvBlock v := cvBlock_eq v
theorem k0_pay12_eq (v : Vec F S1x512x1024 .f32) : k0_pay12 v = cvBlock v := cvBlock_eq v
theorem k0_pay13_eq (v : Vec F S1x512x1024 .f32) : k0_pay13 v = cvBlock v := cvBlock_eq v
theorem k0_pay14_eq (v : Vec F S1x512x1024 .f32) : k0_pay14 v = cvBlock v := cvBlock_eq v
theorem k0_pay17_eq (v : Vec F S1x512x1024 .f32) : k0_pay17 v = cvBlock v := cvBlock_eq v
theorem k0_pay18_eq (v : Vec F S1x512x1024 .f32) : k0_pay18 v = cvBlock v := cvBlock_eq v

end Cert.Kernel.AG

end
-- ==== Proof.Bits.Ledger.lean ====
/-
The ledger of the waits: which waits a device may make while it still owes.

A device may wait on a cell of its own while everything it still owes lies on TensorCore cells strictly
above that cell.  The local copies' cells lie at level 0, the barrier cell at 1, the receive cells at 2, 3
or 4 by family; what a device owes is a sum of whole family debts, parts of them, single transfers'
debts and barrier units, each lying at one known level, so that a bound on the whole sum is read off its
summands.
-/
import proofs.«900667_g7700000000000668_dist_ag_v7x_xyz2x2x2_y_m32768_n1024_bf16_1_alg».proof.Proof.Bits.Credit

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Debts above a level -/

/-- Everything owed lies on TensorCore cells at level k at least. -/
def AllLv (k : ℕ) (O : CellTallies nD τ sig Unit) : Prop := ∀ g u, 0 < O g u → g.1.2 = .tc ∧ k ≤ lv g u

theorem AllLv.zero (k : ℕ) : AllLv k (0 : CellTallies nD τ sig Unit) := fun g u h => absurd h (Nat.lt_irrefl 0)

theorem AllLv.add {k : ℕ} {O D : CellTallies nD τ sig Unit} (hO : AllLv k O) (hD : AllLv k D) : AllLv k (O + D) :=
  fun g u h => (Pipeline.add_pos_cases h).elim (hO g u) (hD g u)

theorem AllLv.mono {k k' : ℕ} {O : CellTallies nD τ sig Unit} (h : k ≤ k') (hO : AllLv k' O) : AllLv k O :=
  fun g u hg => ⟨(hO g u hg).1, Nat.le_trans h (hO g u hg).2⟩

/-- A family's debt lies at the family's level. -/
theorem AllLv.fam {k : ℕ} (c : Dev nD) (f : Fam) (h : k ≤ lvF f) : AllLv k (owedFam c f) := fun g u hg => by
  obtain ⟨h1, h2⟩ := owedFam_lv c f hg
  exact ⟨h1, by rw [h2]; exact h⟩

theorem AllLv.on {k : ℕ} (c : Dev nD) (f : Fam) (S : Finset (Fin f.n)) (h : k ≤ lvF f) : AllLv k (owedOn c f S) := fun g u hg => by
  obtain ⟨h1, h2⟩ := owedOn_lv c f S hg
  exact ⟨h1, by rw [h2]; exact h⟩

theorem AllLv.one {k : ℕ} (f : Fam) (d : Dev nD) (i : Fin f.n) (n : ℕ) (h : k ≤ lvF f) : AllLv k (tallyAt (rCell f d i) () n) := fun g u hg => by
  obtain ⟨h1, h2⟩ := owedOne_lv f d i n hg
  exact ⟨h1, by rw [h2]; exact h⟩

/-- A unit owed to a barrier cell lies at level 1. -/
theorem AllLv.bar {k : ℕ} (d : Dev nD) (n : ℕ) (h : k ≤ 1) : AllLv k (tallyAt (barCell d) () n) := fun g u hg => by
  obtain ⟨h1, h2⟩ := owedBar_lv d n hg
  exact ⟨h1, by rw [h2]; exact h⟩

/-! ## The waits a device may make while it owes -/

/-- A wait on any cell of device c, while everything owed lies strictly above the cell. -/
theorem led_any (c : Dev nD) (sm : SemLoc sig) (O : CellTallies nD τ sig Unit) (hO : AllLv (lvOf sm + 1) O) :
    (levAts L lv : sProp 𝕄) ⊢ MayWait (c : Thread nD τ) sm () O :=
  Pipeline.mayWait_of_levAts (by rw [L_tc]; exact Finset.mem_singleton_self _) fun g u hg => by
    obtain ⟨h1, h2⟩ := hO g u hg
    refine ⟨?_, h2⟩
    unfold L; rw [if_pos h1]; exact Finset.mem_singleton_self _

/-- A wait on a local copy's cell, while everything owed lies at level 1 at least. -/
theorem led_local (c : Dev nD) (q : DmaSem sig) (O : CellTallies nD τ sig Unit) (hq : decode q = none) (hO : AllLv 1 O) :
    (levAts L lv : sProp 𝕄) ⊢ MayWait (c : Thread nD τ) (.dma q) () O :=
  mayWait_local c q hq O hO

/-- A wait on the barrier cell, while everything owed lies at level 2 at least. -/
theorem led_bar (c : Dev nD) (O : CellTallies nD τ sig Unit) (hO : AllLv 2 O) :
    (levAts L lv : sProp 𝕄) ⊢ MayWait (c : Thread nD τ) (.reg barS) () O :=
  mayWait_bar c O hO

/-- A wait on a receive cell, while everything owed lies strictly above the family's level. -/
theorem led_recv (c : Dev nD) (f : Fam) (i : Fin f.n) (O : CellTallies nD τ sig Unit) (hO : AllLv (lvF f + 1) O) :
    (levAts L lv : sProp 𝕄) ⊢ MayWait (c : Thread nD τ) (.dma (rS f i)) () O :=
  mayWait_recv c f i O fun g u hg => by
    obtain ⟨h1, h2⟩ := hO g u hg
    exact ⟨h1, by rw [lv_r_eq]; exact h2⟩

/-- Closes the side conditions of the ledger lemmas: that a semaphore is a local copy's, and that a sum of family
    debts, parts of them, single transfers' debts and barrier units lies at a level at least. -/
macro "ag_disch" : tactic => `(tactic| first
  | (with_reducible refine (?_ : decode _ = none)); decide
  | repeat' (first
      | (with_reducible refine AllLv.add ?_ ?_)
      | (with_reducible refine AllLv.fam _ _ ?_); decide
      | (with_reducible refine AllLv.on _ _ _ ?_); decide
      | (with_reducible refine AllLv.one _ _ _ _ ?_); decide
      | (with_reducible refine AllLv.bar _ _ ?_); decide
      | (with_reducible exact AllLv.zero _)))

end Cert.Kernel.AG

end
-- ==== Proof.Bits.Finish.lean ====
/-
The end of the kernel on one device.  Every transfer cell has had its one round consumed, so it closes and its
counter at zero is the device's again; with the eight counters of the local copies these are the kernel's 136 DMA
semaphores at zero.  The pieces of the output array, each holding the gathered rows, join into the whole array;
the sixteen chunks of the send buffer join into the whole buffer.
-/
import proofs.«900667_g7700000000000668_dist_ag_v7x_xyz2x2x2_y_m32768_n1024_bf16_1_alg».proof.Proof.Bits.Fund
import proofs.«900667_g7700000000000668_dist_ag_v7x_xyz2x2x2_y_m32768_n1024_bf16_1_alg».proof.Proof.Bits.Geom

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Device c's positions on its transfer cells of family f once their one round is consumed. -/
def famPos1 (c : Dev nD) (f : Fam) : sProp 𝕄 :=
  bigSep Finset.univ fun i : Fin f.n => iprop(atPos ER (sCell f c i) 1 ∅ 0 ∗ atPos ER (rCell f c i) 1 ∅ 0)

/-- The counters of device c's transfer cells of family f, at zero. -/
def famSems0 (c : Dev nD) (f : Fam) : sProp 𝕄 :=
  bigSep Finset.univ fun i : Fin f.n => iprop(semVal (sCell f c i) 0 ∗ semVal (rCell f c i) 0)

instance famInvs_persistent (A : (c : Dev nD) → Buf (Elt F) ((c : Thread nD τ).loc main_arg0)) (K : GSem nD τ sig → ℕ) (c : Dev nD) (f : Fam) :
    BI.Persistent (famInvs A K c f) := by unfold famInvs; infer_instance

/-- A cell past its only round closes: no duty is left, and its counter at zero goes back to its owner. -/
theorem close_cell (A : (c : Dev nD) → Buf (Elt F) ((c : Thread nD τ).loc main_arg0)) (κ : ℕ) (g : GSem nD τ sig) :
    iprop(cellInv ER (Rd A) κ g ∗ atPos ER g 1 ∅ 0) ⊢ (|={Set.univ}=> semVal g 0 : sProp 𝕄) :=
  Rounds.cell_close ER (Rd A) (Set.mem_univ κ) (fun h => h) (R := 1) (duties_later A g)

theorem close_pair (A : (c : Dev nD) → Buf (Elt F) ((c : Thread nD τ).loc main_arg0)) (K : GSem nD τ sig → ℕ) (c : Dev nD) (f : Fam) (i : Fin f.n) :
    iprop((cellInv ER (Rd A) (K (sCell f c i)) (sCell f c i) ∗ cellInv ER (Rd A) (K (rCell f c i)) (rCell f c i)
          ∗ cellInv ER (Rd A) (K (rCell f (peer f c) i)) (rCell f (peer f c) i))
        ∗ (atPos ER (sCell f c i) 1 ∅ 0 ∗ atPos ER (rCell f c i) 1 ∅ 0))
      ⊢ (|={Set.univ}=> iprop(semVal (sCell f c i) 0 ∗ semVal (rCell f c i) 0) : sProp 𝕄) := by
  iintro ⟨⟨#Is, #Ir, -⟩, Ps, Pr⟩
  imod (close_cell A (K (sCell f c i)) (sCell f c i)) $$ [Ps] with Hs
  · isplitr; · iexact Is
    iexact Ps
  imod (close_cell A (K (rCell f c i)) (rCell f c i)) $$ [Pr] with Hr
  · isplitr; · iexact Ir
    iexact Pr
  imodintro
  isplitl [Hs]; · iexact Hs
  iexact Hr

theorem close_fam (A : (c : Dev nD) → Buf (Elt F) ((c : Thread nD τ).loc main_arg0)) (K : GSem nD τ sig → ℕ) (c : Dev nD) (f : Fam) :
    iprop(famInvs A K c f ∗ famPos1 (F := F) c f) ⊢ (|={Set.univ}=> famSems0 (F := F) c f : sProp 𝕄) := by
  unfold famInvs famPos1 famSems0
  rw [← bigSep_sep']
  exact (bigSep_mono fun i _ => close_pair A K c f i).trans (bigSep_fupd _ _)

/-- The kernel's 136 DMA semaphores: the eight of the local copies and the transfer cells' 128. -/
theorem sems1_eq (c : Dev nD) :
    sems1 (F := F) c = iprop(localSems (F := F) c ∗ famSems0 (F := F) c .yq ∗ famSems0 (F := F) c .xf ∗ famSems0 (F := F) c .zf
      ∗ famSems0 (F := F) c .xd ∗ famSems0 (F := F) c .zd) := by
  have h : sems1 (F := F) c
      = Pipeline.ownSems0 (Ix := Unit) (Name := ℕ) (U := UU) (Lvl := ℕ) (Val := Elt F) (τ := τ) osem c := rfl
  rw [h, ownSems0_eq, bigSep_trb, bigSep_fam]
  rfl

theorem finish (A : (c : Dev nD) → Buf (Elt F) ((c : Thread nD τ).loc main_arg0)) (K : GSem nD τ sig → ℕ) (c : Dev nD)
    (f0 : Buf (Elt F) ((c : Thread nD τ).loc cc0_scratch0)) (f1 : Buf (Elt F) ((c : Thread nD τ).loc cc0_scratch1)) :
    iprop(records A K c ∗ famPos1 (F := F) c .yq ∗ famPos1 (F := F) c .xf ∗ famPos1 (F := F) c .zf ∗ famPos1 (F := F) c .xd
        ∗ famPos1 (F := F) c .zd ∗ localSems (F := F) c
        ∗ (((c : Thread nD τ).loc main_arg0) ↦{fullShare} A c) ∗ oPieces (F := F) c (Gout A c)
        ∗ (((c : Thread nD τ).loc cc0_scratch0) ↦{fullShare} f0) ∗ (((c : Thread nD τ).loc cc0_scratch1) ↦{fullShare} f1)
        ∗ (bigSep Finset.univ fun i : Fin 16 => (sbChunk i).view.loc (c : Thread nD τ) ↦[(sbChunk i).view.set]{fullShare} sbBuf A c i))
      ⊢ |={Set.univ}=> Φ₁ A c := by
  unfold records
  iintro ⟨⟨-, #Iyq, #Ixf, #Izf, #Ixd, #Izd, -⟩, Pyq, Pxf, Pzf, Pxd, Pzd, Hloc, Hx, Ho, H0, H1, Hsb⟩
  imod (close_fam A K c .yq) $$ [Pyq] with Syq
  · isplitr; · iexact Iyq
    iexact Pyq
  imod (close_fam A K c .xf) $$ [Pxf] with Sxf
  · isplitr; · iexact Ixf
    iexact Pxf
  imod (close_fam A K c .zf) $$ [Pzf] with Szf
  · isplitr; · iexact Izf
    iexact Pzf
  imod (close_fam A K c .xd) $$ [Pxd] with Sxd
  · isplitr; · iexact Ixd
    iexact Pxd
  imod (close_fam A K c .zd) $$ [Pzd] with Szd
  · isplitr; · iexact Izd
    iexact Pzd
  imodintro
  unfold Φ₁ bufs1
  rw [sems1_eq]
  isplitl [Hx Ho H0 H1 Hsb]
  · isplitl [Hx]; · iexact Hx
    isplitl [Ho]; · iapply (o_split (F := F) c (Gout A c)).2; iexact Ho
    isplitl [H0]; · iexists f0; iexact H0
    isplitl [H1]; · iexists f1; iexact H1
    iexists (SB A c); iapply (sb_split (F := F) c (SB A c)).2; iexact Hsb
  · isplitl [Hloc]; · iexact Hloc
    isplitl [Syq]; · iexact Syq
    isplitl [Sxf]; · iexact Sxf
    isplitl [Szf]; · iexact Szf
    isplitl [Sxd]; · iexact Sxd
    iexact Szd

end Cert.Kernel.AG

end
-- ==== Proof.Bits.Steps.lean ====
/-
The steps of one device's kernel that take a rule of the rounds discipline, each written once: a wait on a receive
cell, a wait on a send cell, a forward of a received chunk, and the bookkeeping that opens a family's ghost state
into one hypothesis per transfer.  Hypotheses are named by what they are, the family and the chunk:
HIs/HIr/HIp (invariant of the send cell, of the receive cell, of the neighbour's receive cell), HRs/HRp (those cells
stand at their first round), HTs/HTp (the tokens of the two duties the transfer pays), HPs/HPr (the device's position
on its send and its receive cell), HC (the credit for the chunk it receives), HD (the neighbour's chunk it will
write), HG (the chunk received), HcS (the credit a transfer's departure returns), HB (a source handed back).
-/
import proofs.«900667_g7700000000000668_dist_ag_v7x_xyz2x2x2_y_m32768_n1024_bf16_1_alg».proof.Proof.Bits.Send
import proofs.«900667_g7700000000000668_dist_ag_v7x_xyz2x2x2_y_m32768_n1024_bf16_1_alg».proof.Proof.Bits.Ledger
import proofs.«900667_g7700000000000668_dist_ag_v7x_xyz2x2x2_y_m32768_n1024_bf16_1_alg».proof.Proof.Bits.Finish
import proofs.«900667_g7700000000000668_dist_ag_v7x_xyz2x2x2_y_m32768_n1024_bf16_1_alg».proof.Proof.Gen.Kernel.Skeleton
import proofs.«900667_g7700000000000668_dist_ag_v7x_xyz2x2x2_y_m32768_n1024_bf16_1_alg».proof.Proof.Gen.Kernel.Points
import Idealize.ShloMosaic.Lib.Tactic

noncomputable section

namespace Cert.Kernel.AG

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

instance famReached_persistent (c : Dev nD) (f : Fam) : BI.Persistent (famReached (F := F) c f) := by unfold famReached; infer_instance

/-- An assertion set aside: a credit token is kept under this name until the step that spends it, so that no earlier
    step takes it. -/
def aside (P : sProp 𝕄) : sProp 𝕄 := P
theorem aside_eq (P : sProp 𝕄) : aside P = P := rfl

open Lean in
/-- The name of the hypothesis of kind p for transfer i of family f. -/
def agH (p : String) (f : TSyntax `ident) (i : TSyntax `num) : Ident :=
  mkIdent (Name.mkSimple (p ++ "_" ++ f.getId.toString ++ "_" ++ toString i.getNat))

open Lean in
/-- The family as a term. -/
def agF (f : TSyntax `ident) : Ident := mkIdent (`Cert.Kernel.AG.Fam ++ f.getId)

set_option hygiene false

/-! ## Taking one transfer's landing off what the device owes

What the device owes is kept as five sums, one per family, in the order zd, xd, zf, xf, yq; issuing transfer i of
one family takes its chunk's credit off that family's sum. -/

variable (A : (c : Dev nD) → Buf (Elt F) ((c : Thread nD τ).loc main_arg0))

theorem owedOn_peel_later (c : Dev nD) (f : Fam) (i : Fin f.n) :
    owedOn c f (later f i.val) = owedOn c f (later f (i.val + 1)) + tallyAt (rCell f (peer f c) i) () N := by
  rw [later_succ f i, owedOn_insert c f _ i (not_mem_later_succ f i)]

theorem peel1 (c : Dev nD) (f : Fam) (i : Fin f.n) (B C D E : CellTallies nD τ sig Unit) :
    owedOn c f (later f i.val) + B + C + D + E = (owedOn c f (later f (i.val + 1)) + B + C + D + E) + tallyAt (rCell f (peer f c) i) () N := by
  rw [owedOn_peel_later c f i]; ac_rfl
theorem peel2 (c : Dev nD) (f : Fam) (i : Fin f.n) (X C D E : CellTallies nD τ sig Unit) :
    X + owedOn c f (later f i.val) + C + D + E = (X + owedOn c f (later f (i.val + 1)) + C + D + E) + tallyAt (rCell f (peer f c) i) () N := by
  rw [owedOn_peel_later c f i]; ac_rfl
theorem peel3 (c : Dev nD) (f : Fam) (i : Fin f.n) (X B D E : CellTallies nD τ sig Unit) :
    X + B + owedOn c f (later f i.val) + D + E = (X + B + owedOn c f (later f (i.val + 1)) + D + E) + tallyAt (rCell f (peer f c) i) () N := by
  rw [owedOn_peel_later c f i]; ac_rfl
theorem peel4 (c : Dev nD) (f : Fam) (i : Fin f.n) (X B C E : CellTallies nD τ sig Unit) :
    X + B + C + owedOn c f (later f i.val) + E = (X + B + C + owedOn c f (later f (i.val + 1)) + E) + tallyAt (rCell f (peer f c) i) () N := by
  rw [owedOn_peel_later c f i]; ac_rfl
theorem peel5 (c : Dev nD) (f : Fam) (i : Fin f.n) (X B C D : CellTallies nD τ sig Unit) :
    X + B + C + D + owedOn c f (later f i.val) = (X + B + C + D + owedOn c f (later f (i.val + 1))) + tallyAt (rCell f (peer f c) i) () N := by
  rw [owedOn_peel_later c f i]; ac_rfl

/-- What the device owes at launch, as the five sums and the three barrier units. -/
theorem O₀_later (c : Dev nD) : O₀ c = owedOn c .zd (later .zd 0) + owedOn c .xd (later .xd 0) + owedOn c .zf (later .zf 0) + owedOn c .xf (later .xf 0) + owedOn c .yq (later .yq 0)
    + tallyAt (barCell (Zn c)) () 1 + tallyAt (barCell (Xn c)) () 1 + tallyAt (barCell (Yn c)) () 1 := by
  unfold O₀; rw [owedFam_later c .zd, owedFam_later c .xd, owedFam_later c .zf, owedFam_later c .xf, owedFam_later c .yq]

/-- A family all of whose transfers have been issued owes nothing. -/
theorem AllLv.on_later_done (c : Dev nD) (f : Fam) (n : ℕ) (h : f.n ≤ n) (k : ℕ) : AllLv k (owedOn c f (later f n)) := by
  have : later f n = ∅ := by
    unfold later; exact Finset.filter_false_of_mem fun j _ => by have := j.isLt; omega
  rw [this, owedOn_empty]; exact AllLv.zero k

/-- Everything still owed lies high enough: over sums of the families' remaining transfers. -/
macro "ag_lv" : tactic => `(tactic| first
  | (with_reducible refine (?_ : decode _ = none)); decide
  | repeat' (first
      | (with_reducible refine AllLv.add ?_ ?_)
      | (with_reducible refine AllLv.on_later_done _ _ _ (by decide) _)
      | (with_reducible refine AllLv.fam _ _ ?_); decide
      | (with_reducible refine AllLv.on _ _ _ ?_); decide
      | (with_reducible refine AllLv.one _ _ _ _ ?_); decide
      | (with_reducible refine AllLv.bar _ _ ?_); decide
      | (with_reducible exact AllLv.zero _)))

open Lean in
/-- The number N of the program's device word k0_devN that addresses transfer i of family f. -/
def agDev (f : Name) (i : Nat) : Nat :=
  match f.toString with
  | "yq" => 4 + i | "xf" => 20 + 2 * i | "zf" => 21 + 2 * i | "xd" => 52 + i | "zd" => 60 + i | _ => 0

open Lean in
/-- A forward: transfer i of family f (not yq) of device c, its source held as Hsrc (= sendPay A f c i). -/
macro "ag_fwd " f:ident i:num src:ident : tactic => do
  let fam := agF f
  let n := agDev f.getId i.getNat
  let kdev := mkIdent (`Cert.Kernel ++ Name.mkSimple ("k0_dev" ++ toString n))
  let kdeveq := mkIdent (`Cert.Kernel.Gen ++ Name.mkSimple ("k0_dev" ++ toString n ++ "_eq"))
  let nval := mkIdent (match f.getId.toString with | "xf" => `Cert.Kernel.AG.Xn_val | "xd" => `Cert.Kernel.AG.Xn_val | _ => `Cert.Kernel.AG.Zn_val)
  let peel := mkIdent (match f.getId.toString with | "zd" => `Cert.Kernel.AG.peel1 | "xd" => `Cert.Kernel.AG.peel2 | "zf" => `Cert.Kernel.AG.peel3 | "xf" => `Cert.Kernel.AG.peel4 | _ => `Cert.Kernel.AG.peel5)
  let hIs := agH "HIs" f i; let hIp := agH "HIp" f i; let hRs := agH "HRs" f i; let hRp := agH "HRp" f i
  let hTs := agH "HTs" f i; let hTp := agH "HTp" f i; let hD := agH "HD" f i; let hcS := agH "HcS" f i
  let fd := agH "fd" f i
  `(tactic| (
    have hdev : ∀ h, (⟨$kdev c, h⟩ : Dev nD) = peer $fam c := fun h => Fin.ext (($kdeveq c).trans ($nval c).symm)
    ihave $src:ident := (Entails.of_eq (sendPay_fwd A $fam (by decide) c $i)) $$ $src:ident
    iapply (wp_send_fam A K $fam (by decide) c _ (hdev _) $i $fd _ _ ($peel c $fam $i _ _ _ _) _) $$ [$src:ident $hD:ident HO $hTs:ident $hTp:ident]
    · isplitr; · iexact $hIs:ident
      isplitr; · iexact $hIp:ident
      isplitl [$src:ident]; · iexact $src:ident
      isplitl [$hD:ident]; · iexact $hD:ident
      isplitl [HO]; · iexact HO
      isplitl [$hTs:ident]; · iexact $hTs:ident
      isplitr; · iexact $hRs:ident
      isplitl [$hTp:ident]; · iexact $hTp:ident
      iexact $hRp:ident
    iintro ⟨$hcS:ident, HO⟩
    ihave $hcS:ident := (Entails.of_eq (aside_eq (F := F) _).symm) $$ $hcS:ident
    iclear $hIp:ident $hRs:ident $hRp:ident))

open Lean in
/-- Sets the hypothesis of kind p of transfer i of family f aside. -/
macro "ag_aside " p:ident f:ident i:num : tactic => do
  let h := agH p.getId.toString f i
  `(tactic| ihave $h:ident := (Entails.of_eq (aside_eq (F := F) _).symm) $$ $h:ident)

open Lean in
/-- Sets aside the credits HC_f_0 … of a family of n transfers. -/
macro "ag_asideC " f:ident n:num : tactic => do
  let mut tacs : Array (TSyntax `tactic) := #[]
  for i in [0:n.getNat] do
    tacs := tacs.push (← `(tactic| ag_aside HC $f $(Syntax.mkNumLit (toString i))))
  `(tactic| ($[$tacs]*))

open Lean in
/-- After transfer i of family f has been issued: the neighbour's cell's invariant and the two first-round facts go. -/
macro "ag_sent " f:ident i:num : tactic => do
  let a := agH "HIp" f i; let b := agH "HRs" f i; let d := agH "HRp" f i
  `(tactic| iclear $a:ident $b:ident $d:ident)

open Lean in
/-- The invariants and first-round facts of transfer i of family f, out of the family's persistent records
    (HIf, HRf name the family's two records). -/
macro "ag_rec " f:ident i:num : tactic => do
  let fam := agF f
  let hIf := mkIdent (Name.mkSimple ("HI" ++ f.getId.toString))
  let hRf := mkIdent (Name.mkSimple ("HR" ++ f.getId.toString))
  let hIs := agH "HIs" f i; let hIr := agH "HIr" f i; let hIp := agH "HIp" f i
  let hRs := agH "HRs" f i; let hRr := agH "HRr" f i; let hRp := agH "HRp" f i
  `(tactic| (
    ihave #HIx := (show famInvs A K c $fam ⊢ _ from bigSep_elim (Finset.mem_univ ($i : Fin (Fam.n $fam)))) $$ $hIf:ident
    icases HIx with ⟨#$hIs:ident, #$hIr:ident, #$hIp:ident⟩
    ihave #HRx := (show famReached (F := F) c $fam ⊢ _ from bigSep_elim (Finset.mem_univ ($i : Fin (Fam.n $fam)))) $$ $hRf:ident
    icases HRx with ⟨#$hRs:ident, -, #$hRp:ident⟩))

open Lean in
/-- The wait on the receive cell of transfer i of family f: the chunk the neighbour's transfer wrote comes back as HG. -/
macro "ag_rwait " f:ident i:num : tactic => do
  let fam := agF f
  let hIr := agH "HIr" f i; let hC := agH "HC" f i; let hPr := agH "HPr" f i; let hG := agH "HG" f i
  `(tactic| (
    ihave $hC:ident := (Entails.of_eq (aside_eq (F := F) _)) $$ $hC:ident
    iapply (Rounds.wp_wait_rest_token 𝒱₀ ER (Rd A) (c : Thread nD τ) none (κ := K (rCell $fam c $i))
        (wpE_waitDma2_eq 𝒱₀ (c : Thread nD τ) none Set.univ) (Set.mem_univ _) () (R := 0) (m := 0) (T := ∅)
        (by exact (Nat.zero_add _).trans (expect_r A c $fam $i).symm)) $$ [$hC:ident HO $hPr:ident]
    · isplitr; · iexact $hIr:ident
      isplitl [$hC:ident]; · iexact $hC:ident
      isplitl [HO]; · iexact HO
      isplitr; · iapply (led_recv c $fam $i _ (by ag_lv)); iexact Hlev
      iexact $hPr:ident
    iintro ⟨HO, $hPr:ident, -, Hpay⟩
    ihave $hG:ident : recvPay A $fam c $i $$ [Hpay]
    · iapply (Entails.of_eq (rest_r A c $fam $i)); iexact Hpay
    iclear $hIr:ident))

open Lean in
/-- The wait on the send cell of transfer i of family f: its source comes back as HB. -/
macro "ag_swait " f:ident i:num : tactic => do
  let fam := agF f
  let hIs := agH "HIs" f i; let hcS := agH "HcS" f i; let hPs := agH "HPs" f i; let hB := agH "HB" f i
  `(tactic| (
    ihave $hcS:ident := (Entails.of_eq (aside_eq (F := F) _)) $$ $hcS:ident
    iapply (Rounds.wp_wait_rest_token 𝒱₀ ER (Rd A) (c : Thread nD τ) none (κ := K (sCell $fam c $i))
        (wpE_waitDma2_eq 𝒱₀ (c : Thread nD τ) none Set.univ) (Set.mem_univ _) () (R := 0) (m := 0) (T := ∅)
        (by exact (Nat.zero_add _).trans (expect_s A c $fam $i).symm)) $$ [$hcS:ident HO $hPs:ident]
    · isplitr; · iexact $hIs:ident
      isplitl [$hcS:ident]; · iexact $hcS:ident
      isplitl [HO]; · iexact HO
      isplitr; · iapply (led_any c (.dma (sS $fam $i)) _ (by ag_lv)); iexact Hlev
      iexact $hPs:ident
    iintro ⟨HO, $hPs:ident, -, Hpay⟩
    ihave $hB:ident : sendPay A $fam c $i $$ [Hpay]
    · iapply (Entails.of_eq (rest_s A c $fam $i)); iexact Hpay
    iclear $hIs:ident))

end Cert.Kernel.AG

end
-- ==== Proof.Bits.StepsYq.lean ====
/-
The sixteen transfers to the y-neighbour, each taken by one step, and the opening of a family's linear ghost state
into one hypothesis per transfer.

Before transfer i the kernel has waited for local copy i, loaded the 512 rows it brought into slot i mod 4 of the
staging buffer, converted them and stored them as chunk i of the send buffer.  The step restates that chunk as chunk
i of the filled send buffer and issues the transfer: the chunk goes to the transfer's send cell, the rows of the
y-neighbour's output array it handed over go, written, to the y-neighbour's receive cell, and the device owes one
landing less.
-/
import proofs.«900667_g7700000000000668_dist_ag_v7x_xyz2x2x2_y_m32768_n1024_bf16_1_alg».proof.Proof.Bits.Steps

noncomputable section

namespace Cert.Kernel.AG

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : (c : Dev nD) → Buf (Elt F) ((c : Thread nD τ).loc main_arg0))

/-! ## What the neighbours hand over -/

/-- What the neighbour peer f c hands c for c's transfers of family f: the chunks of its output array they write. -/
def dslots (f : Fam) (c : Dev nD) : sProp 𝕄 := bigSep Finset.univ fun i : Fin f.n => slotPay (F := F) f c i

theorem slotPay_open (f : Fam) (c : Dev nD) (i : Fin f.n) :
    slotPay (F := F) f c i ⊢ iprop(∃ fd : Buf (Elt F) ((oChunk f c i).view.loc (peer f c : Thread nD τ)),
      (oChunk f c i).view.loc (peer f c : Thread nD τ) ↦[(oChunk f c i).view.set]{fullShare} fd) := Entails.refl _

/-! ## A chunk of the send buffer, stored, restated -/

/-- Contents X of chunk i that are the store of the converted load of a slot holding the chunk's rows are chunk i of
    the filled send buffer. -/
theorem sb_filled_of (c : Dev nD) (i : Fin 16) (s : Fin 4) (X : Buf (Elt F) ((sbChunk i).view.loc (c : Thread nD τ))) :
    iprop(((sbChunk i).view.loc (c : Thread nD τ) ↦[(sbChunk i).view.set]{fullShare} X)
        ∗ ⌜∃ (g : Buf (Elt F) ((c : Thread nD τ).loc cc0_scratch0)) (f2 : Buf (Elt F) ((sbChunk i).view.loc (c : Thread nD τ)))
            (w : FVec F S512x1024 .bf16), X = (sbChunk i).view.write (Elt F) f2 w Finset.univ
              ∧ w = cvBlock (View.readAt (Elt F) stM.view (stRect s).toLoadRect g) ∧ Staged A c s i g⌝)
      ⊢ ((sbChunk i).view.loc (c : Thread nD τ) ↦[(sbChunk i).view.set]{fullShare} sbBuf A c i : sProp 𝕄) := by
  iintro ⟨H, %h⟩
  obtain ⟨g, f2, w, rfl, hw, hg⟩ := h
  ihave H := (Entails.of_eq (sb_filled A c i s g f2 w hw hg)) $$ H
  iexact H

set_option hygiene false

open Lean in
/-- The name of the hypothesis of kind p for transfer i of family f. -/
def agHn (p : String) (f : Name) (i : Nat) : Ident :=
  mkIdent (Name.mkSimple (p ++ "_" ++ f.toString ++ "_" ++ toString i))

open Lean in
/-- The name of the hypothesis holding chunk i of the send buffer. -/
def agS (i : Nat) : Ident := mkIdent (Name.mkSimple ("Hs_" ++ toString i))

open Lean in
/-- How many transfers a family has. -/
def agN (f : Name) : Nat := match f.toString with | "xd" => 8 | "zd" => 8 | _ => 16

open Lean in
/-- The send buffer, held whole as Hsb, cut into its sixteen chunks Hs_0 … Hs_15. -/
macro "ag_cut_sb" : tactic => do
  let pats : Array (TSyntax ``icasesPatAlts) ← (Array.range 16).mapM fun i => do
    let h := agS i
    `(icasesPatAlts| $h:ident)
  `(tactic| (
    ihave Hsx := (sb_split c _).1 $$ Hsb
    ihave Hsx := (Entails.of_eq (bigSep_fin16 (F := F) _)) $$ Hsx
    icases Hsx with ⟨$[$pats],*⟩))

open Lean in
/-- A family's linear ghost state, held as HTf (tokens), HPf (positions), HCf (credits) and HDf (the neighbour's
    chunks), opened into one hypothesis per transfer: HTs_f_i HTp_f_i, HPs_f_i HPr_f_i, HC_f_i, HD_f_i at contents
    fd_f_i. -/
macro "ag_open " f:ident : tactic => do
  let fam := agF f
  let fn := f.getId
  let n := agN fn
  let hT := mkIdent (Name.mkSimple ("HT" ++ fn.toString))
  let hP := mkIdent (Name.mkSimple ("HP" ++ fn.toString))
  let hC := mkIdent (Name.mkSimple ("HC" ++ fn.toString))
  let hD := mkIdent (Name.mkSimple ("HD" ++ fn.toString))
  let split := mkIdent (if n == 16 then `Cert.Kernel.AG.bigSep_fin16 else `Cert.Kernel.AG.bigSep_fin8)
  let patsT : Array (TSyntax ``icasesPatAlts) ← (Array.range n).mapM fun i => do
    let a := agHn "HTs" fn i; let b := agHn "HTp" fn i
    `(icasesPatAlts| ⟨$a:ident, $b:ident⟩)
  let patsP : Array (TSyntax ``icasesPatAlts) ← (Array.range n).mapM fun i => do
    let a := agHn "HPs" fn i; let b := agHn "HPr" fn i
    `(icasesPatAlts| ⟨$a:ident, $b:ident⟩)
  let patsC : Array (TSyntax ``icasesPatAlts) ← (Array.range n).mapM fun i => do
    let a := agHn "HC" fn i
    `(icasesPatAlts| $a:ident)
  let patsD : Array (TSyntax ``icasesPatAlts) ← (Array.range n).mapM fun i => do
    let a := agHn "HD" fn i
    `(icasesPatAlts| $a:ident)
  let opens : Array (TSyntax `tactic) ← (Array.range n).mapM fun i => do
    let a := agHn "HD" fn i; let fd := agHn "fd" fn i
    let fdb : TSyntax ``Lean.binderIdent := ⟨mkNode ``Lean.binderIdent #[fd]⟩
    let pp ← `(icasesPat| % $fdb)
    let pa ← `(icasesPat| $a:ident)
    let alt1 ← `(icasesPatAlts| $pp:icasesPat)
    let alt2 ← `(icasesPatAlts| $pa:icasesPat)
    let pat ← `(icasesPat| ⟨$alt1, $alt2⟩)
    let lit := Syntax.mkNumLit (toString i)
    `(tactic| (ihave $a:ident := (slotPay_open (F := F) $fam c ($lit : Fin (Fam.n $fam))) $$ $a:ident
               icases $a:ident with $pat:icasesPat))
  `(tactic| (
    ihave HTx := (show famToks (F := F) c $fam ⊢ _ from Entails.of_eq ($split (F := F) _)) $$ $hT:ident
    icases HTx with ⟨$[$patsT],*⟩
    ihave HPx := (show famPos (F := F) c $fam ⊢ _ from Entails.of_eq ($split (F := F) _)) $$ $hP:ident
    icases HPx with ⟨$[$patsP],*⟩
    ihave HCx := (show famCred (F := F) c $fam ⊢ _ from Entails.of_eq ($split (F := F) _)) $$ $hC:ident
    icases HCx with ⟨$[$patsC],*⟩
    ihave HDx := (show dslots (F := F) $fam c ⊢ _ from Entails.of_eq ($split (F := F) _)) $$ $hD:ident
    icases HDx with ⟨$[$patsD],*⟩
    $[$opens]*))

open Lean in
/-- The equation of the conversion the kernel's i-th iteration stores. -/
def agPay (i : Nat) : Ident :=
  mkIdent (`Cert.Kernel.AG ++ Name.mkSimple (match i with
    | 0 => "k0_pay1_eq" | 1 => "k0_pay2_eq" | 2 => "k0_pay4_3_eq" | 3 => "k0_pay5_eq" | 4 => "k0_pay6_eq" | 5 => "k0_pay7_eq"
    | 6 => "k0_pay8_eq" | 7 => "k0_pay9_eq" | 8 => "k0_pay10_eq" | 9 => "k0_pay11_eq" | 10 => "k0_pay12_eq"
    | 11 => "k0_pay13_eq" | 12 => "k0_pay14_eq" | 13 => "k0_pay16_15_eq" | 14 => "k0_pay17_eq" | _ => "k0_pay18_eq"))

open Lean in
/-- Transfer i to the y-neighbour, chunk i of the send buffer held as Hs_i as the store left it, with the conversion's
    equation pay and the staging slot it was loaded from. -/
macro "ag_yq' " i:num slot:num pay:term : tactic => do
  let fn := `yq
  let fam := mkIdent `Cert.Kernel.AG.Fam.yq
  let fId := mkIdent fn
  let iv := i.getNat
  let n := 4 + iv
  let kdev := mkIdent (`Cert.Kernel ++ Name.mkSimple ("k0_dev" ++ toString n))
  let kdeveq := mkIdent (`Cert.Kernel.Gen ++ Name.mkSimple ("k0_dev" ++ toString n ++ "_eq"))
  let hs := agS iv
  let hIs := agHn "HIs" fn iv; let hIp := agHn "HIp" fn iv; let hRs := agHn "HRs" fn iv; let hRp := agHn "HRp" fn iv
  let hTs := agHn "HTs" fn iv; let hTp := agHn "HTp" fn iv; let hD := agHn "HD" fn iv; let hcS := agHn "HcS" fn iv
  let fd := agHn "fd" fn iv
  `(tactic| (
    ag_rec $fId $i
    ihave $hs:ident : ((sbChunk $i).view.loc (c : Thread nD τ) ↦[(sbChunk $i).view.set]{fullShare} sbBuf A c $i) $$ [$hs:ident]
    · iapply (sb_filled_of A c $i $slot _)
      isplitl [$hs:ident]
      · iexact $hs:ident
      · ipureintro; exact ⟨_, _, _, rfl, $pay _, by staged_chain⟩
    have hdev : ∀ h, (⟨$kdev c, h⟩ : Dev nD) = Yn c := fun h => Fin.ext (($kdeveq c).trans (Yn_val c).symm)
    iapply (wp_send_yq A K c _ (hdev _) $i $fd _ _ (peel5 c $fam $i _ _ _ _) _) $$ [$hs:ident $hD:ident HO $hTs:ident $hTp:ident]
    · isplitr; · iexact $hIs:ident
      isplitr; · iexact $hIp:ident
      isplitl [$hs:ident]; · iexact $hs:ident
      isplitl [$hD:ident]; · iexact $hD:ident
      isplitl [HO]; · iexact HO
      isplitl [$hTs:ident]; · iexact $hTs:ident
      isplitr; · iexact $hRs:ident
      isplitl [$hTp:ident]; · iexact $hTp:ident
      iexact $hRp:ident
    iintro ⟨$hcS:ident, HO⟩))

open Lean in
/-- The same, slot and conversion read off the transfer's number. -/
macro "ag_yq " i:num : tactic => do
  let iv := i.getNat
  let slot := Syntax.mkNumLit (toString (iv % 4))
  let pay := agPay iv
  `(tactic| ag_yq' $i $slot $pay)

end Cert.Kernel.AG

end
-- ==== Proof.Bits.Chunks.lean ====
/-
The chunk a device receives is the source of what it forwards, and back.

The rows the y-neighbour writes on device c are the rows c forwards to its x- and to its z-neighbour, each
forward reading them with half their share; the first eight chunks the z-neighbour forwards to c are the rows
c relays to its x-neighbour, and the last eight chunks the x-neighbour forwards to c are the rows c relays to its
z-neighbour.  The chunks are the same blocks of rows of the output array because their first rows are equal, and
what they hold is the gathered array as c assembles it either way; so what a receive cell hands c is what the
send needs, and what the send cells hand back, with the chunks received and not sent on and the chunks of
c's own copies, is c's whole output array in pieces, holding the gathered array.
-/
import proofs.«900667_g7700000000000668_dist_ag_v7x_xyz2x2x2_y_m32768_n1024_bf16_1_alg».proof.Proof.Bits.Send
import proofs.«900667_g7700000000000668_dist_ag_v7x_xyz2x2x2_y_m32768_n1024_bf16_1_alg».proof.Proof.Bits.Geom

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : (c : Dev nD) → Buf (Elt F) ((c : Thread nD τ).loc main_arg0))

/-! ## A chunk through its first row -/

/-- The block of 512 rows of the output array at an offset. -/
abbrev chunkAt (off : Fin 2 → ℕ) (inb : ∀ a, off a + S512x1024.size a ≤ S65536x1024.size a) : Memref sig .tc .hbm S512x1024 .bf16 :=
  oM.slice (Rect.unit (s := S65536x1024) off S512x1024.size inb) (fun _ => rfl)

/-- Blocks at equal offsets are held alike. -/
theorem chunk_congr (c : Dev nD) (off off' : Fin 2 → ℕ) (h : off = off')
    (inb : ∀ a, off a + S512x1024.size a ≤ S65536x1024.size a) (inb' : ∀ a, off' a + S512x1024.size a ≤ S65536x1024.size a)
    (q : PosShare TreeShare) (g : Buf (Elt F) ((c : Thread nD τ).loc main_v1)) :
    ((chunkAt off inb).view.loc (c : Thread nD τ) ↦[(chunkAt off inb).view.set]{q} g : sProp 𝕄)
      = ((chunkAt off' inb').view.loc (c : Thread nD τ) ↦[(chunkAt off' inb').view.set]{q} g) := by
  subst h; rfl

/-! ## What is received is what is sent on -/

theorem recv_yq_eq (c : Dev nD) (i : Fin 16) :
    recvPay A .yq c i = ((oChunk .xf c i).view.loc (c : Thread nD τ) ↦[(oChunk .xf c i).view.set]{fullShare} Gout A c) :=
  chunk_congr c _ _ (oOff_yq_recv c i) (oOff_inb .yq (Yn c) i) (oOff_inb .xf c i) fullShare (Gout A c)

/-- The chunk the y-neighbour wrote, to the two forwards, half its share each. -/
theorem recv_yq_fwd (c : Dev nD) (i : Fin 16) : recvPay A .yq c i ⊢ iprop(sendPay A .xf c i ∗ sendPay A .zf c i) := by
  rw [recv_yq_eq]
  exact (chunk_halves (oChunk .xf c i) c (Gout A c)).1

theorem recv_zf_eq (c : Dev nD) (i : Fin 8) :
    recvPay A .zf c ⟨i.val, by have := i.isLt; show _ < 16; omega⟩ = sendPay A .xd c i :=
  chunk_congr c _ _ (oOff_zf_recv c i) (oOff_inb .zf (Zn c) ⟨i.val, by have := i.isLt; show _ < 16; omega⟩) (oOff_inb .xd c i) fullShare (Gout A c)

/-- One of the first eight chunks the z-neighbour forwarded, to the relay to the x-neighbour. -/
theorem recv_zf_fwd (c : Dev nD) (i : Fin 8) : recvPay A .zf c ⟨i.val, by have := i.isLt; show _ < 16; omega⟩ ⊢ sendPay A .xd c i :=
  Entails.of_eq (recv_zf_eq A c i)

theorem recv_xf_eq (c : Dev nD) (i : Fin 8) :
    recvPay A .xf c ⟨i.val + 8, by have := i.isLt; show _ < 16; omega⟩ = sendPay A .zd c i :=
  chunk_congr c _ _ (oOff_xf_recv c i) (oOff_inb .xf (Xn c) ⟨i.val + 8, by have := i.isLt; show _ < 16; omega⟩) (oOff_inb .zd c i) fullShare (Gout A c)

/-- One of the last eight chunks the x-neighbour forwarded, to the relay to the z-neighbour. -/
theorem recv_xf_fwd (c : Dev nD) (i : Fin 8) : recvPay A .xf c ⟨i.val + 8, by have := i.isLt; show _ < 16; omega⟩ ⊢ sendPay A .zd c i :=
  Entails.of_eq (recv_xf_eq A c i)

/-! ## And back -/

/-- A chunk received and not sent on. -/
theorem back_recv (f : Fam) (c : Dev nD) (i : Fin f.n) :
    recvPay A f c i ⊢ ((oChunk f (peer f c) i).view.loc (c : Thread nD τ) ↦[(oChunk f (peer f c) i).view.set]{fullShare} Gout A c) :=
  Entails.of_eq rfl

/-- The two halves the forwards hand back are the chunk the y-neighbour wrote. -/
theorem back_yq (c : Dev nD) (i : Fin 16) :
    iprop(sendPay A .xf c i ∗ sendPay A .zf c i)
      ⊢ ((oChunk .yq (Yn c) i).view.loc (c : Thread nD τ) ↦[(oChunk .yq (Yn c) i).view.set]{fullShare} Gout A c) := by
  refine (show iprop(sendPay A .xf c i ∗ sendPay A .zf c i) ⊢ _ from (chunk_halves (oChunk .xf c i) c (Gout A c)).2).trans ?_
  exact Entails.of_eq (recv_yq_eq A c i).symm

/-- What the relay to the x-neighbour hands back is one of the first eight chunks the z-neighbour forwarded. -/
theorem back_zf_lo (c : Dev nD) (i : Fin 8) :
    sendPay A .xd c i ⊢ ((oChunk .zf (Zn c) ⟨i.val, by have := i.isLt; show _ < 16; omega⟩).view.loc (c : Thread nD τ)
      ↦[(oChunk .zf (Zn c) ⟨i.val, by have := i.isLt; show _ < 16; omega⟩).view.set]{fullShare} Gout A c) :=
  Entails.of_eq (recv_zf_eq A c i).symm

/-- What the relay to the z-neighbour hands back is one of the last eight chunks the x-neighbour forwarded. -/
theorem back_xf_hi (c : Dev nD) (i : Fin 8) :
    sendPay A .zd c i ⊢ ((oChunk .xf (Xn c) ⟨i.val + 8, by have := i.isLt; show _ < 16; omega⟩).view.loc (c : Thread nD τ)
      ↦[(oChunk .xf (Xn c) ⟨i.val + 8, by have := i.isLt; show _ < 16; omega⟩).view.set]{fullShare} Gout A c) :=
  Entails.of_eq (recv_xf_eq A c i).symm

/-! ## Sixteen chunks as the first eight and the last eight -/

theorem bigSep_fin16_halves (Φ : Fin 16 → sProp 𝕄) :
    bigSep Finset.univ Φ
      = iprop((bigSep Finset.univ fun i : Fin 8 => Φ ⟨i.val, by have := i.isLt; show _ < 16; omega⟩)
          ∗ (bigSep Finset.univ fun i : Fin 8 => Φ ⟨i.val + 8, by have := i.isLt; show _ < 16; omega⟩)) := by
  rw [bigSep_fin16, bigSep_fin8, bigSep_fin8]
  show _ = iprop((Φ 0 ∗ Φ 1 ∗ Φ 2 ∗ Φ 3 ∗ Φ 4 ∗ Φ 5 ∗ Φ 6 ∗ Φ 7) ∗ (Φ 8 ∗ Φ 9 ∗ Φ 10 ∗ Φ 11 ∗ Φ 12 ∗ Φ 13 ∗ Φ 14 ∗ Φ 15))
  have assoc : ∀ P Q R : sProp 𝕄, iprop((P ∗ Q) ∗ R) = iprop(P ∗ Q ∗ R) := fun P Q R => BI.equiv_iff.mp ⟨BI.sep_assoc, BI.sep_assoc'⟩
  simp only [assoc]

/-! ## The whole output array from what the device holds at the end -/

/-- The chunks of its own copies, the two halves of each chunk the y-neighbour wrote, the chunks the x- and the
    z-neighbour forwarded — those sent on as the relays hand them back, the others as received — and the relayed
    halves of the diagonal quarter as received: the output array in pieces, holding the gathered array. -/
theorem oPieces_of_parts (c : Dev nD) :
    iprop((bigSep Finset.univ fun i : Fin 32 => (oOwn c i).view.loc (c : Thread nD τ) ↦[(oOwn c i).view.set]{fullShare} Gout A c)
        ∗ (bigSep Finset.univ fun i : Fin 16 => iprop(sendPay A .xf c i ∗ sendPay A .zf c i))
        ∗ ((bigSep Finset.univ fun i : Fin 8 => recvPay A .xf c ⟨i.val, by have := i.isLt; show _ < 16; omega⟩)
            ∗ (bigSep Finset.univ fun i : Fin 8 => sendPay A .zd c i))
        ∗ (bigSep Finset.univ fun i : Fin 8 => recvPay A .xd c i)
        ∗ ((bigSep Finset.univ fun i : Fin 8 => sendPay A .xd c i)
            ∗ (bigSep Finset.univ fun i : Fin 8 => recvPay A .zf c ⟨i.val + 8, by have := i.isLt; show _ < 16; omega⟩))
        ∗ (bigSep Finset.univ fun i : Fin 8 => recvPay A .zd c i))
      ⊢ oPieces (F := F) c (Gout A c) := by
  unfold oPieces
  refine sep_mono .rfl (sep_mono ?_ (sep_mono ?_ (sep_mono ?_ (sep_mono ?_ ?_))))
  · exact bigSep_mono fun i _ => back_yq A c i
  · rw [bigSep_fin16_halves (F := F) (fun i : Fin 16 => (oChunk .xf (Xn c) i).view.loc (c : Thread nD τ) ↦[(oChunk .xf (Xn c) i).view.set]{fullShare} Gout A c)]
    exact sep_mono (bigSep_mono fun i _ => back_recv A .xf c _) (bigSep_mono fun i _ => back_xf_hi A c i)
  · exact bigSep_mono fun i _ => back_recv A .xd c i
  · rw [bigSep_fin16_halves (F := F) (fun i : Fin 16 => (oChunk .zf (Zn c) i).view.loc (c : Thread nD τ) ↦[(oChunk .zf (Zn c) i).view.set]{fullShare} Gout A c)]
    exact sep_mono (bigSep_mono fun i _ => back_zf_lo A c i) (bigSep_mono fun i _ => back_recv A .zf c _)
  · exact bigSep_mono fun i _ => back_recv A .zd c i

end Cert.Kernel.AG

end
-- ==== Proof.Bits.Own.lean ====
/-
The device's own half of the gathered array.

Local copy i (of 32) brings the rows 1024 i .. 1024 i + 1023 of the device's half of the input into slot i mod 4 of
the staging buffer; the kernel loads the slot, converts it, stores it into slot i mod 4 of the output staging buffer,
and a second local copy brings that slot into the chunk of the output array the device keeps for it: rows
32768 y + 1024 i .. of the array, which in the gathered array are the device's own rows 1024 i .., converted.
-/
import proofs.«900667_g7700000000000668_dist_ag_v7x_xyz2x2x2_y_m32768_n1024_bf16_1_alg».proof.Proof.Bits.Steps

noncomputable section

namespace Cert.Kernel.AG

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The slots and the rows -/

theorem slot_inb (s : Fin 4) : ∀ a, (![s.val, 0, 0] : Fin 3 → Nat) a + S1x1024x1024.size a ≤ S4x1024x1024.size a := by
  intro a; have := s.isLt
  fin_cases a
  · show s.val + 1 ≤ 4; omega
  · show 0 + 1024 ≤ 1024; omega
  · show 0 + 1024 ≤ 1024; omega

/-- Slot s of a staging buffer, whole, as a load or a store names it, -/
abbrev slotRect (s : Fin 4) : Rect S4x1024x1024 := Rect.unit (s := S4x1024x1024) ![s.val, 0, 0] S1x1024x1024.size (slot_inb s)

/-- and as a local copy names it: of the input staging buffer, -/
def stSlotW (s : Fin 4) : Memref sig .tc .vmem S1024x1024 .f32 :=
  (stM.slice (slotRect s) (fun _ => rfl)).squeeze S1024x1024 squeezes_S1x1024x1024_S1024x1024

/-- of the output staging buffer. -/
def obSlot (s : Fin 4) : Memref sig .tc .vmem S1024x1024 .bf16 :=
  (obM.slice (slotRect s) (fun _ => rfl)).squeeze S1024x1024 squeezes_S1x1024x1024_S1024x1024

theorem xOwn_inb (i : Fin 32) : ∀ a, (![1024 * i.val, 0] : Fin 2 → Nat) a + S1024x1024.size a ≤ S32768x1024.size a := by
  intro a; have := i.isLt
  fin_cases a
  · show 1024 * i.val + 1024 ≤ 32768; omega
  · show 0 + 1024 ≤ 1024; omega

/-- The rows of the input half that local copy i brings in. -/
def xOwn (i : Fin 32) : Memref sig .tc .hbm S1024x1024 .f32 :=
  xM.slice (Rect.unit (s := S32768x1024) ![1024 * i.val, 0] S1024x1024.size (xOwn_inb i)) (fun _ => rfl)

/-! ## The conversion of a loaded slot -/

/-- The conversion of a loaded slot, element by element, in the shape it is stored in. -/
def cvSlot (v : Vec F S1x1024x1024 .f32) : FVec F S1x1024x1024 .bf16 :=
  shapeCast S1x1024x1024 (fun y : S1024x1024.Idx => cv (v (Fin.cons ⟨0, Nat.one_pos⟩ y))) shapeCasts_S1024x1024_S1x1024x1024

theorem cvSlot_eq (v : Vec F S1x1024x1024 .f32) :
    shapeCast S1x1024x1024 (truncf .bf16 (shapeCast S1024x1024 v shapeCasts_S1x1024x1024_S1024x1024) bitsLt_bf16_f32) shapeCasts_S1024x1024_S1x1024x1024
      = cvSlot v := by
  unfold cvSlot
  congr 1
  funext y
  show FloatOps.truncf .bf16 bitsLt_bf16_f32 (shapeCast S1024x1024 v shapeCasts_S1x1024x1024_S1024x1024 y) = cv (v (Fin.cons ⟨0, Nat.one_pos⟩ y))
  rw [shapeCast_dropUnit_apply]
  rfl

theorem cvSlot_apply (v : Vec F S1x1024x1024 .f32) (y : S1024x1024.Idx) :
    cvSlot v (Fin.cons ⟨0, Nat.one_pos⟩ y) = cv (v (Fin.cons ⟨0, Nat.one_pos⟩ y)) := by
  unfold cvSlot
  rw [shapeCast_addUnit_apply]
  rfl

/-! The thirty-two conversions as the program names them. -/

theorem k0_pay19_eq (v : Vec F S1x1024x1024 .f32) : k0_pay19 v = cvSlot v := cvSlot_eq v
theorem k0_pay20_eq (v : Vec F S1x1024x1024 .f32) : k0_pay20 v = cvSlot v := cvSlot_eq v
theorem k0_pay21_eq (v : Vec F S1x1024x1024 .f32) : k0_pay21 v = cvSlot v := cvSlot_eq v
theorem k0_pay22_eq (v : Vec F S1x1024x1024 .f32) : k0_pay22 v = cvSlot v := cvSlot_eq v
theorem k0_pay23_eq (v : Vec F S1x1024x1024 .f32) : k0_pay23 v = cvSlot v := cvSlot_eq v
theorem k0_pay24_eq (v : Vec F S1x1024x1024 .f32) : k0_pay24 v = cvSlot v := cvSlot_eq v
theorem k0_pay25_eq (v : Vec F S1x1024x1024 .f32) : k0_pay25 v = cvSlot v := cvSlot_eq v
theorem k0_pay26_eq (v : Vec F S1x1024x1024 .f32) : k0_pay26 v = cvSlot v := cvSlot_eq v
theorem k0_pay27_eq (v : Vec F S1x1024x1024 .f32) : k0_pay27 v = cvSlot v := cvSlot_eq v
theorem k0_pay32_eq (v : Vec F S1x1024x1024 .f32) : k0_pay32 v = cvSlot v := cvSlot_eq v
theorem k0_pay33_eq (v : Vec F S1x1024x1024 .f32) : k0_pay33 v = cvSlot v := cvSlot_eq v
theorem k0_pay34_eq (v : Vec F S1x1024x1024 .f32) : k0_pay34 v = cvSlot v := cvSlot_eq v
theorem k0_pay35_eq (v : Vec F S1x1024x1024 .f32) : k0_pay35 v = cvSlot v := cvSlot_eq v
theorem k0_pay36_eq (v : Vec F S1x1024x1024 .f32) : k0_pay36 v = cvSlot v := cvSlot_eq v
theorem k0_pay37_eq (v : Vec F S1x1024x1024 .f32) : k0_pay37 v = cvSlot v := cvSlot_eq v
theorem k0_pay38_eq (v : Vec F S1x1024x1024 .f32) : k0_pay38 v = cvSlot v := cvSlot_eq v
theorem k0_pay39_eq (v : Vec F S1x1024x1024 .f32) : k0_pay39 v = cvSlot v := cvSlot_eq v
theorem k0_pay40_eq (v : Vec F S1x1024x1024 .f32) : k0_pay40 v = cvSlot v := cvSlot_eq v
theorem k0_pay41_eq (v : Vec F S1x1024x1024 .f32) : k0_pay41 v = cvSlot v := cvSlot_eq v
theorem k0_pay42_eq (v : Vec F S1x1024x1024 .f32) : k0_pay42 v = cvSlot v := cvSlot_eq v
theorem k0_pay43_eq (v : Vec F S1x1024x1024 .f32) : k0_pay43 v = cvSlot v := cvSlot_eq v
theorem k0_pay44_eq (v : Vec F S1x1024x1024 .f32) : k0_pay44 v = cvSlot v := cvSlot_eq v
theorem k0_pay45_eq (v : Vec F S1x1024x1024 .f32) : k0_pay45 v = cvSlot v := cvSlot_eq v
theorem k0_pay46_eq (v : Vec F S1x1024x1024 .f32) : k0_pay46 v = cvSlot v := cvSlot_eq v
theorem k0_pay47_eq (v : Vec F S1x1024x1024 .f32) : k0_pay47 v = cvSlot v := cvSlot_eq v
theorem k0_pay48_eq (v : Vec F S1x1024x1024 .f32) : k0_pay48 v = cvSlot v := cvSlot_eq v
theorem k0_pay49_eq (v : Vec F S1x1024x1024 .f32) : k0_pay49 v = cvSlot v := cvSlot_eq v
theorem k0_pay54_eq (v : Vec F S1x1024x1024 .f32) : k0_pay54 v = cvSlot v := cvSlot_eq v
theorem k0_pay29_28_eq (v : Vec F S1x1024x1024 .f32) : k0_pay29 (k0_pay28 v) = cvSlot v := cvSlot_eq v
theorem k0_pay31_30_eq (v : Vec F S1x1024x1024 .f32) : k0_pay31 (k0_pay30 v) = cvSlot v := cvSlot_eq v
theorem k0_pay51_50_eq (v : Vec F S1x1024x1024 .f32) : k0_pay51 (k0_pay50 v) = cvSlot v := cvSlot_eq v
theorem k0_pay53_52_eq (v : Vec F S1x1024x1024 .f32) : k0_pay53 (k0_pay52 v) = cvSlot v := cvSlot_eq v

/-! ## Reading a slot -/

/-- A load of slot s of the input staging buffer reads what the slot's view reads. -/
theorem st_slot_load (c : Dev nD) (s : Fin 4) (g : Buf (Elt F) ((c : Thread nD τ).loc cc0_scratch0)) (y : S1024x1024.Idx) :
    View.readAt (Elt F) stM.view (slotRect s).toLoadRect g (Fin.cons ⟨0, Nat.one_pos⟩ y) = (stSlotW s).view.read (Elt F) g y := by
  have h : (stSlotW s).view.emb y = stM.view.emb ((slotRect s).toLoadRect.idx (Fin.cons ⟨0, Nat.one_pos⟩ y)) := by
    show stM.view.emb ((slotRect s).emb (Shape.reshapeEquiv _ y)) = _
    rw [Shape.reshapeEquiv_cons_one]
    rfl
  have e1 := View.read_apply (Val := Elt F) (v := (stSlotW s).view) g y
  rw [View.readAt_apply, View.read_apply, e1, h]
  rfl

/-- The same of the output staging buffer. -/
theorem ob_slot_load (c : Dev nD) (s : Fin 4) (g : Buf (Elt F) ((c : Thread nD τ).loc cc0_scratch1)) (y : S1024x1024.Idx) :
    View.readAt (Elt F) obM.view (slotRect s).toLoadRect g (Fin.cons ⟨0, Nat.one_pos⟩ y) = (obSlot s).view.read (Elt F) g y := by
  have h : (obSlot s).view.emb y = obM.view.emb ((slotRect s).toLoadRect.idx (Fin.cons ⟨0, Nat.one_pos⟩ y)) := by
    show obM.view.emb ((slotRect s).emb (Shape.reshapeEquiv _ y)) = _
    rw [Shape.reshapeEquiv_cons_one]
    rfl
  have e1 := View.read_apply (Val := Elt F) (v := (obSlot s).view) g y
  rw [View.readAt_apply, View.read_apply, e1, h]
  rfl

/-- Slot s of the output staging buffer, just stored with w, reads w. -/
theorem ob_slot_stored (c : Dev nD) (s : Fin 4) (f1 : Buf (Elt F) ((c : Thread nD τ).loc cc0_scratch1))
    (L : List (View.Piece (Elt F) S4x1024x1024 .bf16)) (w : FVec F S1x1024x1024 .bf16) (y : S1024x1024.Idx) :
    (obSlot s).view.read (Elt F) (obM.view.writes (Elt F) f1 (⟨slotRect s, w⟩ :: L)) y = w (Fin.cons ⟨0, Nat.one_pos⟩ y) := by
  rw [← ob_slot_load c s, View.readAt_rect, View.writes_cons, View.read_write_univ]

/-! ## The rows in the staging buffer -/

variable (A : (c : Dev nD) → Buf (Elt F) ((c : Thread nD τ).loc main_arg0))

/-- Slot s of the input staging buffer holds the rows local copy i brings in. -/
def StagedW (c : Dev nD) (s : Fin 4) (i : Fin 32) (g : Buf (Elt F) ((c : Thread nD τ).loc cc0_scratch0)) : Prop :=
  (stSlotW s).view.read (Elt F) g = (xOwn i).view.read (Elt F) (A c)

/-- Local copy i into slot s leaves its rows there, -/
theorem stagedW_write (c : Dev nD) (s : Fin 4) (i : Fin 32) (g : Buf (Elt F) ((c : Thread nD τ).loc cc0_scratch0)) :
    StagedW A c s i ((stSlotW s).view.write (Elt F) g (ReadAs.same.apply ((xOwn i).view.read (Elt F) (A c))) Finset.univ) :=
  View.read_write_univ _ _

theorem stSlotW_set (s : Fin 4) : (stSlotW s).view.set = (slotRect s).set := by
  show ((stM.view.slice (slotRect s)).reshape S1024x1024 _).set = _
  rw [View.set_reshape]
  exact View.set_slice_whole _ _

/-- and a write into another slot keeps them. -/
theorem stagedW_write_other (c : Dev nD) (s s' : Fin 4) (h : s ≠ s') (i : Fin 32)
    (g : Buf (Elt F) ((c : Thread nD τ).loc cc0_scratch0)) (w : S1024x1024.Idx → Elt F .f32) (hg : StagedW A c s i g) :
    StagedW A c s i ((stSlotW s').view.write (Elt F) g w Finset.univ) := by
  unfold StagedW
  rw [← hg]
  apply View.read_congr
  intro j hj
  apply View.write_of_not_mem
  rw [View.setOn_univ, stSlotW_set]
  rw [stSlotW_set] at hj
  have hne : s.val ≠ s'.val := fun e => h (Fin.ext e)
  exact Finset.disjoint_left.mp (Rect.unit_disjoint (0 : Fin 3) (by
    show s.val + 1 ≤ s'.val ∨ s'.val + 1 ≤ s.val
    omega)) hj

/-- Proves that slot s holds the rows of local copy i under contents written slot by slot: the copy into slot s,
    then writes into the other slots only. -/
macro "stagedW_chain" : tactic => `(tactic| repeat (first
  | exact stagedW_write _ _ _ _ _
  | refine stagedW_write_other _ _ _ 0 (by decide) _ _ _ ?_
  | refine stagedW_write_other _ _ _ 1 (by decide) _ _ _ ?_
  | refine stagedW_write_other _ _ _ 2 (by decide) _ _ _ ?_
  | refine stagedW_write_other _ _ _ 3 (by decide) _ _ _ ?_))

/-! ## The rows in the gathered array -/

theorem oOwn_emb_val (c : Dev nD) (i : Fin 32) (y : S1024x1024.Idx) (a : Fin 2) :
    (((oOwn c i).view.emb y : S65536x1024.Idx) a).val = k0_off3 c (BitVec.ofNat 32 (1024 * i.val)) a + (y a).val := by
  show k0_off3 c (BitVec.ofNat 32 (1024 * i.val)) a + 1 * (y a).val = _
  rw [Nat.one_mul]

theorem xOwn_emb_val (i : Fin 32) (y : S1024x1024.Idx) (a : Fin 2) :
    (((xOwn i).view.emb y : S32768x1024.Idx) a).val = (![1024 * i.val, 0] : Fin 2 → Nat) a + (y a).val := by
  show (![1024 * i.val, 0] : Fin 2 → Nat) a + 1 * (y a).val = _
  rw [Nat.one_mul]

/-- On the rows the device keeps for its own copy i, the gathered array is the device's own rows, converted. -/
theorem Gout_own (c : Dev nD) (i : Fin 32) (y : S1024x1024.Idx) :
    cv (A c ((xOwn i).view.emb y)) = Gout A c ((oOwn c i).view.emb y) := by
  have hi : i.val < 32 := i.isLt
  have hy0 : (y 0).val < 1024 := (y 0).isLt
  have hyc : (c.val / 2) % 2 < 2 := Nat.mod_lt _ (by decide)
  have hr : ((oOwn c i).view.emb y (0 : Fin 2)).val = 32768 * ((c.val / 2) % 2) + 1024 * i.val + (y 0).val := by
    rw [oOwn_emb_val, off_own]; rfl
  have hx : ((xOwn i).view.emb y (0 : Fin 2)).val = 1024 * i.val + (y 0).val := by
    rw [xOwn_emb_val]; rfl
  have ho : origin c ((oOwn c i).view.emb y (0 : Fin 2)).val = c := by
    unfold origin
    rw [if_pos (by rw [hr]; omega)]
  have h0 : ((xOwn i).view.emb y (0 : Fin 2) : Fin 32768)
      = ⟨((oOwn c i).view.emb y (0 : Fin 2)).val % 32768, Nat.mod_lt _ (by decide)⟩ :=
    Fin.ext (by show _ = _ % 32768; rw [hr, hx]; omega)
  have h1 : ((xOwn i).view.emb y (1 : Fin 2) : Fin 1024) = (oOwn c i).view.emb y (1 : Fin 2) :=
    Fin.ext (by rw [xOwn_emb_val, oOwn_emb_val, off_own]; rfl)
  show cv (A c ((xOwn i).view.emb y))
     = cv (A (origin c ((oOwn c i).view.emb y (0 : Fin 2)).val)
        (ValueIdx.ix2 ⟨((oOwn c i).view.emb y (0 : Fin 2)).val % 32768, Nat.mod_lt _ (by decide)⟩ ((oOwn c i).view.emb y (1 : Fin 2))))
  rw [ho, ValueIdx.eq_ix2 ((xOwn i).view.emb y), h0, h1]
  rfl

/-! ## An own chunk, delivered, restated -/

/-- The chunk the device keeps for its own copy i, written by the copy out of slot s of the output staging buffer
    just stored with the converted load of a slot holding the copy's rows, holds the gathered array. -/
theorem own_filled (c : Dev nD) (i : Fin 32) (s : Fin 4) (g : Buf (Elt F) ((c : Thread nD τ).loc cc0_scratch0))
    (f1 : Buf (Elt F) ((c : Thread nD τ).loc cc0_scratch1)) (L : List (View.Piece (Elt F) S4x1024x1024 .bf16))
    (w : FVec F S1x1024x1024 .bf16) (X0 : Buf (Elt F) ((oOwn c i).view.loc (c : Thread nD τ)))
    (hw : w = cvSlot (View.readAt (Elt F) stM.view (slotRect s).toLoadRect g)) (hg : StagedW A c s i g) :
    ((oOwn c i).view.loc (c : Thread nD τ) ↦[(oOwn c i).view.set]{fullShare}
        (oOwn c i).view.writes (Elt F) X0 [⟨Rect.whole S1024x1024,
          ReadAs.same.apply ((obSlot s).view.read (Elt F) (obM.view.writes (Elt F) f1 (⟨slotRect s, w⟩ :: L)))⟩] : sProp 𝕄)
      = ((oOwn c i).view.loc (c : Thread nD τ) ↦[(oOwn c i).view.set]{fullShare} Gout A c) := by
  subst hw
  rw [← View.write_univ_eq_writes_whole, View.writes_nil]
  apply pointsTo_congr
  intro e he
  obtain ⟨y, rfl⟩ := View.exists_emb_of_mem_set _ he
  rw [View.write_emb_of_mem _ _ (Finset.mem_univ y)]
  have hv : ReadAs.same.apply ((obSlot s).view.read (Elt F) (obM.view.writes (Elt F) f1
        (⟨slotRect s, cvSlot (View.readAt (Elt F) stM.view (slotRect s).toLoadRect g)⟩ :: L))) y
      = cv (A c ((xOwn i).view.emb y)) := by
    show (obSlot s).view.read (Elt F) _ y = _
    rw [ob_slot_stored, cvSlot_apply, st_slot_load, hg]
    rfl
  rw [hv, Gout_own]
  rfl

/-- The same with the pieces found in the contents as the preceding steps leave them. -/
theorem own_filled_of (c : Dev nD) (i : Fin 32) (s : Fin 4) (X : Buf (Elt F) ((oOwn c i).view.loc (c : Thread nD τ))) :
    iprop(((oOwn c i).view.loc (c : Thread nD τ) ↦[(oOwn c i).view.set]{fullShare} X)
        ∗ ⌜∃ (g : Buf (Elt F) ((c : Thread nD τ).loc cc0_scratch0)) (f1 : Buf (Elt F) ((c : Thread nD τ).loc cc0_scratch1))
            (L : List (View.Piece (Elt F) S4x1024x1024 .bf16)) (w : FVec F S1x1024x1024 .bf16)
            (X0 : Buf (Elt F) ((oOwn c i).view.loc (c : Thread nD τ))),
            X = (oOwn c i).view.writes (Elt F) X0 [⟨Rect.whole S1024x1024,
                  ReadAs.same.apply ((obSlot s).view.read (Elt F) (obM.view.writes (Elt F) f1 (⟨slotRect s, w⟩ :: L)))⟩]
              ∧ w = cvSlot (View.readAt (Elt F) stM.view (slotRect s).toLoadRect g) ∧ StagedW A c s i g⌝)
      ⊢ ((oOwn c i).view.loc (c : Thread nD τ) ↦[(oOwn c i).view.set]{fullShare} Gout A c : sProp 𝕄) := by
  iintro ⟨H, %h⟩
  obtain ⟨g, f1, L, w, X0, rfl, hw, hg⟩ := h
  ihave H := (Entails.of_eq (own_filled A c i s g f1 L w X0 hw hg)) $$ H
  iexact H

/-! ## The thirty-two own chunks, one hypothesis each -/

theorem bigSep_fin32 (Φ : Fin 32 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) :=
  bigSep_univ_eq_bigSepL [0, 1, 2, 3, 4, 5, 6, 7, 8, 9, 10, 11, 12, 13, 14, 15, 16, 17, 18, 19, 20, 21, 22, 23, 24, 25, 26, 27, 28, 29, 30, 31] (by decide) (by decide) Φ

set_option hygiene false

open Lean in
/-- The name of the hypothesis holding the chunk of own copy i. -/
def agOwnH (i : Nat) : Ident := mkIdent (Name.mkSimple ("Hown_" ++ toString i))

open Lean in
/-- The equation of the conversion iteration i of the own copies stores. -/
def agOwnPay (i : Nat) : Ident :=
  mkIdent (`Cert.Kernel.AG ++ Name.mkSimple (
    if i ≤ 8 then "k0_pay" ++ toString (19 + i) ++ "_eq"
    else if i == 9 then "k0_pay29_28_eq"
    else if i == 10 then "k0_pay31_30_eq"
    else if i ≤ 28 then "k0_pay" ++ toString (32 + (i - 11)) ++ "_eq"
    else if i == 29 then "k0_pay51_50_eq"
    else if i == 30 then "k0_pay53_52_eq"
    else "k0_pay54_eq"))

open Lean in
/-- The output array's own part, held as Hown, cut into its thirty-two chunks Hown_0 … Hown_31. -/
macro "ag_cut_own" : tactic => do
  let pats : Array (TSyntax ``icasesPatAlts) ← (Array.range 32).mapM fun i => do
    let h := agOwnH i
    `(icasesPatAlts| $h:ident)
  `(tactic| (
    ihave Hownx := (Entails.of_eq (bigSep_fin32 (F := F) _)) $$ Hown
    icases Hownx with ⟨$[$pats],*⟩))

open Lean in
/-- The chunk of own copy i, delivered and held as Hown_i as the preceding steps leave it, restated as holding the gathered array. -/
macro "ag_own " i:num : tactic => do
  let iv := i.getNat
  let h := agOwnH iv
  let slot := Syntax.mkNumLit (toString (iv % 4))
  let pay := agOwnPay iv
  `(tactic| (
    ihave $h:ident : ((oOwn c $i).view.loc (c : Thread nD τ) ↦[(oOwn c $i).view.set]{fullShare} Gout A c) $$ [$h:ident]
    · iapply (own_filled_of A c $i $slot _)
      isplitl [$h:ident]
      · iexact $h:ident
      · ipureintro; exact ⟨_, _, _, _, _, rfl, $pay _, by stagedW_chain⟩))

open Lean in
/-- The thirty-two chunks Hown_0 … Hown_31, each holding the gathered array, joined into Hown. -/
macro "ag_own_join" : tactic => do
  let hs : Array (TSyntax `frameIdent) ← (Array.range 32).mapM fun i => do
    let h := agOwnH i
    `(frameIdent| $h:ident)
  let steps : Array (TSyntax `tactic) ← (Array.range 31).mapM fun i => do
    let h := agOwnH i
    `(tactic| (isplitl [$h:ident]; · iexact $h:ident))
  let last := agOwnH 31
  `(tactic| (
    ihave Hown : (bigSep Finset.univ fun i : Fin 32 => (oOwn c i).view.loc (c : Thread nD τ) ↦[(oOwn c i).view.set]{fullShare} Gout A c) $$ [$hs*]
    · iapply (Entails.of_eq (bigSep_fin32 (F := F) _).symm)
      $[$steps]*
      iexact $last:ident))

open Lean in
/-- All thirty-two chunks restated, then joined. -/
macro "ag_own_all" : tactic => do
  let each : Array (TSyntax `tactic) ← (Array.range 32).mapM fun i => do
    let lit := Syntax.mkNumLit (toString i)
    `(tactic| ag_own $lit)
  let all := each.push (← `(tactic| ag_own_join))
  `(tactic| ($[$all]*))

end Cert.Kernel.AG

end
-- ==== Proof.Bits.Collect.lean ====
/-
The end of one device's kernel: what it holds transfer by transfer, gathered into what the closing takes.

Every transfer cell's round has been consumed: the device's positions on its cells stand past it; every send cell
has handed its source back and every receive cell the chunk written.  The sources of the transfers to the y-neighbour
are the sixteen chunks of the filled send buffer; the sources of the forwards and relays, with the chunks received and
not sent on and the chunks of the device's own copies, are its whole output array in pieces, holding the gathered
array; nothing is owed any more.
-/
import proofs.«900667_g7700000000000668_dist_ag_v7x_xyz2x2x2_y_m32768_n1024_bf16_1_alg».proof.Proof.Bits.StepsYq
import proofs.«900667_g7700000000000668_dist_ag_v7x_xyz2x2x2_y_m32768_n1024_bf16_1_alg».proof.Proof.Bits.Chunks
import proofs.«900667_g7700000000000668_dist_ag_v7x_xyz2x2x2_y_m32768_n1024_bf16_1_alg».proof.Proof.Bits.Finish

noncomputable section

namespace Cert.Kernel.AG

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : (c : Dev nD) → Buf (Elt F) ((c : Thread nD τ).loc main_arg0))

/-! ## Small restatements -/

/-- A whole buffer held through its memref's view is the buffer held whole. -/
theorem whole_view_eq (b : Ref sig .tc) (c : Dev nD) (q : PosShare TreeShare) (f : Buf (Elt F) ((c : Thread nD τ).loc b)) :
    ((Memref.whole b).view.loc (c : Thread nD τ) ↦[(Memref.whole b : Memref sig .tc _ _ _).view.set]{q} f : sProp 𝕄)
      = (((c : Thread nD τ).loc b) ↦{q} f) := by
  rw [View.set_whole]

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- What the send cell of a transfer to the y-neighbour hands back: the chunk of the filled send buffer. -/
theorem sendPay_yq (c : Dev nD) (i : Fin 16) :
    sendPay A .yq c i = ((sbChunk i).view.loc (c : Thread nD τ) ↦[(sbChunk i).view.set]{fullShare} sbBuf A c i) := rfl

/-! ## Nothing owed -/

theorem later_ge (f : Fam) (n : ℕ) (h : f.n ≤ n) : later f n = ∅ := by
  unfold later; exact Finset.filter_false_of_mem fun j _ => by have := j.isLt; omega

theorem owedOn_later_ge (c : Dev nD) (f : Fam) (n : ℕ) (h : f.n ≤ n) : owedOn c f (later f n) = 0 := by
  rw [later_ge f n h, owedOn_empty]

/-- Every family's transfers issued, the device owes nothing. -/
theorem owed_done (c : Dev nD) (a b d e g : ℕ) (h : 8 ≤ a ∧ 8 ≤ b ∧ 16 ≤ d ∧ 16 ≤ e ∧ 16 ≤ g) :
    owedOn c .zd (later .zd a) + owedOn c .xd (later .xd b) + owedOn c .zf (later .zf d) + owedOn c .xf (later .xf e)
      + owedOn c .yq (later .yq g) = 0 := by
  obtain ⟨ha, hb, hd, he, hg⟩ := h
  rw [owedOn_later_ge c .zd a ha, owedOn_later_ge c .xd b hb, owedOn_later_ge c .zf d hd, owedOn_later_ge c .xf e he,
    owedOn_later_ge c .yq g hg]
  simp only [add_zero]

theorem owes_done (c : Dev nD) (a b d e g : ℕ) (W : Waits sig Unit) :
    iprop(owes (c : Thread nD τ) (owedOn c .zd (later .zd a) + owedOn c .xd (later .xd b) + owedOn c .zf (later .zf d)
          + owedOn c .xf (later .xf e) + owedOn c .yq (later .yq g)) W
        ∗ ⌜8 ≤ a ∧ 8 ≤ b ∧ 16 ≤ d ∧ 16 ≤ e ∧ 16 ≤ g⌝)
      ⊢ (owes (c : Thread nD τ) 0 W : sProp 𝕄) := by
  iintro ⟨H, %h⟩
  rw [owed_done c a b d e g h]
  iexact H

set_option hygiene false

open Lean in
/-- Names h_f_lo … h_f_(hi-1). -/
def agNames (p : String) (f : Name) (lo hi : Nat) : Array Ident :=
  (Array.range (hi - lo)).map fun k => agHn p f (lo + k)

open Lean in
/-- A goal Φ 0 ∗ Φ 1 ∗ … ∗ Φ (n-1) proved component by component: component k by fill k from the hypotheses use k. -/
def agFill (n : Nat) (use : Nat → Array Ident) (fill : Nat → MacroM (TSyntax `tactic)) : MacroM (TSyntax `tactic) := do
  let mut tacs : Array (TSyntax `tactic) := #[]
  for k in [0:n] do
    let t ← fill k
    if k + 1 < n then
      let hs := use k
      tacs := tacs.push (← `(tactic| (isplitl [$[$hs:ident]*]; · $t:tactic)))
    else
      tacs := tacs.push t
  `(tactic| ($[$tacs]*))

open Lean in
/-- Device c's positions on its cells of family f, past their round: HQf from HPs_f_i and HPr_f_i. -/
macro "ag_mk_pos " f:ident : tactic => do
  let fam := agF f
  let fn := f.getId
  let n := agN fn
  let hQ := mkIdent (Name.mkSimple ("HQ" ++ fn.toString))
  let split := mkIdent (if n == 16 then `Cert.Kernel.AG.bigSep_fin16 else `Cert.Kernel.AG.bigSep_fin8)
  let all := (Array.range n).foldl (fun acc i => acc.push (agHn "HPs" fn i) |>.push (agHn "HPr" fn i)) #[]
  let body ← agFill n (fun k => #[agHn "HPs" fn k, agHn "HPr" fn k]) fun k => do
    let a := agHn "HPs" fn k; let b := agHn "HPr" fn k
    `(tactic| (isplitl [$a:ident]; · iexact $a:ident
               iexact $b:ident))
  `(tactic| (
    ihave $hQ:ident : famPos1 (F := F) c $fam $$ [$[$all:ident]*]
    · iapply (show _ ⊢ famPos1 (F := F) c $fam from Entails.of_eq ($split (F := F) _).symm)
      $body:tactic))

open Lean in
/-- The filled send buffer in its sixteen chunks: HSB from HB_yq_i. -/
macro "ag_mk_sb" : tactic => do
  let fn := `yq
  let all := agNames "HB" fn 0 16
  let body ← agFill 16 (fun k => #[agHn "HB" fn k]) fun k => do
    let a := agHn "HB" fn k
    let lit := Syntax.mkNumLit (toString k)
    `(tactic| (iapply (Entails.of_eq (sendPay_yq A c $lit)); iexact $a:ident))
  `(tactic| (
    ihave HSB : (bigSep Finset.univ fun i : Fin 16 => (sbChunk i).view.loc (c : Thread nD τ) ↦[(sbChunk i).view.set]{fullShare} sbBuf A c i) $$ [$[$all:ident]*]
    · iapply (show _ ⊢ (bigSep Finset.univ fun i : Fin 16 => (sbChunk i).view.loc (c : Thread nD τ) ↦[(sbChunk i).view.set]{fullShare} sbBuf A c i)
          from Entails.of_eq (bigSep_fin16 (F := F) _).symm)
      $body:tactic))

open Lean in
/-- One bigSep over Fin 8 filled from named hypotheses. -/
def agFill8 (names : Array Ident) : MacroM (TSyntax `tactic) := do
  let body ← agFill 8 (fun k => #[names[k]!]) fun k => do
    let a := names[k]!
    `(tactic| iexact $a:ident)
  `(tactic| (iapply (Entails.of_eq (bigSep_fin8 (F := F) _).symm); $body:tactic))

open Lean in
/-- The output array in pieces, holding the gathered array: HOUT from Hown, the sources handed back and the chunks
    received and not sent on. -/
macro "ag_mk_out" : tactic => do
  let bxf := agNames "HB" `xf 0 16; let bzf := agNames "HB" `zf 0 16
  let bxd := agNames "HB" `xd 0 8; let bzd := agNames "HB" `zd 0 8
  let gxf := agNames "HG" `xf 0 8; let gzf := agNames "HG" `zf 8 16
  let gxd := agNames "HG" `xd 0 8; let gzd := agNames "HG" `zd 0 8
  let two := (Array.range 16).foldl (fun acc i => acc.push bxf[i]! |>.push bzf[i]!) #[]
  let body2 ← agFill 16 (fun k => #[bxf[k]!, bzf[k]!]) fun k => do
    let a := bxf[k]!; let b := bzf[k]!
    `(tactic| (isplitl [$a:ident]; · iexact $a:ident
               iexact $b:ident))
  let f3a ← agFill8 gxf; let f3b ← agFill8 bzd
  let f4 ← agFill8 gxd
  let f5a ← agFill8 bxd; let f5b ← agFill8 gzf
  let f6 ← agFill8 gzd
  `(tactic| (
    ihave HOUT : oPieces (F := F) c (Gout A c) $$ [Hown $[$two:ident]* $[$gxf:ident]* $[$bzd:ident]* $[$gxd:ident]* $[$bxd:ident]* $[$gzf:ident]* $[$gzd:ident]*]
    · iapply (oPieces_of_parts A c)
      isplitl [Hown]; · iexact Hown
      isplitl [$[$two:ident]*]
      · iapply (Entails.of_eq (bigSep_fin16 (F := F) _).symm)
        $body2:tactic
      isplitl [$[$gxf:ident]* $[$bzd:ident]*]
      · isplitl [$[$gxf:ident]*]
        · $f3a:tactic
        · $f3b:tactic
      isplitl [$[$gxd:ident]*]
      · $f4:tactic
      isplitl [$[$bxd:ident]* $[$gzf:ident]*]
      · isplitl [$[$bxd:ident]*]
        · $f5a:tactic
        · $f5b:tactic
      $f6:tactic))

open Lean in
/-- Nothing owed: HO at zero. -/
macro "ag_owes_done" : tactic => `(tactic| (
    ihave HO : owes (c : Thread nD τ) 0 _ $$ [HO]
    · iapply (owes_done c _ _ _ _ _ _)
      isplitl [HO]
      · iexact HO
      · ipureintro; decide))

open Lean in
/-- The closing, under an update: the cells closed, the buffers joined, and the continuation Hk applied. -/
macro "ag_finish" : tactic => `(tactic| (
    ag_mk_pos yq
    ag_mk_pos xf
    ag_mk_pos zf
    ag_mk_pos xd
    ag_mk_pos zd
    ag_mk_sb
    ag_mk_out
    ag_owes_done
    imod (finish A K c _ _) $$ [HQyq HQxf HQzf HQxd HQzd Hi0 Hi1 Hi2 Hi3 Ho0 Ho1 Ho2 Ho3 Hx HOUT Hst Hob HSB] with HΦ
    · isplitr
      · unfold records barInvs
        isplitr
        · isplitr; · iexact HIb
          isplitr; · iexact HIbY
          isplitr; · iexact HIbX
          iexact HIbZ
        isplitr; · iexact HIyq
        isplitr; · iexact HIxf
        isplitr; · iexact HIzf
        isplitr; · iexact HIxd
        isplitr; · iexact HIzd
        isplitr; · iexact HrY
        isplitr; · iexact HrX
        isplitr; · iexact HrZ
        isplitr; · iexact HRyq
        isplitr; · iexact HRxf
        isplitr; · iexact HRzf
        isplitr; · iexact HRxd
        iexact HRzd
      isplitl [HQyq]; · iexact HQyq
      isplitl [HQxf]; · iexact HQxf
      isplitl [HQzf]; · iexact HQzf
      isplitl [HQxd]; · iexact HQxd
      isplitl [HQzd]; · iexact HQzd
      isplitl [Hi0 Hi1 Hi2 Hi3 Ho0 Ho1 Ho2 Ho3]
      · unfold localSems
        isplitl [Hi0 Hi1 Hi2 Hi3]
        · iapply (Entails.of_eq (bigSep_four (F := F) _).symm)
          isplitl [Hi0]; · iexact Hi0
          isplitl [Hi1]; · iexact Hi1
          isplitl [Hi2]; · iexact Hi2
          iexact Hi3
        · iapply (Entails.of_eq (bigSep_four (F := F) _).symm)
          isplitl [Ho0]; · iexact Ho0
          isplitl [Ho1]; · iexact Ho1
          isplitl [Ho2]; · iexact Ho2
          iexact Ho3
      isplitl [Hx]; · iapply (Entails.of_eq (whole_view_eq (F := F) main_arg0 c fullShare _)); iexact Hx
      isplitl [HOUT]; · iexact HOUT
      isplitl [Hst]; · iapply (Entails.of_eq (whole_view_eq (F := F) cc0_scratch0 c fullShare _)); iexact Hst
      isplitl [Hob]; · iapply (Entails.of_eq (whole_view_eq (F := F) cc0_scratch1 c fullShare _)); iexact Hob
      iexact HSB
    imodintro
    iapply Hk
    isplitl [HΦ]; · iexact HΦ
    iexists _
    iexact HO))

end Cert.Kernel.AG

end
-- ==== Proof.Bits.Body.lean ====
/-
One device's kernel, run from what the launch hands it to what it hands back.
-/
import proofs.«900667_g7700000000000668_dist_ag_v7x_xyz2x2x2_y_m32768_n1024_bf16_1_alg».proof.Proof.Bits.StepsYq
import proofs.«900667_g7700000000000668_dist_ag_v7x_xyz2x2x2_y_m32768_n1024_bf16_1_alg».proof.Proof.Bits.Chunks
import proofs.«900667_g7700000000000668_dist_ag_v7x_xyz2x2x2_y_m32768_n1024_bf16_1_alg».proof.Proof.Bits.Own
import proofs.«900667_g7700000000000668_dist_ag_v7x_xyz2x2x2_y_m32768_n1024_bf16_1_alg».proof.Proof.Bits.Collect

noncomputable section

namespace Cert.Kernel.AG

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (A : (c : Dev nD) → Buf (Elt F) ((c : Thread nD τ).loc main_arg0))
variable (V1 : (c : Dev nD) → Buf (Elt F) ((c : Thread nD τ).loc main_v1))

/-! ## The buffers in the form the stepping rules take them: through their memrefs' views -/

theorem xM_eq (c : Dev nD) (f : Buf (Elt F) ((c : Thread nD τ).loc main_arg0)) :
    ((xM : Memref sig .tc .hbm S32768x1024 .f32).view.loc (c : Thread nD τ) ↦[(xM : Memref sig .tc .hbm S32768x1024 .f32).view.set]{fullShare} f : sProp 𝕄) = (((c : Thread nD τ).loc main_arg0) ↦{fullShare} f) := by
  rw [View.set_whole]
theorem stM_eq (c : Dev nD) (f : Buf (Elt F) ((c : Thread nD τ).loc cc0_scratch0)) :
    ((stM : Memref sig .tc .vmem S4x1024x1024 .f32).view.loc (c : Thread nD τ) ↦[(stM : Memref sig .tc .vmem S4x1024x1024 .f32).view.set]{fullShare} f : sProp 𝕄) = (((c : Thread nD τ).loc cc0_scratch0) ↦{fullShare} f) := by
  rw [View.set_whole]
theorem obM_eq (c : Dev nD) (f : Buf (Elt F) ((c : Thread nD τ).loc cc0_scratch1)) :
    ((obM : Memref sig .tc .vmem S4x1024x1024 .bf16).view.loc (c : Thread nD τ) ↦[(obM : Memref sig .tc .vmem S4x1024x1024 .bf16).view.set]{fullShare} f : sProp 𝕄) = (((c : Thread nD τ).loc cc0_scratch1) ↦{fullShare} f) := by
  rw [View.set_whole]

/-! ## The barrier's hand-overs -/

/-- The chunks of family f that device c hands the neighbour peer f c, at contents g. -/
def slots (f : Fam) (c : Dev nD) (g : Buf (Elt F) ((c : Thread nD τ).loc main_v1)) : sProp 𝕄 :=
  bigSep Finset.univ fun i : Fin f.n => (oChunk f (peer f c) i).view.loc (c : Thread nD τ) ↦[(oChunk f (peer f c) i).view.set]{fullShare} g

theorem slotPay_intro (f : Fam) (p q : Dev nD) (h : peer f p = q) (i : Fin f.n) (fd : Buf (Elt F) ((oChunk f p i).view.loc (q : Thread nD τ))) :
    ((oChunk f p i).view.loc (q : Thread nD τ) ↦[(oChunk f p i).view.set]{fullShare} fd : sProp 𝕄) ⊢ slotPay (F := F) f p i := by
  subst h; unfold slotPay; iintro H; iexists fd; iexact H

theorem slots_pay (f : Fam) (c : Dev nD) (g : Buf (Elt F) ((c : Thread nD τ).loc main_v1)) :
    slots f c g ⊢ bigSep Finset.univ (fun i : Fin f.n => slotPay (F := F) f (peer f c) i) := by
  unfold slots
  exact bigSep_mono fun i _ => slotPay_intro f (peer f c) c (peer_peer f c) i g

theorem barPay0 (c : Dev nD) (g : Buf (Elt F) ((c : Thread nD τ).loc main_v1)) : slots .yq c g ⊢ barPay (F := F) (Yn c) 0 := slots_pay .yq c g
theorem barPay1 (c : Dev nD) (g : Buf (Elt F) ((c : Thread nD τ).loc main_v1)) : iprop(slots .xf c g ∗ slots .xd c g) ⊢ barPay (F := F) (Xn c) 1 :=
  BI.sep_mono (slots_pay .xf c g) (slots_pay .xd c g)
theorem barPay2 (c : Dev nD) (g : Buf (Elt F) ((c : Thread nD τ).loc main_v1)) : iprop(slots .zf c g ∗ slots .zd c g) ⊢ barPay (F := F) (Zn c) 2 :=
  BI.sep_mono (slots_pay .zf c g) (slots_pay .zd c g)

/-- The output array cut as the kernel deals with it: the device's own 32 chunks and what it hands each neighbour. -/
theorem oPieces_slots (c : Dev nD) (g : Buf (Elt F) ((c : Thread nD τ).loc main_v1)) :
    oPieces (F := F) c g = iprop((bigSep Finset.univ fun i : Fin 32 => (oOwn c i).view.loc (c : Thread nD τ) ↦[(oOwn c i).view.set]{fullShare} g)
      ∗ slots .yq c g ∗ slots .xf c g ∗ slots .xd c g ∗ slots .zf c g ∗ slots .zd c g) := rfl

theorem rest_bar' (c : Dev nD) : bigSep ((Rd (F := F) A).duties (barCell c) 0 \ ∅) (fun d => (Rd (F := F) A).payload (barCell c) 0 d)
    = iprop(dslots (F := F) .yq c ∗ (dslots (F := F) .xf c ∗ dslots (F := F) .xd c) ∗ (dslots (F := F) .zf c ∗ dslots (F := F) .zd c)) := rest_bar A c

theorem bigSep_fin32' (Φ : Fin 32 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15
    ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) :=
  bigSep_univ_eq_bigSepL [0, 1, 2, 3, 4, 5, 6, 7, 8, 9, 10, 11, 12, 13, 14, 15, 16, 17, 18, 19, 20, 21, 22, 23, 24, 25, 26, 27, 28, 29, 30, 31] (by decide) (by decide) Φ

theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

set_option hygiene false

open Lean in
/-- The statements that need no rule of the protocol, stepped; a wait made while the device owes is allowed by the levels of what it still owes. -/
macro "ag_run" : tactic => `(tactic| first | sl_exec (disch := ag_lv) | skip)

open Lean in
/-- Phase one, iteration i: the local copy awaited, the rows converted into the send buffer, the next local copy
    started; then chunk i sent to the y-neighbour. -/
macro "ag_p1 " i:num : tactic => `(tactic| (ag_run; ag_yq $i; ag_aside HcS yq $i; ag_sent yq $i))

open Lean in
/-- Phase three, iteration i: chunk i of the y-neighbour's quarter has landed; it is forwarded both ways, each
    forward reading it with half its share. -/
macro "ag_p3 " i:num : tactic => do
  let hG := agH "HG" (mkIdent `yq) i
  let hx := agH "Hsx" (mkIdent `xf) i
  let hz := agH "Hsz" (mkIdent `zf) i
  `(tactic| (
    ag_rwait yq $i
    ihave Hboth := (recv_yq_fwd A c $i) $$ $hG:ident
    icases Hboth with ⟨$hx:ident, $hz:ident⟩
    ag_run
    ag_rec xf $i
    ag_fwd xf $i $hx:ident
    ag_run
    ag_rec zf $i
    ag_fwd zf $i $hz:ident
    ag_run))

open Lean in
/-- Phase four, iteration i < 8: chunk i of the z-neighbour's forward has landed; it is relayed to the x-neighbour. -/
macro "ag_p4 " i:num : tactic => do
  let hG := agH "HG" (mkIdent `zf) i
  let hs := agH "Hsd" (mkIdent `xd) i
  `(tactic| (
    ag_rwait zf $i
    ihave $hs:ident : sendPay A .xd c $i $$ [$hG:ident]
    · iapply (recv_zf_fwd A c $i); iexact $hG:ident
    ag_run
    ag_rec xd $i
    ag_fwd xd $i $hs:ident
    ag_run))

open Lean in
/-- Phase five, iteration i < 8: chunk i + 8 of the x-neighbour's forward has landed; it is relayed to the z-neighbour. -/
macro "ag_p5 " i:num : tactic => do
  let j := Syntax.mkNumLit (toString (i.getNat + 8))
  let hG := agH "HG" (mkIdent `xf) j
  let hs := agH "Hsd" (mkIdent `zd) i
  `(tactic| (
    ag_rwait xf $j
    ihave $hs:ident : sendPay A .zd c $i $$ [$hG:ident]
    · iapply (recv_xf_fwd A c $i); iexact $hG:ident
    ag_run
    ag_rec zd $i
    ag_fwd zd $i $hs:ident
    ag_run))

open Lean in
/-- A step repeated for i = lo, …, hi - 1. -/
def agLoop (lo hi : Nat) (k : TSyntax `num → MacroM (TSyntax `tactic)) : MacroM (TSyntax `tactic) := do
  let mut tacs : Array (TSyntax `tactic) := #[]
  for i in [lo:hi] do
    tacs := tacs.push (← k (Syntax.mkNumLit (toString i)))
  `(tactic| ($[$tacs]*))

open Lean in
/-- The own chunks the first 28 local copies delivered, restated as the gathered array's rows. -/
macro "ag_own_lo" : tactic => agLoop 0 28 fun i => `(tactic| ag_own $i)
open Lean in
/-- The last four, delivered by the kernel's last waits. -/
macro "ag_own_hi" : tactic => agLoop 28 32 fun i => `(tactic| ag_own $i)

open Lean in
macro "ag_phase1" : tactic => agLoop 0 16 fun i => `(tactic| ag_p1 $i)
open Lean in
macro "ag_phase3" : tactic => agLoop 0 16 fun i => `(tactic| ag_p3 $i)
open Lean in
macro "ag_phase4" : tactic => agLoop 0 8 fun i => `(tactic| ag_p4 $i)
open Lean in
macro "ag_phase5" : tactic => agLoop 0 8 fun i => `(tactic| ag_p5 $i)
open Lean in
/-- The landings nobody forwards: chunks 8..15 of the z-neighbour's forward, chunks 0..7 of the x-neighbour's. -/
macro "ag_phase6" : tactic => do
  let a ← agLoop 8 16 fun i => `(tactic| (ag_rwait zf $i; ag_run))
  let b ← agLoop 0 8 fun i => `(tactic| (ag_rwait xf $i; ag_run))
  `(tactic| ($a; $b))
open Lean in
/-- The relays: each one's landing here, then its departure. -/
macro "ag_phase7" : tactic => do
  let a ← agLoop 0 8 fun i => `(tactic| (ag_rwait xd $i; ag_run; ag_swait xd $i; ag_run))
  let b ← agLoop 0 8 fun i => `(tactic| (ag_rwait zd $i; ag_run; ag_swait zd $i; ag_run))
  `(tactic| ($a; $b))
open Lean in
/-- The departures of the straight transfers and of the forwards. -/
macro "ag_phase8" : tactic => agLoop 0 16 fun i => `(tactic| (ag_swait yq $i; ag_run; ag_swait xf $i; ag_run; ag_swait zf $i; ag_run))

set_option maxHeartbeats 16000000 in
set_option sl_exec.dmaWindow true in
set_option sl_exec.dmaWindowSet true in
theorem sound_body (K : GSem nD τ sig → ℕ) (c : Dev nD) (W : Waits sig Unit) (Kt : PUnit → sProp 𝕄) :
    iprop((ghost A K c ∗ credits (F := F) c ∗ localSems (F := F) c ∗ levAts L lv ∗ bufs0 A V1 c ∗ owes (c : Thread nD τ) (O₀ c) W)
        ∗ ((Φ₁ A c ∗ ∃ W' : Waits sig Unit, owes (c : Thread nD τ) 0 W') -∗ Kt ⟨⟩))
      ⊢ wp frame (wpE (defs₀ (F := F)) 𝒱₀ c none) Set.univ
          (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14) Kt := by
  unfold ghost records barInvs linear credits localSems bufs0
  iintro ⟨⟨⟨⟨⟨#HIb, #HIbY, #HIbX, #HIbZ⟩, #HIyq, #HIxf, #HIzf, #HIxd, #HIzd, #HrY, #HrX, #HrZ, #HRyq, #HRxf, #HRzf, #HRxd, #HRzd⟩,
      ⟨HatB, HPyq, HPxf, HPzf, HPxd, HPzd, HtY, HtX, HtZ, HTyq, HTxf, HTzf, HTxd, HTzd⟩⟩,
    ⟨HcB, HCyq, HCxf, HCzf, HCxd, HCzd⟩, ⟨Hin, Hout⟩, #Hlev, ⟨Hx, Ho, ⟨%f0, Hst⟩, ⟨%f1, Hob⟩, ⟨%f2, Hsb⟩⟩, HO⟩, Hk⟩
  -- the output array cut into the device's own chunks and what it hands its neighbours
  ihave Ho := (o_split (F := F) c (V1 c)).1 $$ Ho
  ihave Ho := (Entails.of_eq (oPieces_slots c (V1 c))) $$ Ho
  icases Ho with ⟨Hown, HSyq, HSxf, HSxd, HSzf, HSzd⟩
  ihave Hx := (Entails.of_eq (xM_eq c _).symm) $$ Hx
  ihave Hst := (Entails.of_eq (stM_eq c _).symm) $$ Hst
  ihave Hob := (Entails.of_eq (obM_eq c _).symm) $$ Hob
  rw [O₀_later c]
  sl_exec
  -- the three signals of the entry handshake, each with the chunks the neighbour is going to write
  iapply (Rounds.wp_signal 𝒱₀ ER (Rd A) (c : Thread nD τ) none (dst := (Yn c : Thread nD τ)) (κ := K (barCell (Yn c)))
      (d := (0 : Fin 3)) (by rw [duties_bar]; exact Finset.mem_univ _) ((amount_bar A (Yn c) 0).trans (by decide)) () _ rfl) $$ [HO HtY HSyq]
  · isplitr; · iexact HIbY
    isplitl [HO]; · iexact HO
    isplitl [HtY]; · iexact HtY
    isplitl [HSyq]
    · rw [payload_bar]; iapply (barPay0 c (V1 c)); iexact HSyq
    · iexact HrY
  iintro HO
  rw [wp_ret]; imodintro
  sl_exec
  iapply (Rounds.wp_signal 𝒱₀ ER (Rd A) (c : Thread nD τ) none (dst := (Xn c : Thread nD τ)) (κ := K (barCell (Xn c)))
      (d := (1 : Fin 3)) (by rw [duties_bar]; exact Finset.mem_univ _) ((amount_bar A (Xn c) 1).trans (by decide)) () _ rfl) $$ [HO HtX HSxf HSxd]
  · isplitr; · iexact HIbX
    isplitl [HO]; · iexact HO
    isplitl [HtX]; · iexact HtX
    isplitl [HSxf HSxd]
    · rw [payload_bar]; iapply (barPay1 c (V1 c)); isplitl [HSxf] <;> iassumption
    · iexact HrX
  iintro HO
  rw [wp_ret]; imodintro
  sl_exec
  iapply (Rounds.wp_signal 𝒱₀ ER (Rd A) (c : Thread nD τ) none (dst := (Zn c : Thread nD τ)) (κ := K (barCell (Zn c)))
      (d := (2 : Fin 3)) (by rw [duties_bar]; exact Finset.mem_univ _) ((amount_bar A (Zn c) 2).trans (by decide)) () _ rfl) $$ [HO HtZ HSzf HSzd]
  · isplitr; · iexact HIbZ
    isplitl [HO]; · iexact HO
    isplitl [HtZ]; · iexact HtZ
    isplitl [HSzf HSzd]
    · rw [payload_bar]; iapply (barPay2 c (V1 c)); isplitl [HSzf] <;> iassumption
    · iexact HrZ
  iintro HO
  rw [wp_ret]; imodintro
  sl_exec
  -- the wait for the three neighbours' signals: their chunks come with them
  iapply (Rounds.wp_wait_rest_token 𝒱₀ ER (Rd A) (c : Thread nD τ) none (κ := K (barCell c))
      (wpE_semWait_eq 𝒱₀ (c : Thread nD τ) none Set.univ) (Set.mem_univ _) () (W := W) (R := 0) (m := 0) (T := ∅)
      (by rw [expect_bar]; decide)) $$ [HcB HO HatB]
  · isplitr; · iexact HIb
    isplitl [HcB]; · iexact HcB
    isplitl [HO]; · iexact HO
    isplitr; · iapply (led_bar c _ (by ag_lv)); iexact Hlev
    iexact HatB
  iintro ⟨HO, HatB, -, Hpay⟩
  ihave Hp := (Entails.of_eq (rest_bar' A c)) $$ Hpay
  icases Hp with ⟨HDyq, ⟨HDxf, HDxd⟩, ⟨HDzf, HDzd⟩⟩
  rw [wp_ret]; imodintro
  ihave Hin' := (Entails.of_eq (bigSep_fin4 _)) $$ Hin
  icases Hin' with ⟨Hi0, Hi1, Hi2, Hi3⟩
  ihave Hout' := (Entails.of_eq (bigSep_fin4 _)) $$ Hout
  icases Hout' with ⟨Ho0, Ho1, Ho2, Ho3⟩
  have hled := @led_any F _ c
  -- each family's linear state, one hypothesis per transfer; the send buffer in its sixteen chunks
  ag_open yq
  -- the credits are set aside until the waits that spend them
  ag_asideC yq 16
  ag_cut_sb
  ihave Hown := (Entails.of_eq (bigSep_fin32' _)) $$ Hown
  icases Hown with ⟨Hown_0, Hown_1, Hown_2, Hown_3, Hown_4, Hown_5, Hown_6, Hown_7, Hown_8, Hown_9, Hown_10, Hown_11, Hown_12, Hown_13, Hown_14, Hown_15,
    Hown_16, Hown_17, Hown_18, Hown_19, Hown_20, Hown_21, Hown_22, Hown_23, Hown_24, Hown_25, Hown_26, Hown_27, Hown_28, Hown_29, Hown_30, Hown_31⟩
  -- phase one: the device's quarter of its own half, converted, to the y-neighbour
  ag_phase1
  -- phase two: the device's own half, converted, into its own output array (all local)
  ag_run
  -- what the first 28 local copies wrote is the device's own half of the gathered array
  ag_own_lo
  -- the input half and the staging buffer are idle from here on: set aside
  ihave Hx := (Entails.of_eq (aside_eq (F := F) _).symm) $$ Hx
  ihave Hst := (Entails.of_eq (aside_eq (F := F) _).symm) $$ Hst
  -- phase three: the y-neighbour's quarter, as it lands, forwarded to the x- and the z-neighbour
  ag_open xf
  ag_asideC xf 16
  ag_open zf
  ag_asideC zf 16
  ag_phase3
  -- phases four and five: the diagonal quarter relayed, half through each neighbour
  ag_open xd
  ag_asideC xd 8
  ag_phase4
  ag_open zd
  ag_asideC zd 8
  ag_phase5
  -- the landings still out, then every departure
  ag_phase6
  ag_phase7
  ag_phase8
  -- the last four local copies into the device's own output array
  ag_run
  -- the last four chunks of the device's own half; then all 32 together
  ag_own_hi
  ag_own_join
  ihave Hx := (Entails.of_eq (aside_eq (F := F) _)) $$ Hx
  ihave Hst := (Entails.of_eq (aside_eq (F := F) _)) $$ Hst
  first | rw [wp_ret] | skip
  -- everything back in the launch's form: cells closed, buffers whole, the output array at the gathered rows
  ag_finish

end Cert.Kernel.AG

end
-- ==== Proof.BodyOb.lean ====
/-
The library's body obligation on a device, from the body's own statement.

The pallas_call has one point and no window: the obligation's precondition is the device's start, its buffers and
what it owes at launch, with its recorded waits within any bound; its postcondition the buffers and semaphores
at the end and nothing owed.  The body's statement is that, with the ghost state's names and the recorded waits
made explicit.
-/
import proofs.«900667_g7700000000000668_dist_ag_v7x_xyz2x2x2_y_m32768_n1024_bf16_1_alg».proof.Proof.Run
import proofs.«900667_g7700000000000668_dist_ag_v7x_xyz2x2x2_y_m32768_n1024_bf16_1_alg».proof.Proof.Gen.KernelIdeal.Points

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- No window: nothing is held of staging buffers. -/
theorem bigSep_noWin (Φ : Fin cfg0.W → sProp 𝕄) : bigSep Finset.univ Φ = iprop(emp) := bigSep_empty

/-- The body the pipeline calls at a point is the kernel's body on the whole buffers. -/
theorem body_eq (t : Fin cfg0.N) : defs₀ (F := F) .tc cfg0.body (cfg0.bodyArgs t (cfg0.slots t)) = bodyAt0 t := by
  delta defs₀ Defs.onTc
  rfl

set_option maxRecDepth 4000 in
theorem body_ob_of
    (A : (c : Dev nD) → Buf (Elt F) ((c : Thread nD τ).loc main_arg0))
    (V1 : (c : Dev nD) → Buf (Elt F) ((c : Thread nD τ).loc main_v1))
    (hs : ∀ (K : GSem nD τ sig → ℕ) (c : Dev nD) (W : Waits sig Unit) (Kt : PUnit → sProp 𝕄),
      iprop((ghost A K c ∗ credits (F := F) c ∗ localSems (F := F) c ∗ levAts L lv ∗ bufs0 A V1 c ∗ owes (c : Thread nD τ) (O₀ c) W)
          ∗ ((Φ₁ A c ∗ ∃ W' : Waits sig Unit, owes (c : Thread nD τ) 0 W') -∗ Kt ⟨⟩))
        ⊢ wp frame (wpE (defs₀ (F := F)) 𝒱₀ c none) Set.univ
            (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14) Kt)
    (c : Dev nD) : Pipeline.BodyObligationLoose (dats A V1 0 c) (defs₀ (F := F)) 𝒱₀ () Set.univ := fun t => by
  rw [fin_N0 t, bigSep_noWin, bigSep_noWin, body_eq]
  have e0 : (dats A V1 0 c).Φ t0_0.castSucc = Φ₀ A V1 c := rfl
  have e1 : (dats A V1 0 c).Φ t0_0.succ = Φ₁ A c := rfl
  have o0 : (dats A V1 0 c).owed t0_0.castSucc = O₀ c := rfl
  have o1 : (dats A V1 0 c).owed t0_0.succ = 0 := rfl
  rw [e0, e1]
  unfold Φ₀ start Dat.owesAt Pipeline.owesWithin
  rw [o0, o1]
  iintro ⟨⟨⟨⟨%K, Hg⟩, Hc, Hl, Hlev⟩, Hb⟩, ⟨%W, -, HO⟩, -⟩
  iapply (hs K c W _)
  isplitl [Hg Hc Hl Hlev Hb HO]
  · isplitl [Hg]; · iexact Hg
    isplitl [Hc]; · iexact Hc
    isplitl [Hl]; · iexact Hl
    isplitl [Hlev]; · iexact Hlev
    isplitl [Hb]; · iexact Hb
    iexact HO
  · iintro ⟨HΦ, ⟨%W', HO'⟩⟩
    isplitl [HΦ]; · iexact HΦ
    isplitl [HO']
    · iexists W'
      isplitr; · ipureintro; exact fun _ _ => Or.inl trivial
      iexact HO'
    · iempintro

end Cert.KernelIdeal.AG

end
-- ==== Proof.Bits.BodyOb.lean ====
/-
The library's body obligation on a device, from the body's own statement.

The pallas_call has one point and no window: the obligation's precondition is the device's start, its buffers and
what it owes at launch, with its recorded waits within any bound; its postcondition the buffers and semaphores
at the end and nothing owed.  The body's statement is that, with the ghost state's names and the recorded waits
made explicit.
-/
import proofs.«900667_g7700000000000668_dist_ag_v7x_xyz2x2x2_y_m32768_n1024_bf16_1_alg».proof.Proof.Bits.Run
import proofs.«900667_g7700000000000668_dist_ag_v7x_xyz2x2x2_y_m32768_n1024_bf16_1_alg».proof.Proof.Gen.Kernel.Points

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- No window: nothing is held of staging buffers. -/
theorem bigSep_noWin (Φ : Fin cfg0.W → sProp 𝕄) : bigSep Finset.univ Φ = iprop(emp) := bigSep_empty

/-- The body the pipeline calls at a point is the kernel's body on the whole buffers. -/
theorem body_eq (t : Fin cfg0.N) : defs₀ (F := F) .tc cfg0.body (cfg0.bodyArgs t (cfg0.slots t)) = bodyAt0 t := by
  delta defs₀ Defs.onTc
  rfl

set_option maxRecDepth 4000 in
theorem body_ob_of
    (A : (c : Dev nD) → Buf (Elt F) ((c : Thread nD τ).loc main_arg0))
    (V1 : (c : Dev nD) → Buf (Elt F) ((c : Thread nD τ).loc main_v1))
    (hs : ∀ (K : GSem nD τ sig → ℕ) (c : Dev nD) (W : Waits sig Unit) (Kt : PUnit → sProp 𝕄),
      iprop((ghost A K c ∗ credits (F := F) c ∗ localSems (F := F) c ∗ levAts L lv ∗ bufs0 A V1 c ∗ owes (c : Thread nD τ) (O₀ c) W)
          ∗ ((Φ₁ A c ∗ ∃ W' : Waits sig Unit, owes (c : Thread nD τ) 0 W') -∗ Kt ⟨⟩))
        ⊢ wp frame (wpE (defs₀ (F := F)) 𝒱₀ c none) Set.univ
            (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14) Kt)
    (c : Dev nD) : Pipeline.BodyObligationLoose (dats A V1 0 c) (defs₀ (F := F)) 𝒱₀ () Set.univ := fun t => by
  rw [fin_N0 t, bigSep_noWin, bigSep_noWin, body_eq]
  have e0 : (dats A V1 0 c).Φ t0_0.castSucc = Φ₀ A V1 c := rfl
  have e1 : (dats A V1 0 c).Φ t0_0.succ = Φ₁ A c := rfl
  have o0 : (dats A V1 0 c).owed t0_0.castSucc = O₀ c := rfl
  have o1 : (dats A V1 0 c).owed t0_0.succ = 0 := rfl
  rw [e0, e1]
  unfold Φ₀ start Dat.owesAt Pipeline.owesWithin
  rw [o0, o1]
  iintro ⟨⟨⟨⟨%K, Hg⟩, Hc, Hl, Hlev⟩, Hb⟩, ⟨%W, -, HO⟩, -⟩
  iapply (hs K c W _)
  isplitl [Hg Hc Hl Hlev Hb HO]
  · isplitl [Hg]; · iexact Hg
    isplitl [Hc]; · iexact Hc
    isplitl [Hl]; · iexact Hl
    isplitl [Hlev]; · iexact Hlev
    isplitl [Hb]; · iexact Hb
    iexact HO
  · iintro ⟨HΦ, ⟨%W', HO'⟩⟩
    isplitl [HΦ]; · iexact HΦ
    isplitl [HO']
    · iexists W'
      isplitr; · ipureintro; exact fun _ _ => Or.inl trivial
      iexact HO'
    · iempintro

end Cert.Kernel.AG

end
-- ==== Proof.lean ====
/-
The claim of the all-gather on the 2x2x2 mesh.

Each device holds one half of the rows of an array and ends holding all of them, converted to bf16: its own half
copied locally, the other half received in chunks from its three neighbours, straight or forwarded.  From any
memory with zero counters the eight kernels run to completion: the waits are ordered by levels, every transfer's
credit is dealt at launch, and every chunk that lands holds the rows of the gathered array.  The gathered rows are
the whole array's, so every device ends at the reference's result; the frames are the runs with the results
dropped, at the word level and at the ideal level alike, and no operation was rewritten between the two.
-/
import proofs.«900667_g7700000000000668_dist_ag_v7x_xyz2x2x2_y_m32768_n1024_bf16_1_alg».proof.Defs
import proofs.«900667_g7700000000000668_dist_ag_v7x_xyz2x2x2_y_m32768_n1024_bf16_1_alg».proof.Proof.Gen.Kernel
import proofs.«900667_g7700000000000668_dist_ag_v7x_xyz2x2x2_y_m32768_n1024_bf16_1_alg».proof.Proof.Gen.Kernel.Skeleton
import proofs.«900667_g7700000000000668_dist_ag_v7x_xyz2x2x2_y_m32768_n1024_bf16_1_alg».proof.Proof.Gen.Kernel.Launch
import proofs.«900667_g7700000000000668_dist_ag_v7x_xyz2x2x2_y_m32768_n1024_bf16_1_alg».proof.Proof.Gen.Kernel.Points
import proofs.«900667_g7700000000000668_dist_ag_v7x_xyz2x2x2_y_m32768_n1024_bf16_1_alg».proof.Proof.Gen.Kernel.Frame
import proofs.«900667_g7700000000000668_dist_ag_v7x_xyz2x2x2_y_m32768_n1024_bf16_1_alg».proof.Proof.Gen.KernelIdeal
import proofs.«900667_g7700000000000668_dist_ag_v7x_xyz2x2x2_y_m32768_n1024_bf16_1_alg».proof.Proof.Gen.KernelIdeal.Skeleton
import proofs.«900667_g7700000000000668_dist_ag_v7x_xyz2x2x2_y_m32768_n1024_bf16_1_alg».proof.Proof.Gen.KernelIdeal.Launch
import proofs.«900667_g7700000000000668_dist_ag_v7x_xyz2x2x2_y_m32768_n1024_bf16_1_alg».proof.Proof.Gen.KernelIdeal.Points
import proofs.«900667_g7700000000000668_dist_ag_v7x_xyz2x2x2_y_m32768_n1024_bf16_1_alg».proof.Proof.Gen.KernelIdeal.Frame
import proofs.«900667_g7700000000000668_dist_ag_v7x_xyz2x2x2_y_m32768_n1024_bf16_1_alg».proof.Proof.Gen.ReferenceIdeal
import proofs.«900667_g7700000000000668_dist_ag_v7x_xyz2x2x2_y_m32768_n1024_bf16_1_alg».proof.Proof.Gen.Pre_finite_inputs_Kernel
import proofs.«900667_g7700000000000668_dist_ag_v7x_xyz2x2x2_y_m32768_n1024_bf16_1_alg».proof.Proof.Gen.Pre_finite_inputs_ReferenceIdeal
import proofs.«900667_g7700000000000668_dist_ag_v7x_xyz2x2x2_y_m32768_n1024_bf16_1_alg».proof.Proof.Assemble
import proofs.«900667_g7700000000000668_dist_ag_v7x_xyz2x2x2_y_m32768_n1024_bf16_1_alg».proof.Proof.Bits.AssembleK
import proofs.«900667_g7700000000000668_dist_ag_v7x_xyz2x2x2_y_m32768_n1024_bf16_1_alg».proof.Proof.Body
import proofs.«900667_g7700000000000668_dist_ag_v7x_xyz2x2x2_y_m32768_n1024_bf16_1_alg».proof.Proof.Bits.Body
import proofs.«900667_g7700000000000668_dist_ag_v7x_xyz2x2x2_y_m32768_n1024_bf16_1_alg».proof.Proof.BodyOb
import proofs.«900667_g7700000000000668_dist_ag_v7x_xyz2x2x2_y_m32768_n1024_bf16_1_alg».proof.Proof.Bits.BodyOb
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    ⟨Cert.Kernel.AG.frame_K (fun m c =>
        Cert.Kernel.AG.body_ob_of (F := Bits) (Cert.Kernel.AG.Am m) (Cert.Kernel.AG.Vm m)
          (fun K c W Kt => Cert.Kernel.AG.sound_body (F := Bits) (Cert.Kernel.AG.Am m) (Cert.Kernel.AG.Vm m) K c W Kt) c),
      Cert.KernelIdeal.AG.frame_KI (fun m c =>
        Cert.KernelIdeal.AG.body_ob_of (F := Ideal) (Cert.KernelIdeal.AG.Am m) (Cert.KernelIdeal.AG.Vm m)
          (fun K c W Kt => Cert.KernelIdeal.AG.sound_body (F := Ideal) (Cert.KernelIdeal.AG.Am m) (Cert.KernelIdeal.AG.Vm m) K c W Kt) c),
      Cert.KernelIdeal.AG.frame_RI,
      trivial,
      Cert.KernelIdeal.AG.algebraic_KI (fun m c =>
        Cert.KernelIdeal.AG.body_ob_of (F := Ideal) (Cert.KernelIdeal.AG.Am m) (Cert.KernelIdeal.AG.Vm m)
          (fun K c W Kt => Cert.KernelIdeal.AG.sound_body (F := Ideal) (Cert.KernelIdeal.AG.Am m) (Cert.KernelIdeal.AG.Vm m) K c W Kt) c)⟩⟩

end Cert.Proof

end
